-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v165) = v0 c
          ∧ r.2.mem ((c.tc : Thread Cert.ReferenceIdeal.nD Cert.ReferenceIdeal.τ).loc Cert.ReferenceIdeal.main_v167) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x100000x3 : Shape := ⟨3, ![16, 100000, 3]⟩
abbrev S300000x2 : Shape := ⟨2, ![300000, 2]⟩
abbrev S800000x3 : Shape := ⟨2, ![800000, 3]⟩
abbrev S3x16 : Shape := ⟨2, ![3, 16]⟩
abbrev S16 : Shape := ⟨1, ![16]⟩
abbrev S16x16 : Shape := ⟨2, ![16, 16]⟩
abbrev S16x3 : Shape := ⟨2, ![16, 3]⟩
abbrev S3 : Shape := ⟨1, ![3]⟩
abbrev S_ : Shape := ⟨0, ![]⟩

class Facts : Prop where
  bcast_S_S16x100000x3 : S_.BroadcastsInDim S16x100000x3 (![] : Fin 0 → Fin S16x100000x3.rank)
  reducesTo_S16x100000x3_S_d0_1_2 : S16x100000x3.ReducesTo [0, 1, 2] S_
  h_S_ : 0 < S_.numel
  bcast_S_S3x16 : S_.BroadcastsInDim S3x16 (![] : Fin 0 → Fin S3x16.rank)
  reducesTo_S3x16_S_d0_1 : S3x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_
  bcast_S_S16x3 : S_.BroadcastsInDim S16x3 (![] : Fin 0 → Fin S16x3.rank)
  reducesTo_S16x3_S_d0_1 : S16x3.ReducesTo [0, 1] S_
  bcast_S_S3 : S_.BroadcastsInDim S3 (![] : Fin 0 → Fin S3.rank)
  reducesTo_S3_S_d0 : S3.ReducesTo [0] S_

variable [Facts]

def fn_part1 {F : FTy → Type} [FloatOps F] (main_arg6 : FVec F S16 .f32) (main_arg7 : FVec F S16x3 .f32) (main_arg8 : FVec F S3 .f32) (main_v13 : IVec S_ 1) (main_v16 : IVec S16x16 1) : IVec S_ 1 :=
  let main_c_5 : IVec S_ 1 := constantI S_ 1 1#1
  let main_v17 : IVec S_ 1 := (fun x v => Host.reduce IntOp.andi x v reducesTo_S16x16_S_d0_1 h_S_) main_v16 main_c_5
  let main_v18 : IVec S_ 1 := andi main_v13 main_v17
  let main_v19 : FVec F S16 .f32 := Host.absf main_arg6
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16x3 .f32 := Host.absf main_arg7
  let main_cst_8 : FVec F S_ .f32 := constant S_ .f32 0x7F800000#32
  let main_v25 : FVec F S16x3 .f32 := broadcastInDim S16x3 ![] bcast_S_S16x3 main_cst_8
  let main_v26 : IVec S16x3 1 := cmpf .olt main_v24 main_v25
  let main_c_9 : IVec S_ 1 := constantI S_ 1 1#1
  let main_v27 : IVec S_ 1 := (fun x v => Host.reduce IntOp.andi x v reducesTo_S16x3_S_d0_1 h_S_) main_v26 main_c_9
  let main_v28 : IVec S_ 1 := andi main_v23 main_v27
  let main_v29 : FVec F S3 .f32 := Host.absf main_arg8
  let main_cst_10 : FVec F S_ .f32 := constant S_ .f32 0x7F800000#32
  let main_v30 : FVec F S3 .f32 := broadcastInDim S3 ![] bcast_S_S3 main_cst_10
  let main_v31 : IVec S3 1 := cmpf .olt main_v29 main_v30
  let main_c_11 : IVec S_ 1 := constantI S_ 1 1#1
  let main_v32 : IVec S_ 1 := (fun x v => Host.reduce IntOp.andi x v reducesTo_S3_S_d0 h_S_) main_v31 main_c_11
  let main_v33 : IVec S_ 1 := andi main_v28 main_v32
  main_v33

def fn {F : FTy → Type} [FloatOps F] (main_arg0 : FVec F S16x100000x3 .f32) (main_arg1 : IVec S300000x2 32) (main_arg2 : IVec S800000x3 32) (main_arg3 : FVec F S3x16 .f32) (main_arg4 : FVec F S16 .f32) (main_arg5 : FVec F S16x16 .f32) (main_arg6 : FVec F S16 .f32) (main_arg7 : FVec F S16x3 .f32) (main_arg8 : FVec F S3 .f32) : IVec S_ 1 :=
  let main_v0 : FVec F S16x100000x3 .f32 := Host.absf main_arg0
  let main_cst : FVec F S_ .f32 := constant S_ .f32 0x7F800000#32
  let main_v1 : FVec F S16x100000x3 .f32 := broadcastInDim S16x100000x3 ![] bcast_S_S16x100000x3 main_cst
  let main_v2 : IVec S16x100000x3 1 := cmpf .olt main_v0 main_v1
  let main_c : IVec S_ 1 := constantI S_ 1 1#1
  let main_v3 : IVec S_ 1 := (fun x v => Host.reduce IntOp.andi x v reducesTo_S16x100000x3_S_d0_1_2 h_S_) main_v2 main_c
  let main_v4 : FVec F S3x16 .f32 := Host.absf main_arg3
  let main_cst_0 : FVec F S_ .f32 := constant S_ .f32 0x7F800000#32
  let main_v5 : FVec F S3x16 .f32 := broadcastInDim S3x16 ![] bcast_S_S3x16 main_cst_0
  let main_v6 : IVec S3x16 1 := cmpf .olt main_v4 main_v5
  let main_c_1 : IVec S_ 1 := constantI S_ 1 1#1
  let main_v7 : IVec S_ 1 := (fun x v => Host.reduce IntOp.andi x v reducesTo_S3x16_S_d0_1 h_S_) main_v6 main_c_1
  let main_v8 : IVec S_ 1 := andi main_v3 main_v7
  let main_v9 : FVec F S16 .f32 := Host.absf main_arg4
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x16 .f32 := Host.absf main_arg5
  let main_cst_4 : FVec F S_ .f32 := constant S_ .f32 0x7F800000#32
  let main_v15 : FVec F S16x16 .f32 := broadcastInDim S16x16 ![] bcast_S_S16x16 main_cst_4
  let main_v16 : IVec S16x16 1 := cmpf .olt main_v14 main_v15
  fn_part1 (F := F) main_arg6 main_arg7 main_arg8 main_v13 main_v16
-- ==== Kernel.lean ====
abbrev S16x100000x3 : Shape := ⟨3, ![16, 100000, 3]⟩
abbrev S300000x2 : Shape := ⟨2, ![300000, 2]⟩
abbrev S800000x3 : Shape := ⟨2, ![800000, 3]⟩
abbrev S3x16 : Shape := ⟨2, ![3, 16]⟩
abbrev S16 : Shape := ⟨1, ![16]⟩
abbrev S16x16 : Shape := ⟨2, ![16, 16]⟩
abbrev S16x3 : Shape := ⟨2, ![16, 3]⟩
abbrev S3 : Shape := ⟨1, ![3]⟩
abbrev S_ : Shape := ⟨0, ![]⟩
abbrev S1x300000x2 : Shape := ⟨3, ![1, 300000, 2]⟩
abbrev S16x1x1 : Shape := ⟨3, ![16, 1, 1]⟩
abbrev S16x300000x2 : Shape := ⟨3, ![16, 300000, 2]⟩
abbrev S4800000x2 : Shape := ⟨2, ![4800000, 2]⟩
abbrev S4800000x1 : Shape := ⟨2, ![4800000, 1]⟩
abbrev S4800000 : Shape := ⟨1, ![4800000]⟩
abbrev S1600000 : Shape := ⟨1, ![1600000]⟩
abbrev S6400000 : Shape := ⟨1, ![6400000]⟩
abbrev S6400000x1 : Shape := ⟨2, ![6400000, 1]⟩
abbrev S1600000x1 : Shape := ⟨2, ![1600000, 1]⟩
abbrev S1600000x3 : Shape := ⟨2, ![1600000, 3]⟩
abbrev S1600000x16 : Shape := ⟨2, ![1600000, 16]⟩
abbrev S6400000x16 : Shape := ⟨2, ![6400000, 16]⟩
abbrev S1x16 : Shape := ⟨2, ![1, 16]⟩
abbrev S6400000x3 : Shape := ⟨2, ![6400000, 3]⟩
abbrev S12500x384 : Shape := ⟨2, ![12500, 384]⟩
abbrev S1x3 : Shape := ⟨2, ![1, 3]⟩
abbrev S128x3 : Shape := ⟨2, ![128, 3]⟩
abbrev S384 : Shape := ⟨1, ![384]⟩
abbrev S1x384 : Shape := ⟨2, ![1, 384]⟩
abbrev S13000x384 : Shape := ⟨2, ![13000, 384]⟩
abbrev S300000x1 : Shape := ⟨2, ![300000, 1]⟩
abbrev S300000 : Shape := ⟨1, ![300000]⟩
abbrev S16x300000x3 : Shape := ⟨3, ![16, 300000, 3]⟩
abbrev S4800000x3 : Shape := ⟨2, ![4800000, 3]⟩
abbrev S112500x128 : Shape := ⟨2, ![112500, 128]⟩
abbrev S114688x128 : Shape := ⟨2, ![114688, 128]⟩
abbrev S14400000 : Shape := ⟨1, ![14400000]⟩
abbrev S16x400000x3 : Shape := ⟨3, ![16, 400000, 3]⟩
abbrev S1x800000x3 : Shape := ⟨3, ![1, 800000, 3]⟩
abbrev S16x800000x3 : Shape := ⟨3, ![16, 800000, 3]⟩
abbrev S8000x3 : Shape := ⟨2, ![8000, 3]⟩
abbrev S8000x1 : Shape := ⟨2, ![8000, 1]⟩
abbrev S8000x16 : Shape := ⟨2, ![8000, 16]⟩
abbrev S1000x384 : Shape := ⟨2, ![1000, 384]⟩
abbrev S8192x128 : Shape := ⟨2, ![8192, 128]⟩

abbrev nBuf : Space → Nat
  | .hbm => 149
  | .vmem => 38
  | .smem => 0
  | _ => 0

abbrev hbmTy0_0 (i : Nat) : BufTy := match i % 128 with
  | 0 => ⟨S16x100000x3, .f32⟩
  | 1 => ⟨S300000x2, .i32⟩
  | 2 => ⟨S800000x3, .i32⟩
  | 3 => ⟨S3x16, .f32⟩
  | 4 => ⟨S16, .f32⟩
  | 5 => ⟨S16x16, .f32⟩
  | 6 => ⟨S16, .f32⟩
  | 7 => ⟨S16x3, .f32⟩
  | 8 => ⟨S3, .f32⟩
  | 9 => ⟨S16, .i32⟩
  | 10 => ⟨S_, .i32⟩
  | 11 => ⟨S16, .i32⟩
  | 12 => ⟨S16, .i32⟩
  | 13 => ⟨S1x300000x2, .i32⟩
  | 14 => ⟨S16x1x1, .i32⟩
  | 15 => ⟨S16x300000x2, .i32⟩
  | 16 => ⟨S16x300000x2, .i32⟩
  | 17 => ⟨S16x300000x2, .i32⟩
  | 18 => ⟨S4800000x2, .i32⟩
  | 19 => ⟨S4800000x1, .i32⟩
  | 20 => ⟨S4800000, .i32⟩
  | 21 => ⟨S4800000x1, .i32⟩
  | 22 => ⟨S4800000, .i32⟩
  | 23 => ⟨S1600000, .i32⟩
  | 24 => ⟨S6400000, .i32⟩
  | 25 => ⟨S6400000, .i32⟩
  | 26 => ⟨S_, .f32⟩
  | 27 => ⟨S6400000, .f32⟩
  | 28 => ⟨S_, .f32⟩
  | 29 => ⟨S1600000, .f32⟩
  | 30 => ⟨S6400000x1, .i32⟩
  | 31 => ⟨S1600000, .f32⟩
  | 32 => ⟨S_, .f32⟩
  | 33 => ⟨S1600000, .f32⟩
  | 34 => ⟨S1600000, .i1⟩
  | 35 => ⟨S1600000, .f32⟩
  | 36 => ⟨S_, .f32⟩
  | 37 => ⟨S_, .f32⟩
  | 38 => ⟨S1600000, .f32⟩
  | 39 => ⟨S1600000, .f32⟩
  | 40 => ⟨S1600000x1, .f32⟩
  | 41 => ⟨S1600000x3, .f32⟩
  | 42 => ⟨S1600000x16, .f32⟩
  | 43 => ⟨S_, .i32⟩
  | 44 => ⟨S6400000, .i32⟩
  | 45 => ⟨S6400000, .i1⟩
  | 46 => ⟨S_, .i32⟩
  | 47 => ⟨S6400000, .i32⟩
  | 48 => ⟨S6400000, .i32⟩
  | 49 => ⟨S6400000, .i32⟩
  | 50 => ⟨S6400000x1, .i32⟩
  | 51 => ⟨S6400000x16, .f32⟩
  | 52 => ⟨S_, .f32⟩
  | 53 => ⟨S1600000x16, .f32⟩
  | 54 => ⟨S6400000x1, .i32⟩
  | 55 => ⟨S1600000x16, .f32⟩
  | 56 => ⟨S1x16, .f32⟩
  | 57 => ⟨S1600000x16, .f32⟩
  | 58 => ⟨S_, .i32⟩
  | 59 => ⟨S6400000, .i32⟩
  | 60 => ⟨S6400000, .i1⟩
  | 61 => ⟨S_, .i32⟩
  | 62 => ⟨S6400000, .i32⟩
  | 63 => ⟨S6400000, .i32⟩
  | 64 => ⟨S6400000, .i32⟩
  | 65 => ⟨S6400000x1, .i32⟩
  | 66 => ⟨S6400000x16, .f32⟩
  | 67 => ⟨S_, .f32⟩
  | 68 => ⟨S1600000x16, .f32⟩
  | 69 => ⟨S6400000x1, .i32⟩
  | 70 => ⟨S1600000x16, .f32⟩
  | 71 => ⟨S1x16, .f32⟩
  | 72 => ⟨S1600000x3, .f32⟩
  | 73 => ⟨S_, .i32⟩
  | 74 => ⟨S6400000, .i32⟩
  | 75 => ⟨S6400000, .i1⟩
  | 76 => ⟨S_, .i32⟩
  | 77 => ⟨S6400000, .i32⟩
  | 78 => ⟨S6400000, .i32⟩
  | 79 => ⟨S6400000, .i32⟩
  | 80 => ⟨S6400000x1, .i32⟩
  | 81 => ⟨S6400000x3, .f32⟩
  | 82 => ⟨S_, .f32⟩
  | 83 => ⟨S1600000x3, .f32⟩
  | 84 => ⟨S6400000x1, .i32⟩
  | 85 => ⟨S1600000x3, .f32⟩
  | 86 => ⟨S12500x384, .f32⟩
  | 87 => ⟨S12500x384, .f32⟩
  | 88 => ⟨S1600000x3, .f32⟩
  | 89 => ⟨S4800000, .f32⟩
  | 90 => ⟨S12500x384, .f32⟩
  | 91 => ⟨S1x3, .f32⟩
  | 92 => ⟨S128x3, .f32⟩
  | 93 => ⟨S384, .f32⟩
  | 94 => ⟨S1x384, .f32⟩
  | 95 => ⟨S_, .i32⟩
  | 96 => ⟨S_, .f32⟩
  | 97 => ⟨S13000x384, .f32⟩
  | 98 => ⟨S_, .i32⟩
  | 99 => ⟨S_, .f32⟩
  | 100 => ⟨S13000x384, .f32⟩
  | 101 => ⟨S_, .i32⟩
  | 102 => ⟨S_, .f32⟩
  | 103 => ⟨S13000x384, .f32⟩
  | 104 => ⟨S13000x384, .f32⟩
  | 105 => ⟨S12500x384, .f32⟩
  | 106 => ⟨S4800000, .f32⟩
  | 107 => ⟨S1600000x3, .f32⟩
  | 108 => ⟨S16x100000x3, .f32⟩
  | 109 => ⟨S300000x1, .i32⟩
  | 110 => ⟨S300000, .i32⟩
  | 111 => ⟨S300000x1, .i32⟩
  | 112 => ⟨S300000, .i32⟩
  | 113 => ⟨S_, .i32⟩
  | 114 => ⟨S300000, .i32⟩
  | 115 => ⟨S300000, .i1⟩
  | 116 => ⟨S_, .i32⟩
  | 117 => ⟨S300000, .i32⟩
  | 118 => ⟨S300000, .i32⟩
  | 119 => ⟨S300000, .i32⟩
  | 120 => ⟨S300000x1, .i32⟩
  | 121 => ⟨S16x300000x3, .f32⟩
  | 122 => ⟨S4800000x3, .f32⟩
  | 123 => ⟨S_, .i32⟩
  | 124 => ⟨S300000, .i32⟩
  | 125 => ⟨S300000, .i1⟩
  | 126 => ⟨S_, .i32⟩
  | 127 => ⟨S300000, .i32⟩
  | _ => ⟨S16x100000x3, .f32⟩

abbrev hbmTy0_1 (i : Nat) : BufTy := match i % 128 with
  | 0 => ⟨S300000, .i32⟩
  | 1 => ⟨S300000, .i32⟩
  | 2 => ⟨S300000x1, .i32⟩
  | 3 => ⟨S16x300000x3, .f32⟩
  | 4 => ⟨S4800000x3, .f32⟩
  | 5 => ⟨S112500x128, .f32⟩
  | 6 => ⟨S112500x128, .f32⟩
  | 7 => ⟨S_, .i32⟩
  | 8 => ⟨S_, .f32⟩
  | 9 => ⟨S114688x128, .f32⟩
  | 10 => ⟨S_, .i32⟩
  | 11 => ⟨S_, .f32⟩
  | 12 => ⟨S114688x128, .f32⟩
  | 13 => ⟨S114688x128, .f32⟩
  | 14 => ⟨S112500x128, .f32⟩
  | 15 => ⟨S14400000, .f32⟩
  | 16 => ⟨S4800000x3, .f32⟩
  | 17 => ⟨S16x300000x3, .f32⟩
  | 18 => ⟨S16x400000x3, .f32⟩
  | 19 => ⟨S1x800000x3, .i32⟩
  | 20 => ⟨S16x800000x3, .i32⟩
  | _ => ⟨S16x100000x3, .f32⟩

abbrev hbmTy (i : Nat) : BufTy := match i / 128 with
  | 0 => hbmTy0_0 i
  | 1 => hbmTy0_1 i
  | _ => ⟨S16x100000x3, .f32⟩

abbrev bufTy : (tb : Table) → Fin (tcTables nBuf tb) → BufTy
  | .hbm, ⟨i, _⟩ => hbmTy i
  | .local _ .vmem, ⟨0, _⟩ => ⟨S8000x3, .f32⟩
  | .local _ .vmem, ⟨1, _⟩ => ⟨S8000x3, .f32⟩
  | .local _ .vmem, ⟨2, _⟩ => ⟨S3x16, .f32⟩
  | .local _ .vmem, ⟨3, _⟩ => ⟨S8000x1, .f32⟩
  | .local _ .vmem, ⟨4, _⟩ => ⟨S8000x1, .f32⟩
  | .local _ .vmem, ⟨5, _⟩ => ⟨S8000x16, .f32⟩
  | .local _ .vmem, ⟨6, _⟩ => ⟨S8000x16, .f32⟩
  | .local _ .vmem, ⟨7, _⟩ => ⟨S8000x16, .f32⟩
  | .local _ .vmem, ⟨8, _⟩ => ⟨S8000x16, .f32⟩
  | .local _ .vmem, ⟨9, _⟩ => ⟨S8000x1, .f32⟩
  | .local _ .vmem, ⟨10, _⟩ => ⟨S8000x1, .f32⟩
  | .local _ .vmem, ⟨11, _⟩ => ⟨S1x16, .f32⟩
  | .local _ .vmem, ⟨12, _⟩ => ⟨S16x16, .f32⟩
  | .local _ .vmem, ⟨13, _⟩ => ⟨S8000x16, .f32⟩
  | .local _ .vmem, ⟨14, _⟩ => ⟨S8000x16, .f32⟩
  | .local _ .vmem, ⟨15, _⟩ => ⟨S8000x16, .f32⟩
  | .local _ .vmem, ⟨16, _⟩ => ⟨S8000x16, .f32⟩
  | .local _ .vmem, ⟨17, _⟩ => ⟨S8000x1, .f32⟩
  | .local _ .vmem, ⟨18, _⟩ => ⟨S8000x1, .f32⟩
  | .local _ .vmem, ⟨19, _⟩ => ⟨S1x16, .f32⟩
  | .local _ .vmem, ⟨20, _⟩ => ⟨S16x3, .f32⟩
  | .local _ .vmem, ⟨21, _⟩ => ⟨S8000x3, .f32⟩
  | .local _ .vmem, ⟨22, _⟩ => ⟨S8000x3, .f32⟩
  | .local _ .vmem, ⟨23, _⟩ => ⟨S1000x384, .f32⟩
  | .local _ .vmem, ⟨24, _⟩ => ⟨S1000x384, .f32⟩
  | .local _ .vmem, ⟨25, _⟩ => ⟨S1000x384, .f32⟩
  | .local _ .vmem, ⟨26, _⟩ => ⟨S1000x384, .f32⟩
  | .local _ .vmem, ⟨27, _⟩ => ⟨S1000x384, .f32⟩
  | .local _ .vmem, ⟨28, _⟩ => ⟨S1000x384, .f32⟩
  | .local _ .vmem, ⟨29, _⟩ => ⟨S1x384, .f32⟩
  | .local _ .vmem, ⟨30, _⟩ => ⟨S1000x384, .f32⟩
  | .local _ .vmem, ⟨31, _⟩ => ⟨S1000x384, .f32⟩
  | .local _ .vmem, ⟨32, _⟩ => ⟨S8192x128, .f32⟩
  | .local _ .vmem, ⟨33, _⟩ => ⟨S8192x128, .f32⟩
  | .local _ .vmem, ⟨34, _⟩ => ⟨S8192x128, .f32⟩
  | .local _ .vmem, ⟨35, _⟩ => ⟨S8192x128, .f32⟩
  | .local _ .vmem, ⟨36, _⟩ => ⟨S8192x128, .f32⟩
  | .local _ .vmem, ⟨37, _⟩ => ⟨S8192x128, .f32⟩
  | _, _ => ⟨S16x100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_v0 : Ref sig .tc := ⟨.hbm, 9, rfl⟩
abbrev main_call0_c : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_v15 : Ref sig .tc := ⟨.hbm, 25, rfl⟩
abbrev main_call0_cst : Ref sig .tc := ⟨.hbm, 26, rfl⟩
abbrev main_call0_v16 : Ref sig .tc := ⟨.hbm, 27, rfl⟩
abbrev main_call0_cst_0 : Ref sig .tc := ⟨.hbm, 28, rfl⟩
abbrev main_call0_v17 : Ref sig .tc := ⟨.hbm, 29, rfl⟩
abbrev main_call0_v18 : Ref sig .tc := ⟨.hbm, 30, rfl⟩
abbrev main_call0_v19 : Ref sig .tc := ⟨.hbm, 31, rfl⟩
abbrev main_call0_cst_1 : Ref sig .tc := ⟨.hbm, 32, rfl⟩
abbrev main_call0_v20 : Ref sig .tc := ⟨.hbm, 33, rfl⟩
abbrev main_call0_v21 : Ref sig .tc := ⟨.hbm, 34, rfl⟩
abbrev main_call0_v22 : Ref sig .tc := ⟨.hbm, 35, rfl⟩
abbrev main_call0_cst_2 : Ref sig .tc := ⟨.hbm, 36, rfl⟩
abbrev main_call0_call0_v0 : Ref sig .tc := ⟨.hbm, 37, rfl⟩
abbrev main_call0_call0_v1 : Ref sig .tc := ⟨.hbm, 38, rfl⟩
abbrev main_call0_v23 : Ref sig .tc := ⟨.hbm, 39, rfl⟩
abbrev main_call0_v24 : Ref sig .tc := ⟨.hbm, 40, rfl⟩
abbrev main_call0_v25 : Ref sig .tc := ⟨.hbm, 41, rfl⟩
abbrev main_call0_v26 : Ref sig .tc := ⟨.hbm, 42, rfl⟩
abbrev main_call0_c_3 : Ref sig .tc := ⟨.hbm, 43, rfl⟩
abbrev main_call0_v27 : Ref sig .tc := ⟨.hbm, 44, rfl⟩
abbrev main_call0_v28 : Ref sig .tc := ⟨.hbm, 45, rfl⟩
abbrev main_call0_c_4 : Ref sig .tc := ⟨.hbm, 46, rfl⟩
abbrev main_call0_v29 : Ref sig .tc := ⟨.hbm, 47, rfl⟩
abbrev main_call0_v30 : Ref sig .tc := ⟨.hbm, 48, rfl⟩
abbrev main_call0_v31 : Ref sig .tc := ⟨.hbm, 49, rfl⟩
abbrev main_call0_v32 : Ref sig .tc := ⟨.hbm, 50, rfl⟩
abbrev main_call0_v33 : Ref sig .tc := ⟨.hbm, 51, rfl⟩
abbrev main_call0_cst_5 : Ref sig .tc := ⟨.hbm, 52, rfl⟩
abbrev main_call0_v34 : Ref sig .tc := ⟨.hbm, 53, rfl⟩
abbrev main_call0_v35 : Ref sig .tc := ⟨.hbm, 54, rfl⟩
abbrev main_call0_v36 : Ref sig .tc := ⟨.hbm, 55, rfl⟩
abbrev main_call0_v37 : Ref sig .tc := ⟨.hbm, 56, rfl⟩
abbrev main_call0_v38 : Ref sig .tc := ⟨.hbm, 57, rfl⟩
abbrev main_call0_c_6 : Ref sig .tc := ⟨.hbm, 58, rfl⟩
abbrev main_call0_v39 : Ref sig .tc := ⟨.hbm, 59, rfl⟩
abbrev main_call0_v40 : Ref sig .tc := ⟨.hbm, 60, rfl⟩
abbrev main_call0_c_7 : Ref sig .tc := ⟨.hbm, 61, rfl⟩
abbrev main_call0_v41 : Ref sig .tc := ⟨.hbm, 62, rfl⟩
abbrev main_call0_v42 : Ref sig .tc := ⟨.hbm, 63, rfl⟩
abbrev main_call0_v43 : Ref sig .tc := ⟨.hbm, 64, rfl⟩
abbrev main_call0_v44 : Ref sig .tc := ⟨.hbm, 65, rfl⟩
abbrev main_call0_v45 : Ref sig .tc := ⟨.hbm, 66, rfl⟩
abbrev main_call0_cst_8 : Ref sig .tc := ⟨.hbm, 67, rfl⟩
abbrev main_call0_v46 : Ref sig .tc := ⟨.hbm, 68, rfl⟩
abbrev main_call0_v47 : Ref sig .tc := ⟨.hbm, 69, rfl⟩
abbrev main_call0_v48 : Ref sig .tc := ⟨.hbm, 70, rfl⟩
abbrev main_call0_v49 : Ref sig .tc := ⟨.hbm, 71, rfl⟩
abbrev main_call0_v50 : Ref sig .tc := ⟨.hbm, 72, rfl⟩
abbrev main_call0_c_9 : Ref sig .tc := ⟨.hbm, 73, rfl⟩
abbrev main_call0_v51 : Ref sig .tc := ⟨.hbm, 74, rfl⟩
abbrev main_call0_v52 : Ref sig .tc := ⟨.hbm, 75, rfl⟩
abbrev main_call0_c_10 : Ref sig .tc := ⟨.hbm, 76, rfl⟩
abbrev main_call0_v53 : Ref sig .tc := ⟨.hbm, 77, rfl⟩
abbrev main_call0_v54 : Ref sig .tc := ⟨.hbm, 78, rfl⟩
abbrev main_call0_v55 : Ref sig .tc := ⟨.hbm, 79, rfl⟩
abbrev main_call0_v56 : Ref sig .tc := ⟨.hbm, 80, rfl⟩
abbrev main_call0_v57 : Ref sig .tc := ⟨.hbm, 81, rfl⟩
abbrev main_call0_cst_11 : Ref sig .tc := ⟨.hbm, 82, rfl⟩
abbrev main_call0_v58 : Ref sig .tc := ⟨.hbm, 83, rfl⟩
abbrev main_call0_v59 : Ref sig .tc := ⟨.hbm, 84, rfl⟩
abbrev main_call0_v60 : Ref sig .tc := ⟨.hbm, 85, rfl⟩
abbrev main_call0_v61 : Ref sig .tc := ⟨.hbm, 86, rfl⟩
abbrev main_call0_v62 : Ref sig .tc := ⟨.hbm, 87, rfl⟩
abbrev main_call0_v63 : Ref sig .tc := ⟨.hbm, 88, rfl⟩
abbrev main_call0_v64 : Ref sig .tc := ⟨.hbm, 89, rfl⟩
abbrev main_call0_v65 : Ref sig .tc := ⟨.hbm, 90, rfl⟩
abbrev main_call0_v66 : Ref sig .tc := ⟨.hbm, 91, rfl⟩
abbrev main_call0_v67 : Ref sig .tc := ⟨.hbm, 92, rfl⟩
abbrev main_call0_v68 : Ref sig .tc := ⟨.hbm, 93, rfl⟩
abbrev main_call0_v69 : Ref sig .tc := ⟨.hbm, 94, rfl⟩
abbrev main_call0_c_12 : Ref sig .tc := ⟨.hbm, 95, rfl⟩
abbrev main_call0_call1_v0 : Ref sig .tc := ⟨.hbm, 96, rfl⟩
abbrev main_call0_v70 : Ref sig .tc := ⟨.hbm, 97, rfl⟩
abbrev main_call0_c_13 : Ref sig .tc := ⟨.hbm, 98, rfl⟩
abbrev main_call0_call2_v0 : Ref sig .tc := ⟨.hbm, 99, rfl⟩
abbrev main_call0_v71 : Ref sig .tc := ⟨.hbm, 100, rfl⟩
abbrev main_call0_c_14 : Ref sig .tc := ⟨.hbm, 101, rfl⟩
abbrev main_call0_call3_v0 : Ref sig .tc := ⟨.hbm, 102, rfl⟩
abbrev main_call0_v72 : Ref sig .tc := ⟨.hbm, 103, rfl⟩
abbrev main_call0_v73 : Ref sig .tc := ⟨.hbm, 104, rfl⟩
abbrev main_call0_v74 : Ref sig .tc := ⟨.hbm, 105, rfl⟩
abbrev main_call0_v75 : Ref sig .tc := ⟨.hbm, 106, rfl⟩
abbrev main_call0_v76 : Ref sig .tc := ⟨.hbm, 107, rfl⟩
abbrev main_call0_v77 : Ref sig .tc := ⟨.hbm, 108, rfl⟩
abbrev main_call0_v78 : Ref sig .tc := ⟨.hbm, 109, rfl⟩
abbrev main_call0_v79 : Ref sig .tc := ⟨.hbm, 110, rfl⟩
abbrev main_call0_v80 : Ref sig .tc := ⟨.hbm, 111, rfl⟩
abbrev main_call0_v81 : Ref sig .tc := ⟨.hbm, 112, rfl⟩
abbrev main_call0_c_15 : Ref sig .tc := ⟨.hbm, 113, rfl⟩
abbrev main_call0_v82 : Ref sig .tc := ⟨.hbm, 114, rfl⟩
abbrev main_call0_v83 : Ref sig .tc := ⟨.hbm, 115, rfl⟩
abbrev main_call0_c_16 : Ref sig .tc := ⟨.hbm, 116, rfl⟩
abbrev main_call0_v84 : Ref sig .tc := ⟨.hbm, 117, rfl⟩
abbrev main_call0_v85 : Ref sig .tc := ⟨.hbm, 118, rfl⟩
abbrev main_call0_v86 : Ref sig .tc := ⟨.hbm, 119, rfl⟩
abbrev main_call0_v87 : Ref sig .tc := ⟨.hbm, 120, rfl⟩
abbrev main_call0_v88 : Ref sig .tc := ⟨.hbm, 121, rfl⟩
abbrev main_call0_v89 : Ref sig .tc := ⟨.hbm, 122, rfl⟩
abbrev main_call0_c_17 : Ref sig .tc := ⟨.hbm, 123, rfl⟩
abbrev main_call0_v90 : Ref sig .tc := ⟨.hbm, 124, rfl⟩
abbrev main_call0_v91 : Ref sig .tc := ⟨.hbm, 125, rfl⟩
abbrev main_call0_c_18 : Ref sig .tc := ⟨.hbm, 126, rfl⟩
abbrev main_call0_v92 : Ref sig .tc := ⟨.hbm, 127, rfl⟩
abbrev main_call0_v93 : Ref sig .tc := ⟨.hbm, 128, rfl⟩
abbrev main_call0_v94 : Ref sig .tc := ⟨.hbm, 129, rfl⟩
abbrev main_call0_v95 : Ref sig .tc := ⟨.hbm, 130, rfl⟩
abbrev main_call0_v96 : Ref sig .tc := ⟨.hbm, 131, rfl⟩
abbrev main_call0_v97 : Ref sig .tc := ⟨.hbm, 132, rfl⟩
abbrev main_call0_v98 : Ref sig .tc := ⟨.hbm, 133, rfl⟩
abbrev main_call0_v99 : Ref sig .tc := ⟨.hbm, 134, rfl⟩
abbrev main_call0_c_19 : Ref sig .tc := ⟨.hbm, 135, rfl⟩
abbrev main_call0_call4_v0 : Ref sig .tc := ⟨.hbm, 136, rfl⟩
abbrev main_call0_v100 : Ref sig .tc := ⟨.hbm, 137, rfl⟩
abbrev main_call0_c_20 : Ref sig .tc := ⟨.hbm, 138, rfl⟩
abbrev main_call0_call5_v0 : Ref sig .tc := ⟨.hbm, 139, rfl⟩
abbrev main_call0_v101 : Ref sig .tc := ⟨.hbm, 140, rfl⟩
abbrev main_call0_v102 : Ref sig .tc := ⟨.hbm, 141, rfl⟩
abbrev main_call0_v103 : Ref sig .tc := ⟨.hbm, 142, rfl⟩
abbrev main_call0_v104 : Ref sig .tc := ⟨.hbm, 143, rfl⟩
abbrev main_call0_v105 : Ref sig .tc := ⟨.hbm, 144, rfl⟩
abbrev main_call0_v106 : Ref sig .tc := ⟨.hbm, 145, rfl⟩
abbrev main_v0_0 : Ref sig .tc := ⟨.hbm, 146, rfl⟩
abbrev main_call0_v108 : Ref sig .tc := ⟨.hbm, 147, rfl⟩
abbrev main_v0_1 : Ref sig .tc := ⟨.hbm, 148, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg4_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg2_1 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg4_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg2_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem4_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem2_1 : DmaSem sig := 28
abbrev cc3_sem3_0 : DmaSem sig := 29
abbrev cc3_sem4_0 : DmaSem sig := 30
abbrev cc3_sem4_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem2_1 : DmaSem sig := 37

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8000x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S16x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S8000x16 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![200], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S16x3 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S8000x3 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![13], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x384 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1000x384 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1000x384 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x384 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S1000x384 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![14], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8192x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S8192x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S8192x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  bcast_S_S16 : S_.BroadcastsInDim S16 (![] : Fin 0 → Fin S16.rank)
  bcast_S300000x2_S1x300000x2_1_2 : S300000x2.BroadcastsInDim S1x300000x2 (![1, 2] : Fin 2 → Fin S1x300000x2.rank)
  bcast_S16_S16x1x1_0 : S16.BroadcastsInDim S16x1x1 (![0] : Fin 1 → Fin S16x1x1.rank)
  bcast_S1x300000x2_S16x300000x2_0_1_2 : S1x300000x2.BroadcastsInDim S16x300000x2 (![0, 1, 2] : Fin 3 → Fin S16x300000x2.rank)
  bcast_S16x1x1_S16x300000x2_0_1_2 : S16x1x1.BroadcastsInDim S16x300000x2 (![0, 1, 2] : Fin 3 → Fin S16x300000x2.rank)
  shapeCasts_S16x300000x2_S4800000x2 : S16x300000x2.ShapeCasts S4800000x2
  slices_S4800000x2_S4800000x1_0_0 : S4800000x2.Slices ![0, 0] S4800000x1
  shapeCasts_S4800000x1_S4800000 : S4800000x1.ShapeCasts S4800000
  slices_S4800000x2_S4800000x1_0_1 : S4800000x2.Slices ![0, 1] S4800000x1
  concatenates_S4800000_S1600000_S6400000_d0 : Shape.Concatenates [S4800000, S1600000] S6400000 0
  bcast_S_S6400000 : S_.BroadcastsInDim S6400000 (![] : Fin 0 → Fin S6400000.rank)
  bcast_S_S1600000 : S_.BroadcastsInDim S1600000 (![] : Fin 0 → Fin S1600000.rank)
  bcast_S6400000_S6400000x1_0 : S6400000.BroadcastsInDim S6400000x1 (![0] : Fin 1 → Fin S6400000x1.rank)
  shapeCasts_S1600000_S1600000x1 : S1600000.ShapeCasts S1600000x1
  shapeCasts_S16x100000x3_S1600000x3 : S16x100000x3.ShapeCasts S1600000x3
  bcast_S_S1600000x16 : S_.BroadcastsInDim S1600000x16 (![] : Fin 0 → Fin S1600000x16.rank)
  shapeCasts_S16_S1x16 : S16.ShapeCasts S1x16
  bcast_S_S1600000x3 : S_.BroadcastsInDim S1600000x3 (![] : Fin 0 → Fin S1600000x3.rank)
  shapeCasts_S1600000x3_S12500x384 : S1600000x3.ShapeCasts S12500x384
  bcast_S1600000_S1600000x3_0 : S1600000.BroadcastsInDim S1600000x3 (![0] : Fin 1 → Fin S1600000x3.rank)
  shapeCasts_S1600000x3_S4800000 : S1600000x3.ShapeCasts S4800000
  shapeCasts_S4800000_S12500x384 : S4800000.ShapeCasts S12500x384
  shapeCasts_S3_S1x3 : S3.ShapeCasts S1x3
  bcast_S1x3_S128x3_0_1 : S1x3.BroadcastsInDim S128x3 (![0, 1] : Fin 2 → Fin S128x3.rank)
  shapeCasts_S128x3_S384 : S128x3.ShapeCasts S384
  shapeCasts_S384_S1x384 : S384.ShapeCasts S1x384
  pads_S12500x384_S13000x384_05000_000 : S12500x384.Pads (![0, 0] : Fin 2 → Nat) ![500, 0] ![0, 0] S13000x384
  h_S_ : 0 < S_.numel
  slices_S13000x384_S12500x384_0_0 : S13000x384.Slices ![0, 0] S12500x384
  shapeCasts_S12500x384_S4800000 : S12500x384.ShapeCasts S4800000
  shapeCasts_S4800000_S1600000x3 : S4800000.ShapeCasts S1600000x3
  shapeCasts_S1600000x3_S16x100000x3 : S1600000x3.ShapeCasts S16x100000x3
  slices_S300000x2_S300000x1_0_0 : S300000x2.Slices ![0, 0] S300000x1
  shapeCasts_S300000x1_S300000 : S300000x1.ShapeCasts S300000
  slices_S300000x2_S300000x1_0_1 : S300000x2.Slices ![0, 1] S300000x1
  bcast_S_S300000 : S_.BroadcastsInDim S300000 (![] : Fin 0 → Fin S300000.rank)
  bcast_S300000_S300000x1_0 : S300000.BroadcastsInDim S300000x1 (![0] : Fin 1 → Fin S300000x1.rank)
  shapeCasts_S16x300000x3_S4800000x3 : S16x300000x3.ShapeCasts S4800000x3
  shapeCasts_S4800000x3_S112500x128 : S4800000x3.ShapeCasts S112500x128
  pads_S112500x128_S114688x128_021880_000 : S112500x128.Pads (![0, 0] : Fin 2 → Nat) ![2188, 0] ![0, 0] S114688x128
  slices_S114688x128_S112500x128_0_0 : S114688x128.Slices ![0, 0] S112500x128
  shapeCasts_S112500x128_S14400000 : S112500x128.ShapeCasts S14400000
  shapeCasts_S14400000_S4800000x3 : S14400000.ShapeCasts S4800000x3
  shapeCasts_S4800000x3_S16x300000x3 : S4800000x3.ShapeCasts S16x300000x3
  concatenates_S16x100000x3_S16x300000x3_S16x400000x3_d1 : Shape.Concatenates [S16x100000x3, S16x300000x3] S16x400000x3 1
  bcast_S800000x3_S1x800000x3_1_2 : S800000x3.BroadcastsInDim S1x800000x3 (![1, 2] : Fin 2 → Fin S1x800000x3.rank)
  bcast_S1x800000x3_S16x800000x3_0_1_2 : S1x800000x3.BroadcastsInDim S16x800000x3 (![0, 1, 2] : Fin 3 → Fin S16x800000x3.rank)
  inb_S8000x3_S8000x3_0_0 : ∀ a, (![0, 0] : Fin 2 → Nat) a + S8000x3.size a ≤ S8000x3.size a
  h_S8000x3 : 0 < S8000x3.numel
  shapeCasts_S8000x3_S8000x3 : S8000x3.ShapeCasts S8000x3
  inb_S3x16_S3x16_0_0 : ∀ a, (![0, 0] : Fin 2 → Nat) a + S3x16.size a ≤ S3x16.size a
  h_S3x16 : 0 < S3x16.numel
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  broadcasts_S8000x1_S8000x16 : S8000x1.Broadcasts S8000x16
  inb_S8000x16_S8000x16_0_0 : ∀ a, (![0, 0] : Fin 2 → Nat) a + S8000x16.size a ≤ S8000x16.size a
  h_S8000x16 : 0 < S8000x16.numel
  shapeCasts_S8000x16_S8000x16 : S8000x16.ShapeCasts S8000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S8000x16 : S1x16.Broadcasts S8000x16
  inb_S16x16_S16x16_0_0 : ∀ a, (![0, 0] : Fin 2 → Nat) a + S16x16.size a ≤ S16x16.size a
  h_S16x16 : 0 < S16x16.numel
  inb_S16x3_S16x3_0_0 : ∀ a, (![0, 0] : Fin 2 → Nat) a + S16x3.size a ≤ S16x3.size a
  h_S16x3 : 0 < S16x3.numel
  broadcasts_S8000x1_S8000x3 : S8000x1.Broadcasts S8000x3
  inb_S1000x384_S1000x384_0_0 : ∀ a, (![0, 0] : Fin 2 → Nat) a + S1000x384.size a ≤ S1000x384.size a
  h_S1000x384 : 0 < S1000x384.numel
  shapeCasts_S1000x384_S1000x384 : S1000x384.ShapeCasts S1000x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S1000x384 : S1x384.Broadcasts S1000x384
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  scatter_S1600000_S6400000x1_S6400000_n_0_0_1_wf : ScatterDims.WF S1600000 S6400000x1 S6400000 [] [0] [0] 1
  gather_S1600000x16_S6400000x1_S6400000x16_1_0_n_n_0_1_116_wf : GatherDims.WF S1600000x16 S6400000x1 S6400000x16 [1] [0] [] [0] [] 1 ![1, 16]
  scatter_S1600000x16_S6400000x1_S6400000x16_1_0_0_1_wf : ScatterDims.WF S1600000x16 S6400000x1 S6400000x16 [1] [0] [0] 1
  gather_S1600000x3_S6400000x1_S6400000x3_1_0_n_n_0_1_13_wf : GatherDims.WF S1600000x3 S6400000x1 S6400000x3 [1] [0] [] [0] [] 1 ![1, 3]
  scatter_S1600000x3_S6400000x1_S6400000x3_1_0_0_1_wf : ScatterDims.WF S1600000x3 S6400000x1 S6400000x3 [1] [0] [0] 1
  gather_S16x100000x3_S300000x1_S16x300000x3_02_1_n_n_1_1_1613_wf : GatherDims.WF S16x100000x3 S300000x1 S16x300000x3 [0, 2] [1] [] [1] [] 1 ![16, 1, 3]
  dot_S8000x3_S3x16_S8000x16_1_0_0_1_n_n_wf : DotDims.WF S8000x3 S3x16 S8000x16 [1] [0] [0] [1] [] []
  dot_S8000x16_S16x16_S8000x16_1_0_0_1_n_n_wf : DotDims.WF S8000x16 S16x16 S8000x16 [1] [0] [0] [1] [] []
  dot_S8000x16_S16x3_S8000x3_1_0_0_1_n_n_wf : DotDims.WF S8000x16 S16x3 S8000x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x3.size a ≤ S1600000x3.size a
  hwx0_0 : ∀ i : grid0.Coords, EltTy.bits .f32 = 32 ∨ (Rect.block (s := S1600000x3) S8000x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x16.size a ≤ S3x16.size a
  hwx0_1 : ∀ i : grid0.Coords, EltTy.bits .f32 = 32 ∨ (Rect.block (s := S3x16) S3x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x1.size a ≤ S1600000x1.size a
  hwx0_2 : ∀ i : grid0.Coords, EltTy.bits .f32 = 32 ∨ (Rect.block (s := S1600000x1) S8000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8000x16.size a ≤ S1600000x16.size a
  hwx0_3 : ∀ i : grid0.Coords, EltTy.bits .f32 = 32 ∨ (Rect.block (s := S1600000x16) S8000x16.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x16.size a ≤ S1600000x16.size a
  hwx1_0 : ∀ i : grid1.Coords, EltTy.bits .f32 = 32 ∨ (Rect.block (s := S1600000x16) S8000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x1.size a ≤ S1600000x1.size a
  hwx1_1 : ∀ i : grid1.Coords, EltTy.bits .f32 = 32 ∨ (Rect.block (s := S1600000x1) S8000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x16.size a ≤ S1x16.size a
  hwx1_2 : ∀ i : grid1.Coords, EltTy.bits .f32 = 32 ∨ (Rect.block (s := S1x16) S1x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x16.size a ≤ S16x16.size a
  hwx1_3 : ∀ i : grid1.Coords, EltTy.bits .f32 = 32 ∨ (Rect.block (s := S16x16) S16x16.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S8000x16.size a ≤ S1600000x16.size a
  hwx1_4 : ∀ i : grid1.Coords, EltTy.bits .f32 = 32 ∨ (Rect.block (s := S1600000x16) S8000x16.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x16.size a ≤ S1600000x16.size a
  hwx2_0 : ∀ i : grid2.Coords, EltTy.bits .f32 = 32 ∨ (Rect.block (s := S1600000x16) S8000x16.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8000x1.size a ≤ S1600000x1.size a
  hwx2_1 : ∀ i : grid2.Coords, EltTy.bits .f32 = 32 ∨ (Rect.block (s := S1600000x1) S8000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x16.size a ≤ S1x16.size a
  hwx2_2 : ∀ i : grid2.Coords, EltTy.bits .f32 = 32 ∨ (Rect.block (s := S1x16) S1x16.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S16x3.size a ≤ S16x3.size a
  hwx2_3 : ∀ i : grid2.Coords, EltTy.bits .f32 = 32 ∨ (Rect.block (s := S16x3) S16x3.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S8000x3.size a ≤ S1600000x3.size a
  hwx2_4 : ∀ i : grid2.Coords, EltTy.bits .f32 = 32 ∨ (Rect.block (s := S1600000x3) S8000x3.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x384.size a ≤ S13000x384.size a
  hwx3_0 : ∀ i : grid3.Coords, EltTy.bits .f32 = 32 ∨ (Rect.block (s := S13000x384) S1000x384.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1000x384.size a ≤ S13000x384.size a
  hwx3_1 : ∀ i : grid3.Coords, EltTy.bits .f32 = 32 ∨ (Rect.block (s := S13000x384) S1000x384.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1000x384.size a ≤ S13000x384.size a
  hwx3_2 : ∀ i : grid3.Coords, EltTy.bits .f32 = 32 ∨ (Rect.block (s := S13000x384) S1000x384.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x384.size a ≤ S1x384.size a
  hwx3_3 : ∀ i : grid3.Coords, EltTy.bits .f32 = 32 ∨ (Rect.block (s := S1x384) S1x384.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1000x384.size a ≤ S13000x384.size a
  hwx3_4 : ∀ i : grid3.Coords, EltTy.bits .f32 = 32 ∨ (Rect.block (s := S13000x384) S1000x384.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8192x128.size a ≤ S114688x128.size a
  hwx4_0 : ∀ i : grid4.Coords, EltTy.bits .f32 = 32 ∨ (Rect.block (s := S114688x128) S8192x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S8192x128.size a ≤ S114688x128.size a
  hwx4_1 : ∀ i : grid4.Coords, EltTy.bits .f32 = 32 ∨ (Rect.block (s := S114688x128) S8192x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S8192x128.size a ≤ S114688x128.size a
  hwx4_2 : ∀ i : grid4.Coords, EltTy.bits .f32 = 32 ∨ (Rect.block (s := S114688x128) S8192x128.size (cc4_transform_2 i) (hinb4_2 i)).WholeWords (EltTy.packing .f32)

variable [Facts₀]

def scatter_S1600000_S6400000x1_S6400000_n_0_0_1 : ScatterDims S1600000 S6400000x1 S6400000 where
  updateWindowDims := []
  insertedWindowDims := [0]
  scatterDimsToOperandDims := [0]
  indexVectorDim := 1
  wf := scatter_S1600000_S6400000x1_S6400000_n_0_0_1_wf
def gather_S1600000x16_S6400000x1_S6400000x16_1_0_n_n_0_1_116 : GatherDims S1600000x16 S6400000x1 S6400000x16 where
  offsetDims := [1]
  collapsedSliceDims := [0]
  operandBatchingDims := []
  startIndicesBatchingDims := []
  startIndexMap := [0]
  indexVectorDim := 1
  sliceSizes := ![1, 16]
  wf := gather_S1600000x16_S6400000x1_S6400000x16_1_0_n_n_0_1_116_wf
def scatter_S1600000x16_S6400000x1_S6400000x16_1_0_0_1 : ScatterDims S1600000x16 S6400000x1 S6400000x16 where
  updateWindowDims := [1]
  insertedWindowDims := [0]
  scatterDimsToOperandDims := [0]
  indexVectorDim := 1
  wf := scatter_S1600000x16_S6400000x1_S6400000x16_1_0_0_1_wf
def gather_S1600000x3_S6400000x1_S6400000x3_1_0_n_n_0_1_13 : GatherDims S1600000x3 S6400000x1 S6400000x3 where
  offsetDims := [1]
  collapsedSliceDims := [0]
  operandBatchingDims := []
  startIndicesBatchingDims := []
  startIndexMap := [0]
  indexVectorDim := 1
  sliceSizes := ![1, 3]
  wf := gather_S1600000x3_S6400000x1_S6400000x3_1_0_n_n_0_1_13_wf
def scatter_S1600000x3_S6400000x1_S6400000x3_1_0_0_1 : ScatterDims S1600000x3 S6400000x1 S6400000x3 where
  updateWindowDims := [1]
  insertedWindowDims := [0]
  scatterDimsToOperandDims := [0]
  indexVectorDim := 1
  wf := scatter_S1600000x3_S6400000x1_S6400000x3_1_0_0_1_wf
def gather_S16x100000x3_S300000x1_S16x300000x3_02_1_n_n_1_1_1613 : GatherDims S16x100000x3 S300000x1 S16x300000x3 where
  offsetDims := [0, 2]
  collapsedSliceDims := [1]
  operandBatchingDims := []
  startIndicesBatchingDims := []
  startIndexMap := [1]
  indexVectorDim := 1
  sliceSizes := ![16, 1, 3]
  wf := gather_S16x100000x3_S300000x1_S16x300000x3_02_1_n_n_1_1_1613_wf
def dot_S8000x3_S3x16_S8000x16_1_0_0_1_n_n : DotDims S8000x3 S3x16 S8000x16 where
  lhsContracting := [1]
  rhsContracting := [0]
  lhsNonContracting := [0]
  rhsNonContracting := [1]
  lhsBatch := []
  rhsBatch := []
  wf := dot_S8000x3_S3x16_S8000x16_1_0_0_1_n_n_wf
def dot_S8000x16_S16x16_S8000x16_1_0_0_1_n_n : DotDims S8000x16 S16x16 S8000x16 where
  lhsContracting := [1]
  rhsContracting := [0]
  lhsNonContracting := [0]
  rhsNonContracting := [1]
  lhsBatch := []
  rhsBatch := []
  wf := dot_S8000x16_S16x16_S8000x16_1_0_0_1_n_n_wf
def dot_S8000x16_S16x3_S8000x3_1_0_0_1_n_n : DotDims S8000x16 S16x3 S8000x3 where
  lhsContracting := [1]
  rhsContracting := [0]
  lhsNonContracting := [0]
  rhsNonContracting := [1]
  lhsBatch := []
  rhsBatch := []
  wf := dot_S8000x16_S16x3_S8000x3_1_0_0_1_n_n_wf

abbrev win0_0 : Pipeline.Window sig grid0 :=
  Pipeline.Window.ofSpec (Memref.whole main_call0_v25) S8000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S3x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v24) S8000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v26) S8000x16.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_call0_v36) S8000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v24) S8000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_call0_v37) S1x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S16x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v38) S8000x16.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_call0_v48) S8000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v24) S8000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_call0_v49) S1x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg7) S16x3.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_call0_v50) S8000x3.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_call0_v70) S1000x384.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_call0_v71) S1000x384.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_call0_v72) S1000x384.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_call0_v69) S1x384.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_call0_v73) S1000x384.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_call0_v100) S8192x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_call0_v101) S8192x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_call0_v102) S8192x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S16x100000x3 : Shape := ⟨3, ![16, 100000, 3]⟩
abbrev S300000x2 : Shape := ⟨2, ![300000, 2]⟩
abbrev S800000x3 : Shape := ⟨2, ![800000, 3]⟩
abbrev S3x16 : Shape := ⟨2, ![3, 16]⟩
abbrev S16 : Shape := ⟨1, ![16]⟩
abbrev S16x16 : Shape := ⟨2, ![16, 16]⟩
abbrev S16x3 : Shape := ⟨2, ![16, 3]⟩
abbrev S3 : Shape := ⟨1, ![3]⟩
abbrev S_ : Shape := ⟨0, ![]⟩
abbrev S1x300000x2 : Shape := ⟨3, ![1, 300000, 2]⟩
abbrev S16x1x1 : Shape := ⟨3, ![16, 1, 1]⟩
abbrev S16x300000x2 : Shape := ⟨3, ![16, 300000, 2]⟩
abbrev S4800000x2 : Shape := ⟨2, ![4800000, 2]⟩
abbrev S4800000x1 : Shape := ⟨2, ![4800000, 1]⟩
abbrev S4800000 : Shape := ⟨1, ![4800000]⟩
abbrev S1600000x3 : Shape := ⟨2, ![1600000, 3]⟩
abbrev S1600000x16 : Shape := ⟨2, ![1600000, 16]⟩
abbrev S1600000 : Shape := ⟨1, ![1600000]⟩
abbrev S6400000 : Shape := ⟨1, ![6400000]⟩
abbrev S6400000x1 : Shape := ⟨2, ![6400000, 1]⟩
abbrev S6400000x16 : Shape := ⟨2, ![6400000, 16]⟩
abbrev S1x16 : Shape := ⟨2, ![1, 16]⟩
abbrev S6400000x3 : Shape := ⟨2, ![6400000, 3]⟩
abbrev S1x3 : Shape := ⟨2, ![1, 3]⟩
abbrev S300000x2x1 : Shape := ⟨3, ![300000, 2, 1]⟩
abbrev S16x300000x2x3 : Shape := ⟨4, ![16, 300000, 2, 3]⟩
abbrev S16x300000x3 : Shape := ⟨3, ![16, 300000, 3]⟩
abbrev S16x400000x3 : Shape := ⟨3, ![16, 400000, 3]⟩
abbrev S1x800000x3 : Shape := ⟨3, ![1, 800000, 3]⟩
abbrev S16x800000x3 : Shape := ⟨3, ![16, 800000, 3]⟩

abbrev nBuf : Space → Nat
  | .hbm => 225
  | .vmem => 0
  | .smem => 0
  | _ => 0

abbrev hbmTy0_0 (i : Nat) : BufTy := match i % 128 with
  | 0 => ⟨S16x100000x3, .f32⟩
  | 1 => ⟨S300000x2, .i32⟩
  | 2 => ⟨S800000x3, .i32⟩
  | 3 => ⟨S3x16, .f32⟩
  | 4 => ⟨S16, .f32⟩
  | 5 => ⟨S16x16, .f32⟩
  | 6 => ⟨S16, .f32⟩
  | 7 => ⟨S16x3, .f32⟩
  | 8 => ⟨S3, .f32⟩
  | 9 => ⟨S16, .i32⟩
  | 10 => ⟨S_, .i32⟩
  | 11 => ⟨S16, .i32⟩
  | 12 => ⟨S16, .i32⟩
  | 13 => ⟨S1x300000x2, .i32⟩
  | 14 => ⟨S16x1x1, .i32⟩
  | 15 => ⟨S16x300000x2, .i32⟩
  | 16 => ⟨S16x300000x2, .i32⟩
  | 17 => ⟨S16x300000x2, .i32⟩
  | 18 => ⟨S4800000x2, .i32⟩
  | 19 => ⟨S4800000x1, .i32⟩
  | 20 => ⟨S4800000, .i32⟩
  | 21 => ⟨S4800000x1, .i32⟩
  | 22 => ⟨S4800000, .i32⟩
  | 23 => ⟨S1600000x3, .f32⟩
  | 24 => ⟨S1600000x16, .f32⟩
  | 25 => ⟨S1600000, .i32⟩
  | 26 => ⟨S6400000, .i32⟩
  | 27 => ⟨S6400000, .i32⟩
  | 28 => ⟨S_, .f32⟩
  | 29 => ⟨S6400000, .f32⟩
  | 30 => ⟨S_, .f32⟩
  | 31 => ⟨S1600000, .f32⟩
  | 32 => ⟨S6400000x1, .i32⟩
  | 33 => ⟨S1600000, .f32⟩
  | 34 => ⟨S_, .f32⟩
  | 35 => ⟨S1600000, .f32⟩
  | 36 => ⟨S1600000, .i1⟩
  | 37 => ⟨S1600000, .f32⟩
  | 38 => ⟨S_, .f32⟩
  | 39 => ⟨S_, .f32⟩
  | 40 => ⟨S1600000, .f32⟩
  | 41 => ⟨S1600000, .f32⟩
  | 42 => ⟨S_, .i32⟩
  | 43 => ⟨S6400000, .i32⟩
  | 44 => ⟨S6400000, .i1⟩
  | 45 => ⟨S_, .i32⟩
  | 46 => ⟨S6400000, .i32⟩
  | 47 => ⟨S6400000, .i32⟩
  | 48 => ⟨S6400000, .i32⟩
  | 49 => ⟨S6400000x1, .i32⟩
  | 50 => ⟨S6400000, .f32⟩
  | 51 => ⟨S_, .i32⟩
  | 52 => ⟨S6400000, .i32⟩
  | 53 => ⟨S6400000, .i1⟩
  | 54 => ⟨S_, .i32⟩
  | 55 => ⟨S6400000, .i32⟩
  | 56 => ⟨S6400000, .i32⟩
  | 57 => ⟨S6400000, .i32⟩
  | 58 => ⟨S6400000x1, .i32⟩
  | 59 => ⟨S6400000, .f32⟩
  | 60 => ⟨S6400000, .f32⟩
  | 61 => ⟨S_, .i32⟩
  | 62 => ⟨S6400000, .i32⟩
  | 63 => ⟨S6400000, .i1⟩
  | 64 => ⟨S_, .i32⟩
  | 65 => ⟨S6400000, .i32⟩
  | 66 => ⟨S6400000, .i32⟩
  | 67 => ⟨S6400000, .i32⟩
  | 68 => ⟨S6400000x1, .i32⟩
  | 69 => ⟨S6400000x16, .f32⟩
  | 70 => ⟨S6400000x1, .f32⟩
  | 71 => ⟨S6400000x16, .f32⟩
  | 72 => ⟨S6400000x16, .f32⟩
  | 73 => ⟨S_, .f32⟩
  | 74 => ⟨S1600000x16, .f32⟩
  | 75 => ⟨S6400000x1, .i32⟩
  | 76 => ⟨S1600000x16, .f32⟩
  | 77 => ⟨S1x16, .f32⟩
  | 78 => ⟨S1600000x16, .f32⟩
  | 79 => ⟨S1600000x16, .f32⟩
  | 80 => ⟨S_, .f32⟩
  | 81 => ⟨S1600000x16, .f32⟩
  | 82 => ⟨S1600000x16, .i1⟩
  | 83 => ⟨S_, .f32⟩
  | 84 => ⟨S1600000x16, .f32⟩
  | 85 => ⟨S1600000x16, .f32⟩
  | 86 => ⟨S1600000x16, .f32⟩
  | 87 => ⟨S1600000x16, .f32⟩
  | 88 => ⟨S1600000, .i32⟩
  | 89 => ⟨S6400000, .i32⟩
  | 90 => ⟨S6400000, .i32⟩
  | 91 => ⟨S_, .f32⟩
  | 92 => ⟨S6400000, .f32⟩
  | 93 => ⟨S_, .f32⟩
  | 94 => ⟨S1600000, .f32⟩
  | 95 => ⟨S6400000x1, .i32⟩
  | 96 => ⟨S1600000, .f32⟩
  | 97 => ⟨S_, .f32⟩
  | 98 => ⟨S1600000, .f32⟩
  | 99 => ⟨S1600000, .i1⟩
  | 100 => ⟨S1600000, .f32⟩
  | 101 => ⟨S_, .f32⟩
  | 102 => ⟨S_, .f32⟩
  | 103 => ⟨S1600000, .f32⟩
  | 104 => ⟨S1600000, .f32⟩
  | 105 => ⟨S_, .i32⟩
  | 106 => ⟨S6400000, .i32⟩
  | 107 => ⟨S6400000, .i1⟩
  | 108 => ⟨S_, .i32⟩
  | 109 => ⟨S6400000, .i32⟩
  | 110 => ⟨S6400000, .i32⟩
  | 111 => ⟨S6400000, .i32⟩
  | 112 => ⟨S6400000x1, .i32⟩
  | 113 => ⟨S6400000, .f32⟩
  | 114 => ⟨S_, .i32⟩
  | 115 => ⟨S6400000, .i32⟩
  | 116 => ⟨S6400000, .i1⟩
  | 117 => ⟨S_, .i32⟩
  | 118 => ⟨S6400000, .i32⟩
  | 119 => ⟨S6400000, .i32⟩
  | 120 => ⟨S6400000, .i32⟩
  | 121 => ⟨S6400000x1, .i32⟩
  | 122 => ⟨S6400000, .f32⟩
  | 123 => ⟨S6400000, .f32⟩
  | 124 => ⟨S_, .i32⟩
  | 125 => ⟨S6400000, .i32⟩
  | 126 => ⟨S6400000, .i1⟩
  | 127 => ⟨S_, .i32⟩
  | _ => ⟨S16x100000x3, .f32⟩

abbrev hbmTy0_1 (i : Nat) : BufTy := match i % 128 with
  | 0 => ⟨S6400000, .i32⟩
  | 1 => ⟨S6400000, .i32⟩
  | 2 => ⟨S6400000, .i32⟩
  | 3 => ⟨S6400000x1, .i32⟩
  | 4 => ⟨S6400000x16, .f32⟩
  | 5 => ⟨S6400000x1, .f32⟩
  | 6 => ⟨S6400000x16, .f32⟩
  | 7 => ⟨S6400000x16, .f32⟩
  | 8 => ⟨S_, .f32⟩
  | 9 => ⟨S1600000x16, .f32⟩
  | 10 => ⟨S6400000x1, .i32⟩
  | 11 => ⟨S1600000x16, .f32⟩
  | 12 => ⟨S1x16, .f32⟩
  | 13 => ⟨S1600000x16, .f32⟩
  | 14 => ⟨S1600000x16, .f32⟩
  | 15 => ⟨S_, .f32⟩
  | 16 => ⟨S1600000x16, .f32⟩
  | 17 => ⟨S1600000x16, .i1⟩
  | 18 => ⟨S_, .f32⟩
  | 19 => ⟨S1600000x16, .f32⟩
  | 20 => ⟨S1600000x16, .f32⟩
  | 21 => ⟨S1600000x16, .f32⟩
  | 22 => ⟨S1600000x3, .f32⟩
  | 23 => ⟨S1600000, .i32⟩
  | 24 => ⟨S6400000, .i32⟩
  | 25 => ⟨S6400000, .i32⟩
  | 26 => ⟨S_, .f32⟩
  | 27 => ⟨S6400000, .f32⟩
  | 28 => ⟨S_, .f32⟩
  | 29 => ⟨S1600000, .f32⟩
  | 30 => ⟨S6400000x1, .i32⟩
  | 31 => ⟨S1600000, .f32⟩
  | 32 => ⟨S_, .f32⟩
  | 33 => ⟨S1600000, .f32⟩
  | 34 => ⟨S1600000, .i1⟩
  | 35 => ⟨S1600000, .f32⟩
  | 36 => ⟨S_, .f32⟩
  | 37 => ⟨S_, .f32⟩
  | 38 => ⟨S1600000, .f32⟩
  | 39 => ⟨S1600000, .f32⟩
  | 40 => ⟨S_, .i32⟩
  | 41 => ⟨S6400000, .i32⟩
  | 42 => ⟨S6400000, .i1⟩
  | 43 => ⟨S_, .i32⟩
  | 44 => ⟨S6400000, .i32⟩
  | 45 => ⟨S6400000, .i32⟩
  | 46 => ⟨S6400000, .i32⟩
  | 47 => ⟨S6400000x1, .i32⟩
  | 48 => ⟨S6400000, .f32⟩
  | 49 => ⟨S_, .i32⟩
  | 50 => ⟨S6400000, .i32⟩
  | 51 => ⟨S6400000, .i1⟩
  | 52 => ⟨S_, .i32⟩
  | 53 => ⟨S6400000, .i32⟩
  | 54 => ⟨S6400000, .i32⟩
  | 55 => ⟨S6400000, .i32⟩
  | 56 => ⟨S6400000x1, .i32⟩
  | 57 => ⟨S6400000, .f32⟩
  | 58 => ⟨S6400000, .f32⟩
  | 59 => ⟨S_, .i32⟩
  | 60 => ⟨S6400000, .i32⟩
  | 61 => ⟨S6400000, .i1⟩
  | 62 => ⟨S_, .i32⟩
  | 63 => ⟨S6400000, .i32⟩
  | 64 => ⟨S6400000, .i32⟩
  | 65 => ⟨S6400000, .i32⟩
  | 66 => ⟨S6400000x1, .i32⟩
  | 67 => ⟨S6400000x3, .f32⟩
  | 68 => ⟨S6400000x1, .f32⟩
  | 69 => ⟨S6400000x3, .f32⟩
  | 70 => ⟨S6400000x3, .f32⟩
  | 71 => ⟨S_, .f32⟩
  | 72 => ⟨S1600000x3, .f32⟩
  | 73 => ⟨S6400000x1, .i32⟩
  | 74 => ⟨S1600000x3, .f32⟩
  | 75 => ⟨S1x3, .f32⟩
  | 76 => ⟨S1600000x3, .f32⟩
  | 77 => ⟨S1600000x3, .f32⟩
  | 78 => ⟨S1600000x3, .f32⟩
  | 79 => ⟨S16x100000x3, .f32⟩
  | 80 => ⟨S_, .i32⟩
  | 81 => ⟨S300000x2, .i32⟩
  | 82 => ⟨S300000x2, .i1⟩
  | 83 => ⟨S_, .i32⟩
  | 84 => ⟨S300000x2, .i32⟩
  | 85 => ⟨S300000x2, .i32⟩
  | 86 => ⟨S300000x2, .i32⟩
  | 87 => ⟨S300000x2x1, .i32⟩
  | 88 => ⟨S16x300000x2x3, .f32⟩
  | 89 => ⟨S_, .f32⟩
  | 90 => ⟨S16x300000x3, .f32⟩
  | 91 => ⟨S_, .f32⟩
  | 92 => ⟨S16x300000x3, .f32⟩
  | 93 => ⟨S16x300000x3, .f32⟩
  | 94 => ⟨S16x400000x3, .f32⟩
  | 95 => ⟨S1x800000x3, .i32⟩
  | 96 => ⟨S16x800000x3, .i32⟩
  | _ => ⟨S16x100000x3, .f32⟩

abbrev hbmTy (i : Nat) : BufTy := match i / 128 with
  | 0 => hbmTy0_0 i
  | 1 => hbmTy0_1 i
  | _ => ⟨S16x100000x3, .f32⟩

abbrev bufTy : (tb : Table) → Fin (tcTables nBuf tb) → BufTy
  | .hbm, ⟨i, _⟩ => hbmTy i
  | _, _ => ⟨S16x100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst : Ref sig .tc := ⟨.hbm, 28, rfl⟩
abbrev main_v18 : Ref sig .tc := ⟨.hbm, 29, rfl⟩
abbrev main_cst_0 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_1 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_2 : Ref sig .tc := ⟨.hbm, 38, rfl⟩
abbrev main_call0_v0 : Ref sig .tc := ⟨.hbm, 39, rfl⟩
abbrev main_call0_v1 : Ref sig .tc := ⟨.hbm, 40, rfl⟩
abbrev main_v25 : Ref sig .tc := ⟨.hbm, 41, rfl⟩
abbrev main_c_3 : Ref sig .tc := ⟨.hbm, 42, rfl⟩
abbrev main_v26 : Ref sig .tc := ⟨.hbm, 43, rfl⟩
abbrev main_v27 : Ref sig .tc := ⟨.hbm, 44, rfl⟩
abbrev main_c_4 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_5 : Ref sig .tc := ⟨.hbm, 51, rfl⟩
abbrev main_v33 : Ref sig .tc := ⟨.hbm, 52, rfl⟩
abbrev main_v34 : Ref sig .tc := ⟨.hbm, 53, rfl⟩
abbrev main_c_6 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_c_7 : Ref sig .tc := ⟨.hbm, 61, rfl⟩
abbrev main_v41 : Ref sig .tc := ⟨.hbm, 62, rfl⟩
abbrev main_v42 : Ref sig .tc := ⟨.hbm, 63, rfl⟩
abbrev main_c_8 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_9 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_10 : Ref sig .tc := ⟨.hbm, 80, rfl⟩
abbrev main_v57 : Ref sig .tc := ⟨.hbm, 81, rfl⟩
abbrev main_v58 : Ref sig .tc := ⟨.hbm, 82, rfl⟩
abbrev main_cst_11 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_cst_12 : Ref sig .tc := ⟨.hbm, 91, rfl⟩
abbrev main_v66 : Ref sig .tc := ⟨.hbm, 92, rfl⟩
abbrev main_cst_13 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_14 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_cst_15 : Ref sig .tc := ⟨.hbm, 101, rfl⟩
abbrev main_call2_v0 : Ref sig .tc := ⟨.hbm, 102, rfl⟩
abbrev main_call2_v1 : Ref sig .tc := ⟨.hbm, 103, rfl⟩
abbrev main_v73 : Ref sig .tc := ⟨.hbm, 104, rfl⟩
abbrev main_c_16 : Ref sig .tc := ⟨.hbm, 105, rfl⟩
abbrev main_v74 : Ref sig .tc := ⟨.hbm, 106, rfl⟩
abbrev main_v75 : Ref sig .tc := ⟨.hbm, 107, rfl⟩
abbrev main_c_17 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_c_18 : Ref sig .tc := ⟨.hbm, 114, rfl⟩
abbrev main_v81 : Ref sig .tc := ⟨.hbm, 115, rfl⟩
abbrev main_v82 : Ref sig .tc := ⟨.hbm, 116, rfl⟩
abbrev main_c_19 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_c_20 : Ref sig .tc := ⟨.hbm, 124, rfl⟩
abbrev main_v89 : Ref sig .tc := ⟨.hbm, 125, rfl⟩
abbrev main_v90 : Ref sig .tc := ⟨.hbm, 126, rfl⟩
abbrev main_c_21 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_cst_22 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_cst_23 : Ref sig .tc := ⟨.hbm, 143, rfl⟩
abbrev main_v105 : Ref sig .tc := ⟨.hbm, 144, rfl⟩
abbrev main_v106 : Ref sig .tc := ⟨.hbm, 145, rfl⟩
abbrev main_cst_24 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_cst_25 : Ref sig .tc := ⟨.hbm, 154, rfl⟩
abbrev main_v114 : Ref sig .tc := ⟨.hbm, 155, rfl⟩
abbrev main_cst_26 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_cst_27 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_cst_28 : Ref sig .tc := ⟨.hbm, 164, rfl⟩
abbrev main_call4_v0 : Ref sig .tc := ⟨.hbm, 165, rfl⟩
abbrev main_call4_v1 : Ref sig .tc := ⟨.hbm, 166, rfl⟩
abbrev main_v121 : Ref sig .tc := ⟨.hbm, 167, rfl⟩
abbrev main_c_29 : Ref sig .tc := ⟨.hbm, 168, rfl⟩
abbrev main_v122 : Ref sig .tc := ⟨.hbm, 169, rfl⟩
abbrev main_v123 : Ref sig .tc := ⟨.hbm, 170, rfl⟩
abbrev main_c_30 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_c_31 : Ref sig .tc := ⟨.hbm, 177, rfl⟩
abbrev main_v129 : Ref sig .tc := ⟨.hbm, 178, rfl⟩
abbrev main_v130 : Ref sig .tc := ⟨.hbm, 179, rfl⟩
abbrev main_c_32 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_c_33 : Ref sig .tc := ⟨.hbm, 187, rfl⟩
abbrev main_v137 : Ref sig .tc := ⟨.hbm, 188, rfl⟩
abbrev main_v138 : Ref sig .tc := ⟨.hbm, 189, rfl⟩
abbrev main_c_34 : Ref sig .tc := ⟨.hbm, 190, rfl⟩
abbrev main_v139 : Ref sig .tc := ⟨.hbm, 191, rfl⟩
abbrev main_v140 : Ref sig .tc := ⟨.hbm, 192, rfl⟩
abbrev main_v141 : Ref sig .tc := ⟨.hbm, 193, rfl⟩
abbrev main_v142 : Ref sig .tc := ⟨.hbm, 194, rfl⟩
abbrev main_v143 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_cst_35 : Ref sig .tc := ⟨.hbm, 199, rfl⟩
abbrev main_v147 : Ref sig .tc := ⟨.hbm, 200, rfl⟩
abbrev main_v148 : Ref sig .tc := ⟨.hbm, 201, rfl⟩
abbrev main_v149 : Ref sig .tc := ⟨.hbm, 202, rfl⟩
abbrev main_v150 : Ref sig .tc := ⟨.hbm, 203, rfl⟩
abbrev main_v151 : Ref sig .tc := ⟨.hbm, 204, rfl⟩
abbrev main_v152 : Ref sig .tc := ⟨.hbm, 205, rfl⟩
abbrev main_v153 : Ref sig .tc := ⟨.hbm, 206, rfl⟩
abbrev main_v154 : Ref sig .tc := ⟨.hbm, 207, rfl⟩
abbrev main_c_36 : Ref sig .tc := ⟨.hbm, 208, rfl⟩
abbrev main_v155 : Ref sig .tc := ⟨.hbm, 209, rfl⟩
abbrev main_v156 : Ref sig .tc := ⟨.hbm, 210, rfl⟩
abbrev main_c_37 : Ref sig .tc := ⟨.hbm, 211, rfl⟩
abbrev main_v157 : Ref sig .tc := ⟨.hbm, 212, rfl⟩
abbrev main_v158 : Ref sig .tc := ⟨.hbm, 213, rfl⟩
abbrev main_v159 : Ref sig .tc := ⟨.hbm, 214, rfl⟩
abbrev main_v160 : Ref sig .tc := ⟨.hbm, 215, rfl⟩
abbrev main_v161 : Ref sig .tc := ⟨.hbm, 216, rfl⟩
abbrev main_cst_38 : Ref sig .tc := ⟨.hbm, 217, rfl⟩
abbrev main_v162 : Ref sig .tc := ⟨.hbm, 218, rfl⟩
abbrev main_cst_39 : Ref sig .tc := ⟨.hbm, 219, rfl⟩
abbrev main_v163 : Ref sig .tc := ⟨.hbm, 220, rfl⟩
abbrev main_v164 : Ref sig .tc := ⟨.hbm, 221, rfl⟩
abbrev main_v165 : Ref sig .tc := ⟨.hbm, 222, rfl⟩
abbrev main_v166 : Ref sig .tc := ⟨.hbm, 223, rfl⟩
abbrev main_v167 : Ref sig .tc := ⟨.hbm, 224, rfl⟩

abbrev nD : Nat := 1
abbrev τ : Topo := Topo.v7x

variable {F : FTy → Type} [FloatOps F]

class Facts₀ : Prop where
  bcast_S_S16 : S_.BroadcastsInDim S16 (![] : Fin 0 → Fin S16.rank)
  bcast_S300000x2_S1x300000x2_1_2 : S300000x2.BroadcastsInDim S1x300000x2 (![1, 2] : Fin 2 → Fin S1x300000x2.rank)
  bcast_S16_S16x1x1_0 : S16.BroadcastsInDim S16x1x1 (![0] : Fin 1 → Fin S16x1x1.rank)
  bcast_S1x300000x2_S16x300000x2_0_1_2 : S1x300000x2.BroadcastsInDim S16x300000x2 (![0, 1, 2] : Fin 3 → Fin S16x300000x2.rank)
  bcast_S16x1x1_S16x300000x2_0_1_2 : S16x1x1.BroadcastsInDim S16x300000x2 (![0, 1, 2] : Fin 3 → Fin S16x300000x2.rank)
  shapeCasts_S16x300000x2_S4800000x2 : S16x300000x2.ShapeCasts S4800000x2
  slices_S4800000x2_S4800000x1_0_0 : S4800000x2.Slices ![0, 0] S4800000x1
  shapeCasts_S4800000x1_S4800000 : S4800000x1.ShapeCasts S4800000
  slices_S4800000x2_S4800000x1_0_1 : S4800000x2.Slices ![0, 1] S4800000x1
  shapeCasts_S16x100000x3_S1600000x3 : S16x100000x3.ShapeCasts S1600000x3
  concatenates_S4800000_S1600000_S6400000_d0 : Shape.Concatenates [S4800000, S1600000] S6400000 0
  bcast_S_S6400000 : S_.BroadcastsInDim S6400000 (![] : Fin 0 → Fin S6400000.rank)
  bcast_S_S1600000 : S_.BroadcastsInDim S1600000 (![] : Fin 0 → Fin S1600000.rank)
  bcast_S6400000_S6400000x1_0 : S6400000.BroadcastsInDim S6400000x1 (![0] : Fin 1 → Fin S6400000x1.rank)
  bcast_S6400000x1_S6400000x16_0_1 : S6400000x1.BroadcastsInDim S6400000x16 (![0, 1] : Fin 2 → Fin S6400000x16.rank)
  bcast_S_S1600000x16 : S_.BroadcastsInDim S1600000x16 (![] : Fin 0 → Fin S1600000x16.rank)
  bcast_S16_S1x16_1 : S16.BroadcastsInDim S1x16 (![1] : Fin 1 → Fin S1x16.rank)
  bcast_S1x16_S1600000x16_0_1 : S1x16.BroadcastsInDim S1600000x16 (![0, 1] : Fin 2 → Fin S1600000x16.rank)
  bcast_S6400000x1_S6400000x3_0_1 : S6400000x1.BroadcastsInDim S6400000x3 (![0, 1] : Fin 2 → Fin S6400000x3.rank)
  bcast_S_S1600000x3 : S_.BroadcastsInDim S1600000x3 (![] : Fin 0 → Fin S1600000x3.rank)
  bcast_S3_S1x3_1 : S3.BroadcastsInDim S1x3 (![1] : Fin 1 → Fin S1x3.rank)
  bcast_S1x3_S1600000x3_0_1 : S1x3.BroadcastsInDim S1600000x3 (![0, 1] : Fin 2 → Fin S1600000x3.rank)
  shapeCasts_S1600000x3_S16x100000x3 : S1600000x3.ShapeCasts S16x100000x3
  bcast_S_S300000x2 : S_.BroadcastsInDim S300000x2 (![] : Fin 0 → Fin S300000x2.rank)
  bcast_S300000x2_S300000x2x1_0_1 : S300000x2.BroadcastsInDim S300000x2x1 (![0, 1] : Fin 2 → Fin S300000x2x1.rank)
  reducesTo_S16x300000x2x3_S16x300000x3_d2 : S16x300000x2x3.ReducesTo [2] S16x300000x3
  h_S_ : 0 < S_.numel
  bcast_S_S16x300000x3 : S_.BroadcastsInDim S16x300000x3 (![] : Fin 0 → Fin S16x300000x3.rank)
  concatenates_S16x100000x3_S16x300000x3_S16x400000x3_d1 : Shape.Concatenates [S16x100000x3, S16x300000x3] S16x400000x3 1
  bcast_S800000x3_S1x800000x3_1_2 : S800000x3.BroadcastsInDim S1x800000x3 (![1, 2] : Fin 2 → Fin S1x800000x3.rank)
  bcast_S1x800000x3_S16x800000x3_0_1_2 : S1x800000x3.BroadcastsInDim S16x800000x3 (![0, 1, 2] : Fin 3 → Fin S16x800000x3.rank)
  dot_S1600000x3_S3x16_S1600000x16_1_0_0_1_n_n_wf : DotDims.WF S1600000x3 S3x16 S1600000x16 [1] [0] [0] [1] [] []
  scatter_S1600000_S6400000x1_S6400000_n_0_0_1_wf : ScatterDims.WF S1600000 S6400000x1 S6400000 [] [0] [0] 1
  gather_S1600000_S6400000x1_S6400000_n_0_n_n_0_1_1_wf : GatherDims.WF S1600000 S6400000x1 S6400000 [] [0] [] [0] [] 1 ![1]
  gather_S1600000x16_S6400000x1_S6400000x16_1_0_n_n_0_1_116_wf : GatherDims.WF S1600000x16 S6400000x1 S6400000x16 [1] [0] [] [0] [] 1 ![1, 16]
  scatter_S1600000x16_S6400000x1_S6400000x16_1_0_0_1_wf : ScatterDims.WF S1600000x16 S6400000x1 S6400000x16 [1] [0] [0] 1
  dot_S1600000x16_S16x16_S1600000x16_1_0_0_1_n_n_wf : DotDims.WF S1600000x16 S16x16 S1600000x16 [1] [0] [0] [1] [] []
  dot_S1600000x16_S16x3_S1600000x3_1_0_0_1_n_n_wf : DotDims.WF S1600000x16 S16x3 S1600000x3 [1] [0] [0] [1] [] []
  gather_S1600000x3_S6400000x1_S6400000x3_1_0_n_n_0_1_13_wf : GatherDims.WF S1600000x3 S6400000x1 S6400000x3 [1] [0] [] [0] [] 1 ![1, 3]
  scatter_S1600000x3_S6400000x1_S6400000x3_1_0_0_1_wf : ScatterDims.WF S1600000x3 S6400000x1 S6400000x3 [1] [0] [0] 1
  gather_S16x100000x3_S300000x2x1_S16x300000x2x3_03_1_n_n_1_2_1613_wf : GatherDims.WF S16x100000x3 S300000x2x1 S16x300000x2x3 [0, 3] [1] [] [1] [] 2 ![16, 1, 3]

variable [Facts₀]

def dot_S1600000x3_S3x16_S1600000x16_1_0_0_1_n_n : DotDims S1600000x3 S3x16 S1600000x16 where
  lhsContracting := [1]
  rhsContracting := [0]
  lhsNonContracting := [0]
  rhsNonContracting := [1]
  lhsBatch := []
  rhsBatch := []
  wf := dot_S1600000x3_S3x16_S1600000x16_1_0_0_1_n_n_wf
def scatter_S1600000_S6400000x1_S6400000_n_0_0_1 : ScatterDims S1600000 S6400000x1 S6400000 where
  updateWindowDims := []
  insertedWindowDims := [0]
  scatterDimsToOperandDims := [0]
  indexVectorDim := 1
  wf := scatter_S1600000_S6400000x1_S6400000_n_0_0_1_wf
def gather_S1600000_S6400000x1_S6400000_n_0_n_n_0_1_1 : GatherDims S1600000 S6400000x1 S6400000 where
  offsetDims := []
  collapsedSliceDims := [0]
  operandBatchingDims := []
  startIndicesBatchingDims := []
  startIndexMap := [0]
  indexVectorDim := 1
  sliceSizes := ![1]
  wf := gather_S1600000_S6400000x1_S6400000_n_0_n_n_0_1_1_wf
def gather_S1600000x16_S6400000x1_S6400000x16_1_0_n_n_0_1_116 : GatherDims S1600000x16 S6400000x1 S6400000x16 where
  offsetDims := [1]
  collapsedSliceDims := [0]
  operandBatchingDims := []
  startIndicesBatchingDims := []
  startIndexMap := [0]
  indexVectorDim := 1
  sliceSizes := ![1, 16]
  wf := gather_S1600000x16_S6400000x1_S6400000x16_1_0_n_n_0_1_116_wf
def scatter_S1600000x16_S6400000x1_S6400000x16_1_0_0_1 : ScatterDims S1600000x16 S6400000x1 S6400000x16 where
  updateWindowDims := [1]
  insertedWindowDims := [0]
  scatterDimsToOperandDims := [0]
  indexVectorDim := 1
  wf := scatter_S1600000x16_S6400000x1_S6400000x16_1_0_0_1_wf
def dot_S1600000x16_S16x16_S1600000x16_1_0_0_1_n_n : DotDims S1600000x16 S16x16 S1600000x16 where
  lhsContracting := [1]
  rhsContracting := [0]
  lhsNonContracting := [0]
  rhsNonContracting := [1]
  lhsBatch := []
  rhsBatch := []
  wf := dot_S1600000x16_S16x16_S1600000x16_1_0_0_1_n_n_wf
def dot_S1600000x16_S16x3_S1600000x3_1_0_0_1_n_n : DotDims S1600000x16 S16x3 S1600000x3 where
  lhsContracting := [1]
  rhsContracting := [0]
  lhsNonContracting := [0]
  rhsNonContracting := [1]
  lhsBatch := []
  rhsBatch := []
  wf := dot_S1600000x16_S16x3_S1600000x3_1_0_0_1_n_n_wf
def gather_S1600000x3_S6400000x1_S6400000x3_1_0_n_n_0_1_13 : GatherDims S1600000x3 S6400000x1 S6400000x3 where
  offsetDims := [1]
  collapsedSliceDims := [0]
  operandBatchingDims := []
  startIndicesBatchingDims := []
  startIndexMap := [0]
  indexVectorDim := 1
  sliceSizes := ![1, 3]
  wf := gather_S1600000x3_S6400000x1_S6400000x3_1_0_n_n_0_1_13_wf
def scatter_S1600000x3_S6400000x1_S6400000x3_1_0_0_1 : ScatterDims S1600000x3 S6400000x1 S6400000x3 where
  updateWindowDims := [1]
  insertedWindowDims := [0]
  scatterDimsToOperandDims := [0]
  indexVectorDim := 1
  wf := scatter_S1600000x3_S6400000x1_S6400000x3_1_0_0_1_wf
def gather_S16x100000x3_S300000x2x1_S16x300000x2x3_03_1_n_n_1_2_1613 : GatherDims S16x100000x3 S300000x2x1 S16x300000x2x3 where
  offsetDims := [0, 3]
  collapsedSliceDims := [1]
  operandBatchingDims := []
  startIndicesBatchingDims := []
  startIndexMap := [1]
  indexVectorDim := 2
  sliceSizes := ![16, 1, 3]
  wf := gather_S16x100000x3_S300000x2x1_S16x300000x2x3_03_1_n_n_1_2_1613_wf

class Facts : Prop extends Facts₀ where

variable [Facts]
-- ==== Proof.RefParts.lean ====
/- The parts end at the layer boundaries: the packed edge words, the factor and the first product; the first aggregation
   to the second product; the second aggregation to the third product; the third aggregation to the moved vertices; the
   midpoints and the results. The line is the five parts in order. A buffer that no operation of a part writes holds
   after the part what it held before (`kK_b`); an argument array is written by no operation at all (`keptK`). -/
import proofs.«411275_j68839735821120_3_alg».proof.Proof.RefOps
import Idealize.ShloMosaic.Lib.StableHlo.Run

set_option maxRecDepth 16384

noncomputable section

namespace Cert.ReferenceIdeal.RefAfter

open Cert.ReferenceIdeal Cert.ReferenceIdeal.Gen Cert.ReferenceIdeal.ValueP
open Idealize.ShloMosaic Idealize.ShloMosaic.TcCoe Idealize.SL.Sem Idealize.ShloMosaic.StableHlo

variable {F : FTy → Type} [FloatOps F]

/-! ## The five parts of the line -/

/-- Operations 0 to 32 of @main. -/
abbrev part1 : List (HloOp τ sig (Elt F)) :=
  [ nullary main_v0 (iotaInDim S16 32 0),
    nullary main_c (constantI S_ 32 100000#32),
    unary main_c main_v1 (broadcastInDim S16 ![] bcast_S_S16 : (⟨S_, .i32⟩ : BufTy).Contents (Elt F) → (⟨S16, .i32⟩ : BufTy).Contents (Elt F)),
    binary main_v0 main_v1 main_v2 (muli : (⟨S16, .i32⟩ : BufTy).Contents (Elt F) → (⟨S16, .i32⟩ : BufTy).Contents (Elt F) → (⟨S16, .i32⟩ : BufTy).Contents (Elt F)),
    unary main_arg1 main_v3 (broadcastInDim S1x300000x2 ![1, 2] bcast_S300000x2_S1x300000x2_1_2 : (⟨S300000x2, .i32⟩ : BufTy).Contents (Elt F) → (⟨S1x300000x2, .i32⟩ : BufTy).Contents (Elt F)),
    unary main_v2 main_v4 (broadcastInDim S16x1x1 ![0] bcast_S16_S16x1x1_0 : (⟨S16, .i32⟩ : BufTy).Contents (Elt F) → (⟨S16x1x1, .i32⟩ : BufTy).Contents (Elt F)),
    unary main_v3 main_v5 (broadcastInDim S16x300000x2 ![0, 1, 2] bcast_S1x300000x2_S16x300000x2_0_1_2 : (⟨S1x300000x2, .i32⟩ : BufTy).Contents (Elt F) → (⟨S16x300000x2, .i32⟩ : BufTy).Contents (Elt F)),
    unary main_v4 main_v6 (broadcastInDim S16x300000x2 ![0, 1, 2] bcast_S16x1x1_S16x300000x2_0_1_2 : (⟨S16x1x1, .i32⟩ : BufTy).Contents (Elt F) → (⟨S16x300000x2, .i32⟩ : BufTy).Contents (Elt F)),
    binary main_v5 main_v6 main_v7 (addi : (⟨S16x300000x2, .i32⟩ : BufTy).Contents (Elt F) → (⟨S16x300000x2, .i32⟩ : BufTy).Contents (Elt F) → (⟨S16x300000x2, .i32⟩ : BufTy).Contents (Elt F)),
    reshape main_v7 main_v8 rfl shapeCasts_S16x300000x2_S4800000x2,
    unary main_v8 main_v9 ((extractStridedSlice S4800000x1 ![0, 0] · slices_S4800000x2_S4800000x1_0_0) : (⟨S4800000x2, .i32⟩ : BufTy).Contents (Elt F) → (⟨S4800000x1, .i32⟩ : BufTy).Contents (Elt F)),
    reshape main_v9 main_v10 rfl shapeCasts_S4800000x1_S4800000,
    unary main_v8 main_v11 ((extractStridedSlice S4800000x1 ![0, 1] · slices_S4800000x2_S4800000x1_0_1) : (⟨S4800000x2, .i32⟩ : BufTy).Contents (Elt F) → (⟨S4800000x1, .i32⟩ : BufTy).Contents (Elt F)),
    reshape main_v11 main_v12 rfl shapeCasts_S4800000x1_S4800000,
    reshape main_arg0 main_v13 rfl shapeCasts_S16x100000x3_S1600000x3,
    binary main_v13 main_arg3 main_v14 ((fun l r => Host.dotGeneral dot_S1600000x3_S3x16_S1600000x16_1_0_0_1_n_n none l r) : (⟨S1600000x3, .f32⟩ : BufTy).Contents (Elt F) → (⟨S3x16, .f32⟩ : BufTy).Contents (Elt F) → (⟨S1600000x16, .f32⟩ : BufTy).Contents (Elt F)),
    nullary main_v15 (iotaInDim S1600000 32 0),
    binary main_v10 main_v15 main_v16 ((fun a b => concatenate S6400000 0 [⟨S4800000, a⟩, ⟨S1600000, b⟩] concatenates_S4800000_S1600000_S6400000_d0) : (⟨S4800000, .i32⟩ : BufTy).Contents (Elt F) → (⟨S1600000, .i32⟩ : BufTy).Contents (Elt F) → (⟨S6400000, .i32⟩ : BufTy).Contents (Elt F)),
    binary main_v12 main_v15 main_v17 ((fun a b => concatenate S6400000 0 [⟨S4800000, a⟩, ⟨S1600000, b⟩] concatenates_S4800000_S1600000_S6400000_d0) : (⟨S4800000, .i32⟩ : BufTy).Contents (Elt F) → (⟨S1600000, .i32⟩ : BufTy).Contents (Elt F) → (⟨S6400000, .i32⟩ : BufTy).Contents (Elt F)),
    nullary main_cst (constant S_ .f32 0x3F800000#32),
    unary main_cst main_v18 (broadcastInDim S6400000 ![] bcast_S_S6400000 : (⟨S_, .f32⟩ : BufTy).Contents (Elt F) → (⟨S6400000, .f32⟩ : BufTy).Contents (Elt F)),
    nullary main_cst_0 (constant S_ .f32 0x00000000#32),
    unary main_cst_0 main_v19 (broadcastInDim S1600000 ![] bcast_S_S1600000 : (⟨S_, .f32⟩ : BufTy).Contents (Elt F) → (⟨S1600000, .f32⟩ : BufTy).Contents (Elt F)),
    unary main_v17 main_v20 (broadcastInDim S6400000x1 ![0] bcast_S6400000_S6400000x1_0 : (⟨S6400000, .i32⟩ : BufTy).Contents (Elt F) → (⟨S6400000x1, .i32⟩ : BufTy).Contents (Elt F)),
    ternary main_v19 main_v20 main_v18 main_v21 ((fun x i u => Host.scatterAdd scatter_S1600000_S6400000x1_S6400000_n_0_0_1 x i u) : (⟨S1600000, .f32⟩ : BufTy).Contents (Elt F) → (⟨S6400000x1, .i32⟩ : BufTy).Contents (Elt F) → (⟨S6400000, .f32⟩ : BufTy).Contents (Elt F) → (⟨S1600000, .f32⟩ : BufTy).Contents (Elt F)),
    nullary main_cst_1 (constant S_ .f32 0x00000000#32),
    unary main_cst_1 main_v22 (broadcastInDim S1600000 ![] bcast_S_S1600000 : (⟨S_, .f32⟩ : BufTy).Contents (Elt F) → (⟨S1600000, .f32⟩ : BufTy).Contents (Elt F)),
    binary main_v21 main_v22 main_v23 (cmpf (F := F) .ogt : (⟨S1600000, .f32⟩ : BufTy).Contents (Elt F) → (⟨S1600000, .f32⟩ : BufTy).Contents (Elt F) → (⟨S1600000, .i1⟩ : BufTy).Contents (Elt F)),
    unary main_v21 main_v24 (Host.rsqrt : (⟨S1600000, .f32⟩ : BufTy).Contents (Elt F) → (⟨S1600000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S1600000, .f32⟩) main_call0_v1) (broadcastInDim S1600000 ![] bcast_S_S1600000),
    TRef.ternary (TRef.of (T := ⟨S1600000, .i1⟩) main_v23) (TRef.of (T := ⟨S1600000, .f32⟩) main_v24) (TRef.of (T := ⟨S1600000, .f32⟩) main_call0_v1) (TRef.of (T := ⟨S1600000, .f32⟩) main_v25) select ]

/-- Operations 33 to 78 of @main. -/
abbrev part2 : List (HloOp τ sig (Elt F)) :=
  [ nullary main_c_3 (constantI S_ 32 0#32),
    unary main_c_3 main_v26 (broadcastInDim S6400000 ![] bcast_S_S6400000 : (⟨S_, .i32⟩ : BufTy).Contents (Elt F) → (⟨S6400000, .i32⟩ : BufTy).Contents (Elt F)),
    binary main_v16 main_v26 main_v27 (cmpi .slt : (⟨S6400000, .i32⟩ : BufTy).Contents (Elt F) → (⟨S6400000, .i32⟩ : BufTy).Contents (Elt F) → (⟨S6400000, .i1⟩ : BufTy).Contents (Elt F)),
    nullary main_c_4 (constantI S_ 32 1600000#32),
    unary main_c_4 main_v28 (broadcastInDim S6400000 ![] bcast_S_S6400000 : (⟨S_, .i32⟩ : BufTy).Contents (Elt F) → (⟨S6400000, .i32⟩ : BufTy).Contents (Elt F)),
    binary main_v16 main_v28 main_v29 (addi : (⟨S6400000, .i32⟩ : BufTy).Contents (Elt F) → (⟨S6400000, .i32⟩ : BufTy).Contents (Elt F) → (⟨S6400000, .i32⟩ : BufTy).Contents (Elt F)),
    ternary main_v27 main_v29 main_v16 main_v30 (select : (⟨S6400000, .i1⟩ : BufTy).Contents (Elt F) → (⟨S6400000, .i32⟩ : BufTy).Contents (Elt F) → (⟨S6400000, .i32⟩ : BufTy).Contents (Elt F) → (⟨S6400000, .i32⟩ : BufTy).Contents (Elt F)),
    unary main_v30 main_v31 (broadcastInDim S6400000x1 ![0] bcast_S6400000_S6400000x1_0 : (⟨S6400000, .i32⟩ : BufTy).Contents (Elt F) → (⟨S6400000x1, .i32⟩ : BufTy).Contents (Elt F)),
    binary main_v25 main_v31 main_v32 ((fun x i => Host.gather gather_S1600000_S6400000x1_S6400000_n_0_n_n_0_1_1 x i) : (⟨S1600000, .f32⟩ : BufTy).Contents (Elt F) → (⟨S6400000x1, .i32⟩ : BufTy).Contents (Elt F) → (⟨S6400000, .f32⟩ : BufTy).Contents (Elt F)),
    nullary main_c_5 (constantI S_ 32 0#32),
    unary main_c_5 main_v33 (broadcastInDim S6400000 ![] bcast_S_S6400000 : (⟨S_, .i32⟩ : BufTy).Contents (Elt F) → (⟨S6400000, .i32⟩ : BufTy).Contents (Elt F)),
    binary main_v17 main_v33 main_v34 (cmpi .slt : (⟨S6400000, .i32⟩ : BufTy).Contents (Elt F) → (⟨S6400000, .i32⟩ : BufTy).Contents (Elt F) → (⟨S6400000, .i1⟩ : BufTy).Contents (Elt F)),
    nullary main_c_6 (constantI S_ 32 1600000#32),
    unary main_c_6 main_v35 (broadcastInDim S6400000 ![] bcast_S_S6400000 : (⟨S_, .i32⟩ : BufTy).Contents (Elt F) → (⟨S6400000, .i32⟩ : BufTy).Contents (Elt F)),
    binary main_v17 main_v35 main_v36 (addi : (⟨S6400000, .i32⟩ : BufTy).Contents (Elt F) → (⟨S6400000, .i32⟩ : BufTy).Contents (Elt F) → (⟨S6400000, .i32⟩ : BufTy).Contents (Elt F)),
    ternary main_v34 main_v36 main_v17 main_v37 (select : (⟨S6400000, .i1⟩ : BufTy).Contents (Elt F) → (⟨S6400000, .i32⟩ : BufTy).Contents (Elt F) → (⟨S6400000, .i32⟩ : BufTy).Contents (Elt F) → (⟨S6400000, .i32⟩ : BufTy).Contents (Elt F)),
    unary main_v37 main_v38 (broadcastInDim S6400000x1 ![0] bcast_S6400000_S6400000x1_0 : (⟨S6400000, .i32⟩ : BufTy).Contents (Elt F) → (⟨S6400000x1, .i32⟩ : BufTy).Contents (Elt F)),
    binary main_v25 main_v38 main_v39 ((fun x i => Host.gather gather_S1600000_S6400000x1_S6400000_n_0_n_n_0_1_1 x i) : (⟨S1600000, .f32⟩ : BufTy).Contents (Elt F) → (⟨S6400000x1, .i32⟩ : BufTy).Contents (Elt F) → (⟨S6400000, .f32⟩ : BufTy).Contents (Elt F)),
    binary main_v32 main_v39 main_v40 (mulf : (⟨S6400000, .f32⟩ : BufTy).Contents (Elt F) → (⟨S6400000, .f32⟩ : BufTy).Contents (Elt F) → (⟨S6400000, .f32⟩ : BufTy).Contents (Elt F)),
    nullary main_c_7 (constantI S_ 32 0#32),
    unary main_c_7 main_v41 (broadcastInDim S6400000 ![] bcast_S_S6400000 : (⟨S_, .i32⟩ : BufTy).Contents (Elt F) → (⟨S6400000, .i32⟩ : BufTy).Contents (Elt F)),
    binary main_v16 main_v41 main_v42 (cmpi .slt : (⟨S6400000, .i32⟩ : BufTy).Contents (Elt F) → (⟨S6400000, .i32⟩ : BufTy).Contents (Elt F) → (⟨S6400000, .i1⟩ : BufTy).Contents (Elt F)),
    nullary main_c_8 (constantI S_ 32 1600000#32),
    unary main_c_8 main_v43 (broadcastInDim S6400000 ![] bcast_S_S6400000 : (⟨S_, .i32⟩ : BufTy).Contents (Elt F) → (⟨S6400000, .i32⟩ : BufTy).Contents (Elt F)),
    binary main_v16 main_v43 main_v44 (addi : (⟨S6400000, .i32⟩ : BufTy).Contents (Elt F) → (⟨S6400000, .i32⟩ : BufTy).Contents (Elt F) → (⟨S6400000, .i32⟩ : BufTy).Contents (Elt F)),
    ternary main_v42 main_v44 main_v16 main_v45 (select : (⟨S6400000, .i1⟩ : BufTy).Contents (Elt F) → (⟨S6400000, .i32⟩ : BufTy).Contents (Elt F) → (⟨S6400000, .i32⟩ : BufTy).Contents (Elt F) → (⟨S6400000, .i32⟩ : BufTy).Contents (Elt F)),
    unary main_v45 main_v46 (broadcastInDim S6400000x1 ![0] bcast_S6400000_S6400000x1_0 : (⟨S6400000, .i32⟩ : BufTy).Contents (Elt F) → (⟨S6400000x1, .i32⟩ : BufTy).Contents (Elt F)),
    binary main_v14 main_v46 main_v47 ((fun x i => Host.gather gather_S1600000x16_S6400000x1_S6400000x16_1_0_n_n_0_1_116 x i) : (⟨S1600000x16, .f32⟩ : BufTy).Contents (Elt F) → (⟨S6400000x1, .i32⟩ : BufTy).Contents (Elt F) → (⟨S6400000x16, .f32⟩ : BufTy).Contents (Elt F)),
    unary main_v40 main_v48 (broadcastInDim S6400000x1 ![0] bcast_S6400000_S6400000x1_0 : (⟨S6400000, .f32⟩ : BufTy).Contents (Elt F) → (⟨S6400000x1, .f32⟩ : BufTy).Contents (Elt F)),
    unary main_v48 main_v49 (broadcastInDim S6400000x16 ![0, 1] bcast_S6400000x1_S6400000x16_0_1 : (⟨S6400000x1, .f32⟩ : BufTy).Contents (Elt F) → (⟨S6400000x16, .f32⟩ : BufTy).Contents (Elt F)),
    binary main_v47 main_v49 main_v50 (mulf : (⟨S6400000x16, .f32⟩ : BufTy).Contents (Elt F) → (⟨S6400000x16, .f32⟩ : BufTy).Contents (Elt F) → (⟨S6400000x16, .f32⟩ : BufTy).Contents (Elt F)),
    nullary main_cst_9 (constant S_ .f32 0x00000000#32),
    unary main_cst_9 main_v51 (broadcastInDim S1600000x16 ![] bcast_S_S1600000x16 : (⟨S_, .f32⟩ : BufTy).Contents (Elt F) → (⟨S1600000x16, .f32⟩ : BufTy).Contents (Elt F)),
    unary main_v17 main_v52 (broadcastInDim S6400000x1 ![0] bcast_S6400000_S6400000x1_0 : (⟨S6400000, .i32⟩ : BufTy).Contents (Elt F) → (⟨S6400000x1, .i32⟩ : BufTy).Contents (Elt F)),
    ternary main_v51 main_v52 main_v50 main_v53 ((fun x i u => Host.scatterAdd scatter_S1600000x16_S6400000x1_S6400000x16_1_0_0_1 x i u) : (⟨S1600000x16, .f32⟩ : BufTy).Contents (Elt F) → (⟨S6400000x1, .i32⟩ : BufTy).Contents (Elt F) → (⟨S6400000x16, .f32⟩ : BufTy).Contents (Elt F) → (⟨S1600000x16, .f32⟩ : BufTy).Contents (Elt F)),
    unary main_arg4 main_v54 (broadcastInDim S1x16 ![1] bcast_S16_S1x16_1 : (⟨S16, .f32⟩ : BufTy).Contents (Elt F) → (⟨S1x16, .f32⟩ : BufTy).Contents (Elt F)),
    unary main_v54 main_v55 (broadcastInDim S1600000x16 ![0, 1] bcast_S1x16_S1600000x16_0_1 : (⟨S1x16, .f32⟩ : BufTy).Contents (Elt F) → (⟨S1600000x16, .f32⟩ : BufTy).Contents (Elt F)),
    binary main_v53 main_v55 main_v56 (addf : (⟨S1600000x16, .f32⟩ : BufTy).Contents (Elt F) → (⟨S1600000x16, .f32⟩ : BufTy).Contents (Elt F) → (⟨S1600000x16, .f32⟩ : BufTy).Contents (Elt F)),
    nullary main_cst_10 (constant S_ .f32 0x00000000#32),
    unary main_cst_10 main_v57 (broadcastInDim S1600000x16 ![] bcast_S_S1600000x16 : (⟨S_, .f32⟩ : BufTy).Contents (Elt F) → (⟨S1600000x16, .f32⟩ : BufTy).Contents (Elt F)),
    binary main_v56 main_v57 main_v58 (cmpf (F := F) .ogt : (⟨S1600000x16, .f32⟩ : BufTy).Contents (Elt F) → (⟨S1600000x16, .f32⟩ : BufTy).Contents (Elt F) → (⟨S1600000x16, .i1⟩ : BufTy).Contents (Elt F)),
    nullary main_cst_11 (constant S_ .f32 0x3C23D70A#32),
    unary main_cst_11 main_v59 (broadcastInDim S1600000x16 ![] bcast_S_S1600000x16 : (⟨S_, .f32⟩ : BufTy).Contents (Elt F) → (⟨S1600000x16, .f32⟩ : BufTy).Contents (Elt F)),
    binary main_v59 main_v56 main_v60 (mulf : (⟨S1600000x16, .f32⟩ : BufTy).Contents (Elt F) → (⟨S1600000x16, .f32⟩ : BufTy).Contents (Elt F) → (⟨S1600000x16, .f32⟩ : BufTy).Contents (Elt F)),
    TRef.ternary (TRef.of (T := ⟨S1600000x16, .i1⟩) main_v58) (TRef.of (T := ⟨S1600000x16, .f32⟩) main_v56) (TRef.of (T := ⟨S1600000x16, .f32⟩) main_v60) (TRef.of (T := ⟨S1600000x16, .f32⟩) main_v61) select,
    binary main_v61 main_arg5 main_v62 ((fun l r => Host.dotGeneral dot_S1600000x16_S16x16_S1600000x16_1_0_0_1_n_n none l r) : (⟨S1600000x16, .f32⟩ : BufTy).Contents (Elt F) → (⟨S16x16, .f32⟩ : BufTy).Contents (Elt F) → (⟨S1600000x16, .f32⟩ : BufTy).Contents (Elt F)) ]

/-- Operations 79 to 141 of @main. -/
abbrev part3 : List (HloOp τ sig (Elt F)) :=
  [ nullary main_v63 (iotaInDim S1600000 32 0),
    binary main_v10 main_v63 main_v64 ((fun a b => concatenate S6400000 0 [⟨S4800000, a⟩, ⟨S1600000, b⟩] concatenates_S4800000_S1600000_S6400000_d0) : (⟨S4800000, .i32⟩ : BufTy).Contents (Elt F) → (⟨S1600000, .i32⟩ : BufTy).Contents (Elt F) → (⟨S6400000, .i32⟩ : BufTy).Contents (Elt F)),
    binary main_v12 main_v63 main_v65 ((fun a b => concatenate S6400000 0 [⟨S4800000, a⟩, ⟨S1600000, b⟩] concatenates_S4800000_S1600000_S6400000_d0) : (⟨S4800000, .i32⟩ : BufTy).Contents (Elt F) → (⟨S1600000, .i32⟩ : BufTy).Contents (Elt F) → (⟨S6400000, .i32⟩ : BufTy).Contents (Elt F)),
    nullary main_cst_12 (constant S_ .f32 0x3F800000#32),
    unary main_cst_12 main_v66 (broadcastInDim S6400000 ![] bcast_S_S6400000 : (⟨S_, .f32⟩ : BufTy).Contents (Elt F) → (⟨S6400000, .f32⟩ : BufTy).Contents (Elt F)),
    nullary main_cst_13 (constant S_ .f32 0x00000000#32),
    unary main_cst_13 main_v67 (broadcastInDim S1600000 ![] bcast_S_S1600000 : (⟨S_, .f32⟩ : BufTy).Contents (Elt F) → (⟨S1600000, .f32⟩ : BufTy).Contents (Elt F)),
    unary main_v65 main_v68 (broadcastInDim S6400000x1 ![0] bcast_S6400000_S6400000x1_0 : (⟨S6400000, .i32⟩ : BufTy).Contents (Elt F) → (⟨S6400000x1, .i32⟩ : BufTy).Contents (Elt F)),
    ternary main_v67 main_v68 main_v66 main_v69 ((fun x i u => Host.scatterAdd scatter_S1600000_S6400000x1_S6400000_n_0_0_1 x i u) : (⟨S1600000, .f32⟩ : BufTy).Contents (Elt F) → (⟨S6400000x1, .i32⟩ : BufTy).Contents (Elt F) → (⟨S6400000, .f32⟩ : BufTy).Contents (Elt F) → (⟨S1600000, .f32⟩ : BufTy).Contents (Elt F)),
    nullary main_cst_14 (constant S_ .f32 0x00000000#32),
    unary main_cst_14 main_v70 (broadcastInDim S1600000 ![] bcast_S_S1600000 : (⟨S_, .f32⟩ : BufTy).Contents (Elt F) → (⟨S1600000, .f32⟩ : BufTy).Contents (Elt F)),
    binary main_v69 main_v70 main_v71 (cmpf (F := F) .ogt : (⟨S1600000, .f32⟩ : BufTy).Contents (Elt F) → (⟨S1600000, .f32⟩ : BufTy).Contents (Elt F) → (⟨S1600000, .i1⟩ : BufTy).Contents (Elt F)),
    unary main_v69 main_v72 (Host.rsqrt : (⟨S1600000, .f32⟩ : BufTy).Contents (Elt F) → (⟨S1600000, .f32⟩ : BufTy).Contents (Elt F)),
    nullary main_cst_15 (constant S_ .f32 0x00000000#32),
    TRef.unary (TRef.of (T := ⟨S_, .f32⟩) main_cst_15) (TRef.of (T := ⟨S_, .f32⟩) main_call2_v0) id,
    TRef.unary (TRef.of (T := ⟨S_, .f32⟩) main_call2_v0) (TRef.of (T := ⟨S1600000, .f32⟩) main_call2_v1) (broadcastInDim S1600000 ![] bcast_S_S1600000),
    TRef.ternary (TRef.of (T := ⟨S1600000, .i1⟩) main_v71) (TRef.of (T := ⟨S1600000, .f32⟩) main_v72) (TRef.of (T := ⟨S1600000, .f32⟩) main_call2_v1) (TRef.of (T := ⟨S1600000, .f32⟩) main_v73) select,
    nullary main_c_16 (constantI S_ 32 0#32),
    unary main_c_16 main_v74 (broadcastInDim S6400000 ![] bcast_S_S6400000 : (⟨S_, .i32⟩ : BufTy).Contents (Elt F) → (⟨S6400000, .i32⟩ : BufTy).Contents (Elt F)),
    binary main_v64 main_v74 main_v75 (cmpi .slt : (⟨S6400000, .i32⟩ : BufTy).Contents (Elt F) → (⟨S6400000, .i32⟩ : BufTy).Contents (Elt F) → (⟨S6400000, .i1⟩ : BufTy).Contents (Elt F)),
    nullary main_c_17 (constantI S_ 32 1600000#32),
    unary main_c_17 main_v76 (broadcastInDim S6400000 ![] bcast_S_S6400000 : (⟨S_, .i32⟩ : BufTy).Contents (Elt F) → (⟨S6400000, .i32⟩ : BufTy).Contents (Elt F)),
    binary main_v64 main_v76 main_v77 (addi : (⟨S6400000, .i32⟩ : BufTy).Contents (Elt F) → (⟨S6400000, .i32⟩ : BufTy).Contents (Elt F) → (⟨S6400000, .i32⟩ : BufTy).Contents (Elt F)),
    ternary main_v75 main_v77 main_v64 main_v78 (select : (⟨S6400000, .i1⟩ : BufTy).Contents (Elt F) → (⟨S6400000, .i32⟩ : BufTy).Contents (Elt F) → (⟨S6400000, .i32⟩ : BufTy).Contents (Elt F) → (⟨S6400000, .i32⟩ : BufTy).Contents (Elt F)),
    unary main_v78 main_v79 (broadcastInDim S6400000x1 ![0] bcast_S6400000_S6400000x1_0 : (⟨S6400000, .i32⟩ : BufTy).Contents (Elt F) → (⟨S6400000x1, .i32⟩ : BufTy).Contents (Elt F)),
    binary main_v73 main_v79 main_v80 ((fun x i => Host.gather gather_S1600000_S6400000x1_S6400000_n_0_n_n_0_1_1 x i) : (⟨S1600000, .f32⟩ : BufTy).Contents (Elt F) → (⟨S6400000x1, .i32⟩ : BufTy).Contents (Elt F) → (⟨S6400000, .f32⟩ : BufTy).Contents (Elt F)),
    nullary main_c_18 (constantI S_ 32 0#32),
    unary main_c_18 main_v81 (broadcastInDim S6400000 ![] bcast_S_S6400000 : (⟨S_, .i32⟩ : BufTy).Contents (Elt F) → (⟨S6400000, .i32⟩ : BufTy).Contents (Elt F)),
    binary main_v65 main_v81 main_v82 (cmpi .slt : (⟨S6400000, .i32⟩ : BufTy).Contents (Elt F) → (⟨S6400000, .i32⟩ : BufTy).Contents (Elt F) → (⟨S6400000, .i1⟩ : BufTy).Contents (Elt F)),
    nullary main_c_19 (constantI S_ 32 1600000#32),
    unary main_c_19 main_v83 (broadcastInDim S6400000 ![] bcast_S_S6400000 : (⟨S_, .i32⟩ : BufTy).Contents (Elt F) → (⟨S6400000, .i32⟩ : BufTy).Contents (Elt F)),
    binary main_v65 main_v83 main_v84 (addi : (⟨S6400000, .i32⟩ : BufTy).Contents (Elt F) → (⟨S6400000, .i32⟩ : BufTy).Contents (Elt F) → (⟨S6400000, .i32⟩ : BufTy).Contents (Elt F)),
    ternary main_v82 main_v84 main_v65 main_v85 (select : (⟨S6400000, .i1⟩ : BufTy).Contents (Elt F) → (⟨S6400000, .i32⟩ : BufTy).Contents (Elt F) → (⟨S6400000, .i32⟩ : BufTy).Contents (Elt F) → (⟨S6400000, .i32⟩ : BufTy).Contents (Elt F)),
    unary main_v85 main_v86 (broadcastInDim S6400000x1 ![0] bcast_S6400000_S6400000x1_0 : (⟨S6400000, .i32⟩ : BufTy).Contents (Elt F) → (⟨S6400000x1, .i32⟩ : BufTy).Contents (Elt F)),
    binary main_v73 main_v86 main_v87 ((fun x i => Host.gather gather_S1600000_S6400000x1_S6400000_n_0_n_n_0_1_1 x i) : (⟨S1600000, .f32⟩ : BufTy).Contents (Elt F) → (⟨S6400000x1, .i32⟩ : BufTy).Contents (Elt F) → (⟨S6400000, .f32⟩ : BufTy).Contents (Elt F)),
    binary main_v80 main_v87 main_v88 (mulf : (⟨S6400000, .f32⟩ : BufTy).Contents (Elt F) → (⟨S6400000, .f32⟩ : BufTy).Contents (Elt F) → (⟨S6400000, .f32⟩ : BufTy).Contents (Elt F)),
    nullary main_c_20 (constantI S_ 32 0#32),
    unary main_c_20 main_v89 (broadcastInDim S6400000 ![] bcast_S_S6400000 : (⟨S_, .i32⟩ : BufTy).Contents (Elt F) → (⟨S6400000, .i32⟩ : BufTy).Contents (Elt F)),
    binary main_v64 main_v89 main_v90 (cmpi .slt : (⟨S6400000, .i32⟩ : BufTy).Contents (Elt F) → (⟨S6400000, .i32⟩ : BufTy).Contents (Elt F) → (⟨S6400000, .i1⟩ : BufTy).Contents (Elt F)),
    nullary main_c_21 (constantI S_ 32 1600000#32),
    unary main_c_21 main_v91 (broadcastInDim S6400000 ![] bcast_S_S6400000 : (⟨S_, .i32⟩ : BufTy).Contents (Elt F) → (⟨S6400000, .i32⟩ : BufTy).Contents (Elt F)),
    binary main_v64 main_v91 main_v92 (addi : (⟨S6400000, .i32⟩ : BufTy).Contents (Elt F) → (⟨S6400000, .i32⟩ : BufTy).Contents (Elt F) → (⟨S6400000, .i32⟩ : BufTy).Contents (Elt F)),
    ternary main_v90 main_v92 main_v64 main_v93 (select : (⟨S6400000, .i1⟩ : BufTy).Contents (Elt F) → (⟨S6400000, .i32⟩ : BufTy).Contents (Elt F) → (⟨S6400000, .i32⟩ : BufTy).Contents (Elt F) → (⟨S6400000, .i32⟩ : BufTy).Contents (Elt F)),
    unary main_v93 main_v94 (broadcastInDim S6400000x1 ![0] bcast_S6400000_S6400000x1_0 : (⟨S6400000, .i32⟩ : BufTy).Contents (Elt F) → (⟨S6400000x1, .i32⟩ : BufTy).Contents (Elt F)),
    binary main_v62 main_v94 main_v95 ((fun x i => Host.gather gather_S1600000x16_S6400000x1_S6400000x16_1_0_n_n_0_1_116 x i) : (⟨S1600000x16, .f32⟩ : BufTy).Contents (Elt F) → (⟨S6400000x1, .i32⟩ : BufTy).Contents (Elt F) → (⟨S6400000x16, .f32⟩ : BufTy).Contents (Elt F)),
    unary main_v88 main_v96 (broadcastInDim S6400000x1 ![0] bcast_S6400000_S6400000x1_0 : (⟨S6400000, .f32⟩ : BufTy).Contents (Elt F) → (⟨S6400000x1, .f32⟩ : BufTy).Contents (Elt F)),
    unary main_v96 main_v97 (broadcastInDim S6400000x16 ![0, 1] bcast_S6400000x1_S6400000x16_0_1 : (⟨S6400000x1, .f32⟩ : BufTy).Contents (Elt F) → (⟨S6400000x16, .f32⟩ : BufTy).Contents (Elt F)),
    binary main_v95 main_v97 main_v98 (mulf : (⟨S6400000x16, .f32⟩ : BufTy).Contents (Elt F) → (⟨S6400000x16, .f32⟩ : BufTy).Contents (Elt F) → (⟨S6400000x16, .f32⟩ : BufTy).Contents (Elt F)),
    nullary main_cst_22 (constant S_ .f32 0x00000000#32),
    unary main_cst_22 main_v99 (broadcastInDim S1600000x16 ![] bcast_S_S1600000x16 : (⟨S_, .f32⟩ : BufTy).Contents (Elt F) → (⟨S1600000x16, .f32⟩ : BufTy).Contents (Elt F)),
    unary main_v65 main_v100 (broadcastInDim S6400000x1 ![0] bcast_S6400000_S6400000x1_0 : (⟨S6400000, .i32⟩ : BufTy).Contents (Elt F) → (⟨S6400000x1, .i32⟩ : BufTy).Contents (Elt F)),
    ternary main_v99 main_v100 main_v98 main_v101 ((fun x i u => Host.scatterAdd scatter_S1600000x16_S6400000x1_S6400000x16_1_0_0_1 x i u) : (⟨S1600000x16, .f32⟩ : BufTy).Contents (Elt F) → (⟨S6400000x1, .i32⟩ : BufTy).Contents (Elt F) → (⟨S6400000x16, .f32⟩ : BufTy).Contents (Elt F) → (⟨S1600000x16, .f32⟩ : BufTy).Contents (Elt F)),
    unary main_arg6 main_v102 (broadcastInDim S1x16 ![1] bcast_S16_S1x16_1 : (⟨S16, .f32⟩ : BufTy).Contents (Elt F) → (⟨S1x16, .f32⟩ : BufTy).Contents (Elt F)),
    unary main_v102 main_v103 (broadcastInDim S1600000x16 ![0, 1] bcast_S1x16_S1600000x16_0_1 : (⟨S1x16, .f32⟩ : BufTy).Contents (Elt F) → (⟨S1600000x16, .f32⟩ : BufTy).Contents (Elt F)),
    binary main_v101 main_v103 main_v104 (addf : (⟨S1600000x16, .f32⟩ : BufTy).Contents (Elt F) → (⟨S1600000x16, .f32⟩ : BufTy).Contents (Elt F) → (⟨S1600000x16, .f32⟩ : BufTy).Contents (Elt F)),
    nullary main_cst_23 (constant S_ .f32 0x00000000#32),
    unary main_cst_23 main_v105 (broadcastInDim S1600000x16 ![] bcast_S_S1600000x16 : (⟨S_, .f32⟩ : BufTy).Contents (Elt F) → (⟨S1600000x16, .f32⟩ : BufTy).Contents (Elt F)),
    binary main_v104 main_v105 main_v106 (cmpf (F := F) .ogt : (⟨S1600000x16, .f32⟩ : BufTy).Contents (Elt F) → (⟨S1600000x16, .f32⟩ : BufTy).Contents (Elt F) → (⟨S1600000x16, .i1⟩ : BufTy).Contents (Elt F)),
    nullary main_cst_24 (constant S_ .f32 0x3C23D70A#32),
    unary main_cst_24 main_v107 (broadcastInDim S1600000x16 ![] bcast_S_S1600000x16 : (⟨S_, .f32⟩ : BufTy).Contents (Elt F) → (⟨S1600000x16, .f32⟩ : BufTy).Contents (Elt F)),
    binary main_v107 main_v104 main_v108 (mulf : (⟨S1600000x16, .f32⟩ : BufTy).Contents (Elt F) → (⟨S1600000x16, .f32⟩ : BufTy).Contents (Elt F) → (⟨S1600000x16, .f32⟩ : BufTy).Contents (Elt F)),
    TRef.ternary (TRef.of (T := ⟨S1600000x16, .i1⟩) main_v106) (TRef.of (T := ⟨S1600000x16, .f32⟩) main_v104) (TRef.of (T := ⟨S1600000x16, .f32⟩) main_v108) (TRef.of (T := ⟨S1600000x16, .f32⟩) main_v109) select,
    binary main_v109 main_arg7 main_v110 ((fun l r => Host.dotGeneral dot_S1600000x16_S16x3_S1600000x3_1_0_0_1_n_n none l r) : (⟨S1600000x16, .f32⟩ : BufTy).Contents (Elt F) → (⟨S16x3, .f32⟩ : BufTy).Contents (Elt F) → (⟨S1600000x3, .f32⟩ : BufTy).Contents (Elt F)) ]

/-- Operations 142 to 198 of @main. -/
abbrev part4 : List (HloOp τ sig (Elt F)) :=
  [ nullary main_v111 (iotaInDim S1600000 32 0),
    binary main_v10 main_v111 main_v112 ((fun a b => concatenate S6400000 0 [⟨S4800000, a⟩, ⟨S1600000, b⟩] concatenates_S4800000_S1600000_S6400000_d0) : (⟨S4800000, .i32⟩ : BufTy).Contents (Elt F) → (⟨S1600000, .i32⟩ : BufTy).Contents (Elt F) → (⟨S6400000, .i32⟩ : BufTy).Contents (Elt F)),
    binary main_v12 main_v111 main_v113 ((fun a b => concatenate S6400000 0 [⟨S4800000, a⟩, ⟨S1600000, b⟩] concatenates_S4800000_S1600000_S6400000_d0) : (⟨S4800000, .i32⟩ : BufTy).Contents (Elt F) → (⟨S1600000, .i32⟩ : BufTy).Contents (Elt F) → (⟨S6400000, .i32⟩ : BufTy).Contents (Elt F)),
    nullary main_cst_25 (constant S_ .f32 0x3F800000#32),
    unary main_cst_25 main_v114 (broadcastInDim S6400000 ![] bcast_S_S6400000 : (⟨S_, .f32⟩ : BufTy).Contents (Elt F) → (⟨S6400000, .f32⟩ : BufTy).Contents (Elt F)),
    nullary main_cst_26 (constant S_ .f32 0x00000000#32),
    unary main_cst_26 main_v115 (broadcastInDim S1600000 ![] bcast_S_S1600000 : (⟨S_, .f32⟩ : BufTy).Contents (Elt F) → (⟨S1600000, .f32⟩ : BufTy).Contents (Elt F)),
    unary main_v113 main_v116 (broadcastInDim S6400000x1 ![0] bcast_S6400000_S6400000x1_0 : (⟨S6400000, .i32⟩ : BufTy).Contents (Elt F) → (⟨S6400000x1, .i32⟩ : BufTy).Contents (Elt F)),
    ternary main_v115 main_v116 main_v114 main_v117 ((fun x i u => Host.scatterAdd scatter_S1600000_S6400000x1_S6400000_n_0_0_1 x i u) : (⟨S1600000, .f32⟩ : BufTy).Contents (Elt F) → (⟨S6400000x1, .i32⟩ : BufTy).Contents (Elt F) → (⟨S6400000, .f32⟩ : BufTy).Contents (Elt F) → (⟨S1600000, .f32⟩ : BufTy).Contents (Elt F)),
    nullary main_cst_27 (constant S_ .f32 0x00000000#32),
    unary main_cst_27 main_v118 (broadcastInDim S1600000 ![] bcast_S_S1600000 : (⟨S_, .f32⟩ : BufTy).Contents (Elt F) → (⟨S1600000, .f32⟩ : BufTy).Contents (Elt F)),
    binary main_v117 main_v118 main_v119 (cmpf (F := F) .ogt : (⟨S1600000, .f32⟩ : BufTy).Contents (Elt F) → (⟨S1600000, .f32⟩ : BufTy).Contents (Elt F) → (⟨S1600000, .i1⟩ : BufTy).Contents (Elt F)),
    unary main_v117 main_v120 (Host.rsqrt : (⟨S1600000, .f32⟩ : BufTy).Contents (Elt F) → (⟨S1600000, .f32⟩ : BufTy).Contents (Elt F)),
    nullary main_cst_28 (constant S_ .f32 0x00000000#32),
    TRef.unary (TRef.of (T := ⟨S_, .f32⟩) main_cst_28) (TRef.of (T := ⟨S_, .f32⟩) main_call4_v0) id,
    TRef.unary (TRef.of (T := ⟨S_, .f32⟩) main_call4_v0) (TRef.of (T := ⟨S1600000, .f32⟩) main_call4_v1) (broadcastInDim S1600000 ![] bcast_S_S1600000),
    TRef.ternary (TRef.of (T := ⟨S1600000, .i1⟩) main_v119) (TRef.of (T := ⟨S1600000, .f32⟩) main_v120) (TRef.of (T := ⟨S1600000, .f32⟩) main_call4_v1) (TRef.of (T := ⟨S1600000, .f32⟩) main_v121) select,
    nullary main_c_29 (constantI S_ 32 0#32),
    unary main_c_29 main_v122 (broadcastInDim S6400000 ![] bcast_S_S6400000 : (⟨S_, .i32⟩ : BufTy).Contents (Elt F) → (⟨S6400000, .i32⟩ : BufTy).Contents (Elt F)),
    binary main_v112 main_v122 main_v123 (cmpi .slt : (⟨S6400000, .i32⟩ : BufTy).Contents (Elt F) → (⟨S6400000, .i32⟩ : BufTy).Contents (Elt F) → (⟨S6400000, .i1⟩ : BufTy).Contents (Elt F)),
    nullary main_c_30 (constantI S_ 32 1600000#32),
    unary main_c_30 main_v124 (broadcastInDim S6400000 ![] bcast_S_S6400000 : (⟨S_, .i32⟩ : BufTy).Contents (Elt F) → (⟨S6400000, .i32⟩ : BufTy).Contents (Elt F)),
    binary main_v112 main_v124 main_v125 (addi : (⟨S6400000, .i32⟩ : BufTy).Contents (Elt F) → (⟨S6400000, .i32⟩ : BufTy).Contents (Elt F) → (⟨S6400000, .i32⟩ : BufTy).Contents (Elt F)),
    ternary main_v123 main_v125 main_v112 main_v126 (select : (⟨S6400000, .i1⟩ : BufTy).Contents (Elt F) → (⟨S6400000, .i32⟩ : BufTy).Contents (Elt F) → (⟨S6400000, .i32⟩ : BufTy).Contents (Elt F) → (⟨S6400000, .i32⟩ : BufTy).Contents (Elt F)),
    unary main_v126 main_v127 (broadcastInDim S6400000x1 ![0] bcast_S6400000_S6400000x1_0 : (⟨S6400000, .i32⟩ : BufTy).Contents (Elt F) → (⟨S6400000x1, .i32⟩ : BufTy).Contents (Elt F)),
    binary main_v121 main_v127 main_v128 ((fun x i => Host.gather gather_S1600000_S6400000x1_S6400000_n_0_n_n_0_1_1 x i) : (⟨S1600000, .f32⟩ : BufTy).Contents (Elt F) → (⟨S6400000x1, .i32⟩ : BufTy).Contents (Elt F) → (⟨S6400000, .f32⟩ : BufTy).Contents (Elt F)),
    nullary main_c_31 (constantI S_ 32 0#32),
    unary main_c_31 main_v129 (broadcastInDim S6400000 ![] bcast_S_S6400000 : (⟨S_, .i32⟩ : BufTy).Contents (Elt F) → (⟨S6400000, .i32⟩ : BufTy).Contents (Elt F)),
    binary main_v113 main_v129 main_v130 (cmpi .slt : (⟨S6400000, .i32⟩ : BufTy).Contents (Elt F) → (⟨S6400000, .i32⟩ : BufTy).Contents (Elt F) → (⟨S6400000, .i1⟩ : BufTy).Contents (Elt F)),
    nullary main_c_32 (constantI S_ 32 1600000#32),
    unary main_c_32 main_v131 (broadcastInDim S6400000 ![] bcast_S_S6400000 : (⟨S_, .i32⟩ : BufTy).Contents (Elt F) → (⟨S6400000, .i32⟩ : BufTy).Contents (Elt F)),
    binary main_v113 main_v131 main_v132 (addi : (⟨S6400000, .i32⟩ : BufTy).Contents (Elt F) → (⟨S6400000, .i32⟩ : BufTy).Contents (Elt F) → (⟨S6400000, .i32⟩ : BufTy).Contents (Elt F)),
    ternary main_v130 main_v132 main_v113 main_v133 (select : (⟨S6400000, .i1⟩ : BufTy).Contents (Elt F) → (⟨S6400000, .i32⟩ : BufTy).Contents (Elt F) → (⟨S6400000, .i32⟩ : BufTy).Contents (Elt F) → (⟨S6400000, .i32⟩ : BufTy).Contents (Elt F)),
    unary main_v133 main_v134 (broadcastInDim S6400000x1 ![0] bcast_S6400000_S6400000x1_0 : (⟨S6400000, .i32⟩ : BufTy).Contents (Elt F) → (⟨S6400000x1, .i32⟩ : BufTy).Contents (Elt F)),
    binary main_v121 main_v134 main_v135 ((fun x i => Host.gather gather_S1600000_S6400000x1_S6400000_n_0_n_n_0_1_1 x i) : (⟨S1600000, .f32⟩ : BufTy).Contents (Elt F) → (⟨S6400000x1, .i32⟩ : BufTy).Contents (Elt F) → (⟨S6400000, .f32⟩ : BufTy).Contents (Elt F)),
    binary main_v128 main_v135 main_v136 (mulf : (⟨S6400000, .f32⟩ : BufTy).Contents (Elt F) → (⟨S6400000, .f32⟩ : BufTy).Contents (Elt F) → (⟨S6400000, .f32⟩ : BufTy).Contents (Elt F)),
    nullary main_c_33 (constantI S_ 32 0#32),
    unary main_c_33 main_v137 (broadcastInDim S6400000 ![] bcast_S_S6400000 : (⟨S_, .i32⟩ : BufTy).Contents (Elt F) → (⟨S6400000, .i32⟩ : BufTy).Contents (Elt F)),
    binary main_v112 main_v137 main_v138 (cmpi .slt : (⟨S6400000, .i32⟩ : BufTy).Contents (Elt F) → (⟨S6400000, .i32⟩ : BufTy).Contents (Elt F) → (⟨S6400000, .i1⟩ : BufTy).Contents (Elt F)),
    nullary main_c_34 (constantI S_ 32 1600000#32),
    unary main_c_34 main_v139 (broadcastInDim S6400000 ![] bcast_S_S6400000 : (⟨S_, .i32⟩ : BufTy).Contents (Elt F) → (⟨S6400000, .i32⟩ : BufTy).Contents (Elt F)),
    binary main_v112 main_v139 main_v140 (addi : (⟨S6400000, .i32⟩ : BufTy).Contents (Elt F) → (⟨S6400000, .i32⟩ : BufTy).Contents (Elt F) → (⟨S6400000, .i32⟩ : BufTy).Contents (Elt F)),
    ternary main_v138 main_v140 main_v112 main_v141 (select : (⟨S6400000, .i1⟩ : BufTy).Contents (Elt F) → (⟨S6400000, .i32⟩ : BufTy).Contents (Elt F) → (⟨S6400000, .i32⟩ : BufTy).Contents (Elt F) → (⟨S6400000, .i32⟩ : BufTy).Contents (Elt F)),
    unary main_v141 main_v142 (broadcastInDim S6400000x1 ![0] bcast_S6400000_S6400000x1_0 : (⟨S6400000, .i32⟩ : BufTy).Contents (Elt F) → (⟨S6400000x1, .i32⟩ : BufTy).Contents (Elt F)),
    binary main_v110 main_v142 main_v143 ((fun x i => Host.gather gather_S1600000x3_S6400000x1_S6400000x3_1_0_n_n_0_1_13 x i) : (⟨S1600000x3, .f32⟩ : BufTy).Contents (Elt F) → (⟨S6400000x1, .i32⟩ : BufTy).Contents (Elt F) → (⟨S6400000x3, .f32⟩ : BufTy).Contents (Elt F)),
    unary main_v136 main_v144 (broadcastInDim S6400000x1 ![0] bcast_S6400000_S6400000x1_0 : (⟨S6400000, .f32⟩ : BufTy).Contents (Elt F) → (⟨S6400000x1, .f32⟩ : BufTy).Contents (Elt F)),
    unary main_v144 main_v145 (broadcastInDim S6400000x3 ![0, 1] bcast_S6400000x1_S6400000x3_0_1 : (⟨S6400000x1, .f32⟩ : BufTy).Contents (Elt F) → (⟨S6400000x3, .f32⟩ : BufTy).Contents (Elt F)),
    binary main_v143 main_v145 main_v146 (mulf : (⟨S6400000x3, .f32⟩ : BufTy).Contents (Elt F) → (⟨S6400000x3, .f32⟩ : BufTy).Contents (Elt F) → (⟨S6400000x3, .f32⟩ : BufTy).Contents (Elt F)),
    nullary main_cst_35 (constant S_ .f32 0x00000000#32),
    unary main_cst_35 main_v147 (broadcastInDim S1600000x3 ![] bcast_S_S1600000x3 : (⟨S_, .f32⟩ : BufTy).Contents (Elt F) → (⟨S1600000x3, .f32⟩ : BufTy).Contents (Elt F)),
    unary main_v113 main_v148 (broadcastInDim S6400000x1 ![0] bcast_S6400000_S6400000x1_0 : (⟨S6400000, .i32⟩ : BufTy).Contents (Elt F) → (⟨S6400000x1, .i32⟩ : BufTy).Contents (Elt F)),
    ternary main_v147 main_v148 main_v146 main_v149 ((fun x i u => Host.scatterAdd scatter_S1600000x3_S6400000x1_S6400000x3_1_0_0_1 x i u) : (⟨S1600000x3, .f32⟩ : BufTy).Contents (Elt F) → (⟨S6400000x1, .i32⟩ : BufTy).Contents (Elt F) → (⟨S6400000x3, .f32⟩ : BufTy).Contents (Elt F) → (⟨S1600000x3, .f32⟩ : BufTy).Contents (Elt F)),
    unary main_arg8 main_v150 (broadcastInDim S1x3 ![1] bcast_S3_S1x3_1 : (⟨S3, .f32⟩ : BufTy).Contents (Elt F) → (⟨S1x3, .f32⟩ : BufTy).Contents (Elt F)),
    unary main_v150 main_v151 (broadcastInDim S1600000x3 ![0, 1] bcast_S1x3_S1600000x3_0_1 : (⟨S1x3, .f32⟩ : BufTy).Contents (Elt F) → (⟨S1600000x3, .f32⟩ : BufTy).Contents (Elt F)),
    binary main_v149 main_v151 main_v152 (addf : (⟨S1600000x3, .f32⟩ : BufTy).Contents (Elt F) → (⟨S1600000x3, .f32⟩ : BufTy).Contents (Elt F) → (⟨S1600000x3, .f32⟩ : BufTy).Contents (Elt F)),
    binary main_v13 main_v152 main_v153 (addf : (⟨S1600000x3, .f32⟩ : BufTy).Contents (Elt F) → (⟨S1600000x3, .f32⟩ : BufTy).Contents (Elt F) → (⟨S1600000x3, .f32⟩ : BufTy).Contents (Elt F)),
    reshape main_v153 main_v154 rfl shapeCasts_S1600000x3_S16x100000x3 ]

/-- Operations 199 to 215 of @main. -/
abbrev part5 : List (HloOp τ sig (Elt F)) :=
  [ nullary main_c_36 (constantI S_ 32 0#32),
    unary main_c_36 main_v155 (broadcastInDim S300000x2 ![] bcast_S_S300000x2 : (⟨S_, .i32⟩ : BufTy).Contents (Elt F) → (⟨S300000x2, .i32⟩ : BufTy).Contents (Elt F)),
    binary main_arg1 main_v155 main_v156 (cmpi .slt : (⟨S300000x2, .i32⟩ : BufTy).Contents (Elt F) → (⟨S300000x2, .i32⟩ : BufTy).Contents (Elt F) → (⟨S300000x2, .i1⟩ : BufTy).Contents (Elt F)),
    nullary main_c_37 (constantI S_ 32 100000#32),
    unary main_c_37 main_v157 (broadcastInDim S300000x2 ![] bcast_S_S300000x2 : (⟨S_, .i32⟩ : BufTy).Contents (Elt F) → (⟨S300000x2, .i32⟩ : BufTy).Contents (Elt F)),
    binary main_arg1 main_v157 main_v158 (addi : (⟨S300000x2, .i32⟩ : BufTy).Contents (Elt F) → (⟨S300000x2, .i32⟩ : BufTy).Contents (Elt F) → (⟨S300000x2, .i32⟩ : BufTy).Contents (Elt F)),
    ternary main_v156 main_v158 main_arg1 main_v159 (select : (⟨S300000x2, .i1⟩ : BufTy).Contents (Elt F) → (⟨S300000x2, .i32⟩ : BufTy).Contents (Elt F) → (⟨S300000x2, .i32⟩ : BufTy).Contents (Elt F) → (⟨S300000x2, .i32⟩ : BufTy).Contents (Elt F)),
    unary main_v159 main_v160 (broadcastInDim S300000x2x1 ![0, 1] bcast_S300000x2_S300000x2x1_0_1 : (⟨S300000x2, .i32⟩ : BufTy).Contents (Elt F) → (⟨S300000x2x1, .i32⟩ : BufTy).Contents (Elt F)),
    binary main_v154 main_v160 main_v161 ((fun x i => Host.gather gather_S16x100000x3_S300000x2x1_S16x300000x2x3_03_1_n_n_1_2_1613 x i) : (⟨S16x100000x3, .f32⟩ : BufTy).Contents (Elt F) → (⟨S300000x2x1, .i32⟩ : BufTy).Contents (Elt F) → (⟨S16x300000x2x3, .f32⟩ : BufTy).Contents (Elt F)),
    nullary main_cst_38 (constant S_ .f32 0x00000000#32),
    binary main_v161 main_cst_38 main_v162 ((fun x v => Host.reduceAdd x v reducesTo_S16x300000x2x3_S16x300000x3_d2 h_S_) : (⟨S16x300000x2x3, .f32⟩ : BufTy).Contents (Elt F) → (⟨S_, .f32⟩ : BufTy).Contents (Elt F) → (⟨S16x300000x3, .f32⟩ : BufTy).Contents (Elt F)),
    nullary main_cst_39 (constant S_ .f32 0x40000000#32),
    unary main_cst_39 main_v163 (broadcastInDim S16x300000x3 ![] bcast_S_S16x300000x3 : (⟨S_, .f32⟩ : BufTy).Contents (Elt F) → (⟨S16x300000x3, .f32⟩ : BufTy).Contents (Elt F)),
    binary main_v162 main_v163 main_v164 (Host.divf : (⟨S16x300000x3, .f32⟩ : BufTy).Contents (Elt F) → (⟨S16x300000x3, .f32⟩ : BufTy).Contents (Elt F) → (⟨S16x300000x3, .f32⟩ : BufTy).Contents (Elt F)),
    binary main_v154 main_v164 main_v165 ((fun a b => concatenate S16x400000x3 1 [⟨S16x100000x3, a⟩, ⟨S16x300000x3, b⟩] concatenates_S16x100000x3_S16x300000x3_S16x400000x3_d1) : (⟨S16x100000x3, .f32⟩ : BufTy).Contents (Elt F) → (⟨S16x300000x3, .f32⟩ : BufTy).Contents (Elt F) → (⟨S16x400000x3, .f32⟩ : BufTy).Contents (Elt F)),
    unary main_arg2 main_v166 (broadcastInDim S1x800000x3 ![1, 2] bcast_S800000x3_S1x800000x3_1_2 : (⟨S800000x3, .i32⟩ : BufTy).Contents (Elt F) → (⟨S1x800000x3, .i32⟩ : BufTy).Contents (Elt F)),
    unary main_v166 main_v167 (broadcastInDim S16x800000x3 ![0, 1, 2] bcast_S1x800000x3_S16x800000x3_0_1_2 : (⟨S1x800000x3, .i32⟩ : BufTy).Contents (Elt F) → (⟨S16x800000x3, .i32⟩ : BufTy).Contents (Elt F)) ]

set_option maxRecDepth 65536 in
/-- The line is its five parts in order. -/
theorem ops_split : (ops : List (HloOp τ sig (Elt F))) = part1 ++ (part2 ++ (part3 ++ (part4 ++ part5))) := rfl

/-- A buffer no operation of a list writes keeps its contents: each operation's written buffer is another one. -/
macro "keep_part " ops:ident : tactic => `(tactic|
  exact StableHlo.after_of_forall_not_mem _ _ (List.forall_iff_forall_mem.mp (by
    simp only [$ops:ident, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

/-! ## What passes through a part -/

theorem k1_main_arg1 (V : Valuation τ sig (Elt F)) : StableHlo.after (part1 (F := F)) V (Proc.devRef .tc main_arg1) = V (Proc.devRef .tc main_arg1) := by
  keep_part part1
theorem k1_main_arg2 (V : Valuation τ sig (Elt F)) : StableHlo.after (part1 (F := F)) V (Proc.devRef .tc main_arg2) = V (Proc.devRef .tc main_arg2) := by
  keep_part part1
theorem k1_main_arg4 (V : Valuation τ sig (Elt F)) : StableHlo.after (part1 (F := F)) V (Proc.devRef .tc main_arg4) = V (Proc.devRef .tc main_arg4) := by
  keep_part part1
theorem k1_main_arg5 (V : Valuation τ sig (Elt F)) : StableHlo.after (part1 (F := F)) V (Proc.devRef .tc main_arg5) = V (Proc.devRef .tc main_arg5) := by
  keep_part part1
theorem k1_main_arg6 (V : Valuation τ sig (Elt F)) : StableHlo.after (part1 (F := F)) V (Proc.devRef .tc main_arg6) = V (Proc.devRef .tc main_arg6) := by
  keep_part part1
theorem k1_main_arg7 (V : Valuation τ sig (Elt F)) : StableHlo.after (part1 (F := F)) V (Proc.devRef .tc main_arg7) = V (Proc.devRef .tc main_arg7) := by
  keep_part part1
theorem k1_main_arg8 (V : Valuation τ sig (Elt F)) : StableHlo.after (part1 (F := F)) V (Proc.devRef .tc main_arg8) = V (Proc.devRef .tc main_arg8) := by
  keep_part part1
theorem k2_main_v10 (V : Valuation τ sig (Elt F)) : StableHlo.after (part2 (F := F)) V (Proc.devRef .tc main_v10) = V (Proc.devRef .tc main_v10) := by
  keep_part part2
theorem k2_main_v12 (V : Valuation τ sig (Elt F)) : StableHlo.after (part2 (F := F)) V (Proc.devRef .tc main_v12) = V (Proc.devRef .tc main_v12) := by
  keep_part part2
theorem k2_main_v13 (V : Valuation τ sig (Elt F)) : StableHlo.after (part2 (F := F)) V (Proc.devRef .tc main_v13) = V (Proc.devRef .tc main_v13) := by
  keep_part part2
theorem k2_main_arg1 (V : Valuation τ sig (Elt F)) : StableHlo.after (part2 (F := F)) V (Proc.devRef .tc main_arg1) = V (Proc.devRef .tc main_arg1) := by
  keep_part part2
theorem k2_main_arg2 (V : Valuation τ sig (Elt F)) : StableHlo.after (part2 (F := F)) V (Proc.devRef .tc main_arg2) = V (Proc.devRef .tc main_arg2) := by
  keep_part part2
theorem k2_main_arg6 (V : Valuation τ sig (Elt F)) : StableHlo.after (part2 (F := F)) V (Proc.devRef .tc main_arg6) = V (Proc.devRef .tc main_arg6) := by
  keep_part part2
theorem k2_main_arg7 (V : Valuation τ sig (Elt F)) : StableHlo.after (part2 (F := F)) V (Proc.devRef .tc main_arg7) = V (Proc.devRef .tc main_arg7) := by
  keep_part part2
theorem k2_main_arg8 (V : Valuation τ sig (Elt F)) : StableHlo.after (part2 (F := F)) V (Proc.devRef .tc main_arg8) = V (Proc.devRef .tc main_arg8) := by
  keep_part part2
theorem k3_main_v10 (V : Valuation τ sig (Elt F)) : StableHlo.after (part3 (F := F)) V (Proc.devRef .tc main_v10) = V (Proc.devRef .tc main_v10) := by
  keep_part part3
theorem k3_main_v12 (V : Valuation τ sig (Elt F)) : StableHlo.after (part3 (F := F)) V (Proc.devRef .tc main_v12) = V (Proc.devRef .tc main_v12) := by
  keep_part part3
theorem k3_main_v13 (V : Valuation τ sig (Elt F)) : StableHlo.after (part3 (F := F)) V (Proc.devRef .tc main_v13) = V (Proc.devRef .tc main_v13) := by
  keep_part part3
theorem k3_main_arg1 (V : Valuation τ sig (Elt F)) : StableHlo.after (part3 (F := F)) V (Proc.devRef .tc main_arg1) = V (Proc.devRef .tc main_arg1) := by
  keep_part part3
theorem k3_main_arg2 (V : Valuation τ sig (Elt F)) : StableHlo.after (part3 (F := F)) V (Proc.devRef .tc main_arg2) = V (Proc.devRef .tc main_arg2) := by
  keep_part part3
theorem k3_main_arg8 (V : Valuation τ sig (Elt F)) : StableHlo.after (part3 (F := F)) V (Proc.devRef .tc main_arg8) = V (Proc.devRef .tc main_arg8) := by
  keep_part part3
theorem k4_main_arg1 (V : Valuation τ sig (Elt F)) : StableHlo.after (part4 (F := F)) V (Proc.devRef .tc main_arg1) = V (Proc.devRef .tc main_arg1) := by
  keep_part part4
theorem k4_main_arg2 (V : Valuation τ sig (Elt F)) : StableHlo.after (part4 (F := F)) V (Proc.devRef .tc main_arg2) = V (Proc.devRef .tc main_arg2) := by
  keep_part part4

/-! ## What passes through the whole line -/

set_option maxRecDepth 65536 in
/-- Argument 0 is written by no operation. -/
theorem kept0 (W : Valuation τ sig (Elt F)) : StableHlo.after (ops (F := F)) W (Proc.devRef .tc main_arg0) = W (Proc.devRef .tc main_arg0) := by
  keep_part ops

set_option maxRecDepth 65536 in
/-- Argument 1 is written by no operation. -/
theorem kept1 (W : Valuation τ sig (Elt F)) : StableHlo.after (ops (F := F)) W (Proc.devRef .tc main_arg1) = W (Proc.devRef .tc main_arg1) := by
  keep_part ops

set_option maxRecDepth 65536 in
/-- Argument 2 is written by no operation. -/
theorem kept2 (W : Valuation τ sig (Elt F)) : StableHlo.after (ops (F := F)) W (Proc.devRef .tc main_arg2) = W (Proc.devRef .tc main_arg2) := by
  keep_part ops

set_option maxRecDepth 65536 in
/-- Argument 3 is written by no operation. -/
theorem kept3 (W : Valuation τ sig (Elt F)) : StableHlo.after (ops (F := F)) W (Proc.devRef .tc main_arg3) = W (Proc.devRef .tc main_arg3) := by
  keep_part ops

set_option maxRecDepth 65536 in
/-- Argument 4 is written by no operation. -/
theorem kept4 (W : Valuation τ sig (Elt F)) : StableHlo.after (ops (F := F)) W (Proc.devRef .tc main_arg4) = W (Proc.devRef .tc main_arg4) := by
  keep_part ops

set_option maxRecDepth 65536 in
/-- Argument 5 is written by no operation. -/
theorem kept5 (W : Valuation τ sig (Elt F)) : StableHlo.after (ops (F := F)) W (Proc.devRef .tc main_arg5) = W (Proc.devRef .tc main_arg5) := by
  keep_part ops

set_option maxRecDepth 65536 in
/-- Argument 6 is written by no operation. -/
theorem kept6 (W : Valuation τ sig (Elt F)) : StableHlo.after (ops (F := F)) W (Proc.devRef .tc main_arg6) = W (Proc.devRef .tc main_arg6) := by
  keep_part ops

set_option maxRecDepth 65536 in
/-- Argument 7 is written by no operation. -/
theorem kept7 (W : Valuation τ sig (Elt F)) : StableHlo.after (ops (F := F)) W (Proc.devRef .tc main_arg7) = W (Proc.devRef .tc main_arg7) := by
  keep_part ops

set_option maxRecDepth 65536 in
/-- Argument 8 is written by no operation. -/
theorem kept8 (W : Valuation τ sig (Elt F)) : StableHlo.after (ops (F := F)) W (Proc.devRef .tc main_arg8) = W (Proc.devRef .tc main_arg8) := by
  keep_part ops

end Cert.ReferenceIdeal.RefAfter

end
-- ==== Proof.RefAfter.lean ====
/-
  What the reference's operations leave in its result buffers and its argument buffers, from any contents.

  The reference's @main is one line of 216 host operations. Run in order from contents W they leave in the first result
  buffer the last stage function of the read module at W's argument arrays, in the second the faces broadcast over the
  meshes. The line is cut into five parts at the layer
  boundaries: the packed edge words, the factor and the first product; the first aggregation to the second product;
  the second aggregation to the third product; the third aggregation to the moved vertices; the midpoints and the
  results. Each part is read against the stages, from contents that hold the earlier parts' stages; a buffer that a
  part does not write passes through it; and a line run as two halves is the second half run from what the first
  leaves.
-/
import proofs.«411275_j68839735821120_3_alg».proof.Proof.RefOps
import proofs.«411275_j68839735821120_3_alg».proof.Proof.RefParts
import proofs.«411275_j68839735821120_3_alg».proof.Proof.RefRead
import Idealize.ShloMosaic.Lib.StableHlo.Run
import Idealize.ShloMosaic.Lib.Pipeline.Frame

set_option maxRecDepth 16384

noncomputable section

namespace Cert.ReferenceIdeal.RefAfter

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

-- the TensorCore's buffer contents at launch: any
variable (W : Valuation τ sig (Elt F))

/-! ## Part one: the edge words, the factor, the node table and the first product, from the arguments -/

set_option maxHeartbeats 4000000 in
theorem p1_main_v10 : StableHlo.after (part1 (F := F)) W (Proc.devRef .tc main_v10) = val_main_v10 (F := F) (W (Proc.devRef .tc main_arg1)) := by
  unfold part1
  after_results_simp <;> (try simp only [TRef.ofBuf, TRef.toBuf, cast_eq]) <;> rfl

set_option maxHeartbeats 4000000 in
theorem p1_main_v12 : StableHlo.after (part1 (F := F)) W (Proc.devRef .tc main_v12) = val_main_v12 (F := F) (W (Proc.devRef .tc main_arg1)) := by
  unfold part1
  after_results_simp <;> (try simp only [TRef.ofBuf, TRef.toBuf, cast_eq]) <;> rfl

set_option maxHeartbeats 4000000 in
theorem p1_main_v13 : StableHlo.after (part1 (F := F)) W (Proc.devRef .tc main_v13) = val_main_v13 (F := F) (W (Proc.devRef .tc main_arg0)) := by
  unfold part1
  after_results_simp <;> (try simp only [TRef.ofBuf, TRef.toBuf, cast_eq]) <;> rfl

set_option maxHeartbeats 4000000 in
theorem p1_main_v14 : StableHlo.after (part1 (F := F)) W (Proc.devRef .tc main_v14) = val_main_v14 (F := F) (W (Proc.devRef .tc main_arg0)) (W (Proc.devRef .tc main_arg3)) := by
  unfold part1
  after_results_simp <;> (try simp only [TRef.ofBuf, TRef.toBuf, cast_eq]) <;> rfl

set_option maxHeartbeats 4000000 in
theorem p1_main_v16 : StableHlo.after (part1 (F := F)) W (Proc.devRef .tc main_v16) = val_main_v16 (F := F) (W (Proc.devRef .tc main_arg1)) := by
  unfold part1
  after_results_simp <;> (try simp only [TRef.ofBuf, TRef.toBuf, cast_eq]) <;> rfl

set_option maxHeartbeats 4000000 in
theorem p1_main_v17 : StableHlo.after (part1 (F := F)) W (Proc.devRef .tc main_v17) = val_main_v17 (F := F) (W (Proc.devRef .tc main_arg1)) := by
  unfold part1
  after_results_simp <;> (try simp only [TRef.ofBuf, TRef.toBuf, cast_eq]) <;> rfl

set_option maxHeartbeats 4000000 in
theorem p1_main_v25 : StableHlo.after (part1 (F := F)) W (Proc.devRef .tc main_v25) = val_main_v25 (F := F) (W (Proc.devRef .tc main_arg1)) := by
  unfold part1
  after_results_simp <;> (try simp only [TRef.ofBuf, TRef.toBuf, cast_eq]) <;> rfl

/-! ## Parts two to five, from contents that hold the earlier stages -/

/-- What the one-pass reading leaves unread (the operands of a concatenate are out of its reach), read one operation at
    a time: each operation's result at its own buffer is its function's value, at any other buffer what was there. -/
macro "read_rest" : tactic => `(tactic| repeat (first
  | rw [StableHlo.nullary_result] | rw [StableHlo.unary_result] | rw [StableHlo.binary_result]
  | rw [StableHlo.ternary_result] | rw [StableHlo.reshape_result]
  | (rw [StableHlo.nullary_result_ne]; rotate_left; decide) | (rw [StableHlo.unary_result_ne]; rotate_left; decide)
  | (rw [StableHlo.binary_result_ne]; rotate_left; decide) | (rw [StableHlo.ternary_result_ne]; rotate_left; decide)
  | (rw [StableHlo.reshape_result_ne]; rotate_left; decide)))

set_option maxHeartbeats 8000000 in
/-- Part two: the second product. -/
theorem p2_main_v62 (V : Valuation τ sig (Elt F)) (x0 : (⟨S16x100000x3, .f32⟩ : BufTy).Contents (Elt F)) (x1 : (⟨S300000x2, .i32⟩ : BufTy).Contents (Elt F)) (x3 : (⟨S3x16, .f32⟩ : BufTy).Contents (Elt F)) (x4 : (⟨S16, .f32⟩ : BufTy).Contents (Elt F)) (x5 : (⟨S16x16, .f32⟩ : BufTy).Contents (Elt F))
    (h14 : V (Proc.devRef .tc main_v14) = val_main_v14 (F := F) x0 x3) (h16 : V (Proc.devRef .tc main_v16) = val_main_v16 (F := F) x1)
    (h17 : V (Proc.devRef .tc main_v17) = val_main_v17 (F := F) x1) (h25 : V (Proc.devRef .tc main_v25) = val_main_v25 (F := F) x1)
    (h4 : V (Proc.devRef .tc main_arg4) = x4) (h5 : V (Proc.devRef .tc main_arg5) = x5) :
    StableHlo.after (part2 (F := F)) V (Proc.devRef .tc main_v62) = val_main_v62 (F := F) x0 x1 x3 x4 x5 := by
  unfold part2
  after_results_simp <;> (try simp only [TRef.ofBuf, TRef.toBuf, cast_eq]) <;> (try simp only [h14, h16, h17, h25, h4, h5]) <;> rfl

set_option maxHeartbeats 8000000 in
/-- Part three: the third product. -/
theorem p3_main_v110 (V : Valuation τ sig (Elt F)) (x0 : (⟨S16x100000x3, .f32⟩ : BufTy).Contents (Elt F)) (x1 : (⟨S300000x2, .i32⟩ : BufTy).Contents (Elt F)) (x3 : (⟨S3x16, .f32⟩ : BufTy).Contents (Elt F)) (x4 : (⟨S16, .f32⟩ : BufTy).Contents (Elt F)) (x5 : (⟨S16x16, .f32⟩ : BufTy).Contents (Elt F)) (x6 : (⟨S16, .f32⟩ : BufTy).Contents (Elt F)) (x7 : (⟨S16x3, .f32⟩ : BufTy).Contents (Elt F))
    (h10 : V (Proc.devRef .tc main_v10) = val_main_v10 (F := F) x1) (h12 : V (Proc.devRef .tc main_v12) = val_main_v12 (F := F) x1)
    (h62 : V (Proc.devRef .tc main_v62) = val_main_v62 (F := F) x0 x1 x3 x4 x5)
    (h6 : V (Proc.devRef .tc main_arg6) = x6) (h7 : V (Proc.devRef .tc main_arg7) = x7) :
    StableHlo.after (part3 (F := F)) V (Proc.devRef .tc main_v110) = val_main_v110 (F := F) x0 x1 x3 x4 x5 x6 x7 := by
  unfold part3
  after_results_simp <;> (try simp only [TRef.ofBuf, TRef.toBuf, cast_eq])
  read_rest
  rw [h10, h12, h62, h6, h7]
  rfl

set_option maxHeartbeats 8000000 in
/-- Part four: the moved vertices. -/
theorem p4_main_v154 (V : Valuation τ sig (Elt F)) (x0 : (⟨S16x100000x3, .f32⟩ : BufTy).Contents (Elt F)) (x1 : (⟨S300000x2, .i32⟩ : BufTy).Contents (Elt F)) (x3 : (⟨S3x16, .f32⟩ : BufTy).Contents (Elt F)) (x4 : (⟨S16, .f32⟩ : BufTy).Contents (Elt F)) (x5 : (⟨S16x16, .f32⟩ : BufTy).Contents (Elt F)) (x6 : (⟨S16, .f32⟩ : BufTy).Contents (Elt F)) (x7 : (⟨S16x3, .f32⟩ : BufTy).Contents (Elt F)) (x8 : (⟨S3, .f32⟩ : BufTy).Contents (Elt F))
    (h10 : V (Proc.devRef .tc main_v10) = val_main_v10 (F := F) x1) (h12 : V (Proc.devRef .tc main_v12) = val_main_v12 (F := F) x1)
    (h13 : V (Proc.devRef .tc main_v13) = val_main_v13 (F := F) x0)
    (h110 : V (Proc.devRef .tc main_v110) = val_main_v110 (F := F) x0 x1 x3 x4 x5 x6 x7) (h8 : V (Proc.devRef .tc main_arg8) = x8) :
    StableHlo.after (part4 (F := F)) V (Proc.devRef .tc main_v154) = val_main_v154 (F := F) x0 x1 x3 x4 x5 x6 x7 x8 := by
  unfold part4
  after_results_simp <;> (try simp only [TRef.ofBuf, TRef.toBuf, cast_eq])
  read_rest
  rw [h10, h12, h13, h110, h8]
  rfl

set_option maxHeartbeats 8000000 in
/-- Part five: the first result. -/
theorem p5_main_v165 (V : Valuation τ sig (Elt F)) (x0 : (⟨S16x100000x3, .f32⟩ : BufTy).Contents (Elt F)) (x1 : (⟨S300000x2, .i32⟩ : BufTy).Contents (Elt F)) (x3 : (⟨S3x16, .f32⟩ : BufTy).Contents (Elt F)) (x4 : (⟨S16, .f32⟩ : BufTy).Contents (Elt F)) (x5 : (⟨S16x16, .f32⟩ : BufTy).Contents (Elt F)) (x6 : (⟨S16, .f32⟩ : BufTy).Contents (Elt F)) (x7 : (⟨S16x3, .f32⟩ : BufTy).Contents (Elt F)) (x8 : (⟨S3, .f32⟩ : BufTy).Contents (Elt F))
    (h154 : V (Proc.devRef .tc main_v154) = val_main_v154 (F := F) x0 x1 x3 x4 x5 x6 x7 x8) (h1 : V (Proc.devRef .tc main_arg1) = x1) :
    StableHlo.after (part5 (F := F)) V (Proc.devRef .tc main_v165) = val_main_v165 (F := F) x0 x1 x3 x4 x5 x6 x7 x8 := by
  unfold part5
  after_results_simp <;> (try simp only [TRef.ofBuf, TRef.toBuf, cast_eq])
  read_rest
  rw [h154, h1]
  rfl

set_option maxHeartbeats 4000000 in
/-- Part five: the second result. -/
theorem p5_main_v167 (V : Valuation τ sig (Elt F)) (x2 : (⟨S800000x3, .i32⟩ : BufTy).Contents (Elt F)) (h2 : V (Proc.devRef .tc main_arg2) = x2) :
    StableHlo.after (part5 (F := F)) V (Proc.devRef .tc main_v167) = val_main_v167 (F := F) x2 := by
  unfold part5
  after_results_simp <;> (try simp only [TRef.ofBuf, TRef.toBuf, cast_eq]) <;> (try simp only [h2]) <;> rfl

/-! ## The whole line -/

/-- The line run from W is its fifth part run from what the first four leave. -/
theorem after_ops (b : DevRef τ sig) :
    StableHlo.after (ops (F := F)) W b
      = StableHlo.after part5 (StableHlo.after part4 (StableHlo.after part3 (StableHlo.after part2 (StableHlo.after part1 W)))) b := by
  rw [ops_split, StableHlo.after_append, StableHlo.after_append, StableHlo.after_append, StableHlo.after_append]

/-- The first result: the last stage of the read module, at the argument arrays. -/
theorem result0 :
    StableHlo.after (ops (F := F)) W (Proc.devRef .tc main_v165)
      = val_main_v165 (F := F) (W (Proc.devRef .tc main_arg0)) (W (Proc.devRef .tc main_arg1)) (W (Proc.devRef .tc main_arg3)) (W (Proc.devRef .tc main_arg4))
          (W (Proc.devRef .tc main_arg5)) (W (Proc.devRef .tc main_arg6)) (W (Proc.devRef .tc main_arg7)) (W (Proc.devRef .tc main_arg8)) := by
  rw [after_ops]
  -- what the first part leaves
  have a14 := p1_main_v14 W
  have a16 := p1_main_v16 W
  have a17 := p1_main_v17 W
  have a25 := p1_main_v25 W
  -- the second product
  have b62 := p2_main_v62 (StableHlo.after part1 W) _ _ _ _ _ a14 a16 a17 a25 (k1_main_arg4 W) (k1_main_arg5 W)
  -- the third product
  have c110 := p3_main_v110 (StableHlo.after part2 (StableHlo.after part1 W)) _ _ _ _ _ _ _
    ((k2_main_v10 _).trans (p1_main_v10 W)) ((k2_main_v12 _).trans (p1_main_v12 W)) b62
    ((k2_main_arg6 _).trans (k1_main_arg6 W)) ((k2_main_arg7 _).trans (k1_main_arg7 W))
  -- the moved vertices
  have d154 := p4_main_v154 (StableHlo.after part3 (StableHlo.after part2 (StableHlo.after part1 W))) _ _ _ _ _ _ _ _
    ((k3_main_v10 _).trans ((k2_main_v10 _).trans (p1_main_v10 W)))
    ((k3_main_v12 _).trans ((k2_main_v12 _).trans (p1_main_v12 W)))
    ((k3_main_v13 _).trans ((k2_main_v13 _).trans (p1_main_v13 W))) c110
    ((k3_main_arg8 _).trans ((k2_main_arg8 _).trans (k1_main_arg8 W)))
  exact p5_main_v165 _ _ _ _ _ _ _ _ _ d154
    ((k4_main_arg1 _).trans ((k3_main_arg1 _).trans ((k2_main_arg1 _).trans (k1_main_arg1 W))))

/-- The second result: the faces broadcast over the meshes. -/
theorem result1 :
    StableHlo.after (ops (F := F)) W (Proc.devRef .tc main_v167) = val_main_v167 (F := F) (W (Proc.devRef .tc main_arg2)) := by
  rw [after_ops]
  exact p5_main_v167 _ _ ((k4_main_arg2 _).trans ((k3_main_arg2 _).trans ((k2_main_arg2 _).trans (k1_main_arg2 W))))

end Cert.ReferenceIdeal.RefAfter

end
-- ==== Proof.ChainKeep.lean ====
/- @main's run has eleven boundaries W1 … W11: an odd one follows a stretch of host operations, an even one a pallas_call.
   A buffer that a stretch does not write, or that a pallas_call does not have as an output (it is no window's array, or an
   input window's, which the call leaves as found), holds at the boundary after it what it held before. `sK_b` is that step
   for buffer b at boundary K; `uK_b` chains the steps back to the first boundary (for an argument array: to the launch). -/
import proofs.«411275_j68839735821120_3_alg».proof.Proof.KernelRun
import Idealize.ShloMosaic.PureOps.Ideal

set_option maxRecDepth 16384

noncomputable section

namespace Cert.KernelIdeal.Chain

open Cert.KernelIdeal Cert.KernelIdeal.Gen Idealize.ShloMosaic Idealize.ShloMosaic.TcCoe
open Idealize.SL.Sem Idealize.ShloMosaic.StableHlo

/-- A buffer that no operation of a stretch writes keeps its contents: each operation's written buffer is another one. -/
macro "keep_host " ops:ident : tactic => `(tactic|
  exact StableHlo.after_of_forall_not_mem _ _ (List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

-- the launch memory and generator registers: any
variable (m : (ℓ : Loc nD τ sig) → Buf (Elt Ideal) ℓ) (ρ : Dev nD → PrngReg)

theorem s2_main_call0_v14 (c : Dev nD) : W2 m ρ c (Proc.devRef .tc main_call0_v14) = W1 m ρ c (Proc.devRef .tc main_call0_v14) :=
  W2_of_ne m ρ c main_call0_v14 (by decide)
theorem s3_main_call0_v14 (c : Dev nD) : W3 m ρ c (Proc.devRef .tc main_call0_v14) = W2 m ρ c (Proc.devRef .tc main_call0_v14) := by
  show StableHlo.after hostOps1 (W2 m ρ c) (Proc.devRef .tc main_call0_v14) = W2 m ρ c (Proc.devRef .tc main_call0_v14)
  keep_host hostOps1
theorem s4_main_call0_v14 (c : Dev nD) : W4 m ρ c (Proc.devRef .tc main_call0_v14) = W3 m ρ c (Proc.devRef .tc main_call0_v14) :=
  W4_of_ne m ρ c main_call0_v14 (by decide)
theorem s5_main_call0_v14 (c : Dev nD) : W5 m ρ c (Proc.devRef .tc main_call0_v14) = W4 m ρ c (Proc.devRef .tc main_call0_v14) := by
  show StableHlo.after hostOps2 (W4 m ρ c) (Proc.devRef .tc main_call0_v14) = W4 m ρ c (Proc.devRef .tc main_call0_v14)
  keep_host hostOps2
theorem s6_main_call0_v14 (c : Dev nD) : W6 m ρ c (Proc.devRef .tc main_call0_v14) = W5 m ρ c (Proc.devRef .tc main_call0_v14) :=
  W6_of_ne m ρ c main_call0_v14 (by decide)
theorem u1_main_call0_v14 (c : Dev nD) : W1 m ρ c (Proc.devRef .tc main_call0_v14) = W1 m ρ c (Proc.devRef .tc main_call0_v14) := rfl
theorem u2_main_call0_v14 (c : Dev nD) : W2 m ρ c (Proc.devRef .tc main_call0_v14) = W1 m ρ c (Proc.devRef .tc main_call0_v14) :=
  (s2_main_call0_v14 m ρ c).trans (u1_main_call0_v14 m ρ c)
theorem u3_main_call0_v14 (c : Dev nD) : W3 m ρ c (Proc.devRef .tc main_call0_v14) = W1 m ρ c (Proc.devRef .tc main_call0_v14) :=
  (s3_main_call0_v14 m ρ c).trans (u2_main_call0_v14 m ρ c)
theorem u4_main_call0_v14 (c : Dev nD) : W4 m ρ c (Proc.devRef .tc main_call0_v14) = W1 m ρ c (Proc.devRef .tc main_call0_v14) :=
  (s4_main_call0_v14 m ρ c).trans (u3_main_call0_v14 m ρ c)
theorem u5_main_call0_v14 (c : Dev nD) : W5 m ρ c (Proc.devRef .tc main_call0_v14) = W1 m ρ c (Proc.devRef .tc main_call0_v14) :=
  (s5_main_call0_v14 m ρ c).trans (u4_main_call0_v14 m ρ c)
theorem u6_main_call0_v14 (c : Dev nD) : W6 m ρ c (Proc.devRef .tc main_call0_v14) = W1 m ρ c (Proc.devRef .tc main_call0_v14) :=
  (s6_main_call0_v14 m ρ c).trans (u5_main_call0_v14 m ρ c)

theorem s2_main_call0_v15 (c : Dev nD) : W2 m ρ c (Proc.devRef .tc main_call0_v15) = W1 m ρ c (Proc.devRef .tc main_call0_v15) :=
  W2_of_ne m ρ c main_call0_v15 (by decide)
theorem s3_main_call0_v15 (c : Dev nD) : W3 m ρ c (Proc.devRef .tc main_call0_v15) = W2 m ρ c (Proc.devRef .tc main_call0_v15) := by
  show StableHlo.after hostOps1 (W2 m ρ c) (Proc.devRef .tc main_call0_v15) = W2 m ρ c (Proc.devRef .tc main_call0_v15)
  keep_host hostOps1
theorem s4_main_call0_v15 (c : Dev nD) : W4 m ρ c (Proc.devRef .tc main_call0_v15) = W3 m ρ c (Proc.devRef .tc main_call0_v15) :=
  W4_of_ne m ρ c main_call0_v15 (by decide)
theorem s5_main_call0_v15 (c : Dev nD) : W5 m ρ c (Proc.devRef .tc main_call0_v15) = W4 m ρ c (Proc.devRef .tc main_call0_v15) := by
  show StableHlo.after hostOps2 (W4 m ρ c) (Proc.devRef .tc main_call0_v15) = W4 m ρ c (Proc.devRef .tc main_call0_v15)
  keep_host hostOps2
theorem s6_main_call0_v15 (c : Dev nD) : W6 m ρ c (Proc.devRef .tc main_call0_v15) = W5 m ρ c (Proc.devRef .tc main_call0_v15) :=
  W6_of_ne m ρ c main_call0_v15 (by decide)
theorem u1_main_call0_v15 (c : Dev nD) : W1 m ρ c (Proc.devRef .tc main_call0_v15) = W1 m ρ c (Proc.devRef .tc main_call0_v15) := rfl
theorem u2_main_call0_v15 (c : Dev nD) : W2 m ρ c (Proc.devRef .tc main_call0_v15) = W1 m ρ c (Proc.devRef .tc main_call0_v15) :=
  (s2_main_call0_v15 m ρ c).trans (u1_main_call0_v15 m ρ c)
theorem u3_main_call0_v15 (c : Dev nD) : W3 m ρ c (Proc.devRef .tc main_call0_v15) = W1 m ρ c (Proc.devRef .tc main_call0_v15) :=
  (s3_main_call0_v15 m ρ c).trans (u2_main_call0_v15 m ρ c)
theorem u4_main_call0_v15 (c : Dev nD) : W4 m ρ c (Proc.devRef .tc main_call0_v15) = W1 m ρ c (Proc.devRef .tc main_call0_v15) :=
  (s4_main_call0_v15 m ρ c).trans (u3_main_call0_v15 m ρ c)
theorem u5_main_call0_v15 (c : Dev nD) : W5 m ρ c (Proc.devRef .tc main_call0_v15) = W1 m ρ c (Proc.devRef .tc main_call0_v15) :=
  (s5_main_call0_v15 m ρ c).trans (u4_main_call0_v15 m ρ c)
theorem u6_main_call0_v15 (c : Dev nD) : W6 m ρ c (Proc.devRef .tc main_call0_v15) = W1 m ρ c (Proc.devRef .tc main_call0_v15) :=
  (s6_main_call0_v15 m ρ c).trans (u5_main_call0_v15 m ρ c)

theorem s2_main_call0_v23 (c : Dev nD) : W2 m ρ c (Proc.devRef .tc main_call0_v23) = W1 m ρ c (Proc.devRef .tc main_call0_v23) :=
  W2_of_ne m ρ c main_call0_v23 (by decide)
theorem s3_main_call0_v23 (c : Dev nD) : W3 m ρ c (Proc.devRef .tc main_call0_v23) = W2 m ρ c (Proc.devRef .tc main_call0_v23) := by
  show StableHlo.after hostOps1 (W2 m ρ c) (Proc.devRef .tc main_call0_v23) = W2 m ρ c (Proc.devRef .tc main_call0_v23)
  keep_host hostOps1
theorem s4_main_call0_v23 (c : Dev nD) : W4 m ρ c (Proc.devRef .tc main_call0_v23) = W3 m ρ c (Proc.devRef .tc main_call0_v23) :=
  W4_of_ne m ρ c main_call0_v23 (by decide)
theorem s5_main_call0_v23 (c : Dev nD) : W5 m ρ c (Proc.devRef .tc main_call0_v23) = W4 m ρ c (Proc.devRef .tc main_call0_v23) := by
  show StableHlo.after hostOps2 (W4 m ρ c) (Proc.devRef .tc main_call0_v23) = W4 m ρ c (Proc.devRef .tc main_call0_v23)
  keep_host hostOps2
theorem s6_main_call0_v23 (c : Dev nD) : W6 m ρ c (Proc.devRef .tc main_call0_v23) = W5 m ρ c (Proc.devRef .tc main_call0_v23) :=
  W6_of_ne m ρ c main_call0_v23 (by decide)
theorem u1_main_call0_v23 (c : Dev nD) : W1 m ρ c (Proc.devRef .tc main_call0_v23) = W1 m ρ c (Proc.devRef .tc main_call0_v23) := rfl
theorem u2_main_call0_v23 (c : Dev nD) : W2 m ρ c (Proc.devRef .tc main_call0_v23) = W1 m ρ c (Proc.devRef .tc main_call0_v23) :=
  (s2_main_call0_v23 m ρ c).trans (u1_main_call0_v23 m ρ c)
theorem u3_main_call0_v23 (c : Dev nD) : W3 m ρ c (Proc.devRef .tc main_call0_v23) = W1 m ρ c (Proc.devRef .tc main_call0_v23) :=
  (s3_main_call0_v23 m ρ c).trans (u2_main_call0_v23 m ρ c)
theorem u4_main_call0_v23 (c : Dev nD) : W4 m ρ c (Proc.devRef .tc main_call0_v23) = W1 m ρ c (Proc.devRef .tc main_call0_v23) :=
  (s4_main_call0_v23 m ρ c).trans (u3_main_call0_v23 m ρ c)
theorem u5_main_call0_v23 (c : Dev nD) : W5 m ρ c (Proc.devRef .tc main_call0_v23) = W1 m ρ c (Proc.devRef .tc main_call0_v23) :=
  (s5_main_call0_v23 m ρ c).trans (u4_main_call0_v23 m ρ c)
theorem u6_main_call0_v23 (c : Dev nD) : W6 m ρ c (Proc.devRef .tc main_call0_v23) = W1 m ρ c (Proc.devRef .tc main_call0_v23) :=
  (s6_main_call0_v23 m ρ c).trans (u5_main_call0_v23 m ρ c)

theorem s2_main_call0_v25 (c : Dev nD) : W2 m ρ c (Proc.devRef .tc main_call0_v25) = W1 m ρ c (Proc.devRef .tc main_call0_v25) :=
  (W2_arr m ρ c 0).trans (((dat0 (V1 m ρ) c).arrAt_in 0 rfl _).trans (A_eq0 (V1 m ρ) c 0))
theorem s3_main_call0_v25 (c : Dev nD) : W3 m ρ c (Proc.devRef .tc main_call0_v25) = W2 m ρ c (Proc.devRef .tc main_call0_v25) := by
  show StableHlo.after hostOps1 (W2 m ρ c) (Proc.devRef .tc main_call0_v25) = W2 m ρ c (Proc.devRef .tc main_call0_v25)
  keep_host hostOps1
theorem s4_main_call0_v25 (c : Dev nD) : W4 m ρ c (Proc.devRef .tc main_call0_v25) = W3 m ρ c (Proc.devRef .tc main_call0_v25) :=
  W4_of_ne m ρ c main_call0_v25 (by decide)
theorem s5_main_call0_v25 (c : Dev nD) : W5 m ρ c (Proc.devRef .tc main_call0_v25) = W4 m ρ c (Proc.devRef .tc main_call0_v25) := by
  show StableHlo.after hostOps2 (W4 m ρ c) (Proc.devRef .tc main_call0_v25) = W4 m ρ c (Proc.devRef .tc main_call0_v25)
  keep_host hostOps2
theorem s6_main_call0_v25 (c : Dev nD) : W6 m ρ c (Proc.devRef .tc main_call0_v25) = W5 m ρ c (Proc.devRef .tc main_call0_v25) :=
  W6_of_ne m ρ c main_call0_v25 (by decide)
theorem u1_main_call0_v25 (c : Dev nD) : W1 m ρ c (Proc.devRef .tc main_call0_v25) = W1 m ρ c (Proc.devRef .tc main_call0_v25) := rfl
theorem u2_main_call0_v25 (c : Dev nD) : W2 m ρ c (Proc.devRef .tc main_call0_v25) = W1 m ρ c (Proc.devRef .tc main_call0_v25) :=
  (s2_main_call0_v25 m ρ c).trans (u1_main_call0_v25 m ρ c)
theorem u3_main_call0_v25 (c : Dev nD) : W3 m ρ c (Proc.devRef .tc main_call0_v25) = W1 m ρ c (Proc.devRef .tc main_call0_v25) :=
  (s3_main_call0_v25 m ρ c).trans (u2_main_call0_v25 m ρ c)
theorem u4_main_call0_v25 (c : Dev nD) : W4 m ρ c (Proc.devRef .tc main_call0_v25) = W1 m ρ c (Proc.devRef .tc main_call0_v25) :=
  (s4_main_call0_v25 m ρ c).trans (u3_main_call0_v25 m ρ c)
theorem u5_main_call0_v25 (c : Dev nD) : W5 m ρ c (Proc.devRef .tc main_call0_v25) = W1 m ρ c (Proc.devRef .tc main_call0_v25) :=
  (s5_main_call0_v25 m ρ c).trans (u4_main_call0_v25 m ρ c)
theorem u6_main_call0_v25 (c : Dev nD) : W6 m ρ c (Proc.devRef .tc main_call0_v25) = W1 m ρ c (Proc.devRef .tc main_call0_v25) :=
  (s6_main_call0_v25 m ρ c).trans (u5_main_call0_v25 m ρ c)

theorem s2_main_call0_v24 (c : Dev nD) : W2 m ρ c (Proc.devRef .tc main_call0_v24) = W1 m ρ c (Proc.devRef .tc main_call0_v24) :=
  (W2_arr m ρ c 2).trans (((dat0 (V1 m ρ) c).arrAt_in 2 rfl _).trans (A_eq0 (V1 m ρ) c 2))
theorem s3_main_call0_v24 (c : Dev nD) : W3 m ρ c (Proc.devRef .tc main_call0_v24) = W2 m ρ c (Proc.devRef .tc main_call0_v24) := by
  show StableHlo.after hostOps1 (W2 m ρ c) (Proc.devRef .tc main_call0_v24) = W2 m ρ c (Proc.devRef .tc main_call0_v24)
  keep_host hostOps1
theorem s4_main_call0_v24 (c : Dev nD) : W4 m ρ c (Proc.devRef .tc main_call0_v24) = W3 m ρ c (Proc.devRef .tc main_call0_v24) :=
  (W4_arr m ρ c 1).trans (((dat1 (V3 m ρ) c).arrAt_in 1 rfl _).trans (A_eq1 (V3 m ρ) c 1))
theorem s5_main_call0_v24 (c : Dev nD) : W5 m ρ c (Proc.devRef .tc main_call0_v24) = W4 m ρ c (Proc.devRef .tc main_call0_v24) := by
  show StableHlo.after hostOps2 (W4 m ρ c) (Proc.devRef .tc main_call0_v24) = W4 m ρ c (Proc.devRef .tc main_call0_v24)
  keep_host hostOps2
theorem u1_main_call0_v24 (c : Dev nD) : W1 m ρ c (Proc.devRef .tc main_call0_v24) = W1 m ρ c (Proc.devRef .tc main_call0_v24) := rfl
theorem u2_main_call0_v24 (c : Dev nD) : W2 m ρ c (Proc.devRef .tc main_call0_v24) = W1 m ρ c (Proc.devRef .tc main_call0_v24) :=
  (s2_main_call0_v24 m ρ c).trans (u1_main_call0_v24 m ρ c)
theorem u3_main_call0_v24 (c : Dev nD) : W3 m ρ c (Proc.devRef .tc main_call0_v24) = W1 m ρ c (Proc.devRef .tc main_call0_v24) :=
  (s3_main_call0_v24 m ρ c).trans (u2_main_call0_v24 m ρ c)
theorem u4_main_call0_v24 (c : Dev nD) : W4 m ρ c (Proc.devRef .tc main_call0_v24) = W1 m ρ c (Proc.devRef .tc main_call0_v24) :=
  (s4_main_call0_v24 m ρ c).trans (u3_main_call0_v24 m ρ c)
theorem u5_main_call0_v24 (c : Dev nD) : W5 m ρ c (Proc.devRef .tc main_call0_v24) = W1 m ρ c (Proc.devRef .tc main_call0_v24) :=
  (s5_main_call0_v24 m ρ c).trans (u4_main_call0_v24 m ρ c)

theorem s1_main_arg3 (c : Dev nD) : W1 m ρ c (Proc.devRef .tc main_arg3) = W0 m ρ c (Proc.devRef .tc main_arg3) := by
  show StableHlo.after hostOps0 (W0 m ρ c) (Proc.devRef .tc main_arg3) = W0 m ρ c (Proc.devRef .tc main_arg3)
  keep_host hostOps0
theorem u0_main_arg3 (c : Dev nD) : W0 m ρ c (Proc.devRef .tc main_arg3) = m ((c : Thread nD τ).loc main_arg3) := rfl
theorem u1_main_arg3 (c : Dev nD) : W1 m ρ c (Proc.devRef .tc main_arg3) = m ((c : Thread nD τ).loc main_arg3) :=
  (s1_main_arg3 m ρ c).trans (u0_main_arg3 m ρ c)

theorem s1_main_arg4 (c : Dev nD) : W1 m ρ c (Proc.devRef .tc main_arg4) = W0 m ρ c (Proc.devRef .tc main_arg4) := by
  show StableHlo.after hostOps0 (W0 m ρ c) (Proc.devRef .tc main_arg4) = W0 m ρ c (Proc.devRef .tc main_arg4)
  keep_host hostOps0
theorem s2_main_arg4 (c : Dev nD) : W2 m ρ c (Proc.devRef .tc main_arg4) = W1 m ρ c (Proc.devRef .tc main_arg4) :=
  W2_of_ne m ρ c main_arg4 (by decide)
theorem u0_main_arg4 (c : Dev nD) : W0 m ρ c (Proc.devRef .tc main_arg4) = m ((c : Thread nD τ).loc main_arg4) := rfl
theorem u1_main_arg4 (c : Dev nD) : W1 m ρ c (Proc.devRef .tc main_arg4) = m ((c : Thread nD τ).loc main_arg4) :=
  (s1_main_arg4 m ρ c).trans (u0_main_arg4 m ρ c)
theorem u2_main_arg4 (c : Dev nD) : W2 m ρ c (Proc.devRef .tc main_arg4) = m ((c : Thread nD τ).loc main_arg4) :=
  (s2_main_arg4 m ρ c).trans (u1_main_arg4 m ρ c)

theorem s1_main_arg5 (c : Dev nD) : W1 m ρ c (Proc.devRef .tc main_arg5) = W0 m ρ c (Proc.devRef .tc main_arg5) := by
  show StableHlo.after hostOps0 (W0 m ρ c) (Proc.devRef .tc main_arg5) = W0 m ρ c (Proc.devRef .tc main_arg5)
  keep_host hostOps0
theorem s2_main_arg5 (c : Dev nD) : W2 m ρ c (Proc.devRef .tc main_arg5) = W1 m ρ c (Proc.devRef .tc main_arg5) :=
  W2_of_ne m ρ c main_arg5 (by decide)
theorem s3_main_arg5 (c : Dev nD) : W3 m ρ c (Proc.devRef .tc main_arg5) = W2 m ρ c (Proc.devRef .tc main_arg5) := by
  show StableHlo.after hostOps1 (W2 m ρ c) (Proc.devRef .tc main_arg5) = W2 m ρ c (Proc.devRef .tc main_arg5)
  keep_host hostOps1
theorem u0_main_arg5 (c : Dev nD) : W0 m ρ c (Proc.devRef .tc main_arg5) = m ((c : Thread nD τ).loc main_arg5) := rfl
theorem u1_main_arg5 (c : Dev nD) : W1 m ρ c (Proc.devRef .tc main_arg5) = m ((c : Thread nD τ).loc main_arg5) :=
  (s1_main_arg5 m ρ c).trans (u0_main_arg5 m ρ c)
theorem u2_main_arg5 (c : Dev nD) : W2 m ρ c (Proc.devRef .tc main_arg5) = m ((c : Thread nD τ).loc main_arg5) :=
  (s2_main_arg5 m ρ c).trans (u1_main_arg5 m ρ c)
theorem u3_main_arg5 (c : Dev nD) : W3 m ρ c (Proc.devRef .tc main_arg5) = m ((c : Thread nD τ).loc main_arg5) :=
  (s3_main_arg5 m ρ c).trans (u2_main_arg5 m ρ c)

theorem s1_main_arg6 (c : Dev nD) : W1 m ρ c (Proc.devRef .tc main_arg6) = W0 m ρ c (Proc.devRef .tc main_arg6) := by
  show StableHlo.after hostOps0 (W0 m ρ c) (Proc.devRef .tc main_arg6) = W0 m ρ c (Proc.devRef .tc main_arg6)
  keep_host hostOps0
theorem s2_main_arg6 (c : Dev nD) : W2 m ρ c (Proc.devRef .tc main_arg6) = W1 m ρ c (Proc.devRef .tc main_arg6) :=
  W2_of_ne m ρ c main_arg6 (by decide)
theorem s3_main_arg6 (c : Dev nD) : W3 m ρ c (Proc.devRef .tc main_arg6) = W2 m ρ c (Proc.devRef .tc main_arg6) := by
  show StableHlo.after hostOps1 (W2 m ρ c) (Proc.devRef .tc main_arg6) = W2 m ρ c (Proc.devRef .tc main_arg6)
  keep_host hostOps1
theorem s4_main_arg6 (c : Dev nD) : W4 m ρ c (Proc.devRef .tc main_arg6) = W3 m ρ c (Proc.devRef .tc main_arg6) :=
  W4_of_ne m ρ c main_arg6 (by decide)
theorem u0_main_arg6 (c : Dev nD) : W0 m ρ c (Proc.devRef .tc main_arg6) = m ((c : Thread nD τ).loc main_arg6) := rfl
theorem u1_main_arg6 (c : Dev nD) : W1 m ρ c (Proc.devRef .tc main_arg6) = m ((c : Thread nD τ).loc main_arg6) :=
  (s1_main_arg6 m ρ c).trans (u0_main_arg6 m ρ c)
theorem u2_main_arg6 (c : Dev nD) : W2 m ρ c (Proc.devRef .tc main_arg6) = m ((c : Thread nD τ).loc main_arg6) :=
  (s2_main_arg6 m ρ c).trans (u1_main_arg6 m ρ c)
theorem u3_main_arg6 (c : Dev nD) : W3 m ρ c (Proc.devRef .tc main_arg6) = m ((c : Thread nD τ).loc main_arg6) :=
  (s3_main_arg6 m ρ c).trans (u2_main_arg6 m ρ c)
theorem u4_main_arg6 (c : Dev nD) : W4 m ρ c (Proc.devRef .tc main_arg6) = m ((c : Thread nD τ).loc main_arg6) :=
  (s4_main_arg6 m ρ c).trans (u3_main_arg6 m ρ c)

theorem s1_main_arg7 (c : Dev nD) : W1 m ρ c (Proc.devRef .tc main_arg7) = W0 m ρ c (Proc.devRef .tc main_arg7) := by
  show StableHlo.after hostOps0 (W0 m ρ c) (Proc.devRef .tc main_arg7) = W0 m ρ c (Proc.devRef .tc main_arg7)
  keep_host hostOps0
theorem s2_main_arg7 (c : Dev nD) : W2 m ρ c (Proc.devRef .tc main_arg7) = W1 m ρ c (Proc.devRef .tc main_arg7) :=
  W2_of_ne m ρ c main_arg7 (by decide)
theorem s3_main_arg7 (c : Dev nD) : W3 m ρ c (Proc.devRef .tc main_arg7) = W2 m ρ c (Proc.devRef .tc main_arg7) := by
  show StableHlo.after hostOps1 (W2 m ρ c) (Proc.devRef .tc main_arg7) = W2 m ρ c (Proc.devRef .tc main_arg7)
  keep_host hostOps1
theorem s4_main_arg7 (c : Dev nD) : W4 m ρ c (Proc.devRef .tc main_arg7) = W3 m ρ c (Proc.devRef .tc main_arg7) :=
  W4_of_ne m ρ c main_arg7 (by decide)
theorem s5_main_arg7 (c : Dev nD) : W5 m ρ c (Proc.devRef .tc main_arg7) = W4 m ρ c (Proc.devRef .tc main_arg7) := by
  show StableHlo.after hostOps2 (W4 m ρ c) (Proc.devRef .tc main_arg7) = W4 m ρ c (Proc.devRef .tc main_arg7)
  keep_host hostOps2
theorem u0_main_arg7 (c : Dev nD) : W0 m ρ c (Proc.devRef .tc main_arg7) = m ((c : Thread nD τ).loc main_arg7) := rfl
theorem u1_main_arg7 (c : Dev nD) : W1 m ρ c (Proc.devRef .tc main_arg7) = m ((c : Thread nD τ).loc main_arg7) :=
  (s1_main_arg7 m ρ c).trans (u0_main_arg7 m ρ c)
theorem u2_main_arg7 (c : Dev nD) : W2 m ρ c (Proc.devRef .tc main_arg7) = m ((c : Thread nD τ).loc main_arg7) :=
  (s2_main_arg7 m ρ c).trans (u1_main_arg7 m ρ c)
theorem u3_main_arg7 (c : Dev nD) : W3 m ρ c (Proc.devRef .tc main_arg7) = m ((c : Thread nD τ).loc main_arg7) :=
  (s3_main_arg7 m ρ c).trans (u2_main_arg7 m ρ c)
theorem u4_main_arg7 (c : Dev nD) : W4 m ρ c (Proc.devRef .tc main_arg7) = m ((c : Thread nD τ).loc main_arg7) :=
  (s4_main_arg7 m ρ c).trans (u3_main_arg7 m ρ c)
theorem u5_main_arg7 (c : Dev nD) : W5 m ρ c (Proc.devRef .tc main_arg7) = m ((c : Thread nD τ).loc main_arg7) :=
  (s5_main_arg7 m ρ c).trans (u4_main_arg7 m ρ c)

theorem s1_main_arg8 (c : Dev nD) : W1 m ρ c (Proc.devRef .tc main_arg8) = W0 m ρ c (Proc.devRef .tc main_arg8) := by
  show StableHlo.after hostOps0 (W0 m ρ c) (Proc.devRef .tc main_arg8) = W0 m ρ c (Proc.devRef .tc main_arg8)
  keep_host hostOps0
theorem s2_main_arg8 (c : Dev nD) : W2 m ρ c (Proc.devRef .tc main_arg8) = W1 m ρ c (Proc.devRef .tc main_arg8) :=
  W2_of_ne m ρ c main_arg8 (by decide)
theorem s3_main_arg8 (c : Dev nD) : W3 m ρ c (Proc.devRef .tc main_arg8) = W2 m ρ c (Proc.devRef .tc main_arg8) := by
  show StableHlo.after hostOps1 (W2 m ρ c) (Proc.devRef .tc main_arg8) = W2 m ρ c (Proc.devRef .tc main_arg8)
  keep_host hostOps1
theorem s4_main_arg8 (c : Dev nD) : W4 m ρ c (Proc.devRef .tc main_arg8) = W3 m ρ c (Proc.devRef .tc main_arg8) :=
  W4_of_ne m ρ c main_arg8 (by decide)
theorem s5_main_arg8 (c : Dev nD) : W5 m ρ c (Proc.devRef .tc main_arg8) = W4 m ρ c (Proc.devRef .tc main_arg8) := by
  show StableHlo.after hostOps2 (W4 m ρ c) (Proc.devRef .tc main_arg8) = W4 m ρ c (Proc.devRef .tc main_arg8)
  keep_host hostOps2
theorem s6_main_arg8 (c : Dev nD) : W6 m ρ c (Proc.devRef .tc main_arg8) = W5 m ρ c (Proc.devRef .tc main_arg8) :=
  W6_of_ne m ρ c main_arg8 (by decide)
theorem u0_main_arg8 (c : Dev nD) : W0 m ρ c (Proc.devRef .tc main_arg8) = m ((c : Thread nD τ).loc main_arg8) := rfl
theorem u1_main_arg8 (c : Dev nD) : W1 m ρ c (Proc.devRef .tc main_arg8) = m ((c : Thread nD τ).loc main_arg8) :=
  (s1_main_arg8 m ρ c).trans (u0_main_arg8 m ρ c)
theorem u2_main_arg8 (c : Dev nD) : W2 m ρ c (Proc.devRef .tc main_arg8) = m ((c : Thread nD τ).loc main_arg8) :=
  (s2_main_arg8 m ρ c).trans (u1_main_arg8 m ρ c)
theorem u3_main_arg8 (c : Dev nD) : W3 m ρ c (Proc.devRef .tc main_arg8) = m ((c : Thread nD τ).loc main_arg8) :=
  (s3_main_arg8 m ρ c).trans (u2_main_arg8 m ρ c)
theorem u4_main_arg8 (c : Dev nD) : W4 m ρ c (Proc.devRef .tc main_arg8) = m ((c : Thread nD τ).loc main_arg8) :=
  (s4_main_arg8 m ρ c).trans (u3_main_arg8 m ρ c)
theorem u5_main_arg8 (c : Dev nD) : W5 m ρ c (Proc.devRef .tc main_arg8) = m ((c : Thread nD τ).loc main_arg8) :=
  (s5_main_arg8 m ρ c).trans (u4_main_arg8 m ρ c)
theorem u6_main_arg8 (c : Dev nD) : W6 m ρ c (Proc.devRef .tc main_arg8) = m ((c : Thread nD τ).loc main_arg8) :=
  (s6_main_arg8 m ρ c).trans (u5_main_arg8 m ρ c)

theorem s1_main_arg1 (c : Dev nD) : W1 m ρ c (Proc.devRef .tc main_arg1) = W0 m ρ c (Proc.devRef .tc main_arg1) := by
  show StableHlo.after hostOps0 (W0 m ρ c) (Proc.devRef .tc main_arg1) = W0 m ρ c (Proc.devRef .tc main_arg1)
  keep_host hostOps0
theorem s2_main_arg1 (c : Dev nD) : W2 m ρ c (Proc.devRef .tc main_arg1) = W1 m ρ c (Proc.devRef .tc main_arg1) :=
  W2_of_ne m ρ c main_arg1 (by decide)
theorem s3_main_arg1 (c : Dev nD) : W3 m ρ c (Proc.devRef .tc main_arg1) = W2 m ρ c (Proc.devRef .tc main_arg1) := by
  show StableHlo.after hostOps1 (W2 m ρ c) (Proc.devRef .tc main_arg1) = W2 m ρ c (Proc.devRef .tc main_arg1)
  keep_host hostOps1
theorem s4_main_arg1 (c : Dev nD) : W4 m ρ c (Proc.devRef .tc main_arg1) = W3 m ρ c (Proc.devRef .tc main_arg1) :=
  W4_of_ne m ρ c main_arg1 (by decide)
theorem s5_main_arg1 (c : Dev nD) : W5 m ρ c (Proc.devRef .tc main_arg1) = W4 m ρ c (Proc.devRef .tc main_arg1) := by
  show StableHlo.after hostOps2 (W4 m ρ c) (Proc.devRef .tc main_arg1) = W4 m ρ c (Proc.devRef .tc main_arg1)
  keep_host hostOps2
theorem s6_main_arg1 (c : Dev nD) : W6 m ρ c (Proc.devRef .tc main_arg1) = W5 m ρ c (Proc.devRef .tc main_arg1) :=
  W6_of_ne m ρ c main_arg1 (by decide)
theorem s7_main_arg1 (c : Dev nD) : W7 m ρ c (Proc.devRef .tc main_arg1) = W6 m ρ c (Proc.devRef .tc main_arg1) := by
  show StableHlo.after hostOps3 (W6 m ρ c) (Proc.devRef .tc main_arg1) = W6 m ρ c (Proc.devRef .tc main_arg1)
  keep_host hostOps3
theorem s8_main_arg1 (c : Dev nD) : W8 m ρ c (Proc.devRef .tc main_arg1) = W7 m ρ c (Proc.devRef .tc main_arg1) :=
  W8_of_ne m ρ c main_arg1 (by decide)
theorem u0_main_arg1 (c : Dev nD) : W0 m ρ c (Proc.devRef .tc main_arg1) = m ((c : Thread nD τ).loc main_arg1) := rfl
theorem u1_main_arg1 (c : Dev nD) : W1 m ρ c (Proc.devRef .tc main_arg1) = m ((c : Thread nD τ).loc main_arg1) :=
  (s1_main_arg1 m ρ c).trans (u0_main_arg1 m ρ c)
theorem u2_main_arg1 (c : Dev nD) : W2 m ρ c (Proc.devRef .tc main_arg1) = m ((c : Thread nD τ).loc main_arg1) :=
  (s2_main_arg1 m ρ c).trans (u1_main_arg1 m ρ c)
theorem u3_main_arg1 (c : Dev nD) : W3 m ρ c (Proc.devRef .tc main_arg1) = m ((c : Thread nD τ).loc main_arg1) :=
  (s3_main_arg1 m ρ c).trans (u2_main_arg1 m ρ c)
theorem u4_main_arg1 (c : Dev nD) : W4 m ρ c (Proc.devRef .tc main_arg1) = m ((c : Thread nD τ).loc main_arg1) :=
  (s4_main_arg1 m ρ c).trans (u3_main_arg1 m ρ c)
theorem u5_main_arg1 (c : Dev nD) : W5 m ρ c (Proc.devRef .tc main_arg1) = m ((c : Thread nD τ).loc main_arg1) :=
  (s5_main_arg1 m ρ c).trans (u4_main_arg1 m ρ c)
theorem u6_main_arg1 (c : Dev nD) : W6 m ρ c (Proc.devRef .tc main_arg1) = m ((c : Thread nD τ).loc main_arg1) :=
  (s6_main_arg1 m ρ c).trans (u5_main_arg1 m ρ c)
theorem u7_main_arg1 (c : Dev nD) : W7 m ρ c (Proc.devRef .tc main_arg1) = m ((c : Thread nD τ).loc main_arg1) :=
  (s7_main_arg1 m ρ c).trans (u6_main_arg1 m ρ c)
theorem u8_main_arg1 (c : Dev nD) : W8 m ρ c (Proc.devRef .tc main_arg1) = m ((c : Thread nD τ).loc main_arg1) :=
  (s8_main_arg1 m ρ c).trans (u7_main_arg1 m ρ c)

theorem s1_main_arg2 (c : Dev nD) : W1 m ρ c (Proc.devRef .tc main_arg2) = W0 m ρ c (Proc.devRef .tc main_arg2) := by
  show StableHlo.after hostOps0 (W0 m ρ c) (Proc.devRef .tc main_arg2) = W0 m ρ c (Proc.devRef .tc main_arg2)
  keep_host hostOps0
theorem s2_main_arg2 (c : Dev nD) : W2 m ρ c (Proc.devRef .tc main_arg2) = W1 m ρ c (Proc.devRef .tc main_arg2) :=
  W2_of_ne m ρ c main_arg2 (by decide)
theorem s3_main_arg2 (c : Dev nD) : W3 m ρ c (Proc.devRef .tc main_arg2) = W2 m ρ c (Proc.devRef .tc main_arg2) := by
  show StableHlo.after hostOps1 (W2 m ρ c) (Proc.devRef .tc main_arg2) = W2 m ρ c (Proc.devRef .tc main_arg2)
  keep_host hostOps1
theorem s4_main_arg2 (c : Dev nD) : W4 m ρ c (Proc.devRef .tc main_arg2) = W3 m ρ c (Proc.devRef .tc main_arg2) :=
  W4_of_ne m ρ c main_arg2 (by decide)
theorem s5_main_arg2 (c : Dev nD) : W5 m ρ c (Proc.devRef .tc main_arg2) = W4 m ρ c (Proc.devRef .tc main_arg2) := by
  show StableHlo.after hostOps2 (W4 m ρ c) (Proc.devRef .tc main_arg2) = W4 m ρ c (Proc.devRef .tc main_arg2)
  keep_host hostOps2
theorem s6_main_arg2 (c : Dev nD) : W6 m ρ c (Proc.devRef .tc main_arg2) = W5 m ρ c (Proc.devRef .tc main_arg2) :=
  W6_of_ne m ρ c main_arg2 (by decide)
theorem s7_main_arg2 (c : Dev nD) : W7 m ρ c (Proc.devRef .tc main_arg2) = W6 m ρ c (Proc.devRef .tc main_arg2) := by
  show StableHlo.after hostOps3 (W6 m ρ c) (Proc.devRef .tc main_arg2) = W6 m ρ c (Proc.devRef .tc main_arg2)
  keep_host hostOps3
theorem s8_main_arg2 (c : Dev nD) : W8 m ρ c (Proc.devRef .tc main_arg2) = W7 m ρ c (Proc.devRef .tc main_arg2) :=
  W8_of_ne m ρ c main_arg2 (by decide)
theorem s9_main_arg2 (c : Dev nD) : W9 m ρ c (Proc.devRef .tc main_arg2) = W8 m ρ c (Proc.devRef .tc main_arg2) := by
  show StableHlo.after hostOps4 (W8 m ρ c) (Proc.devRef .tc main_arg2) = W8 m ρ c (Proc.devRef .tc main_arg2)
  keep_host hostOps4
theorem s10_main_arg2 (c : Dev nD) : W10 m ρ c (Proc.devRef .tc main_arg2) = W9 m ρ c (Proc.devRef .tc main_arg2) :=
  W10_of_ne m ρ c main_arg2 (by decide)
theorem u0_main_arg2 (c : Dev nD) : W0 m ρ c (Proc.devRef .tc main_arg2) = m ((c : Thread nD τ).loc main_arg2) := rfl
theorem u1_main_arg2 (c : Dev nD) : W1 m ρ c (Proc.devRef .tc main_arg2) = m ((c : Thread nD τ).loc main_arg2) :=
  (s1_main_arg2 m ρ c).trans (u0_main_arg2 m ρ c)
theorem u2_main_arg2 (c : Dev nD) : W2 m ρ c (Proc.devRef .tc main_arg2) = m ((c : Thread nD τ).loc main_arg2) :=
  (s2_main_arg2 m ρ c).trans (u1_main_arg2 m ρ c)
theorem u3_main_arg2 (c : Dev nD) : W3 m ρ c (Proc.devRef .tc main_arg2) = m ((c : Thread nD τ).loc main_arg2) :=
  (s3_main_arg2 m ρ c).trans (u2_main_arg2 m ρ c)
theorem u4_main_arg2 (c : Dev nD) : W4 m ρ c (Proc.devRef .tc main_arg2) = m ((c : Thread nD τ).loc main_arg2) :=
  (s4_main_arg2 m ρ c).trans (u3_main_arg2 m ρ c)
theorem u5_main_arg2 (c : Dev nD) : W5 m ρ c (Proc.devRef .tc main_arg2) = m ((c : Thread nD τ).loc main_arg2) :=
  (s5_main_arg2 m ρ c).trans (u4_main_arg2 m ρ c)
theorem u6_main_arg2 (c : Dev nD) : W6 m ρ c (Proc.devRef .tc main_arg2) = m ((c : Thread nD τ).loc main_arg2) :=
  (s6_main_arg2 m ρ c).trans (u5_main_arg2 m ρ c)
theorem u7_main_arg2 (c : Dev nD) : W7 m ρ c (Proc.devRef .tc main_arg2) = m ((c : Thread nD τ).loc main_arg2) :=
  (s7_main_arg2 m ρ c).trans (u6_main_arg2 m ρ c)
theorem u8_main_arg2 (c : Dev nD) : W8 m ρ c (Proc.devRef .tc main_arg2) = m ((c : Thread nD τ).loc main_arg2) :=
  (s8_main_arg2 m ρ c).trans (u7_main_arg2 m ρ c)
theorem u9_main_arg2 (c : Dev nD) : W9 m ρ c (Proc.devRef .tc main_arg2) = m ((c : Thread nD τ).loc main_arg2) :=
  (s9_main_arg2 m ρ c).trans (u8_main_arg2 m ρ c)
theorem u10_main_arg2 (c : Dev nD) : W10 m ρ c (Proc.devRef .tc main_arg2) = m ((c : Thread nD τ).loc main_arg2) :=
  (s10_main_arg2 m ρ c).trans (u9_main_arg2 m ρ c)

theorem s10_main_call0_v77 (c : Dev nD) : W10 m ρ c (Proc.devRef .tc main_call0_v77) = W9 m ρ c (Proc.devRef .tc main_call0_v77) :=
  W10_of_ne m ρ c main_call0_v77 (by decide)

end Cert.KernelIdeal.Chain

end
-- ==== Proof.Spec.lean ====
/-
  The vocabulary both programs are read in.

  The packed batch has `NN` nodes and `MM` directed edges, the self loops included; an edge carries two 32-bit index
  words, its source and its destination. A gather reads the row a word names after the word has been wrapped (a
  negative word gets the table's extent added) and then read signed and clamped into the table: `row (wrap w)`. A
  segment sum adds an edge's message into the row its destination word names read signed, and drops the edge when
  that is no row: the edges that land on node `n` are `hits D n`. `agg` is one layer's aggregation: the sum over
  the edges landing on `n` of the source rows' entries. `deg` counts those edges and `dinvOf` is its inverse square
  root where the count is positive, zero elsewhere. `leaky` is the activation between layers.
-/
import Idealize.ShloMosaic.PureOps.Ideal
import Idealize.ShloMosaic.Lib.ValueIdx

noncomputable section

namespace Cert.Spec

open Idealize.ShloMosaic Idealize.ShloMosaic.ValueIdx
open scoped BigOperators

/-- Nodes of the packed batch: 16 meshes of 100000 vertices. -/
abbrev NN : Nat := 1600000
/-- Directed edges of the packed batch with one self loop per node: 16 · 300000 + 1600000. -/
abbrev MM : Nat := 6400000

/-- The table row a gather's index word names: the word read signed, clamped into the table. -/
def row (w : BitVec 32) : Fin NN :=
  ⟨min w.toInt.toNat 1599999, by show min w.toInt.toNat 1599999 < 1600000; omega⟩

/-- An index word with the table's extent added when it is negative. -/
def wrap (w : BitVec 32) : BitVec 32 :=
  Scalar.select (IntOp.cmpi .slt w 0#32) (IntOp.addi w 1600000#32) w

/-- Vertices of one mesh. -/
abbrev VV : Nat := 100000

/-- The vertex a gather's index word names within one mesh: the word read signed, clamped into the mesh. -/
def rowV (w : BitVec 32) : Fin VV :=
  ⟨min w.toInt.toNat 99999, by show min w.toInt.toNat 99999 < 100000; omega⟩

/-- A vertex index word with the mesh's extent added when it is negative. -/
def wrapV (w : BitVec 32) : BitVec 32 :=
  Scalar.select (IntOp.cmpi .slt w 0#32) (IntOp.addi w 100000#32) w

/-- The edges whose destination word, read signed, is node `n`. -/
def hits (D : Fin MM → BitVec 32) (n : Fin NN) : Finset (Fin MM) :=
  Finset.univ.filter fun e => (D e).toInt = (n.val : ℤ)

/-- One layer's aggregation at node `n`, column `j`: the sum, over the edges landing on `n`, of column `j` of the row
    the edge's source word names. -/
def agg {C : Nat} (S D : Fin MM → BitVec 32) (h : Fin NN → Fin C → EReal) (n : Fin NN) (j : Fin C) : EReal :=
  ∑ e ∈ hits D n, h (row (wrap (S e))) j

/-- The activation: `v` where `v > 0`, the literal `0x3C23D70A` times `v` elsewhere. -/
def leaky (v : EReal) : EReal :=
  Scalar.select (FloatOps.cmpf (F := Ideal) .ogt v (Ideal.ofBits .f32 0x00000000#32)) v
    (Ideal.ofBits .f32 0x3C23D70A#32 * v)

/-- The number of edges landing on `n`, as the float sum of ones from zero. -/
def deg (D : Fin MM → BitVec 32) (n : Fin NN) : EReal :=
  Ideal.ofBits .f32 0x00000000#32 + ∑ _e ∈ hits D n, Ideal.ofBits .f32 0x3F800000#32

/-- The normalisation factor of node `n`: the inverse square root of its count where that is positive, zero elsewhere. -/
def dinvOf (D : Fin MM → BitVec 32) (n : Fin NN) : EReal :=
  Scalar.select (FloatOps.cmpf (F := Ideal) .ogt (deg D n) (Ideal.ofBits .f32 0x00000000#32))
    (FloatOps.hostUnary (F := Ideal) (φ := .f32) .rsqrt (deg D n)) (Ideal.ofBits .f32 0x00000000#32)

/-! ## Positions in the lane-dense layouts

The 1600000 × 3 node table is also laid out 384 entries to a row (12500 rows, zero-padded to 13000), and the 4800000 × 3
table of edge end points 128 entries to a row (112500 rows, zero-padded to 114688): entry `(n, j)` sits at flat position
`3 n + j`, that is at row `(3 n + j) / 384`, lane `(3 n + j) % 384`; likewise with 128. -/

/-- The row of node entry `(n, j)` in the 384-lane layout. -/
def flatR (n : Fin NN) (j : Fin 3) : Fin 13000 :=
  ⟨(n.val * 3 + j.val) / 384, by have hn : n.val < 1600000 := n.isLt; have hj : j.val < 3 := j.isLt; omega⟩
/-- The lane of node entry `(n, j)` in the 384-lane layout. -/
def flatL (n : Fin NN) (j : Fin 3) : Fin 384 :=
  ⟨(n.val * 3 + j.val) % 384, Nat.mod_lt _ (by decide)⟩

/-- Vertex `v` of mesh `b` as a node of the packed batch. -/
def node (b : Fin 16) (v : Fin VV) : Fin NN :=
  ⟨b.val * 100000 + v.val, by have hb : b.val < 16 := b.isLt; have hv : v.val < 100000 := v.isLt; show b.val * 100000 + v.val < 1600000; omega⟩

/-- Edges of one mesh. -/
abbrev EE : Nat := 300000

/-- The row of edge entry `(b, e, j)` in the 128-lane layout. -/
def midR (b : Fin 16) (e : Fin EE) (j : Fin 3) : Fin 114688 :=
  ⟨((b.val * 300000 + e.val) * 3 + j.val) / 128, by
    have hb : b.val < 16 := b.isLt; have he : e.val < 300000 := e.isLt; have hj : j.val < 3 := j.isLt; omega⟩
/-- The lane of edge entry `(b, e, j)` in the 128-lane layout. -/
def midL (b : Fin 16) (e : Fin EE) (j : Fin 3) : Fin 128 :=
  ⟨((b.val * 300000 + e.val) * 3 + j.val) % 128, Nat.mod_lt _ (by decide)⟩

/-- Row `v` of the first 100000 rows of the 400000-row result (the moved vertices). -/
def lo (v : Fin VV) : Fin 400000 := ⟨v.val, by have hv : v.val < 100000 := v.isLt; omega⟩
/-- Row `100000 + e` of the 400000-row result (the edge midpoints). -/
def hi (e : Fin EE) : Fin 400000 := ⟨100000 + e.val, by have he : e.val < 300000 := e.isLt; omega⟩

end Cert.Spec

end
-- ==== Proof.LibPlainDot.lean ====
/-
  A matrix product contracted over ONE axis, read at an index.

  For an `A × K` left operand and a `K × B` right operand whose dimension numbers contract the left operand's
  second axis against the right operand's first (no batch axes), the contraction index has one coordinate
  `k : Fin K`, the left operand is read at `(p, k)` and the right one at `(k, q)`. So the sum over the contraction
  index that the product's value is stated with is the textbook `∑ k, f (p, k) · g (k, q)`, whatever the sizes.
  `eq_plain` identifies any record with these dimension numbers with the library's `DotDims.plain`, for which the
  two operand indices compute.
-/
import Idealize.ShloMosaic.PureOps.Ideal
import Idealize.ShloMosaic.PureOps.Ideal.Laws
import Idealize.ShloMosaic.Lib.ValueIdx

noncomputable section

namespace Cert.LibPlainDot

open Idealize.ShloMosaic Idealize.ShloMosaic.ValueIdx
open scoped BigOperators

variable {A K B : Nat}

/-- Dimension numbers `[1] × [0]`, free axes `[0]` and `[1]`, no batch: the record is `DotDims.plain`. -/
theorem eq_plain (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = []) : d = DotDims.plain A K B := by
  cases d
  simp only at hlc hrc hln hrn hlb hrb
  subst hlc hrc hln hrn hlb hrb
  rfl

/-- The contraction shape has one axis … -/
theorem plain_rank : (DotDims.plain A K B).contr.rank = 1 := rfl
/-- … of extent `K`. -/
theorem plain_size : (DotDims.plain A K B).contr.size ⟨0, by rw [plain_rank]; exact Nat.one_pos⟩ = K := rfl

/-- At result index `(p, q)` and contraction coordinate `k` the left operand is read at `(p, k)`. -/
theorem plain_lhs (p : Fin A) (q : Fin B) (k : Fin K) :
    (DotDims.plain A K B).lhsIdx (ix2 p q) ((contrEquiv1 (DotDims.plain A K B) K plain_rank plain_size).symm k) = ix2 p k := by
  funext a
  apply Fin.ext
  match a with
  | ⟨0, _⟩ => rfl
  | ⟨1, _⟩ => rfl

/-- At result index `(p, q)` and contraction coordinate `k` the right operand is read at `(k, q)`. -/
theorem plain_rhs (p : Fin A) (q : Fin B) (k : Fin K) :
    (DotDims.plain A K B).rhsIdx (ix2 p q) ((contrEquiv1 (DotDims.plain A K B) K plain_rank plain_size).symm k) = ix2 k q := by
  funext a
  apply Fin.ext
  match a with
  | ⟨0, _⟩ => rfl
  | ⟨1, _⟩ => rfl

/-- The sum over the contraction index is the sum over `k : Fin K` of `f (p, k) · g (k, q)`. -/
theorem plain_sum (f : (⟨2, ![A, K]⟩ : Shape).Idx → EReal) (g : (⟨2, ![K, B]⟩ : Shape).Idx → EReal) (p : Fin A) (q : Fin B) :
    ∑ k : (DotDims.plain A K B).contr.Idx, f ((DotDims.plain A K B).lhsIdx (ix2 p q) k) * g ((DotDims.plain A K B).rhsIdx (ix2 p q) k)
      = ∑ k : Fin K, f (ix2 p k) * g (ix2 k q) := by
  rw [← Equiv.sum_comp (contrEquiv1 (DotDims.plain A K B) K plain_rank plain_size).symm]
  refine Finset.sum_congr rfl fun k _ => ?_
  rw [plain_lhs, plain_rhs]

/-- A block product into the zero accumulator, at `(p, q)`: `∑ k, lhs (p, k) · rhs (k, q)`. -/
theorem matmul_zero_apply (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![A, K]⟩ .f32) (rhs : FVec Ideal ⟨2, ![K, B]⟩ .f32)
    (p : Fin A) (q : Fin B) :
    FloatOps.matmul d prec lhs rhs (constant ⟨2, ![A, B]⟩ .f32 0x00000000#32) (ix2 p q) = ∑ k : Fin K, lhs (ix2 p k) * rhs (ix2 k q) := by
  rw [eq_plain d hlc hrc hln hrn hlb hrb, Ideal.matmul_constant_zero_apply]
  exact plain_sum lhs rhs p q

/-- The host's product at `(p, q)`, whatever its schedule key: the same sum. -/
theorem dotGeneral_apply (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule) (lhs : FVec Ideal ⟨2, ![A, K]⟩ .f32) (rhs : FVec Ideal ⟨2, ![K, B]⟩ .f32)
    (p : Fin A) (q : Fin B) :
    FloatOps.dotGeneral d prec sched lhs rhs (ix2 p q) = ∑ k : Fin K, lhs (ix2 p k) * rhs (ix2 k q) := by
  rw [eq_plain d hlc hrc hln hrn hlb hrb, Ideal.dotGeneral_apply]
  exact plain_sum lhs rhs p q

end Cert.LibPlainDot

end
-- ==== Proof.LibColumn.lean ====
/-
  A column of row values read at an index.

  A row reduction that keeps its reduced axis produces an `[a]` array given a trailing unit axis, `[a, 1]`, and then
  spread along that axis to `[a, b]`: entry `(i, 0)` of the cast is the array's entry `i`, and entry `(i, j)` of the
  spread column is the column's entry `(i, 0)`, whatever the sizes and the element type.
-/
import Idealize.ShloMosaic.Lib.ValueIdx
import Idealize.ShloMosaic.Lib.Pipeline.Value

namespace Cert.LibColumn

open Idealize.ShloMosaic Idealize.ShloMosaic.ValueIdx

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column spread to `[a, b]` reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibColumn
-- ==== Proof.Region0.lean ====
/-
  What the first pallas_call leaves in its output array, as one function of its three input arrays.

  The grid has 200 points; point t handles rows 8000·t … 8000·t + 7999 of the node table. Its body multiplies the
  8000 × 3 block of node coordinates by the whole 3 × 16 weight matrix and scales row r of the product by the r-th
  entry of the block of the normalisation column. The blocks tile the 1600000 rows exactly, so the output array ends as
  (x · W)[n, j] · d[n] at every (n, j).
-/
import proofs.«411275_j68839735821120_3_alg».proof.Proof.Gen.KernelIdeal.Frame
import proofs.«411275_j68839735821120_3_alg».proof.Proof.Spec
import proofs.«411275_j68839735821120_3_alg».proof.Proof.LibPlainDot
import proofs.«411275_j68839735821120_3_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Cert.KernelIdeal Cert.KernelIdeal.Gen Idealize.ShloMosaic Idealize.ShloMosaic.TcCoe Idealize.ShloMosaic.ValueIdx
open Idealize.SL.Sem Idealize.ShloMosaic.Pipeline
open scoped BigOperators

/-- The block's payload at (p, q): row p of the coordinate block against column q of the weights, scaled by the
    p-th entry of the column block. -/
theorem pay_apply (x0 : FVec Ideal S8000x3 .f32) (x1 : FVec Ideal S3x16 .f32) (x2 : FVec Ideal S8000x1 .f32)
    (p : Fin 8000) (q : Fin 16) :
    k0_pay1 (F := Ideal) x0 x1 x2 (ix2 p q)
      = (∑ k : Fin 3, x0 (ix2 p k) * x1 (ix2 k q)) * x2 (ix2 p (0 : Fin 1)) := by
  unfold k0_pay1
  refine (mulf_apply _ _ _).trans ?_
  rw [shapeCast_self, shapeCast_self]
  refine congrArg₂ (· * ·) ?_ ?_
  · exact Cert.LibPlainDot.matmul_zero_apply _ rfl rfl rfl rfl rfl rfl none x0 x1 p q
  · exact Cert.LibColumn.broadcastTo_a1_ab_apply x2 _ p q

/-- The same at any index of the block. -/
theorem pay_at (x0 : FVec Ideal S8000x3 .f32) (x1 : FVec Ideal S3x16 .f32) (x2 : FVec Ideal S8000x1 .f32)
    (y : S8000x16.Idx) :
    k0_pay1 (F := Ideal) x0 x1 x2 y
      = (∑ k : Fin 3, x0 (ix2 (y 0) k) * x1 (ix2 k (y 1))) * x2 (ix2 (y 0) (0 : Fin 1)) :=
  (congrArg (k0_pay1 (F := Ideal) x0 x1 x2) (eq_ix2 y)).trans (pay_apply x0 x1 x2 (y 0) (y 1))

-- the TensorCore's buffer contents when the region is entered: any
variable (V : (c : Dev nD) → (b : Ref sig .tc) → Buf (Elt Ideal) ((c : Thread nD τ).loc b))

/-- The node coordinates, the first layer's weights and the normalisation column, as the region finds them. -/
abbrev xA (c : Dev nD) : FVec Ideal S1600000x3 .f32 := V c main_call0_v25
abbrev wA (c : Dev nD) : FVec Ideal S3x16 .f32 := V c main_arg3
abbrev dA (c : Dev nD) : FVec Ideal S1600000x1 .f32 := V c main_call0_v24

theorem hz : (![0, 0] : Fin 2 → Nat) = fun _ => 0 := funext fun a => by fin_cases a <;> rfl

/-- The product row-scaled, as one function of the three arrays. -/
abbrev G (c : Dev nD) : S1600000x16.Idx → EReal := fun i =>
  (∑ k : Fin 3, xA V c (ix2 (i 0) k) * wA V c (ix2 k (i 1))) * dA V c (ix2 (i 0) (0 : Fin 1))

/-- The index maps over the grid: the coordinate block and the column block move with the output's block along the
    rows, the weights stay at their one block, and point t's output block is block t of the rows. -/
theorem idx_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = win0_3.index t (0 : Fin 2) ∧ win0_2.index t (1 : Fin 2) = 0
    ∧ win0_3.index t (0 : Fin 2) = t.val ∧ win0_3.index t (1 : Fin 2) = 0 :=
  (by decide +kernel : ∀ t : Fin grid0.N, _)

/-- What point t writes back is block t of the product row-scaled. -/
theorem flushed_eq (c : Dev nD) (t : Fin cfg0.N) :
    (dat0 (F := Ideal) V c).flushed 3 t = ((cfg0.win 3).blk t).view.read (Elt Ideal) (G V c) := by
  show (cfg0.win 3).cut (grid0.coords t) ((dat0 (F := Ideal) V c).after 3 t) = _
  rw [after0_3]
  unfold out0_3
  rw [View.canon_unit_zero hz]
  simp only [View.ld_unit_zero (S := S8000x3) hz, View.ld_unit_zero (S := S3x16) hz, View.ld_unit_zero (S := S8000x1) hz]
  obtain ⟨e0, e1, e2, e3, e4, e5, e6, e7⟩ := idx_facts t
  funext y
  refine (pay_at _ _ _ y).trans ?_
  have h0 : ∀ k : Fin 3, iblk0 V c 0 t (ix2 (y 0) k) = xA V c (ix2 ((((cfg0.win 3).blk t).view.emb y) 0) k) := by
    intro k
    show V c main_call0_v25 (((cfg0.win 0).blk t).view.emb (ix2 (y 0) k)) = V c main_call0_v25 (ix2 ((((cfg0.win 3).blk t).view.emb y) 0) k)
    refine congrArg (V c main_call0_v25) (funext fun a => Fin.ext ?_)
    match a with
    | ⟨0, _⟩ => show win0_0.index t (0 : Fin 2) * 8000 + 1 * (y 0).val = win0_3.index t (0 : Fin 2) * 8000 + 1 * (y 0).val; omega
    | ⟨1, _⟩ => show win0_0.index t (1 : Fin 2) * 3 + 1 * k.val = k.val; omega
  have h1 : ∀ k : Fin 3, iblk0 V c 1 t (ix2 k (y 1)) = wA V c (ix2 k ((((cfg0.win 3).blk t).view.emb y) 1)) := by
    intro k
    show V c main_arg3 (((cfg0.win 1).blk t).view.emb (ix2 k (y 1))) = V c main_arg3 (ix2 k ((((cfg0.win 3).blk t).view.emb y) 1))
    refine congrArg (V c main_arg3) (funext fun a => Fin.ext ?_)
    match a with
    | ⟨0, _⟩ => show win0_1.index t (0 : Fin 2) * 3 + 1 * k.val = k.val; omega
    | ⟨1, _⟩ => show win0_1.index t (1 : Fin 2) * 16 + 1 * (y 1).val = win0_3.index t (1 : Fin 2) * 16 + 1 * (y 1).val; omega
  have h2 : iblk0 V c 2 t (ix2 (y 0) (0 : Fin 1)) = dA V c (ix2 ((((cfg0.win 3).blk t).view.emb y) 0) (0 : Fin 1)) := by
    show V c main_call0_v24 (((cfg0.win 2).blk t).view.emb (ix2 (y 0) (0 : Fin 1))) = V c main_call0_v24 (ix2 ((((cfg0.win 3).blk t).view.emb y) 0) (0 : Fin 1))
    refine congrArg (V c main_call0_v24) (funext fun a => Fin.ext ?_)
    match a with
    | ⟨0, _⟩ => show win0_2.index t (0 : Fin 2) * 8000 + 1 * (y 0).val = win0_3.index t (0 : Fin 2) * 8000 + 1 * (y 0).val; omega
    | ⟨1, _⟩ => show win0_2.index t (1 : Fin 2) * 1 + 1 * 0 = 0; omega
  exact congrArg₂ (· * ·) (Finset.sum_congr rfl fun k _ => congrArg₂ (· * ·) (h0 k) (h1 k)) h2

/-- An index of the array is in point t's block iff each coordinate is in the block's range on its axis. -/
theorem mem_blk (t : Fin cfg0.N) (i : S1600000x16.Idx) :
    i ∈ ((cfg0.win 3).blk t).view.set ↔ ∀ a : Fin 2, win0_3.index t a * S8000x16.size a ≤ (i a).val ∧ (i a).val < win0_3.index t a * S8000x16.size a + S8000x16.size a := by
  show i ∈ ((View.whole main_call0_v26).slice (win0_3.rect t)).set ↔ _
  rw [View.set_slice_whole, Rect.mem_set_unit]
  exact Iff.rfl

/-- The blocks tile the rows: row n lies in the block of point n / 8000. -/
theorem cover (i : S1600000x16.Idx) :
    ∃ t : Fin cfg0.N, (cfg0.win 3).flush t = true ∧ i ∈ ((cfg0.win 3).blk t).view.set := by
  have hi0 : (i 0).val < 1600000 := (i 0).isLt
  have hi1 : (i 1).val < 16 := (i 1).isLt
  have ht : (i 0).val / 8000 < 200 := by omega
  obtain ⟨-, -, -, -, -, -, e6, e7⟩ := idx_facts ⟨(i 0).val / 8000, ht⟩
  have e6' : win0_3.index ⟨(i 0).val / 8000, ht⟩ (0 : Fin 2) = (i 0).val / 8000 := e6
  refine ⟨⟨(i 0).val / 8000, ht⟩, flush0_3 _, ?_⟩
  rw [mem_blk]
  intro a
  match a with
  | ⟨0, _⟩ =>
    show win0_3.index ⟨(i 0).val / 8000, ht⟩ (0 : Fin 2) * 8000 ≤ (i 0).val ∧ (i 0).val < win0_3.index ⟨(i 0).val / 8000, ht⟩ (0 : Fin 2) * 8000 + 8000
    omega
  | ⟨1, _⟩ =>
    show win0_3.index ⟨(i 0).val / 8000, ht⟩ (1 : Fin 2) * 16 ≤ (i 1).val ∧ (i 1).val < win0_3.index ⟨(i 0).val / 8000, ht⟩ (1 : Fin 2) * 16 + 16
    omega

/-- The region's output array after its run: the product row-scaled. -/
theorem arr (c : Dev nD) :
    (dat0 (F := Ideal) V c).arrAt 3 cfg0.N
      = fun i : S1600000x16.Idx => (∑ k : Fin 3, xA V c (ix2 (i 0) k) * wA V c (ix2 k (i 1))) * dA V c (ix2 (i 0) (0 : Fin 1)) :=
  (dat0 (F := Ideal) V c).arrAt_eq_of_cover 3 (G V c) (fun t _ => flushed_eq V c t) cover

end Cert.KernelIdeal.Region0
end
-- ==== Proof.Region1.lean ====
/-
  What the second pallas_call leaves in its output array, as one function of its four input arrays.

  The grid has 200 points; point t handles rows 8000·t … 8000·t + 7999 of the node table. Its body scales row r of the
  8000 × 16 block of aggregated messages by the r-th entry of the block of the normalisation column, adds the bias row,
  applies the activation entry by entry, multiplies by the whole 16 × 16 weight matrix and scales row r of the product
  by the same entry of the normalisation column. The blocks tile the 1600000 rows exactly, so the output array ends as
  (act(h[n, ·] · d[n] + b) · W)[j] · d[n] at every (n, j).
-/
import proofs.«411275_j68839735821120_3_alg».proof.Proof.Gen.KernelIdeal.Frame
import proofs.«411275_j68839735821120_3_alg».proof.Proof.Spec
import proofs.«411275_j68839735821120_3_alg».proof.Proof.LibPlainDot
import proofs.«411275_j68839735821120_3_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen Idealize.ShloMosaic Idealize.ShloMosaic.TcCoe Idealize.ShloMosaic.ValueIdx
open Idealize.SL.Sem Idealize.ShloMosaic.Pipeline
open scoped BigOperators

/-! ## The body's stored value at an index -/

/-- A `[1, b]` row spread to `[a, b]` reads, at `(i, j)`, the row at `(0, j)`. -/
theorem broadcastTo_1b_ab_apply {α : Type} {a b : ℕ} (v : (⟨2, ![1, b]⟩ : Shape).Idx → α)
    (h : (⟨2, ![1, b]⟩ : Shape).Broadcasts ⟨2, ![a, b]⟩) (i : Fin a) (j : Fin b) :
    broadcastTo ⟨2, ![a, b]⟩ v h (ix2 i j) = v (ix2 (0 : Fin 1) j) := by
  refine broadcastTo_apply v h (ix2 i j) (ix2 (0 : Fin 1) j) fun ax => ?_
  match ax with
  | ⟨0, _⟩ => rfl
  | ⟨1, _⟩ =>
    show j.val = if b = 1 then 0 else j.val
    split
    · have := j.isLt; omega
    · rfl

/-- The value the activation is applied to, at `(p, k)`. -/
theorem pre_apply (x0 : Vec Ideal S8000x16 .f32) (x1 : Vec Ideal S8000x1 .f32) (x2 : Vec Ideal S1x16 .f32)
    (p : Fin 8000) (k : Fin 16) :
    (addf (mulf (shapeCast S8000x16 x0 shapeCasts_S8000x16_S8000x16)
        (broadcastTo S8000x16 (shapeCast S8000x1 x1 shapeCasts_S8000x1_S8000x1) broadcasts_S8000x1_S8000x16))
      (broadcastTo S8000x16 (shapeCast S1x16 x2 shapeCasts_S1x16_S1x16) broadcasts_S1x16_S8000x16) : FVec Ideal S8000x16 .f32) (ix2 p k)
      = x0 (ix2 p k) * x1 (ix2 p (0 : Fin 1)) + x2 (ix2 (0 : Fin 1) k) := by
  rw [shapeCast_self, shapeCast_self, shapeCast_self]
  show x0 (ix2 p k) * broadcastTo S8000x16 x1 broadcasts_S8000x1_S8000x16 (ix2 p k)
      + broadcastTo S8000x16 x2 broadcasts_S1x16_S8000x16 (ix2 p k) = _
  rw [Cert.LibColumn.broadcastTo_a1_ab_apply, broadcastTo_1b_ab_apply]

/-- The activation applied to a block entry by entry: the comparison with the zero literal, the product with the
    slope literal and the choice between the two are the three steps of `leaky`. -/
theorem act_apply (v : FVec Ideal S8000x16 .f32) (i : S8000x16.Idx) :
    (select (cmpf .ogt v (broadcast S8000x16 (Scalar.ofBits (F := Ideal) .f32 0x00000000#32))) v
      (mulf (broadcast S8000x16 (Scalar.ofBits (F := Ideal) .f32 0x3C23D70A#32)) v) : FVec Ideal S8000x16 .f32) i
      = Cert.Spec.leaky (v i) := rfl

/-- The body's stored value at `(p, q)`: row `p` of the block of messages scaled by the `p`-th normalisation entry,
    the bias row added, the activation, the product with column `q` of the weights, scaled by the same entry. -/
theorem pay_apply (x0 : Vec Ideal S8000x16 .f32) (x1 : Vec Ideal S8000x1 .f32) (x2 : Vec Ideal S1x16 .f32)
    (x3 : Vec Ideal S16x16 .f32) (p : Fin 8000) (q : Fin 16) :
    k1_pay1 x0 x1 x2 x3 x1 (ix2 p q)
      = (∑ k : Fin 16, Cert.Spec.leaky (x0 (ix2 p k) * x1 (ix2 p (0 : Fin 1)) + x2 (ix2 (0 : Fin 1) k)) * x3 (ix2 k q))
          * x1 (ix2 p (0 : Fin 1)) := by
  unfold k1_pay1
  refine (mulf_apply _ _ (ix2 p q)).trans ?_
  refine congrArg₂ (· * ·) ?_ ?_
  · refine (Cert.LibPlainDot.matmul_zero_apply dot_S8000x16_S16x16_S8000x16_1_0_0_1_n_n rfl rfl rfl rfl rfl rfl
      none _ x3 p q).trans ?_
    refine Finset.sum_congr rfl fun k _ => ?_
    refine congrArg (fun z => z * x3 (ix2 k q)) ?_
    refine (act_apply _ (ix2 p k)).trans ?_
    exact congrArg Cert.Spec.leaky (pre_apply x0 x1 x2 p k)
  · rw [shapeCast_self]
    exact Cert.LibColumn.broadcastTo_a1_ab_apply x1 broadcasts_S8000x1_S8000x16 p q

/-! ## From the blocks to the array -/

-- the TensorCore's buffer contents when the region is entered: any
variable (V : (c : Dev nD) → (b : Ref sig .tc) → Buf (Elt Ideal) ((c : Thread nD τ).loc b))

/-- The aggregated messages, the normalisation column, the bias row and the layer's weights, as the region finds them. -/
abbrev hA (c : Dev nD) : FVec Ideal S1600000x16 .f32 := V c main_call0_v36
abbrev dA (c : Dev nD) : FVec Ideal S1600000x1 .f32 := V c main_call0_v24
abbrev bA (c : Dev nD) : FVec Ideal S1x16 .f32 := V c main_call0_v37
abbrev wA (c : Dev nD) : FVec Ideal S16x16 .f32 := V c main_arg5

/-- The body's stored block as one function of its index. -/
theorem pay_block (x0 : Vec Ideal S8000x16 .f32) (x1 : Vec Ideal S8000x1 .f32) (x2 : Vec Ideal S1x16 .f32)
    (x3 : Vec Ideal S16x16 .f32) :
    k1_pay1 x0 x1 x2 x3 x1
      = fun y : S8000x16.Idx =>
          (∑ k : Fin 16, Cert.Spec.leaky (x0 (ix2 (y 0) k) * x1 (ix2 (y 0) (0 : Fin 1)) + x2 (ix2 (0 : Fin 1) k)) * x3 (ix2 k (y 1)))
            * x1 (ix2 (y 0) (0 : Fin 1)) := by
  funext y
  obtain ⟨p, q, rfl⟩ : ∃ (p : Fin 8000) (q : Fin 16), y = ix2 p q := ⟨y 0, y 1, eq_ix2 y⟩
  exact pay_apply x0 x1 x2 x3 p q

theorem zero_offsets : (![0, 0] : Fin 2 → Nat) = fun _ => 0 := funext fun a => by fin_cases a <;> rfl

/-- What the output array ends holding: at `(n, j)`, row `n` of the messages scaled by `d[n]`, the bias added, the
    activation, the product with column `j` of the weights, scaled by `d[n]`. -/
abbrev G (h : FVec Ideal S1600000x16 .f32) (d : FVec Ideal S1600000x1 .f32) (b : FVec Ideal S1x16 .f32)
    (w : FVec Ideal S16x16 .f32) : S1600000x16.Idx → EReal := fun i =>
  (∑ k : Fin 16, Cert.Spec.leaky (h (ix2 (i 0) k) * d (ix2 (i 0) (0 : Fin 1)) + b (ix2 (0 : Fin 1) k)) * w (ix2 k (i 1)))
    * d (ix2 (i 0) (0 : Fin 1))

/-- The printed index maps over the grid: the messages' and the column's blocks move with the output's along the rows,
    the bias row and the weights stay, and point `t` has block `t`. -/
theorem idx_facts : ∀ t : Fin cfg1.N, win1_0.index t (0 : Fin 2) = win1_4.index t (0 : Fin 2)
    ∧ win1_0.index t (1 : Fin 2) = 0
    ∧ win1_1.index t (0 : Fin 2) = win1_4.index t (0 : Fin 2)
    ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The closed form depends on its arrays only through the entries it names: reading them at indices equal to
    `(n, k)`, `(n, 0)`, `(0, k)`, `(k, j)` gives the closed form at `(n, j)`. -/
theorem G_congr (h : FVec Ideal S1600000x16 .f32) (d : FVec Ideal S1600000x1 .f32) (b : FVec Ideal S1x16 .f32)
    (w : FVec Ideal S16x16 .f32) (n : Fin 1600000) (j : Fin 16)
    (i0 : Fin 16 → S1600000x16.Idx) (i1 : S1600000x1.Idx) (i2 : Fin 16 → S1x16.Idx) (i3 : Fin 16 → S16x16.Idx)
    (h0 : ∀ k, i0 k = ix2 n k) (h1 : i1 = ix2 n (0 : Fin 1)) (h2 : ∀ k, i2 k = ix2 (0 : Fin 1) k)
    (h3 : ∀ k, i3 k = ix2 k j) :
    (∑ k : Fin 16, Cert.Spec.leaky (h (i0 k) * d i1 + b (i2 k)) * w (i3 k)) * d i1
      = (∑ k : Fin 16, Cert.Spec.leaky (h (ix2 n k) * d (ix2 n (0 : Fin 1)) + b (ix2 (0 : Fin 1) k)) * w (ix2 k j))
          * d (ix2 n (0 : Fin 1)) := by
  obtain rfl : i0 = fun k => ix2 n k := funext h0
  obtain rfl : i2 = fun k => ix2 (0 : Fin 1) k := funext h2
  obtain rfl : i3 = fun k => ix2 k j := funext h3
  subst h1
  rfl

/-- What point `t` writes back is block `t` of the closed form of the four arrays as the region finds them. -/
theorem flushed_eq (c : Dev nD) (t : Fin cfg1.N) :
    (dat1 (F := Ideal) V c).flushed 4 t
      = ((cfg1.win 4).blk t).view.read (Elt Ideal) (G (hA V c) (dA V c) (bA V c) (wA V c)) := by
  show (cfg1.win 4).cut (grid1.coords t) ((dat1 V c).after 4 t) = _
  rw [after1_4]
  unfold out1_4
  rw [View.canon_unit_zero zero_offsets]
  simp only [View.ld_unit_zero (S := S8000x16) zero_offsets, View.ld_unit_zero (S := S8000x1) zero_offsets,
    View.ld_unit_zero (S := S1x16) zero_offsets, View.ld_unit_zero (S := S16x16) zero_offsets]
  rw [pay_block]
  obtain ⟨e0, e1, e2, e3, e4, e5, e6, e7, e8, e9⟩ := idx_facts t
  funext y
  have hy0 : (y 0).val < 8000 := (y 0).isLt
  have hy1 : (y 1).val < 16 := (y 1).isLt
  show (∑ k : Fin 16, Cert.Spec.leaky (hA V c (((cfg1.win 0).blk t).view.emb (ix2 (y 0) k))
          * dA V c (((cfg1.win 1).blk t).view.emb (ix2 (y 0) (0 : Fin 1)))
          + bA V c (((cfg1.win 2).blk t).view.emb (ix2 (0 : Fin 1) k)))
        * wA V c (((cfg1.win 3).blk t).view.emb (ix2 k (y 1))))
      * dA V c (((cfg1.win 1).blk t).view.emb (ix2 (y 0) (0 : Fin 1)))
    = G (hA V c) (dA V c) (bA V c) (wA V c) (((cfg1.win 4).blk t).view.emb y)
  refine G_congr (hA V c) (dA V c) (bA V c) (wA V c) ((((cfg1.win 4).blk t).view.emb y) 0) ((((cfg1.win 4).blk t).view.emb y) 1)
    (fun k => ((cfg1.win 0).blk t).view.emb (ix2 (y 0) k)) (((cfg1.win 1).blk t).view.emb (ix2 (y 0) (0 : Fin 1)))
    (fun k => ((cfg1.win 2).blk t).view.emb (ix2 (0 : Fin 1) k)) (fun k => ((cfg1.win 3).blk t).view.emb (ix2 k (y 1)))
    (fun k => ?_) ?_ (fun k => ?_) (fun k => ?_)
  · funext a; apply Fin.ext
    match a with
    | ⟨0, _⟩ =>
      show win1_0.index t (0 : Fin 2) * 8000 + 1 * (y 0).val = win1_4.index t (0 : Fin 2) * 8000 + 1 * (y 0).val
      omega
    | ⟨1, _⟩ =>
      show win1_0.index t (1 : Fin 2) * 16 + 1 * k.val = k.val
      omega
  · funext a; apply Fin.ext
    match a with
    | ⟨0, _⟩ =>
      show win1_1.index t (0 : Fin 2) * 8000 + 1 * (y 0).val = win1_4.index t (0 : Fin 2) * 8000 + 1 * (y 0).val
      omega
    | ⟨1, _⟩ =>
      show win1_1.index t (1 : Fin 2) * 1 + 1 * 0 = 0
      omega
  · funext a; apply Fin.ext
    match a with
    | ⟨0, _⟩ =>
      show win1_2.index t (0 : Fin 2) * 1 + 1 * 0 = 0
      omega
    | ⟨1, _⟩ =>
      show win1_2.index t (1 : Fin 2) * 16 + 1 * k.val = k.val
      omega
  · funext a; apply Fin.ext
    match a with
    | ⟨0, _⟩ =>
      show win1_3.index t (0 : Fin 2) * 16 + 1 * k.val = k.val
      omega
    | ⟨1, _⟩ =>
      show win1_3.index t (1 : Fin 2) * 16 + 1 * (y 1).val = win1_4.index t (1 : Fin 2) * 16 + 1 * (y 1).val
      omega

/-- An index of the output array is in point `t`'s block iff each coordinate is in the block's range on its axis. -/
theorem mem_blk (t : Fin cfg1.N) (i : S1600000x16.Idx) :
    i ∈ ((cfg1.win 4).blk t).view.set
      ↔ ∀ a : Fin 2, win1_4.index t a * S8000x16.size a ≤ (i a).val
          ∧ (i a).val < win1_4.index t a * S8000x16.size a + S8000x16.size a := by
  show i ∈ ((View.whole main_call0_v38).slice (win1_4.rect t)).set ↔ _
  rw [View.set_slice_whole, Rect.mem_set_unit]
  exact Iff.rfl

/-- Every row lies in the block of the point its number divided by 8000 names: the 200 blocks tile the 1600000 rows. -/
theorem cover (i : S1600000x16.Idx) :
    ∃ t : Fin cfg1.N, (cfg1.win 4).flush t = true ∧ i ∈ ((cfg1.win 4).blk t).view.set := by
  have hi0 : (i 0).val < 1600000 := (i 0).isLt
  have hi1 : (i 1).val < 16 := (i 1).isLt
  have ht : (i 0).val / 8000 < 200 := by omega
  obtain ⟨e0, e1, e2, e3, e4, e5, e6, e7, e8, e9⟩ := idx_facts ⟨(i 0).val / 8000, ht⟩
  have e8' : win1_4.index ⟨(i 0).val / 8000, ht⟩ (0 : Fin 2) = (i 0).val / 8000 := e8
  refine ⟨⟨(i 0).val / 8000, ht⟩, flush1_4 _, ?_⟩
  rw [mem_blk]
  intro a
  match a with
  | ⟨0, _⟩ =>
    show win1_4.index ⟨(i 0).val / 8000, ht⟩ (0 : Fin 2) * 8000 ≤ (i 0).val
      ∧ (i 0).val < win1_4.index ⟨(i 0).val / 8000, ht⟩ (0 : Fin 2) * 8000 + 8000
    omega
  | ⟨1, _⟩ =>
    show win1_4.index ⟨(i 0).val / 8000, ht⟩ (1 : Fin 2) * 16 ≤ (i 1).val
      ∧ (i 1).val < win1_4.index ⟨(i 0).val / 8000, ht⟩ (1 : Fin 2) * 16 + 16
    omega

/-- The region's output array after its run. -/
theorem arr (c : Dev nD) :
    (dat1 (F := Ideal) V c).arrAt 4 cfg1.N
      = fun i : S1600000x16.Idx =>
          (∑ k : Fin 16, Cert.Spec.leaky (hA V c (ix2 (i 0) k) * dA V c (ix2 (i 0) (0 : Fin 1)) + bA V c (ix2 (0 : Fin 1) k))
              * wA V c (ix2 k (i 1))) * dA V c (ix2 (i 0) (0 : Fin 1)) :=
  (dat1 (F := Ideal) V c).arrAt_eq_of_cover 4 (G (hA V c) (dA V c) (bA V c) (wA V c)) (fun t _ => flushed_eq V c t) cover

end Cert.KernelIdeal.Region1

end
-- ==== Proof.Region2.lean ====
/-
  What the third pallas_call leaves in its output array, as one function of its four input arrays.

  The grid has 200 points; point t handles rows 8000·t … 8000·t + 7999 of the node table. Its body scales row r of the
  8000 × 16 block of aggregated messages by the r-th entry of the block of the normalisation column, adds the bias row,
  applies the activation entry by entry, multiplies by the whole 16 × 3 weight matrix and scales row r of the product
  by the same entry of the normalisation column. The blocks tile the 1600000 rows exactly, so the output array ends as
  (act(h[n, ·] · d[n] + b) · W)[j] · d[n] at every (n, j).
-/
import proofs.«411275_j68839735821120_3_alg».proof.Proof.Gen.KernelIdeal.Frame
import proofs.«411275_j68839735821120_3_alg».proof.Proof.Spec
import proofs.«411275_j68839735821120_3_alg».proof.Proof.LibPlainDot
import proofs.«411275_j68839735821120_3_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region2

open Cert.KernelIdeal Cert.KernelIdeal.Gen Idealize.ShloMosaic Idealize.ShloMosaic.TcCoe Idealize.ShloMosaic.ValueIdx
open Idealize.SL.Sem Idealize.ShloMosaic.Pipeline
open scoped BigOperators

/-! ## The body's stored value at an index -/

/-- A `[1, b]` row spread to `[a, b]` reads, at `(i, j)`, the row at `(0, j)`. -/
theorem broadcastTo_1b_ab_apply {α : Type} {a b : ℕ} (v : (⟨2, ![1, b]⟩ : Shape).Idx → α)
    (h : (⟨2, ![1, b]⟩ : Shape).Broadcasts ⟨2, ![a, b]⟩) (i : Fin a) (j : Fin b) :
    broadcastTo ⟨2, ![a, b]⟩ v h (ix2 i j) = v (ix2 (0 : Fin 1) j) := by
  refine broadcastTo_apply v h (ix2 i j) (ix2 (0 : Fin 1) j) fun ax => ?_
  match ax with
  | ⟨0, _⟩ => rfl
  | ⟨1, _⟩ =>
    show j.val = if b = 1 then 0 else j.val
    split
    · have := j.isLt; omega
    · rfl

/-- The value the activation is applied to, at `(p, k)`. -/
theorem pre_apply (x0 : Vec Ideal S8000x16 .f32) (x1 : Vec Ideal S8000x1 .f32) (x2 : Vec Ideal S1x16 .f32)
    (p : Fin 8000) (k : Fin 16) :
    (addf (mulf (shapeCast S8000x16 x0 shapeCasts_S8000x16_S8000x16)
        (broadcastTo S8000x16 (shapeCast S8000x1 x1 shapeCasts_S8000x1_S8000x1) broadcasts_S8000x1_S8000x16))
      (broadcastTo S8000x16 (shapeCast S1x16 x2 shapeCasts_S1x16_S1x16) broadcasts_S1x16_S8000x16) : FVec Ideal S8000x16 .f32) (ix2 p k)
      = x0 (ix2 p k) * x1 (ix2 p (0 : Fin 1)) + x2 (ix2 (0 : Fin 1) k) := by
  rw [shapeCast_self, shapeCast_self, shapeCast_self]
  show x0 (ix2 p k) * broadcastTo S8000x16 x1 broadcasts_S8000x1_S8000x16 (ix2 p k)
      + broadcastTo S8000x16 x2 broadcasts_S1x16_S8000x16 (ix2 p k) = _
  rw [Cert.LibColumn.broadcastTo_a1_ab_apply, broadcastTo_1b_ab_apply]

/-- The activation applied to a block entry by entry: the comparison with the zero literal, the product with the
    slope literal and the choice between the two are the three steps of `leaky`. -/
theorem act_apply (v : FVec Ideal S8000x16 .f32) (i : S8000x16.Idx) :
    (select (cmpf .ogt v (broadcast S8000x16 (Scalar.ofBits (F := Ideal) .f32 0x00000000#32))) v
      (mulf (broadcast S8000x16 (Scalar.ofBits (F := Ideal) .f32 0x3C23D70A#32)) v) : FVec Ideal S8000x16 .f32) i
      = Cert.Spec.leaky (v i) := rfl

/-- The body's stored value at `(p, q)`: row `p` of the block of messages scaled by the `p`-th normalisation entry,
    the bias row added, the activation, the product with column `q` of the weights, scaled by the same entry. -/
theorem pay_apply (x0 : Vec Ideal S8000x16 .f32) (x1 : Vec Ideal S8000x1 .f32) (x2 : Vec Ideal S1x16 .f32)
    (x3 : Vec Ideal S16x3 .f32) (p : Fin 8000) (q : Fin 3) :
    k2_pay1 x0 x1 x2 x3 x1 (ix2 p q)
      = (∑ k : Fin 16, Cert.Spec.leaky (x0 (ix2 p k) * x1 (ix2 p (0 : Fin 1)) + x2 (ix2 (0 : Fin 1) k)) * x3 (ix2 k q))
          * x1 (ix2 p (0 : Fin 1)) := by
  unfold k2_pay1
  refine (mulf_apply _ _ (ix2 p q)).trans ?_
  refine congrArg₂ (· * ·) ?_ ?_
  · refine (Cert.LibPlainDot.matmul_zero_apply dot_S8000x16_S16x3_S8000x3_1_0_0_1_n_n rfl rfl rfl rfl rfl rfl
      none _ x3 p q).trans ?_
    refine Finset.sum_congr rfl fun k _ => ?_
    refine congrArg (fun z => z * x3 (ix2 k q)) ?_
    refine (act_apply _ (ix2 p k)).trans ?_
    exact congrArg Cert.Spec.leaky (pre_apply x0 x1 x2 p k)
  · rw [shapeCast_self]
    exact Cert.LibColumn.broadcastTo_a1_ab_apply x1 broadcasts_S8000x1_S8000x3 p q

/-! ## From the blocks to the array -/

-- the TensorCore's buffer contents when the region is entered: any
variable (V : (c : Dev nD) → (b : Ref sig .tc) → Buf (Elt Ideal) ((c : Thread nD τ).loc b))

/-- The aggregated messages, the normalisation column, the bias row and the layer's weights, as the region finds them. -/
abbrev hA (c : Dev nD) : FVec Ideal S1600000x16 .f32 := V c main_call0_v48
abbrev dA (c : Dev nD) : FVec Ideal S1600000x1 .f32 := V c main_call0_v24
abbrev bA (c : Dev nD) : FVec Ideal S1x16 .f32 := V c main_call0_v49
abbrev wA (c : Dev nD) : FVec Ideal S16x3 .f32 := V c main_arg7

/-- The body's stored block as one function of its index. -/
theorem pay_block (x0 : Vec Ideal S8000x16 .f32) (x1 : Vec Ideal S8000x1 .f32) (x2 : Vec Ideal S1x16 .f32)
    (x3 : Vec Ideal S16x3 .f32) :
    k2_pay1 x0 x1 x2 x3 x1
      = fun y : S8000x3.Idx =>
          (∑ k : Fin 16, Cert.Spec.leaky (x0 (ix2 (y 0) k) * x1 (ix2 (y 0) (0 : Fin 1)) + x2 (ix2 (0 : Fin 1) k)) * x3 (ix2 k (y 1)))
            * x1 (ix2 (y 0) (0 : Fin 1)) := by
  funext y
  obtain ⟨p, q, rfl⟩ : ∃ (p : Fin 8000) (q : Fin 3), y = ix2 p q := ⟨y 0, y 1, eq_ix2 y⟩
  exact pay_apply x0 x1 x2 x3 p q

theorem zero_offsets : (![0, 0] : Fin 2 → Nat) = fun _ => 0 := funext fun a => by fin_cases a <;> rfl

/-- What the output array ends holding: at `(n, j)`, row `n` of the messages scaled by `d[n]`, the bias added, the
    activation, the product with column `j` of the weights, scaled by `d[n]`. -/
abbrev G (h : FVec Ideal S1600000x16 .f32) (d : FVec Ideal S1600000x1 .f32) (b : FVec Ideal S1x16 .f32)
    (w : FVec Ideal S16x3 .f32) : S1600000x3.Idx → EReal := fun i =>
  (∑ k : Fin 16, Cert.Spec.leaky (h (ix2 (i 0) k) * d (ix2 (i 0) (0 : Fin 1)) + b (ix2 (0 : Fin 1) k)) * w (ix2 k (i 1)))
    * d (ix2 (i 0) (0 : Fin 1))

/-- The printed index maps over the grid: the messages' and the column's blocks move with the output's along the rows,
    the bias row and the weights stay, and point `t` has block `t`. -/
theorem idx_facts : ∀ t : Fin cfg2.N, win2_0.index t (0 : Fin 2) = win2_4.index t (0 : Fin 2)
    ∧ win2_0.index t (1 : Fin 2) = 0
    ∧ win2_1.index t (0 : Fin 2) = win2_4.index t (0 : Fin 2)
    ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- The closed form depends on its arrays only through the entries it names: reading them at indices equal to
    `(n, k)`, `(n, 0)`, `(0, k)`, `(k, j)` gives the closed form at `(n, j)`. -/
theorem G_congr (h : FVec Ideal S1600000x16 .f32) (d : FVec Ideal S1600000x1 .f32) (b : FVec Ideal S1x16 .f32)
    (w : FVec Ideal S16x3 .f32) (n : Fin 1600000) (j : Fin 3)
    (i0 : Fin 16 → S1600000x16.Idx) (i1 : S1600000x1.Idx) (i2 : Fin 16 → S1x16.Idx) (i3 : Fin 16 → S16x3.Idx)
    (h0 : ∀ k, i0 k = ix2 n k) (h1 : i1 = ix2 n (0 : Fin 1)) (h2 : ∀ k, i2 k = ix2 (0 : Fin 1) k)
    (h3 : ∀ k, i3 k = ix2 k j) :
    (∑ k : Fin 16, Cert.Spec.leaky (h (i0 k) * d i1 + b (i2 k)) * w (i3 k)) * d i1
      = (∑ k : Fin 16, Cert.Spec.leaky (h (ix2 n k) * d (ix2 n (0 : Fin 1)) + b (ix2 (0 : Fin 1) k)) * w (ix2 k j))
          * d (ix2 n (0 : Fin 1)) := by
  obtain rfl : i0 = fun k => ix2 n k := funext h0
  obtain rfl : i2 = fun k => ix2 (0 : Fin 1) k := funext h2
  obtain rfl : i3 = fun k => ix2 k j := funext h3
  subst h1
  rfl

/-- What point `t` writes back is block `t` of the closed form of the four arrays as the region finds them. -/
theorem flushed_eq (c : Dev nD) (t : Fin cfg2.N) :
    (dat2 (F := Ideal) V c).flushed 4 t
      = ((cfg2.win 4).blk t).view.read (Elt Ideal) (G (hA V c) (dA V c) (bA V c) (wA V c)) := by
  show (cfg2.win 4).cut (grid2.coords t) ((dat2 V c).after 4 t) = _
  rw [after2_4]
  unfold out2_4
  rw [View.canon_unit_zero zero_offsets]
  simp only [View.ld_unit_zero (S := S8000x16) zero_offsets, View.ld_unit_zero (S := S8000x1) zero_offsets,
    View.ld_unit_zero (S := S1x16) zero_offsets, View.ld_unit_zero (S := S16x3) zero_offsets]
  rw [pay_block]
  obtain ⟨e0, e1, e2, e3, e4, e5, e6, e7, e8, e9⟩ := idx_facts t
  funext y
  have hy0 : (y 0).val < 8000 := (y 0).isLt
  have hy1 : (y 1).val < 3 := (y 1).isLt
  show (∑ k : Fin 16, Cert.Spec.leaky (hA V c (((cfg2.win 0).blk t).view.emb (ix2 (y 0) k))
          * dA V c (((cfg2.win 1).blk t).view.emb (ix2 (y 0) (0 : Fin 1)))
          + bA V c (((cfg2.win 2).blk t).view.emb (ix2 (0 : Fin 1) k)))
        * wA V c (((cfg2.win 3).blk t).view.emb (ix2 k (y 1))))
      * dA V c (((cfg2.win 1).blk t).view.emb (ix2 (y 0) (0 : Fin 1)))
    = G (hA V c) (dA V c) (bA V c) (wA V c) (((cfg2.win 4).blk t).view.emb y)
  refine G_congr (hA V c) (dA V c) (bA V c) (wA V c) ((((cfg2.win 4).blk t).view.emb y) 0) ((((cfg2.win 4).blk t).view.emb y) 1)
    (fun k => ((cfg2.win 0).blk t).view.emb (ix2 (y 0) k)) (((cfg2.win 1).blk t).view.emb (ix2 (y 0) (0 : Fin 1)))
    (fun k => ((cfg2.win 2).blk t).view.emb (ix2 (0 : Fin 1) k)) (fun k => ((cfg2.win 3).blk t).view.emb (ix2 k (y 1)))
    (fun k => ?_) ?_ (fun k => ?_) (fun k => ?_)
  · funext a; apply Fin.ext
    match a with
    | ⟨0, _⟩ =>
      show win2_0.index t (0 : Fin 2) * 8000 + 1 * (y 0).val = win2_4.index t (0 : Fin 2) * 8000 + 1 * (y 0).val
      omega
    | ⟨1, _⟩ =>
      show win2_0.index t (1 : Fin 2) * 16 + 1 * k.val = k.val
      omega
  · funext a; apply Fin.ext
    match a with
    | ⟨0, _⟩ =>
      show win2_1.index t (0 : Fin 2) * 8000 + 1 * (y 0).val = win2_4.index t (0 : Fin 2) * 8000 + 1 * (y 0).val
      omega
    | ⟨1, _⟩ =>
      show win2_1.index t (1 : Fin 2) * 1 + 1 * 0 = 0
      omega
  · funext a; apply Fin.ext
    match a with
    | ⟨0, _⟩ =>
      show win2_2.index t (0 : Fin 2) * 1 + 1 * 0 = 0
      omega
    | ⟨1, _⟩ =>
      show win2_2.index t (1 : Fin 2) * 16 + 1 * k.val = k.val
      omega
  · funext a; apply Fin.ext
    match a with
    | ⟨0, _⟩ =>
      show win2_3.index t (0 : Fin 2) * 16 + 1 * k.val = k.val
      omega
    | ⟨1, _⟩ =>
      show win2_3.index t (1 : Fin 2) * 3 + 1 * (y 1).val = win2_4.index t (1 : Fin 2) * 3 + 1 * (y 1).val
      omega

/-- An index of the output array is in point `t`'s block iff each coordinate is in the block's range on its axis. -/
theorem mem_blk (t : Fin cfg2.N) (i : S1600000x3.Idx) :
    i ∈ ((cfg2.win 4).blk t).view.set
      ↔ ∀ a : Fin 2, win2_4.index t a * S8000x3.size a ≤ (i a).val
          ∧ (i a).val < win2_4.index t a * S8000x3.size a + S8000x3.size a := by
  show i ∈ ((View.whole main_call0_v50).slice (win2_4.rect t)).set ↔ _
  rw [View.set_slice_whole, Rect.mem_set_unit]
  exact Iff.rfl

/-- Every row lies in the block of the point its number divided by 8000 names: the 200 blocks tile the 1600000 rows. -/
theorem cover (i : S1600000x3.Idx) :
    ∃ t : Fin cfg2.N, (cfg2.win 4).flush t = true ∧ i ∈ ((cfg2.win 4).blk t).view.set := by
  have hi0 : (i 0).val < 1600000 := (i 0).isLt
  have hi1 : (i 1).val < 3 := (i 1).isLt
  have ht : (i 0).val / 8000 < 200 := by omega
  obtain ⟨e0, e1, e2, e3, e4, e5, e6, e7, e8, e9⟩ := idx_facts ⟨(i 0).val / 8000, ht⟩
  have e8' : win2_4.index ⟨(i 0).val / 8000, ht⟩ (0 : Fin 2) = (i 0).val / 8000 := e8
  refine ⟨⟨(i 0).val / 8000, ht⟩, flush2_4 _, ?_⟩
  rw [mem_blk]
  intro a
  match a with
  | ⟨0, _⟩ =>
    show win2_4.index ⟨(i 0).val / 8000, ht⟩ (0 : Fin 2) * 8000 ≤ (i 0).val
      ∧ (i 0).val < win2_4.index ⟨(i 0).val / 8000, ht⟩ (0 : Fin 2) * 8000 + 8000
    omega
  | ⟨1, _⟩ =>
    show win2_4.index ⟨(i 0).val / 8000, ht⟩ (1 : Fin 2) * 3 ≤ (i 1).val
      ∧ (i 1).val < win2_4.index ⟨(i 0).val / 8000, ht⟩ (1 : Fin 2) * 3 + 3
    omega

/-- The region's output array after its run. -/
theorem arr (c : Dev nD) :
    (dat2 (F := Ideal) V c).arrAt 4 cfg2.N
      = fun i : S1600000x3.Idx =>
          (∑ k : Fin 16, Cert.Spec.leaky (hA V c (ix2 (i 0) k) * dA V c (ix2 (i 0) (0 : Fin 1)) + bA V c (ix2 (0 : Fin 1) k))
              * wA V c (ix2 k (i 1))) * dA V c (ix2 (i 0) (0 : Fin 1)) :=
  (dat2 (F := Ideal) V c).arrAt_eq_of_cover 4 (G (hA V c) (dA V c) (bA V c) (wA V c)) (fun t _ => flushed_eq V c t) cover

end Cert.KernelIdeal.Region2

end
-- ==== Proof.Region3.lean ====
/-
  What the fourth pallas_call leaves in its output array, as one function of its four input arrays.

  The grid has 13 points; point t handles rows 1000·t … 1000·t + 999 of three 13000 × 384 arrays (the node coordinates,
  the aggregated messages and the normalisation factors, each laid out 384 to a row and zero-padded to 13000 rows) and the
  one 1 × 384 row of biases. Its body is entry by entry x + d · h + b, the bias row broadcast down the block. The blocks
  tile the 13000 rows exactly.
-/
import proofs.«411275_j68839735821120_3_alg».proof.Proof.Gen.KernelIdeal.Frame
import proofs.«411275_j68839735821120_3_alg».proof.Proof.Spec
import proofs.«411275_j68839735821120_3_alg».proof.Proof.LibPlainDot
import proofs.«411275_j68839735821120_3_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region3

open Cert.KernelIdeal Cert.KernelIdeal.Gen Idealize.ShloMosaic Idealize.ShloMosaic.TcCoe Idealize.ShloMosaic.ValueIdx
open Idealize.SL.Sem Idealize.ShloMosaic.Pipeline
open scoped BigOperators

-- the TensorCore's buffer contents when the region is entered: any
variable (V : (c : Dev nD) → (b : Ref sig .tc) → Buf (Elt Ideal) ((c : Thread nD τ).loc b))

/-- The three padded arrays and the bias row, as the region finds them. -/
abbrev xA (c : Dev nD) : FVec Ideal S13000x384 .f32 := V c main_call0_v70
abbrev hA (c : Dev nD) : FVec Ideal S13000x384 .f32 := V c main_call0_v71
abbrev dA (c : Dev nD) : FVec Ideal S13000x384 .f32 := V c main_call0_v72
abbrev bA (c : Dev nD) : FVec Ideal S1x384 .f32 := V c main_call0_v69

/-- The zero offsets of the whole-block accesses, however spelt. -/
theorem zero_off : (![0, 0] : Fin 2 → Nat) = fun _ => 0 := funext fun a => by fin_cases a <;> rfl

/-- x + d · h + b entry by entry, the bias row b read at the entry's column. -/
abbrev combine (x h d : S13000x384.Idx → Ideal .f32) (b : S1x384.Idx → Ideal .f32) : S13000x384.Idx → Ideal .f32 :=
  fun i => x i + d i * h i + b (ix2 (0 : Fin 1) (i 1))

/-- A `[1, b]` row spread down to `[a, b]` reads, at `(i, j)`, the row at `(0, j)`. -/
theorem broadcastTo_1b_ab_apply {α : Type} {a b : ℕ} (v : (⟨2, ![1, b]⟩ : Shape).Idx → α)
    (h : (⟨2, ![1, b]⟩ : Shape).Broadcasts ⟨2, ![a, b]⟩) (i : Fin a) (j : Fin b) :
    broadcastTo ⟨2, ![a, b]⟩ v h (ix2 i j) = v (ix2 (0 : Fin 1) j) := by
  refine broadcastTo_apply v h (ix2 i j) (ix2 (0 : Fin 1) j) fun ax => ?_
  match ax with
  | ⟨0, _⟩ => rfl
  | ⟨1, _⟩ =>
    show j.val = if b = 1 then 0 else j.val
    split
    · have := j.isLt; omega
    · rfl

/-- The body's stored value at entry (p, q) of its block: x + d · h there, plus the bias row's entry q. -/
theorem pay_apply (x d h : Vec Ideal S1000x384 .f32) (b : Vec Ideal S1x384 .f32) (p : Fin 1000) (q : Fin 384) :
    k3_pay1 x d h b (ix2 p q) = x (ix2 p q) + d (ix2 p q) * h (ix2 p q) + b (ix2 (0 : Fin 1) q) := by
  unfold k3_pay1
  simp only [shapeCast_self]
  show x (ix2 p q) + d (ix2 p q) * h (ix2 p q) + broadcastTo S1000x384 b broadcasts_S1x384_S1000x384 (ix2 p q) = _
  exact congrArg (fun z => x (ix2 p q) + d (ix2 p q) * h (ix2 p q) + z) (broadcastTo_1b_ab_apply b broadcasts_S1x384_S1000x384 p q)

/-- The five windows' block positions, decided over the 13 grid points: the four 13000-row arrays' blocks sit at block
    row t, block column 0; the bias row's one block is the whole row. -/
theorem block_pos : ∀ t : Fin cfg3.N, win3_0.index t (0 : Fin 2) = t.val
    ∧ win3_0.index t (1 : Fin 2) = 0
    ∧ win3_1.index t (0 : Fin 2) = t.val
    ∧ win3_1.index t (1 : Fin 2) = 0
    ∧ win3_2.index t (0 : Fin 2) = t.val
    ∧ win3_2.index t (1 : Fin 2) = 0
    ∧ win3_3.index t (0 : Fin 2) = 0
    ∧ win3_3.index t (1 : Fin 2) = 0
    ∧ win3_4.index t (0 : Fin 2) = t.val
    ∧ win3_4.index t (1 : Fin 2) = 0 :=
  (by decide +kernel : ∀ t : Fin grid3.N, _)

/-- What point t writes back is block t of x + d · h + b of the four arrays as the region finds them. -/
theorem flushed_eq (c : Dev nD) (t : Fin cfg3.N) :
    (dat3 (F := Ideal) V c).flushed 4 t
      = ((cfg3.win 4).blk t).view.read (Elt Ideal) (combine (xA V c) (hA V c) (dA V c) (bA V c)) := by
  show (cfg3.win 4).cut (grid3.coords t) ((dat3 V c).after 4 t) = _
  rw [after3_4]
  unfold out3_4
  rw [View.canon_unit_zero zero_off]
  simp only [View.ld_unit_zero (S := S1000x384) zero_off, View.ld_unit_zero (S := S1x384) zero_off]
  obtain ⟨e00, e01, e10, e11, e20, e21, e30, e31, e40, e41⟩ := block_pos t
  funext j
  obtain ⟨p, q, rfl⟩ : ∃ (p : Fin 1000) (q : Fin 384), j = ix2 p q := ⟨j 0, j 1, eq_ix2 j⟩
  show k3_pay1 (iblk3 V c 0 t) (iblk3 V c 2 t) (iblk3 V c 1 t) (iblk3 V c 3 t) (ix2 p q)
    = combine (xA V c) (hA V c) (dA V c) (bA V c) (((cfg3.win 4).blk t).view.emb (ix2 p q))
  refine (pay_apply _ _ _ _ p q).trans ?_
  show xA V c (((cfg3.win 0).blk t).view.emb (ix2 p q))
      + dA V c (((cfg3.win 2).blk t).view.emb (ix2 p q)) * hA V c (((cfg3.win 1).blk t).view.emb (ix2 p q))
      + bA V c (((cfg3.win 3).blk t).view.emb (ix2 (0 : Fin 1) q))
    = xA V c (((cfg3.win 4).blk t).view.emb (ix2 p q))
      + dA V c (((cfg3.win 4).blk t).view.emb (ix2 p q)) * hA V c (((cfg3.win 4).blk t).view.emb (ix2 p q))
      + bA V c (ix2 (0 : Fin 1) ((((cfg3.win 4).blk t).view.emb (ix2 p q)) 1))
  have h0 : ((cfg3.win 0).blk t).view.emb (ix2 p q) = ((cfg3.win 4).blk t).view.emb (ix2 p q) := by
    funext a; apply Fin.ext
    match a with
    | ⟨0, _⟩ => show win3_0.index t (0 : Fin 2) * 1000 + 1 * p.val = win3_4.index t (0 : Fin 2) * 1000 + 1 * p.val; omega
    | ⟨1, _⟩ => show win3_0.index t (1 : Fin 2) * 384 + 1 * q.val = win3_4.index t (1 : Fin 2) * 384 + 1 * q.val; omega
  have h1 : ((cfg3.win 1).blk t).view.emb (ix2 p q) = ((cfg3.win 4).blk t).view.emb (ix2 p q) := by
    funext a; apply Fin.ext
    match a with
    | ⟨0, _⟩ => show win3_1.index t (0 : Fin 2) * 1000 + 1 * p.val = win3_4.index t (0 : Fin 2) * 1000 + 1 * p.val; omega
    | ⟨1, _⟩ => show win3_1.index t (1 : Fin 2) * 384 + 1 * q.val = win3_4.index t (1 : Fin 2) * 384 + 1 * q.val; omega
  have h2 : ((cfg3.win 2).blk t).view.emb (ix2 p q) = ((cfg3.win 4).blk t).view.emb (ix2 p q) := by
    funext a; apply Fin.ext
    match a with
    | ⟨0, _⟩ => show win3_2.index t (0 : Fin 2) * 1000 + 1 * p.val = win3_4.index t (0 : Fin 2) * 1000 + 1 * p.val; omega
    | ⟨1, _⟩ => show win3_2.index t (1 : Fin 2) * 384 + 1 * q.val = win3_4.index t (1 : Fin 2) * 384 + 1 * q.val; omega
  have h3 : ((cfg3.win 3).blk t).view.emb (ix2 (0 : Fin 1) q)
      = ix2 (0 : Fin 1) ((((cfg3.win 4).blk t).view.emb (ix2 p q)) 1) := by
    funext a; apply Fin.ext
    match a with
    | ⟨0, _⟩ => show win3_3.index t (0 : Fin 2) * 1 + 1 * 0 = 0; omega
    | ⟨1, _⟩ => show win3_3.index t (1 : Fin 2) * 384 + 1 * q.val = win3_4.index t (1 : Fin 2) * 384 + 1 * q.val; omega
  rw [h0, h1, h2, h3]
  rfl

/-- An index of the array is in point t's block iff each coordinate is in the block's range on its axis. -/
theorem mem_blk (t : Fin cfg3.N) (i : S13000x384.Idx) :
    i ∈ ((cfg3.win 4).blk t).view.set ↔ ∀ a : Fin 2, win3_4.index t a * S1000x384.size a ≤ (i a).val ∧ (i a).val < win3_4.index t a * S1000x384.size a + S1000x384.size a := by
  show i ∈ ((View.whole main_call0_v73).slice (win3_4.rect t)).set ↔ _
  rw [View.set_slice_whole, Rect.mem_set_unit]
  exact Iff.rfl

/-- Every index of the array is in the block of the point its row falls to: row r belongs to point r / 1000. -/
theorem cover (i : S13000x384.Idx) :
    ∃ t : Fin cfg3.N, (cfg3.win 4).flush t = true ∧ i ∈ ((cfg3.win 4).blk t).view.set := by
  have hi0 : (i 0).val < 13000 := (i 0).isLt
  have hi1 : (i 1).val < 384 := (i 1).isLt
  refine ⟨⟨(i 0).val / 1000, by show (i 0).val / 1000 < 13; omega⟩, flush3_4 _, ?_⟩
  rw [mem_blk]
  obtain ⟨-, -, -, -, -, -, -, -, e40, e41⟩ := block_pos ⟨(i 0).val / 1000, by show (i 0).val / 1000 < 13; omega⟩
  intro a
  match a with
  | ⟨0, _⟩ =>
    show win3_4.index _ (0 : Fin 2) * 1000 ≤ (i 0).val ∧ (i 0).val < win3_4.index _ (0 : Fin 2) * 1000 + 1000
    rw [e40]; show (i 0).val / 1000 * 1000 ≤ (i 0).val ∧ (i 0).val < (i 0).val / 1000 * 1000 + 1000; omega
  | ⟨1, _⟩ =>
    show win3_4.index _ (1 : Fin 2) * 384 ≤ (i 1).val ∧ (i 1).val < win3_4.index _ (1 : Fin 2) * 384 + 384
    rw [e41]; omega

/-- The region's output array after its run. -/
theorem arr (c : Dev nD) :
    (dat3 (F := Ideal) V c).arrAt 4 cfg3.N
      = fun i : S13000x384.Idx => xA V c i + dA V c i * hA V c i + bA V c (ix2 (0 : Fin 1) (i 1)) :=
  (dat3 (F := Ideal) V c).arrAt_eq_of_cover 4 (combine (xA V c) (hA V c) (dA V c) (bA V c))
    (fun t _ => flushed_eq V c t) cover

end Cert.KernelIdeal.Region3

end
-- ==== Proof.Region4.lean ====
/-
  What the fifth pallas_call leaves in its output array, as one function of its two input arrays.

  The grid has 14 points; point t handles rows 8192·t … 8192·t + 8191 of two 114688 × 128 arrays (the two end points'
  coordinates of every edge, laid out 128 to a row and zero-padded to 114688 rows). Its body is entry by entry
  (a + b) times the literal one half. The blocks tile the 114688 rows exactly.
-/
import proofs.«411275_j68839735821120_3_alg».proof.Proof.Gen.KernelIdeal.Frame
import proofs.«411275_j68839735821120_3_alg».proof.Proof.Spec
import proofs.«411275_j68839735821120_3_alg».proof.Proof.LibPlainDot
import proofs.«411275_j68839735821120_3_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region4

open Cert.KernelIdeal Cert.KernelIdeal.Gen Idealize.ShloMosaic Idealize.ShloMosaic.TcCoe Idealize.ShloMosaic.ValueIdx
open Idealize.SL.Sem Idealize.ShloMosaic.Pipeline
open scoped BigOperators

-- the TensorCore's buffer contents when the region is entered: any
variable (V : (c : Dev nD) → (b : Ref sig .tc) → Buf (Elt Ideal) ((c : Thread nD τ).loc b))

/-- The two padded arrays, as the region finds them. -/
abbrev aA (c : Dev nD) : FVec Ideal S114688x128 .f32 := V c main_call0_v100
abbrev bA (c : Dev nD) : FVec Ideal S114688x128 .f32 := V c main_call0_v101

/-- The zero offsets of the whole-block access, however spelt. -/
theorem zero_off : (![0, 0] : Fin 2 → Nat) = fun _ => 0 := funext fun a => by fin_cases a <;> rfl

/-- Half the sum of the two arrays, entry by entry (the half as the literal word the body multiplies by). -/
abbrev halfSum (a b : S114688x128.Idx → Ideal .f32) : S114688x128.Idx → Ideal .f32 :=
  fun i => (a i + b i) * Ideal.ofBits .f32 0x3F000000#32

/-- The body's stored value at an index of its block: the two loaded blocks added there, times the literal. -/
theorem pay_apply (x0 x1 : Vec Ideal S8192x128 .f32) (j : S8192x128.Idx) :
    k4_pay1 x0 x1 j = (x0 j + x1 j) * Ideal.ofBits .f32 0x3F000000#32 := by
  unfold k4_pay1
  simp only [shapeCast_self]
  rfl

/-- The three windows' block positions, decided over the 14 grid points: all three sit at block row t, block column 0. -/
theorem block_pos : ∀ t : Fin cfg4.N, win4_0.index t (0 : Fin 2) = t.val
    ∧ win4_0.index t (1 : Fin 2) = 0
    ∧ win4_1.index t (0 : Fin 2) = t.val
    ∧ win4_1.index t (1 : Fin 2) = 0
    ∧ win4_2.index t (0 : Fin 2) = t.val
    ∧ win4_2.index t (1 : Fin 2) = 0 :=
  (by decide +kernel : ∀ t : Fin grid4.N, _)

/-- What point t writes back is block t of the half sum of the two arrays as the region finds them. -/
theorem flushed_eq (c : Dev nD) (t : Fin cfg4.N) :
    (dat4 (F := Ideal) V c).flushed 2 t
      = ((cfg4.win 2).blk t).view.read (Elt Ideal) (halfSum (aA V c) (bA V c)) := by
  show (cfg4.win 2).cut (grid4.coords t) ((dat4 V c).after 2 t) = _
  rw [after4_2]
  unfold out4_2
  rw [View.canon_unit_zero zero_off]
  simp only [View.ld_unit_zero (S := S8192x128) zero_off]
  obtain ⟨e0, e1, e2, e3, e4, e5⟩ := block_pos t
  funext j
  show k4_pay1 (iblk4 V c 0 t) (iblk4 V c 1 t) j = halfSum (aA V c) (bA V c) (((cfg4.win 2).blk t).view.emb j)
  refine (pay_apply _ _ j).trans ?_
  show (aA V c (((cfg4.win 0).blk t).view.emb j) + bA V c (((cfg4.win 1).blk t).view.emb j)) * _
    = (aA V c (((cfg4.win 2).blk t).view.emb j) + bA V c (((cfg4.win 2).blk t).view.emb j)) * _
  have h0 : ((cfg4.win 0).blk t).view.emb j = ((cfg4.win 2).blk t).view.emb j := by
    funext a; apply Fin.ext
    match a with
    | ⟨0, _⟩ => show win4_0.index t (0 : Fin 2) * 8192 + 1 * (j 0).val = win4_2.index t (0 : Fin 2) * 8192 + 1 * (j 0).val; omega
    | ⟨1, _⟩ => show win4_0.index t (1 : Fin 2) * 128 + 1 * (j 1).val = win4_2.index t (1 : Fin 2) * 128 + 1 * (j 1).val; omega
  have h1 : ((cfg4.win 1).blk t).view.emb j = ((cfg4.win 2).blk t).view.emb j := by
    funext a; apply Fin.ext
    match a with
    | ⟨0, _⟩ => show win4_1.index t (0 : Fin 2) * 8192 + 1 * (j 0).val = win4_2.index t (0 : Fin 2) * 8192 + 1 * (j 0).val; omega
    | ⟨1, _⟩ => show win4_1.index t (1 : Fin 2) * 128 + 1 * (j 1).val = win4_2.index t (1 : Fin 2) * 128 + 1 * (j 1).val; omega
  rw [h0, h1]

/-- An index of the array is in point t's block iff each coordinate is in the block's range on its axis. -/
theorem mem_blk (t : Fin cfg4.N) (i : S114688x128.Idx) :
    i ∈ ((cfg4.win 2).blk t).view.set ↔ ∀ a : Fin 2, win4_2.index t a * S8192x128.size a ≤ (i a).val ∧ (i a).val < win4_2.index t a * S8192x128.size a + S8192x128.size a := by
  show i ∈ ((View.whole main_call0_v102).slice (win4_2.rect t)).set ↔ _
  rw [View.set_slice_whole, Rect.mem_set_unit]
  exact Iff.rfl

/-- Every index of the array is in the block of the point its row falls to: row r belongs to point r / 8192. -/
theorem cover (i : S114688x128.Idx) :
    ∃ t : Fin cfg4.N, (cfg4.win 2).flush t = true ∧ i ∈ ((cfg4.win 2).blk t).view.set := by
  have hi0 : (i 0).val < 114688 := (i 0).isLt
  have hi1 : (i 1).val < 128 := (i 1).isLt
  refine ⟨⟨(i 0).val / 8192, by show (i 0).val / 8192 < 14; omega⟩, flush4_2 _, ?_⟩
  rw [mem_blk]
  obtain ⟨-, -, -, -, e4, e5⟩ := block_pos ⟨(i 0).val / 8192, by show (i 0).val / 8192 < 14; omega⟩
  intro a
  match a with
  | ⟨0, _⟩ =>
    show win4_2.index _ (0 : Fin 2) * 8192 ≤ (i 0).val ∧ (i 0).val < win4_2.index _ (0 : Fin 2) * 8192 + 8192
    rw [e4]; show (i 0).val / 8192 * 8192 ≤ (i 0).val ∧ (i 0).val < (i 0).val / 8192 * 8192 + 8192; omega
  | ⟨1, _⟩ =>
    show win4_2.index _ (1 : Fin 2) * 128 ≤ (i 1).val ∧ (i 1).val < win4_2.index _ (1 : Fin 2) * 128 + 128
    rw [e5]; omega

/-- The region's output array after its run. -/
theorem arr (c : Dev nD) :
    (dat4 (F := Ideal) V c).arrAt 2 cfg4.N
      = fun i : S114688x128.Idx => (aA V c i + bA V c i) * Ideal.ofBits .f32 0x3F000000#32 :=
  (dat4 (F := Ideal) V c).arrAt_eq_of_cover 2 (halfSum (aA V c) (bA V c)) (fun t _ => flushed_eq V c t) cover

end Cert.KernelIdeal.Region4

end
-- ==== Proof.LibScatterGather2.lean ====
/-
  The accumulating scatter and the gather of a table of rows by a column of index words, read at an index.

  Both operations here take an operand of `N` rows and `C` columns and an `M × 1` column of index words, one word per
  update (or result) row: row `e` names row `idx[e, 0]` of the operand, the word read as a SIGNED integer, and the
  columns go straight across.
    • The scatter adds update row `e` into the operand row its word names, column by column, and drops it when the
      word names no row; so element `(u, j)` ends as its old value plus the sum, over the update rows whose word read
      signed is `u`, of their column `j`.
    • The gather reads, at `(e, j)`, column `j` of the operand row `e`'s word names, the word clamped into
      `[0, N − 1]`; when the word is already below `N` (and `N` is at most half the word range, so that the signed
      reading is the unsigned one) that is the row at the word itself.
  Nothing here depends on the sizes: every step is about the two axes, never about the `N`, `M` or `C` positions.
-/
import Idealize.ShloMosaic.PureOps.Ideal
import Idealize.ShloMosaic.PureOps.ShapeOps
import Idealize.ShloMosaic.PureOps.Contract
import Idealize.ShloMosaic.Lib.ValueIdx

noncomputable section

namespace Cert.LibScatterGather2

open Idealize.ShloMosaic Idealize.ShloMosaic.ValueIdx

/-! ## The scatter -/

section Scatter

variable {N C M w : Nat}

/-- Where update index `jj` starts and how far into its window it sits, axis by axis: on the row axis the start is
    the index word of `jj`'s row, read signed, and the window coordinate is zero (the axis is inserted); on the column
    axis the start is zero (no word names it) and the window coordinate is `jj`'s column. -/
theorem start_window (d : ScatterDims ⟨2, ![N, C]⟩ ⟨2, ![M, 1]⟩ ⟨2, ![M, C]⟩)
    (huw : d.updateWindowDims = [1]) (hiw : d.insertedWindowDims = [0]) (hsd : d.scatterDimsToOperandDims = [0])
    (hivd : d.indexVectorDim = 1)
    (idx : IVec ⟨2, ![M, 1]⟩ w) (jj : (⟨2, ![M, C]⟩ : Shape).Idx) :
    d.start jj idx 0 = (idx (ix2 (n0 := M) (n1 := 1) (jj 0) 0)).toInt ∧ d.start jj idx 1 = 0
      ∧ d.window jj 0 = 0 ∧ d.window jj 1 = (jj 1).val := by
  cases d with
  | mk uw iw sd iv wf =>
    obtain rfl : uw = [1] := huw
    obtain rfl : iw = [0] := hiw
    obtain rfl : sd = [0] := hsd
    obtain rfl : iv = 1 := hivd
    refine ⟨?_, ?_, ?_, ?_⟩
    · unfold ScatterDims.start
      rw [dif_pos (List.mem_singleton.mpr rfl)]
      refine congrArg (fun k => (idx k).toInt) ?_
      funext b
      match b with
      | ⟨0, _⟩ => exact Fin.ext rfl
      | ⟨1, _⟩ => exact Fin.ext rfl
    · unfold ScatterDims.start
      rw [dif_neg (by decide : (1 : Fin 2) ∉ [0])]
    · unfold ScatterDims.window
      exact dif_neg (by decide : (0 : Fin 2) ∉ (List.finRange 2).filter (· ∉ [0]))
    · unfold ScatterDims.window
      refine (dif_pos (by decide : (1 : Fin 2) ∈ (List.finRange 2).filter (· ∉ [0]))).trans ?_
      rfl

/-- Update index `jj` lands on element `i` exactly when its row's index word, read signed, is `i`'s row and its
    column is `i`'s column. -/
theorem resultIdx?_iff (d : ScatterDims ⟨2, ![N, C]⟩ ⟨2, ![M, 1]⟩ ⟨2, ![M, C]⟩)
    (huw : d.updateWindowDims = [1]) (hiw : d.insertedWindowDims = [0]) (hsd : d.scatterDimsToOperandDims = [0])
    (hivd : d.indexVectorDim = 1)
    (idx : IVec ⟨2, ![M, 1]⟩ w) (jj : (⟨2, ![M, C]⟩ : Shape).Idx) (i : (⟨2, ![N, C]⟩ : Shape).Idx) :
    d.resultIdx? jj idx = some i
      ↔ (idx (ix2 (n0 := M) (n1 := 1) (jj 0) 0)).toInt = ((i 0).val : ℤ) ∧ (jj 1).val = (i 1).val := by
  obtain ⟨hs0, hs1, hw0, hw1⟩ := start_window d huw hiw hsd hivd idx jj
  have hi0 : (i 0).val < N := (i 0).isLt
  have hi1 : (i 1).val < C := (i 1).isLt
  have hj1 : (jj 1).val < C := (jj 1).isLt
  unfold ScatterDims.resultIdx?
  constructor
  · intro h
    split at h
    · rename_i hc
      have hf := Option.some.inj h
      have h0 : (d.start jj idx 0 + (d.window jj 0 : ℤ)).toNat = (i 0).val := congrArg (fun f => (f 0).val) hf
      have h1 : (d.start jj idx 1 + (d.window jj 1 : ℤ)).toNat = (i 1).val := congrArg (fun f => (f 1).val) hf
      have hc0 := (hc 0).1
      rw [hs0, hw0] at hc0 h0
      rw [hs1, hw1] at h1
      constructor
      · omega
      · omega
    · exact absurd h (by simp)
  · rintro ⟨h, h'⟩
    have hc : ∀ a : Fin 2, 0 ≤ d.start jj idx a + (d.window jj a : ℤ)
        ∧ d.start jj idx a + (d.window jj a : ℤ) < ((⟨2, ![N, C]⟩ : Shape).size a : ℤ) := by
      intro a
      match a with
      | ⟨0, _⟩ =>
        show 0 ≤ d.start jj idx 0 + (d.window jj 0 : ℤ) ∧ d.start jj idx 0 + (d.window jj 0 : ℤ) < (N : ℤ)
        rw [hs0, hw0, h]
        constructor <;> omega
      | ⟨1, _⟩ =>
        show 0 ≤ d.start jj idx 1 + (d.window jj 1 : ℤ) ∧ d.start jj idx 1 + (d.window jj 1 : ℤ) < (C : ℤ)
        rw [hs1, hw1]
        constructor <;> omega
    rw [dif_pos hc]
    refine congrArg some ?_
    funext a
    match a with
    | ⟨0, _⟩ =>
      apply Fin.ext
      show (d.start jj idx 0 + (d.window jj 0 : ℤ)).toNat = (i 0).val
      rw [hs0, hw0, h]; simp
    | ⟨1, _⟩ =>
      apply Fin.ext
      show (d.start jj idx 1 + (d.window jj 1 : ℤ)).toNat = (i 1).val
      rw [hs1, hw1]; simpa using h'

/-- The accumulating scatter at element `(u, j)`: the old value plus column `j` of the update rows whose word,
    read signed, is `u`. -/
theorem scatterAdd_apply {φ : FTy} (d : ScatterDims ⟨2, ![N, C]⟩ ⟨2, ![M, 1]⟩ ⟨2, ![M, C]⟩)
    (huw : d.updateWindowDims = [1]) (hiw : d.insertedWindowDims = [0]) (hsd : d.scatterDimsToOperandDims = [0])
    (hivd : d.indexVectorDim = 1)
    (x : FVec Ideal ⟨2, ![N, C]⟩ φ) (idx : IVec ⟨2, ![M, 1]⟩ w) (upd : FVec Ideal ⟨2, ![M, C]⟩ φ)
    (u : Fin N) (j : Fin C) :
    Host.scatterAdd (F := Ideal) d x idx upd (ix2 u j)
      = x (ix2 u j) + ∑ e ∈ Finset.univ.filter (fun e : Fin M => (idx (ix2 e (0 : Fin 1))).toInt = (u.val : ℤ)),
          upd (ix2 e j) := by
  show Ideal.hostScatterAdd d x idx upd (ix2 u j) = _
  unfold Ideal.hostScatterAdd
  refine congrArg (x (ix2 u j) + ·) ?_
  symm
  refine Finset.sum_bij (fun e _ => ix2 e j) ?_ ?_ ?_ (fun _ _ => rfl)
  · intro e he
    rw [Finset.mem_filter] at he ⊢
    exact ⟨Finset.mem_univ _, (resultIdx?_iff d huw hiw hsd hivd idx (ix2 e j) (ix2 u j)).mpr ⟨he.2, rfl⟩⟩
  · intro e _ e' _ h
    exact congrFun h 0
  · intro jj hjj
    rw [Finset.mem_filter] at hjj
    obtain ⟨h, h'⟩ := (resultIdx?_iff d huw hiw hsd hivd idx jj (ix2 u j)).mp hjj.2
    refine ⟨jj 0, Finset.mem_filter.mpr ⟨Finset.mem_univ _, h⟩, ?_⟩
    rw [eq_ix2 jj]
    refine congrArg (ix2 (jj 0)) (Fin.ext ?_)
    exact h'.symm

end Scatter

/-! ## The gather -/

section Gather

variable {α : Type} {N C M w : Nat}

/-- The gather at `(e, j)`, whatever the word: column `j` of the row at the word read signed and clamped. -/
theorem gather_apply_clamp (d : GatherDims ⟨2, ![N, C]⟩ ⟨2, ![M, 1]⟩ ⟨2, ![M, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![M, 1]⟩ w) (e : Fin M) (j : Fin C) (hN : 0 < N) :
    Host.gather d x idx (ix2 e j)
      = x (ix2 ⟨min (idx (ix2 e (0 : Fin 1))).toInt.toNat (N - 1), by omega⟩ j) := by
  have hsl : d.sliceSizes 0 = 1 := d.slice_collapsed 0 (by rw [hcoll]; exact List.mem_singleton.mpr rfl)
  unfold Host.gather
  refine congrArg x ?_
  cases d with
  | mk od cd ob sb sm iv ss wf =>
    obtain rfl : od = [1] := hoff
    obtain rfl : cd = [0] := hcoll
    obtain rfl : ob = [] := hob
    obtain rfl : sm = [0] := hsim
    obtain rfl : iv = 1 := hivd
    replace hsl : ss 0 = 1 := hsl
    funext a
    match a with
    | ⟨0, _⟩ =>
      apply Fin.ext
      show GatherDims.start _ (ix2 e j) idx 0 + GatherDims.batchCoord _ (ix2 e j) 0 + GatherDims.offCoord _ (ix2 e j) 0
        = min (idx (ix2 e (0 : Fin 1))).toInt.toNat (N - 1)
      rw [GatherDims.batchCoord_eq_zero _ _ _ List.not_mem_nil,
        GatherDims.offCoord_eq_zero _ _ _ (by decide : (0 : Fin 2) ∉ (List.finRange 2).filter (· ∉ [0] ++ []))]
      simp only [Nat.add_zero]
      unfold GatherDims.start
      rw [dif_pos (List.mem_singleton.mpr rfl)]
      show min (idx _).toInt.toNat (N - ss 0) = _
      rw [hsl]
      refine congrArg (fun k => min (idx k).toInt.toNat (N - 1)) ?_
      funext b
      match b with
      | ⟨0, _⟩ => exact Fin.ext rfl
      | ⟨1, _⟩ => exact Fin.ext rfl
    | ⟨1, _⟩ =>
      apply Fin.ext
      show GatherDims.start _ (ix2 e j) idx 1 + GatherDims.batchCoord _ (ix2 e j) 1 + GatherDims.offCoord _ (ix2 e j) 1
        = j.val
      rw [GatherDims.batchCoord_eq_zero _ _ _ List.not_mem_nil]
      simp only [Nat.add_zero]
      unfold GatherDims.start
      rw [dif_neg (by decide : (1 : Fin 2) ∉ [0]), Nat.zero_add]
      unfold GatherDims.offCoord
      refine (dif_pos (by decide : (1 : Fin 2) ∈ (List.finRange 2).filter (· ∉ [0] ++ []))).trans ?_
      rfl

/-- The gather at `(e, j)` when the word is a row's position: column `j` of that row. -/
theorem gather_apply (d : GatherDims ⟨2, ![N, C]⟩ ⟨2, ![M, 1]⟩ ⟨2, ![M, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![M, 1]⟩ w) (e : Fin M) (j : Fin C)
    (hN : 2 * N ≤ 2 ^ w) (h : (idx (ix2 e (0 : Fin 1))).toNat < N) :
    Host.gather d x idx (ix2 e j) = x (ix2 ⟨(idx (ix2 e (0 : Fin 1))).toNat, h⟩ j) := by
  have hN0 : 0 < N := by omega
  rw [gather_apply_clamp d hoff hcoll hob hsim hivd x idx e j hN0]
  refine congrArg x (congrArg (fun r => ix2 r j) (Fin.ext ?_))
  show min (idx (ix2 e (0 : Fin 1))).toInt.toNat (N - 1) = (idx (ix2 e (0 : Fin 1))).toNat
  rw [BitVec.toInt_eq_toNat_of_lt (by omega), Int.toNat_natCast]
  omega

end Gather

end Cert.LibScatterGather2

end
-- ==== Proof.LibCells.lean ====
/-
  Host scatters and gathers whose every update (or result) element is ONE scalar placed by index words, read at an
  index; and two columns of words joined side by side, read at an index.

    • A table of `N` entries and an `M × 1` column of index words, one scalar update per word: the accumulating scatter
      leaves at entry `u` its old value plus the sum of the updates whose word, read signed, is `u` (an update whose
      word names no entry is dropped).
    • A table of `N` rows and `C` columns and an `M × 2` array of index words (row word, column word), one scalar update
      per pair: the accumulating scatter leaves at cell `(u, v)` its old value plus the sum of the updates whose two
      words, read signed, are `u` and `v`.
    • The gather by such an `M × 2` array reads, at `e`, the table at the two words of `e`, each read signed and clamped
      into the table.
    • Two `M × 1` columns joined along the second axis: entry `(e, 0)` is the first column's, `(e, 1)` the second's.
  Nothing here depends on the sizes.
-/
import Idealize.ShloMosaic.PureOps.Ideal
import Idealize.ShloMosaic.PureOps.ShapeOps
import Idealize.ShloMosaic.PureOps.Contract
import Idealize.ShloMosaic.Lib.ValueIdx
import Idealize.ShloMosaic.Lib.Pipeline.Value

noncomputable section

namespace Cert.LibCells

open Idealize.ShloMosaic Idealize.ShloMosaic.ValueIdx
open scoped BigOperators

/-! ## Where an update lands, for any dimension numbers -/

/-- An update index lands on element `i` exactly when, on every operand axis, its start plus its window coordinate is
    `i`'s coordinate: the sum is then inside the operand because `i` is, and the landing index is read off it. -/
theorem resultIdx?_eq_some_iff {s si su : Shape} {w : Nat} (d : ScatterDims s si su) (idx : IVec si w) (jj : su.Idx)
    (i : s.Idx) :
    d.resultIdx? jj idx = some i ↔ ∀ a, d.start jj idx a + (d.window jj a : ℤ) = ((i a).val : ℤ) := by
  unfold ScatterDims.resultIdx?
  constructor
  · intro h a
    split at h
    · rename_i hin
      have hcoord : (d.start jj idx a + (d.window jj a : ℤ)).toNat = (i a).val :=
        congrArg (fun f => (f a).val) (Option.some.inj h)
      have hpos := (hin a).1
      omega
    · exact absurd h (by simp)
  · intro h
    have hin : ∀ a, 0 ≤ d.start jj idx a + (d.window jj a : ℤ)
        ∧ d.start jj idx a + (d.window jj a : ℤ) < (s.size a : ℤ) := by
      intro a
      have hlt := (i a).isLt
      rw [h a]
      constructor <;> omega
    rw [dif_pos hin]
    refine congrArg some (funext fun a => Fin.ext ?_)
    show (d.start jj idx a + (d.window jj a : ℤ)).toNat = (i a).val
    rw [h a]
    simp

/-- A sum over the rank-one indices below `M` that satisfy `p` is the sum over the positions `e < M` whose index
    `ix1 e` satisfies it: an index of rank one is its one coordinate. -/
theorem sum_filter_ix1 {M : Nat} {β : Type} [AddCommMonoid β] (p : (⟨1, ![M]⟩ : Shape).Idx → Prop) [DecidablePred p]
    (q : Fin M → Prop) [DecidablePred q] (hpq : ∀ e, p (ix1 e) ↔ q e) (f : (⟨1, ![M]⟩ : Shape).Idx → β) :
    ∑ jj ∈ Finset.univ.filter p, f jj = ∑ e ∈ Finset.univ.filter q, f (ix1 e) := by
  -- an index satisfies `p` exactly when its coordinate satisfies `q`
  have hp : ∀ jj : (⟨1, ![M]⟩ : Shape).Idx, p jj ↔ q (jj 0) := fun jj =>
    (iff_of_eq (congrArg p (eq_ix1 jj))).trans (hpq (jj 0))
  refine Finset.sum_nbij' (fun jj => (jj 0 : Fin M)) (fun e => ix1 e) ?_ ?_ ?_ ?_ ?_
  · intro jj hjj
    exact Finset.mem_filter.mpr ⟨Finset.mem_univ _, (hp jj).mp (Finset.mem_filter.mp hjj).2⟩
  · intro e he
    exact Finset.mem_filter.mpr ⟨Finset.mem_univ _, (hpq e).mpr (Finset.mem_filter.mp he).2⟩
  · intro jj _
    exact (eq_ix1 jj).symm
  · intro e _
    rfl
  · intro jj _
    exact congrArg f (eq_ix1 jj)

/-! ## One word per update: a table of entries -/

section Scatter1

variable {N M w : Nat}

/-- With the table's one axis inserted and named by the one word of a row: the start of update `jj` is the word of row
    `jj`, read signed, and its window coordinate is zero. -/
theorem start_window1 (d : ScatterDims ⟨1, ![N]⟩ ⟨2, ![M, 1]⟩ ⟨1, ![M]⟩)
    (huw : d.updateWindowDims = []) (hiw : d.insertedWindowDims = [0]) (hsd : d.scatterDimsToOperandDims = [0])
    (hivd : d.indexVectorDim = 1) (idx : IVec ⟨2, ![M, 1]⟩ w) (jj : (⟨1, ![M]⟩ : Shape).Idx) :
    d.start jj idx 0 = (idx (ix2 (n0 := M) (n1 := 1) (jj 0) 0)).toInt ∧ d.window jj 0 = 0 := by
  cases d with
  | mk uw iw sd iv wf =>
    obtain rfl : uw = [] := huw
    obtain rfl : iw = [0] := hiw
    obtain rfl : sd = [0] := hsd
    obtain rfl : iv = 1 := hivd
    constructor
    · unfold ScatterDims.start
      rw [dif_pos (List.mem_singleton.mpr rfl)]
      refine congrArg (fun k => (idx k).toInt) (funext fun b => ?_)
      match b with
      | ⟨0, _⟩ => exact Fin.ext rfl
      | ⟨1, _⟩ => exact Fin.ext rfl
    · unfold ScatterDims.window
      exact dif_neg (by decide : (0 : Fin 1) ∉ (List.finRange 1).filter (· ∉ [0]))

/-- Update `jj` lands on entry `i` exactly when its word, read signed, is `i`'s position. -/
theorem lands1_iff (d : ScatterDims ⟨1, ![N]⟩ ⟨2, ![M, 1]⟩ ⟨1, ![M]⟩)
    (huw : d.updateWindowDims = []) (hiw : d.insertedWindowDims = [0]) (hsd : d.scatterDimsToOperandDims = [0])
    (hivd : d.indexVectorDim = 1) (idx : IVec ⟨2, ![M, 1]⟩ w) (jj : (⟨1, ![M]⟩ : Shape).Idx)
    (i : (⟨1, ![N]⟩ : Shape).Idx) :
    d.resultIdx? jj idx = some i ↔ (idx (ix2 (n0 := M) (n1 := 1) (jj 0) 0)).toInt = ((i 0).val : ℤ) := by
  obtain ⟨hs, hw⟩ := start_window1 d huw hiw hsd hivd idx jj
  rw [resultIdx?_eq_some_iff]
  constructor
  · intro h
    have h0 := h 0
    rw [hs, hw] at h0
    simpa using h0
  · intro h a
    match a with
    | ⟨0, _⟩ =>
      show d.start jj idx 0 + (d.window jj 0 : ℤ) = ((i 0).val : ℤ)
      rw [hs, hw, h]
      simp

end Scatter1

/-- The accumulating scatter of scalars into a table of `N` entries by an `M × 1` column of words. -/
theorem scatterAdd1_apply {N M w : Nat} {φ : FTy} (d : ScatterDims ⟨1, ![N]⟩ ⟨2, ![M, 1]⟩ ⟨1, ![M]⟩)
    (huw : d.updateWindowDims = []) (hiw : d.insertedWindowDims = [0]) (hsd : d.scatterDimsToOperandDims = [0])
    (hivd : d.indexVectorDim = 1)
    (x : FVec Ideal ⟨1, ![N]⟩ φ) (idx : IVec ⟨2, ![M, 1]⟩ w) (upd : FVec Ideal ⟨1, ![M]⟩ φ) (u : Fin N) :
    Host.scatterAdd (F := Ideal) d x idx upd (ix1 u)
      = x (ix1 u) + ∑ e ∈ Finset.univ.filter (fun e : Fin M => (idx (ix2 e (0 : Fin 1))).toInt = (u.val : ℤ)),
          upd (ix1 e) := by
  show Ideal.hostScatterAdd d x idx upd (ix1 u) = _
  unfold Ideal.hostScatterAdd
  refine congrArg (x (ix1 u) + ·) ?_
  exact sum_filter_ix1 _ _ (fun e => lands1_iff d huw hiw hsd hivd idx (ix1 e) (ix1 u)) upd

/-! ## Two words per update: a table of cells -/

section Scatter2

variable {N C M w : Nat}

/-- With both of the table's axes inserted, the row axis named by a pair's first word and the column axis by its
    second: the starts of update `jj` are the two words of row `jj`, read signed, and both window coordinates are
    zero. -/
theorem start_window2 (d : ScatterDims ⟨2, ![N, C]⟩ ⟨2, ![M, 2]⟩ ⟨1, ![M]⟩)
    (huw : d.updateWindowDims = []) (hiw : d.insertedWindowDims = [0, 1])
    (hsd : d.scatterDimsToOperandDims = [0, 1]) (hivd : d.indexVectorDim = 1)
    (idx : IVec ⟨2, ![M, 2]⟩ w) (jj : (⟨1, ![M]⟩ : Shape).Idx) :
    d.start jj idx 0 = (idx (ix2 (n0 := M) (n1 := 2) (jj 0) 0)).toInt
      ∧ d.start jj idx 1 = (idx (ix2 (n0 := M) (n1 := 2) (jj 0) 1)).toInt
      ∧ d.window jj 0 = 0 ∧ d.window jj 1 = 0 := by
  cases d with
  | mk uw iw sd iv wf =>
    obtain rfl : uw = [] := huw
    obtain rfl : iw = [0, 1] := hiw
    obtain rfl : sd = [0, 1] := hsd
    obtain rfl : iv = 1 := hivd
    refine ⟨?_, ?_, ?_, ?_⟩
    · unfold ScatterDims.start
      rw [dif_pos (by decide : (0 : Fin 2) ∈ [(0 : Fin 2), 1])]
      refine congrArg (fun k => (idx k).toInt) (funext fun b => ?_)
      match b with
      | ⟨0, _⟩ => exact Fin.ext rfl
      | ⟨1, _⟩ => exact Fin.ext rfl
    · unfold ScatterDims.start
      rw [dif_pos (by decide : (1 : Fin 2) ∈ [(0 : Fin 2), 1])]
      refine congrArg (fun k => (idx k).toInt) (funext fun b => ?_)
      match b with
      | ⟨0, _⟩ => exact Fin.ext rfl
      | ⟨1, _⟩ => exact Fin.ext rfl
    · unfold ScatterDims.window
      exact dif_neg (by decide : (0 : Fin 2) ∉ (List.finRange 2).filter (· ∉ [(0 : Fin 2), 1]))
    · unfold ScatterDims.window
      exact dif_neg (by decide : (1 : Fin 2) ∉ (List.finRange 2).filter (· ∉ [(0 : Fin 2), 1]))

/-- Update `jj` lands on cell `i` exactly when its two words, read signed, are `i`'s row and column. -/
theorem lands2_iff (d : ScatterDims ⟨2, ![N, C]⟩ ⟨2, ![M, 2]⟩ ⟨1, ![M]⟩)
    (huw : d.updateWindowDims = []) (hiw : d.insertedWindowDims = [0, 1])
    (hsd : d.scatterDimsToOperandDims = [0, 1]) (hivd : d.indexVectorDim = 1)
    (idx : IVec ⟨2, ![M, 2]⟩ w) (jj : (⟨1, ![M]⟩ : Shape).Idx) (i : (⟨2, ![N, C]⟩ : Shape).Idx) :
    d.resultIdx? jj idx = some i
      ↔ (idx (ix2 (n0 := M) (n1 := 2) (jj 0) 0)).toInt = ((i 0).val : ℤ)
        ∧ (idx (ix2 (n0 := M) (n1 := 2) (jj 0) 1)).toInt = ((i 1).val : ℤ) := by
  obtain ⟨hs0, hs1, hw0, hw1⟩ := start_window2 d huw hiw hsd hivd idx jj
  rw [resultIdx?_eq_some_iff]
  constructor
  · intro h
    have h0 := h 0
    have h1 := h 1
    rw [hs0, hw0] at h0
    rw [hs1, hw1] at h1
    exact ⟨by simpa using h0, by simpa using h1⟩
  · rintro ⟨h0, h1⟩ a
    match a with
    | ⟨0, _⟩ =>
      show d.start jj idx 0 + (d.window jj 0 : ℤ) = ((i 0).val : ℤ)
      rw [hs0, hw0, h0]
      simp
    | ⟨1, _⟩ =>
      show d.start jj idx 1 + (d.window jj 1 : ℤ) = ((i 1).val : ℤ)
      rw [hs1, hw1, h1]
      simp

end Scatter2

/-- The accumulating scatter of scalars into a table of `N × C` cells by an `M × 2` array of (row, column) words. -/
theorem scatterAdd2_apply {N C M w : Nat} {φ : FTy} (d : ScatterDims ⟨2, ![N, C]⟩ ⟨2, ![M, 2]⟩ ⟨1, ![M]⟩)
    (huw : d.updateWindowDims = []) (hiw : d.insertedWindowDims = [0, 1])
    (hsd : d.scatterDimsToOperandDims = [0, 1]) (hivd : d.indexVectorDim = 1)
    (x : FVec Ideal ⟨2, ![N, C]⟩ φ) (idx : IVec ⟨2, ![M, 2]⟩ w) (upd : FVec Ideal ⟨1, ![M]⟩ φ) (u : Fin N) (v : Fin C) :
    Host.scatterAdd (F := Ideal) d x idx upd (ix2 u v)
      = x (ix2 u v) + ∑ e ∈ Finset.univ.filter (fun e : Fin M =>
            (idx (ix2 e (0 : Fin 2))).toInt = (u.val : ℤ) ∧ (idx (ix2 e (1 : Fin 2))).toInt = (v.val : ℤ)),
          upd (ix1 e) := by
  show Ideal.hostScatterAdd d x idx upd (ix2 u v) = _
  unfold Ideal.hostScatterAdd
  refine congrArg (x (ix2 u v) + ·) ?_
  exact sum_filter_ix1 _ _ (fun e => lands2_iff d huw hiw hsd hivd idx (ix1 e) (ix2 u v)) upd

/-! ## The gather by two words -/

/-- The gather of scalars from a table of `N × C` cells by an `M × 2` array of (row, column) words: each word read
    signed and clamped into the table. -/
theorem gather2_apply {α : Type} {N C M w : Nat} (d : GatherDims ⟨2, ![N, C]⟩ ⟨2, ![M, 2]⟩ ⟨1, ![M]⟩)
    (hoff : d.offsetDims = []) (hcoll : d.collapsedSliceDims = [0, 1]) (hob : d.operandBatchingDims = [])
    (hsim : d.startIndexMap = [0, 1]) (hivd : d.indexVectorDim = 1)
    (x : (⟨2, ![N, C]⟩ : Shape).Idx → α) (idx : IVec ⟨2, ![M, 2]⟩ w) (e : Fin M) (hN : 0 < N) (hC : 0 < C) :
    Host.gather d x idx (ix1 e)
      = x (ix2 ⟨min (idx (ix2 e (0 : Fin 2))).toInt.toNat (N - 1), by omega⟩
               ⟨min (idx (ix2 e (1 : Fin 2))).toInt.toNat (C - 1), by omega⟩) := by
  -- both axes are collapsed, so the slice taken along each is one element
  have hsl0 : d.sliceSizes 0 = 1 := d.slice_collapsed 0 (by rw [hcoll]; exact List.mem_cons.mpr (Or.inl rfl))
  have hsl1 : d.sliceSizes 1 = 1 :=
    d.slice_collapsed 1 (by rw [hcoll]; exact List.mem_cons.mpr (Or.inr (List.mem_singleton.mpr rfl)))
  unfold Host.gather
  refine congrArg x ?_
  cases d with
  | mk od cd ob sb sm iv ss wf =>
    obtain rfl : od = [] := hoff
    obtain rfl : cd = [0, 1] := hcoll
    obtain rfl : ob = [] := hob
    obtain rfl : sm = [0, 1] := hsim
    obtain rfl : iv = 1 := hivd
    replace hsl0 : ss 0 = 1 := hsl0
    replace hsl1 : ss 1 = 1 := hsl1
    funext a
    match a with
    | ⟨0, _⟩ =>
      apply Fin.ext
      show GatherDims.start _ (ix1 e) idx 0 + GatherDims.batchCoord _ (ix1 e) 0 + GatherDims.offCoord _ (ix1 e) 0
        = min (idx (ix2 e (0 : Fin 2))).toInt.toNat (N - 1)
      rw [GatherDims.batchCoord_eq_zero _ _ _ List.not_mem_nil,
        GatherDims.offCoord_eq_zero _ _ _
          (by decide : (0 : Fin 2) ∉ (List.finRange 2).filter (· ∉ [(0 : Fin 2), 1] ++ []))]
      simp only [Nat.add_zero]
      unfold GatherDims.start
      rw [dif_pos (by decide : (0 : Fin 2) ∈ [(0 : Fin 2), 1])]
      show min (idx _).toInt.toNat (N - ss 0) = _
      rw [hsl0]
      refine congrArg (fun k => min (idx k).toInt.toNat (N - 1)) (funext fun b => ?_)
      match b with
      | ⟨0, _⟩ => exact Fin.ext rfl
      | ⟨1, _⟩ => exact Fin.ext rfl
    | ⟨1, _⟩ =>
      apply Fin.ext
      show GatherDims.start _ (ix1 e) idx 1 + GatherDims.batchCoord _ (ix1 e) 1 + GatherDims.offCoord _ (ix1 e) 1
        = min (idx (ix2 e (1 : Fin 2))).toInt.toNat (C - 1)
      rw [GatherDims.batchCoord_eq_zero _ _ _ List.not_mem_nil,
        GatherDims.offCoord_eq_zero _ _ _
          (by decide : (1 : Fin 2) ∉ (List.finRange 2).filter (· ∉ [(0 : Fin 2), 1] ++ []))]
      simp only [Nat.add_zero]
      unfold GatherDims.start
      rw [dif_pos (by decide : (1 : Fin 2) ∈ [(0 : Fin 2), 1])]
      show min (idx _).toInt.toNat (C - ss 1) = _
      rw [hsl1]
      refine congrArg (fun k => min (idx k).toInt.toNat (C - 1)) (funext fun b => ?_)
      match b with
      | ⟨0, _⟩ => exact Fin.ext rfl
      | ⟨1, _⟩ => exact Fin.ext rfl

/-! ## Two columns side by side -/

/-- Two `M × 1` columns joined along the second axis, at the first column. -/
theorem concat_cols_apply0 {α : Type} {M : Nat} (a b : (⟨2, ![M, 1]⟩ : Shape).Idx → α)
    (h : Shape.Concatenates [(⟨2, ![M, 1]⟩ : Shape), ⟨2, ![M, 1]⟩] ⟨2, ![M, 2]⟩ 1) (e : Fin M) :
    concatenate ⟨2, ![M, 2]⟩ 1 [⟨⟨2, ![M, 1]⟩, a⟩, ⟨⟨2, ![M, 1]⟩, b⟩] h (ix2 e (0 : Fin 2)) = a (ix2 e (0 : Fin 1)) := by
  -- position 0 along the joined axis is below the first column's extent 1: the first column, same coordinates
  refine concatenate_pair_apply_left 1 a b h (ix2 e (0 : Fin 2)) rfl (ix2 e (0 : Fin 1)) ?_
  intro c
  match c with
  | ⟨0, _⟩ => rfl
  | ⟨1, _⟩ => rfl

/-- Two `M × 1` columns joined along the second axis, at the second column. -/
theorem concat_cols_apply1 {α : Type} {M : Nat} (a b : (⟨2, ![M, 1]⟩ : Shape).Idx → α)
    (h : Shape.Concatenates [(⟨2, ![M, 1]⟩ : Shape), ⟨2, ![M, 1]⟩] ⟨2, ![M, 2]⟩ 1) (e : Fin M) :
    concatenate ⟨2, ![M, 2]⟩ 1 [⟨⟨2, ![M, 1]⟩, a⟩, ⟨⟨2, ![M, 1]⟩, b⟩] h (ix2 e (1 : Fin 2)) = b (ix2 e (0 : Fin 1)) := by
  -- position 1 along the joined axis is past the first column's extent 1: the second column at 1 − 1 = 0
  refine concatenate_pair_apply_right 1 a b h (ix2 e (1 : Fin 2)) rfl rfl (ix2 e (0 : Fin 1)) ?_ ?_
  · intro c hc
    match c with
    | ⟨0, _⟩ => rfl
    | ⟨1, _⟩ => exact absurd rfl hc
  · rfl

end Cert.LibCells

end
-- ==== Proof.HostAgg.lean ====
/-
  The three stretches of host operations that carry one layer's messages along the edges, read at an index.

  Each stretch wraps the edges' source words, gathers the rows of the previous pallas_call's output they name, and
  adds each gathered row into the row of a zero table its edge's destination word names (read signed; an edge whose
  word names no row is dropped); it also lays the next layer's bias out as a 1 × 16 row. Read at (n, j) the aggregated
  table is `Spec.agg` of the source words, the destination words and the gathered table.
-/
import proofs.«411275_j68839735821120_3_alg».proof.Proof.Gen.KernelIdeal.Launch
import proofs.«411275_j68839735821120_3_alg».proof.Proof.Spec
import proofs.«411275_j68839735821120_3_alg».proof.Proof.LibScatterGather2
import proofs.«411275_j68839735821120_3_alg».proof.Proof.LibCells
import proofs.«411275_j68839735821120_3_alg».proof.Proof.LibColumn
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws

set_option maxRecDepth 16384

noncomputable section

namespace Cert.KernelIdeal.HostAgg

open Cert.KernelIdeal Cert.KernelIdeal.Gen Idealize.ShloMosaic Idealize.ShloMosaic.TcCoe Idealize.ShloMosaic.ValueIdx
open Idealize.SL.Sem Idealize.ShloMosaic.StableHlo
open scoped BigOperators

-- the TensorCore's buffer contents when the stretch of host operations starts: any
variable (W : Valuation τ sig (Elt Ideal))

/-- The edges' source and destination words, as the stretch finds them. -/
abbrev sW : IVec S6400000 32 := W (Proc.devRef .tc main_call0_v14)
abbrev dW : IVec S6400000 32 := W (Proc.devRef .tc main_call0_v15)

/-! ## The pieces every stretch shares -/

/-- A vector laid out as a column reads, at `(e, u)`, the vector at `e`. -/
theorem column_apply {α : Type} {M : ℕ} (hM : M ≠ 1)
    (h : (⟨1, ![M]⟩ : Shape).BroadcastsInDim ⟨2, ![M, 1]⟩ (![0] : Fin 1 → Fin 2)) (v : (⟨1, ![M]⟩ : Shape).Idx → α)
    (e : Fin M) (u : Fin 1) :
    broadcastInDim ⟨2, ![M, 1]⟩ (![0] : Fin 1 → Fin 2) h v (ix2 e u) = v (ix1 e) := by
  refine broadcastInDim_apply _ h v _ (ix1 e) fun a => ?_
  match a with
  | ⟨0, _⟩ =>
    show e.val = if M = 1 then 0 else e.val
    rw [if_neg hM]

/-- The wrapped source words, as each stretch computes them: where the word is negative, the word plus the table's
    extent; elsewhere the word. -/
abbrev wrapped : IVec S6400000 32 :=
  select (cmpi .slt (sW W) (broadcastInDim S6400000 ![] bcast_S_S6400000 (constantI S_ 32 0#32)))
    (addi (sW W) (broadcastInDim S6400000 ![] bcast_S_S6400000 (constantI S_ 32 1600000#32)))
    (sW W)

/-- Edge `e`'s wrapped word is `Spec.wrap` of its source word. -/
theorem wrapped_apply (e : Fin Cert.Spec.MM) : wrapped W (ix1 e) = Cert.Spec.wrap (sW W (ix1 e)) := rfl

/-- The aggregation of a table `T` of `C` columns, read at `(n, j)`: the rows of `T` gathered by the column of wrapped
    source words and added, from zero, into the rows the column of destination words names is `Spec.agg`. The zero
    start contributes nothing; the edges that land on row `n` are `Spec.hits`; the row an edge brings is the row
    its wrapped word names, read signed and clamped, which is `Spec.row`. -/
theorem agg_read {C : ℕ}
    (sd : ScatterDims ⟨2, ![1600000, C]⟩ S6400000x1 ⟨2, ![6400000, C]⟩)
    (huw : sd.updateWindowDims = [1]) (hiw : sd.insertedWindowDims = [0]) (hsd : sd.scatterDimsToOperandDims = [0])
    (hivd : sd.indexVectorDim = 1)
    (gd : GatherDims ⟨2, ![1600000, C]⟩ S6400000x1 ⟨2, ![6400000, C]⟩)
    (hoff : gd.offsetDims = [1]) (hcoll : gd.collapsedSliceDims = [0]) (hob : gd.operandBatchingDims = [])
    (hsim : gd.startIndexMap = [0]) (hgivd : gd.indexVectorDim = 1)
    (hb : S_.BroadcastsInDim ⟨2, ![1600000, C]⟩ (![] : Fin 0 → Fin 2))
    (T : FVec Ideal ⟨2, ![1600000, C]⟩ .f32) (n : Fin Cert.Spec.NN) (j : Fin C) :
    Host.scatterAdd (F := Ideal) sd
        (broadcastInDim ⟨2, ![1600000, C]⟩ (![] : Fin 0 → Fin 2) hb (constant (F := Ideal) S_ .f32 0x00000000#32))
        (broadcastInDim S6400000x1 ![0] bcast_S6400000_S6400000x1_0 (dW W))
        (Host.gather gd T (broadcastInDim S6400000x1 ![0] bcast_S6400000_S6400000x1_0 (wrapped W))) (ix2 n j)
      = Cert.Spec.agg (fun e => sW W (ix1 e)) (fun e => dW W (ix1 e)) (fun n j => T (ix2 n j)) n j := by
  refine (Cert.LibScatterGather2.scatterAdd_apply sd huw hiw hsd hivd _ _ _ n j).trans ?_
  unfold Cert.Spec.agg Cert.Spec.hits
  have hz : (broadcastInDim ⟨2, ![1600000, C]⟩ (![] : Fin 0 → Fin 2) hb (constant (F := Ideal) S_ .f32 0x00000000#32))
      (ix2 n j) = (0 : EReal) := Ideal.ofBits_zero_f32
  rw [hz, zero_add]
  refine Finset.sum_congr ?_ fun e _ => ?_
  · refine Finset.filter_congr fun e _ => ?_
    rw [column_apply (by decide)]
  · refine (Cert.LibScatterGather2.gather_apply_clamp gd hoff hcoll hob hsim hgivd _ _ e j (by decide)).trans ?_
    refine congrArg (fun r => T (ix2 r j)) (Fin.ext ?_)
    show min (broadcastInDim S6400000x1 ![0] bcast_S6400000_S6400000x1_0 (wrapped W) (ix2 e (0 : Fin 1))).toInt.toNat
        (1600000 - 1) = min (Cert.Spec.wrap (sW W (ix1 e))).toInt.toNat 1599999
    rw [column_apply (by decide)]
    rfl

/-- A 16-vector laid out as a 1 × 16 row reads, at `(0, k)`, the vector at `k`: both sit at flat position `k`. -/
theorem row_apply {α : Type} (x : S16.Idx → α) (k : Fin 16) :
    shapeCast S1x16 x shapeCasts_S16_S1x16 (ix2 (0 : Fin 1) k) = x (ix1 k) := by
  refine shapeCast_apply (s := S16) (t := S1x16) _ _ _ _ ?_
  rw [Shape.rowMajor_val_two, Shape.rowMajor_val_one]
  show k.val = 0 * 16 + k.val
  omega

/-! ## First layer -/

/-- What the first stretch leaves in its aggregated table: the composed term of its operations. -/
theorem v36_term :
    (StableHlo.after (hostOps1 (F := Ideal)) W (Proc.devRef .tc main_call0_v36) : FVec Ideal S1600000x16 .f32)
      = Host.scatterAdd scatter_S1600000x16_S6400000x1_S6400000x16_1_0_0_1
          (broadcastInDim S1600000x16 ![] bcast_S_S1600000x16 (constant (F := Ideal) S_ .f32 0x00000000#32))
          (broadcastInDim S6400000x1 ![0] bcast_S6400000_S6400000x1_0 (dW W))
          (Host.gather gather_S1600000x16_S6400000x1_S6400000x16_1_0_n_n_0_1_116
            (W (Proc.devRef .tc main_call0_v26) : FVec Ideal S1600000x16 .f32)
            (broadcastInDim S6400000x1 ![0] bcast_S6400000_S6400000x1_0 (wrapped W))) := by
  unfold hostOps1; after_results; rfl

/-- What the first stretch leaves in its bias row. -/
theorem v37_term :
    (StableHlo.after (hostOps1 (F := Ideal)) W (Proc.devRef .tc main_call0_v37) : FVec Ideal S1x16 .f32)
      = shapeCast S1x16 (W (Proc.devRef .tc main_arg4) : FVec Ideal S16 .f32) shapeCasts_S16_S1x16 := by
  unfold hostOps1; after_results; rfl

/-- First layer: the aggregated messages at (n, j). -/
theorem agg1 (n : Fin Cert.Spec.NN) (j : Fin 16) :
    (StableHlo.after (hostOps1 (F := Ideal)) W (Proc.devRef .tc main_call0_v36) : FVec Ideal S1600000x16 .f32) (ix2 n j)
      = Cert.Spec.agg (fun e => sW W (ix1 e)) (fun e => dW W (ix1 e))
          (fun n j => (W (Proc.devRef .tc main_call0_v26) : FVec Ideal S1600000x16 .f32) (ix2 n j)) n j :=
  (congrFun (v36_term W) (ix2 n j)).trans
    (agg_read W scatter_S1600000x16_S6400000x1_S6400000x16_1_0_0_1 rfl rfl rfl rfl
      gather_S1600000x16_S6400000x1_S6400000x16_1_0_n_n_0_1_116 rfl rfl rfl rfl rfl bcast_S_S1600000x16
      (W (Proc.devRef .tc main_call0_v26) : FVec Ideal S1600000x16 .f32) n j)

/-- First layer's bias, as a row. -/
theorem bias1 (k : Fin 16) :
    (StableHlo.after (hostOps1 (F := Ideal)) W (Proc.devRef .tc main_call0_v37) : FVec Ideal S1x16 .f32) (ix2 (0 : Fin 1) k)
      = (W (Proc.devRef .tc main_arg4) : FVec Ideal S16 .f32) (ix1 k) :=
  (congrFun (v37_term W) (ix2 (0 : Fin 1) k)).trans (row_apply _ k)

/-! ## Second layer -/

/-- What the second stretch leaves in its aggregated table. -/
theorem v48_term :
    (StableHlo.after (hostOps2 (F := Ideal)) W (Proc.devRef .tc main_call0_v48) : FVec Ideal S1600000x16 .f32)
      = Host.scatterAdd scatter_S1600000x16_S6400000x1_S6400000x16_1_0_0_1
          (broadcastInDim S1600000x16 ![] bcast_S_S1600000x16 (constant (F := Ideal) S_ .f32 0x00000000#32))
          (broadcastInDim S6400000x1 ![0] bcast_S6400000_S6400000x1_0 (dW W))
          (Host.gather gather_S1600000x16_S6400000x1_S6400000x16_1_0_n_n_0_1_116
            (W (Proc.devRef .tc main_call0_v38) : FVec Ideal S1600000x16 .f32)
            (broadcastInDim S6400000x1 ![0] bcast_S6400000_S6400000x1_0 (wrapped W))) := by
  unfold hostOps2; after_results; rfl

/-- What the second stretch leaves in its bias row. -/
theorem v49_term :
    (StableHlo.after (hostOps2 (F := Ideal)) W (Proc.devRef .tc main_call0_v49) : FVec Ideal S1x16 .f32)
      = shapeCast S1x16 (W (Proc.devRef .tc main_arg6) : FVec Ideal S16 .f32) shapeCasts_S16_S1x16 := by
  unfold hostOps2; after_results; rfl

/-- Second layer: the aggregated messages at (n, j). -/
theorem agg2 (n : Fin Cert.Spec.NN) (j : Fin 16) :
    (StableHlo.after (hostOps2 (F := Ideal)) W (Proc.devRef .tc main_call0_v48) : FVec Ideal S1600000x16 .f32) (ix2 n j)
      = Cert.Spec.agg (fun e => sW W (ix1 e)) (fun e => dW W (ix1 e))
          (fun n j => (W (Proc.devRef .tc main_call0_v38) : FVec Ideal S1600000x16 .f32) (ix2 n j)) n j :=
  (congrFun (v48_term W) (ix2 n j)).trans
    (agg_read W scatter_S1600000x16_S6400000x1_S6400000x16_1_0_0_1 rfl rfl rfl rfl
      gather_S1600000x16_S6400000x1_S6400000x16_1_0_n_n_0_1_116 rfl rfl rfl rfl rfl bcast_S_S1600000x16
      (W (Proc.devRef .tc main_call0_v38) : FVec Ideal S1600000x16 .f32) n j)

/-- Second layer's bias, as a row. -/
theorem bias2 (k : Fin 16) :
    (StableHlo.after (hostOps2 (F := Ideal)) W (Proc.devRef .tc main_call0_v49) : FVec Ideal S1x16 .f32) (ix2 (0 : Fin 1) k)
      = (W (Proc.devRef .tc main_arg6) : FVec Ideal S16 .f32) (ix1 k) :=
  (congrFun (v49_term W) (ix2 (0 : Fin 1) k)).trans (row_apply _ k)

/-! ## Third layer -/

/-- What the third stretch leaves in its aggregated table (three columns). -/
theorem v60_term :
    (StableHlo.after (hostOps3 (F := Ideal)) W (Proc.devRef .tc main_call0_v60) : FVec Ideal S1600000x3 .f32)
      = Host.scatterAdd scatter_S1600000x3_S6400000x1_S6400000x3_1_0_0_1
          (broadcastInDim S1600000x3 ![] bcast_S_S1600000x3 (constant (F := Ideal) S_ .f32 0x00000000#32))
          (broadcastInDim S6400000x1 ![0] bcast_S6400000_S6400000x1_0 (dW W))
          (Host.gather gather_S1600000x3_S6400000x1_S6400000x3_1_0_n_n_0_1_13
            (W (Proc.devRef .tc main_call0_v50) : FVec Ideal S1600000x3 .f32)
            (broadcastInDim S6400000x1 ![0] bcast_S6400000_S6400000x1_0 (wrapped W))) := by
  unfold hostOps3; after_results; rfl

/-- Third layer: the aggregated messages at (n, j). -/
theorem agg3 (n : Fin Cert.Spec.NN) (j : Fin 3) :
    (StableHlo.after (hostOps3 (F := Ideal)) W (Proc.devRef .tc main_call0_v60) : FVec Ideal S1600000x3 .f32) (ix2 n j)
      = Cert.Spec.agg (fun e => sW W (ix1 e)) (fun e => dW W (ix1 e))
          (fun n j => (W (Proc.devRef .tc main_call0_v50) : FVec Ideal S1600000x3 .f32) (ix2 n j)) n j :=
  (congrFun (v60_term W) (ix2 n j)).trans
    (agg_read W scatter_S1600000x3_S6400000x1_S6400000x3_1_0_0_1 rfl rfl rfl rfl
      gather_S1600000x3_S6400000x1_S6400000x3_1_0_n_n_0_1_13 rfl rfl rfl rfl rfl bcast_S_S1600000x3
      (W (Proc.devRef .tc main_call0_v50) : FVec Ideal S1600000x3 .f32) n j)

end Cert.KernelIdeal.HostAgg

end
-- ==== Proof.HostFlat.lean ====
/-
  The host operations that lay the node tables out 384 entries to a row for the fourth pallas_call and read its
  output back, at an index.

  Before the call: the node coordinates, the third layer's aggregated messages and the normalisation factor (repeated
  three times, once per coordinate) are each reshaped to 12500 × 384 and zero-padded to 13000 rows, and the bias is tiled
  128 times into a 1 × 384 row. Entry (n, j) of a 1600000 × 3 table sits at row `Spec.flatR n j`, lane `Spec.flatL n j`
  (flat position 3 n + j), always inside the first 12500 rows; lane l of the bias row holds b[l % 3].
  After the call: the first 12500 rows are sliced off and reshaped back to 1600000 × 3, then to 16 × 100000 × 3.
-/
import proofs.«411275_j68839735821120_3_alg».proof.Proof.Gen.KernelIdeal.Launch
import proofs.«411275_j68839735821120_3_alg».proof.Proof.Spec
import proofs.«411275_j68839735821120_3_alg».proof.Proof.LibScatterGather2
import proofs.«411275_j68839735821120_3_alg».proof.Proof.LibCells
import proofs.«411275_j68839735821120_3_alg».proof.Proof.LibColumn
import Idealize.ShloMosaic.Lib.StableHlo.Run
import Idealize.ShloMosaic.Lib.Pipeline.Frame
import Idealize.ShloMosaic.Lib.Pipeline.Value
import Idealize.ShloMosaic.Lib.KernelVsHost
import Idealize.ShloMosaic.Lib.ValueIdx
import Idealize.ShloMosaic.Lib.ValueLayout
import Idealize.ShloMosaic.PureOps.Ideal

set_option maxRecDepth 16384

noncomputable section

namespace Cert.KernelIdeal.HostFlat

open Cert.KernelIdeal Cert.KernelIdeal.Gen Idealize.ShloMosaic Idealize.ShloMosaic.TcCoe Idealize.ShloMosaic.ValueIdx
open Idealize.SL.Sem Idealize.ShloMosaic.StableHlo
open scoped BigOperators

-- the TensorCore's buffer contents when the stretch of host operations starts: any
variable (W : Valuation τ sig (Elt Ideal))

/-! ## Each buffer as a composition of layout operations -/

/-- A line of operations run in two parts: the first `k`, then the rest from what those leave. -/
theorem after_split (k : Nat) (l : List (HloOp τ sig (Elt Ideal))) (V : Valuation τ sig (Elt Ideal)) :
    StableHlo.after l V = StableHlo.after (l.drop k) (StableHlo.after (l.take k) V) := by
  rw [← StableHlo.after_append, List.take_append_drop]

/-- The padded coordinates: the coordinate table reshaped to 12500 × 384, then 500 rows of the padding value below. -/
theorem v70_term :
    (StableHlo.after (hostOps3 (F := Ideal)) W (Proc.devRef .tc main_call0_v70) : FVec Ideal S13000x384 .f32)
      = pad S13000x384 ![0, 0] ![500, 0] ![0, 0]
          (shapeCast S12500x384 (W (Proc.devRef .tc main_call0_v25) : FVec Ideal S1600000x3 .f32) shapeCasts_S1600000x3_S12500x384)
          (sitofp .f32 (constantI S_ 32 0#32) : FVec Ideal S_ .f32)
          pads_S12500x384_S13000x384_05000_000 h_S_ := by
  unfold hostOps3; after_results; rfl

/-- The padded messages: the same two steps on the aggregated messages the stretch's first thirteen operations leave
    (none of the later eighteen writes them again, so they are read as the whole stretch leaves them). -/
theorem v71_term :
    (StableHlo.after (hostOps3 (F := Ideal)) W (Proc.devRef .tc main_call0_v71) : FVec Ideal S13000x384 .f32)
      = pad S13000x384 ![0, 0] ![500, 0] ![0, 0]
          (shapeCast S12500x384 (StableHlo.after (hostOps3 (F := Ideal)) W (Proc.devRef .tc main_call0_v60) : FVec Ideal S1600000x3 .f32) shapeCasts_S1600000x3_S12500x384)
          (sitofp .f32 (constantI S_ 32 0#32) : FVec Ideal S_ .f32)
          pads_S12500x384_S13000x384_05000_000 h_S_ := by
  rw [after_split 13 (hostOps3 (F := Ideal)) W]
  generalize StableHlo.after (List.take 13 (hostOps3 (F := Ideal))) W = V
  unfold hostOps3
  simp only [List.drop_succ_cons, List.drop_zero]
  after_results; rfl

/-- The padded factor: the factor spread over the three coordinates, flattened, reshaped to 12500 × 384, padded. -/
theorem v72_term :
    (StableHlo.after (hostOps3 (F := Ideal)) W (Proc.devRef .tc main_call0_v72) : FVec Ideal S13000x384 .f32)
      = pad S13000x384 ![0, 0] ![500, 0] ![0, 0]
          (shapeCast S12500x384 (shapeCast S4800000 (broadcastInDim S1600000x3 ![0] bcast_S1600000_S1600000x3_0
              (W (Proc.devRef .tc main_call0_v23) : FVec Ideal S1600000 .f32)) shapeCasts_S1600000x3_S4800000) shapeCasts_S4800000_S12500x384)
          (sitofp .f32 (constantI S_ 32 0#32) : FVec Ideal S_ .f32)
          pads_S12500x384_S13000x384_05000_000 h_S_ := by
  unfold hostOps3; after_results; rfl

/-- The tiled bias: the three entries as a 1 × 3 row, repeated down 128 rows, flattened to 384, as a 1 × 384 row. -/
theorem v69_term :
    (StableHlo.after (hostOps3 (F := Ideal)) W (Proc.devRef .tc main_call0_v69) : FVec Ideal S1x384 .f32)
      = shapeCast S1x384 (shapeCast S384 (broadcastInDim S128x3 ![0, 1] bcast_S1x3_S128x3_0_1
          (shapeCast S1x3 (W (Proc.devRef .tc main_arg8) : FVec Ideal S3 .f32) shapeCasts_S3_S1x3)) shapeCasts_S128x3_S384) shapeCasts_S384_S1x384 := by
  unfold hostOps3; after_results; rfl

/-- The read-back table: the first 12500 rows of the call's output, flattened, reshaped to 1600000 × 3. -/
theorem v76_term :
    (StableHlo.after (hostOps4 (F := Ideal)) W (Proc.devRef .tc main_call0_v76) : FVec Ideal S1600000x3 .f32)
      = shapeCast S1600000x3 (shapeCast S4800000 (extractStridedSlice S12500x384 ![0, 0]
          (W (Proc.devRef .tc main_call0_v73) : FVec Ideal S13000x384 .f32) slices_S13000x384_S12500x384_0_0)
          shapeCasts_S12500x384_S4800000) shapeCasts_S4800000_S1600000x3 := by
  unfold hostOps4; after_results; rfl

/-- The moved vertices: that table (what the stretch's first three operations leave; none of the later ones writes it
    again) reshaped to 16 × 100000 × 3. -/
theorem v77_term :
    (StableHlo.after (hostOps4 (F := Ideal)) W (Proc.devRef .tc main_call0_v77) : FVec Ideal S16x100000x3 .f32)
      = shapeCast S16x100000x3 (StableHlo.after (hostOps4 (F := Ideal)) W (Proc.devRef .tc main_call0_v76) : FVec Ideal S1600000x3 .f32)
          shapeCasts_S1600000x3_S16x100000x3 := by
  rw [after_split 3 (hostOps4 (F := Ideal)) W]
  generalize StableHlo.after (List.take 3 (hostOps4 (F := Ideal))) W = V
  unfold hostOps4
  simp only [List.drop_succ_cons, List.drop_zero]
  after_results; rfl

/-! ## The two steps every padded table shares, read at the position of node entry `(n, j)`

Flat position `3 n + j` is below `4800000 = 12500 · 384`, so its row `(3 n + j) / 384` is one of the first 12500: inside
the unpadded part; and `(3 n + j) / 384 · 384 + (3 n + j) % 384 = 3 n + j`. -/

open Cert.Spec in
/-- A 12500 × 384 table zero-padded to 13000 rows, read at the position of node entry `(n, j)`: inside the table. -/
theorem pad_flat (x : FVec Ideal S12500x384 .f32) (v : FVec Ideal S_ .f32) (n : Fin Cert.Spec.NN) (j : Fin 3) :
    pad S13000x384 ![0, 0] ![500, 0] ![0, 0] x v pads_S12500x384_S13000x384_05000_000 h_S_ (ix2 (flatR n j) (flatL n j))
      = x (ix2 (⟨(n.val * 3 + j.val) / 384, by have hn : n.val < 1600000 := n.isLt; have hj : j.val < 3 := j.isLt; omega⟩ : Fin 12500) (flatL n j)) :=
  pad_apply_of_inside ![0, 0] ![500, 0] ![0, 0] x v pads_S12500x384_S13000x384_05000_000 h_S_ _ _
    (fun a => match a with
      | ⟨0, _⟩ => by show (n.val * 3 + j.val) / 384 = 0 + (n.val * 3 + j.val) / 384 * (0 + 1); omega
      | ⟨1, _⟩ => by show (n.val * 3 + j.val) % 384 = 0 + (n.val * 3 + j.val) % 384 * (0 + 1); omega)

open Cert.Spec in
/-- A 1600000 × 3 table reshaped to 12500 × 384, read at the position of node entry `(n, j)`. -/
theorem cast_flat (x : FVec Ideal S1600000x3 .f32) (n : Fin Cert.Spec.NN) (j : Fin 3) :
    shapeCast S12500x384 x shapeCasts_S1600000x3_S12500x384
        (ix2 (⟨(n.val * 3 + j.val) / 384, by have hn : n.val < 1600000 := n.isLt; have hj : j.val < 3 := j.isLt; omega⟩ : Fin 12500) (flatL n j))
      = x (ix2 n j) :=
  shapeCast_apply x shapeCasts_S1600000x3_S12500x384 _ (ix2 n j)
    (by rewrite [Shape.rowMajor_val_two, Shape.rowMajor_val_two]
        show n.val * 3 + j.val = (n.val * 3 + j.val) / 384 * 384 + (n.val * 3 + j.val) % 384; omega)

/-! ## The six reads -/

open Cert.Spec in
/-- The node coordinates in the padded 384-lane layout. -/
theorem x70 (n : Fin Cert.Spec.NN) (j : Fin 3) :
    (StableHlo.after (hostOps3 (F := Ideal)) W (Proc.devRef .tc main_call0_v70) : FVec Ideal S13000x384 .f32) (ix2 (flatR n j) (flatL n j))
      = (W (Proc.devRef .tc main_call0_v25) : FVec Ideal S1600000x3 .f32) (ix2 n j) := by
  rw [v70_term, pad_flat, cast_flat]

open Cert.Spec in
/-- The third layer's aggregated messages (computed earlier in the same stretch) in the padded 384-lane layout. -/
theorem h71 (n : Fin Cert.Spec.NN) (j : Fin 3) :
    (StableHlo.after (hostOps3 (F := Ideal)) W (Proc.devRef .tc main_call0_v71) : FVec Ideal S13000x384 .f32) (ix2 (flatR n j) (flatL n j))
      = (StableHlo.after (hostOps3 (F := Ideal)) W (Proc.devRef .tc main_call0_v60) : FVec Ideal S1600000x3 .f32) (ix2 n j) := by
  rw [v71_term, pad_flat, cast_flat]

open Cert.Spec in
/-- The normalisation factor, repeated per coordinate, in the padded 384-lane layout. -/
theorem d72 (n : Fin Cert.Spec.NN) (j : Fin 3) :
    (StableHlo.after (hostOps3 (F := Ideal)) W (Proc.devRef .tc main_call0_v72) : FVec Ideal S13000x384 .f32) (ix2 (flatR n j) (flatL n j))
      = (W (Proc.devRef .tc main_call0_v23) : FVec Ideal S1600000 .f32) (ix1 n) := by
  have hn : n.val < 1600000 := n.isLt
  have hj : j.val < 3 := j.isLt
  rw [v72_term, pad_flat]
  refine (shapeCast_apply _ shapeCasts_S4800000_S12500x384 _ (ix1 (⟨n.val * 3 + j.val, by omega⟩ : Fin 4800000))
    (by rewrite [Shape.rowMajor_val_one, Shape.rowMajor_val_two]
        show n.val * 3 + j.val = (n.val * 3 + j.val) / 384 * 384 + (n.val * 3 + j.val) % 384; omega)).trans ?_
  refine (shapeCast_apply _ shapeCasts_S1600000x3_S4800000 _ (ix2 n j)
    (by rewrite [Shape.rowMajor_val_two, Shape.rowMajor_val_one]
        show n.val * 3 + j.val = n.val * 3 + j.val; rfl)).trans ?_
  exact broadcastInDim_apply _ bcast_S1600000_S1600000x3_0 _ (ix2 n j) (ix1 n) (fun a => match a with
    | ⟨0, _⟩ => by show n.val = if (1600000 : Nat) = 1 then 0 else n.val; rw [if_neg (by decide)])

open Cert.Spec in
/-- The tiled bias row at the lane of entry (n, j) holds b[j]. -/
theorem b69 (n : Fin Cert.Spec.NN) (j : Fin 3) :
    (StableHlo.after (hostOps3 (F := Ideal)) W (Proc.devRef .tc main_call0_v69) : FVec Ideal S1x384 .f32) (ix2 (0 : Fin 1) (flatL n j))
      = (W (Proc.devRef .tc main_arg8) : FVec Ideal S3 .f32) (ix1 j) := by
  have hn : n.val < 1600000 := n.isLt
  have hj : j.val < 3 := j.isLt
  rw [v69_term]
  refine (shapeCast_apply _ shapeCasts_S384_S1x384 _ (ix1 (flatL n j))
    (by rewrite [Shape.rowMajor_val_one, Shape.rowMajor_val_two]
        show (n.val * 3 + j.val) % 384 = 0 * 384 + (n.val * 3 + j.val) % 384; omega)).trans ?_
  refine (shapeCast_apply _ shapeCasts_S128x3_S384 _
    (ix2 (⟨(n.val * 3 + j.val) % 384 / 3, by omega⟩ : Fin 128) j)
    (by rewrite [Shape.rowMajor_val_two, Shape.rowMajor_val_one]
        show (n.val * 3 + j.val) % 384 / 3 * 3 + j.val = (n.val * 3 + j.val) % 384; omega)).trans ?_
  refine (broadcastInDim_apply _ bcast_S1x3_S128x3_0_1 _ _ (ix2 (0 : Fin 1) j) (fun a => match a with
    | ⟨0, _⟩ => by show (0 : Nat) = if (1 : Nat) = 1 then 0 else (n.val * 3 + j.val) % 384 / 3; rw [if_pos rfl]
    | ⟨1, _⟩ => by show j.val = if (3 : Nat) = 1 then 0 else j.val; rw [if_neg (by decide)])).trans ?_
  exact shapeCast_apply _ shapeCasts_S3_S1x3 _ (ix1 j)
    (by rewrite [Shape.rowMajor_val_one, Shape.rowMajor_val_two]
        show j.val = 0 * 3 + j.val; omega)
open Cert.Spec in
/-- The fourth pallas_call's output read back as a 1600000 × 3 table. -/
theorem v76 (n : Fin Cert.Spec.NN) (j : Fin 3) :
    (StableHlo.after (hostOps4 (F := Ideal)) W (Proc.devRef .tc main_call0_v76) : FVec Ideal S1600000x3 .f32) (ix2 n j)
      = (W (Proc.devRef .tc main_call0_v73) : FVec Ideal S13000x384 .f32) (ix2 (flatR n j) (flatL n j)) := by
  have hn : n.val < 1600000 := n.isLt
  have hj : j.val < 3 := j.isLt
  rw [v76_term]
  refine (shapeCast_apply _ shapeCasts_S4800000_S1600000x3 _ (ix1 (⟨n.val * 3 + j.val, by omega⟩ : Fin 4800000))
    (by rewrite [Shape.rowMajor_val_one, Shape.rowMajor_val_two]
        show n.val * 3 + j.val = n.val * 3 + j.val; rfl)).trans ?_
  refine (shapeCast_apply _ shapeCasts_S12500x384_S4800000 _
    (ix2 (⟨(n.val * 3 + j.val) / 384, by omega⟩ : Fin 12500) (flatL n j))
    (by rewrite [Shape.rowMajor_val_two, Shape.rowMajor_val_one]
        show (n.val * 3 + j.val) / 384 * 384 + (n.val * 3 + j.val) % 384 = n.val * 3 + j.val; omega)).trans ?_
  exact extractStridedSlice_apply ![0, 0] _ slices_S13000x384_S12500x384_0_0 _ (ix2 (flatR n j) (flatL n j)) (fun a => match a with
    | ⟨0, _⟩ => by show (n.val * 3 + j.val) / 384 = 0 + (n.val * 3 + j.val) / 384; omega
    | ⟨1, _⟩ => by show (n.val * 3 + j.val) % 384 = 0 + (n.val * 3 + j.val) % 384; omega)

open Cert.Spec in
/-- … and as the 16 × 100000 × 3 array of moved vertices. -/
theorem v77 (b : Fin 16) (v : Fin Cert.Spec.VV) (j : Fin 3) :
    (StableHlo.after (hostOps4 (F := Ideal)) W (Proc.devRef .tc main_call0_v77) : FVec Ideal S16x100000x3 .f32) (ix3 b v j)
      = (StableHlo.after (hostOps4 (F := Ideal)) W (Proc.devRef .tc main_call0_v76) : FVec Ideal S1600000x3 .f32) (ix2 (node b v) j) := by
  rw [v77_term]
  exact shapeCast_apply _ shapeCasts_S1600000x3_S16x100000x3 _ (ix2 (node b v) j)
    (by rewrite [Shape.rowMajor_val_two, Shape.rowMajor_val_three]
        show (b.val * 100000 + v.val) * 3 + j.val = (b.val * 100000 + v.val) * 3 + j.val; rfl)

end Cert.KernelIdeal.HostFlat

end
-- ==== Proof.HostMid.lean ====
/-
  The host operations around the fifth pallas_call, read at an index.

  Before the call: each edge's two end-point words are wrapped, the moved vertices they name are gathered mesh by mesh
  (the word read signed and clamped into the mesh), and the two 16 × 300000 × 3 arrays of end points are reshaped
  128 entries to a row (112500 rows) and zero-padded to 114688 rows. Entry (b, e, j) sits at row `Spec.midR b e j`,
  lane `Spec.midL b e j` (flat position 3 (300000 b + e) + j), always inside the first 112500 rows.
  After the call: the first 112500 rows are sliced off, reshaped back to 16 × 300000 × 3 and joined below the moved
  vertices along the middle axis; the faces are broadcast over the 16 meshes.

  The module opens with the one general fact it needs about the gather: a stack of tables gathered, table by table, by
  one column of index words, read at an index.
-/
import proofs.«411275_j68839735821120_3_alg».proof.Proof.Gen.KernelIdeal.Launch
import proofs.«411275_j68839735821120_3_alg».proof.Proof.Spec
import proofs.«411275_j68839735821120_3_alg».proof.Proof.LibScatterGather2
import proofs.«411275_j68839735821120_3_alg».proof.Proof.LibCells
import proofs.«411275_j68839735821120_3_alg».proof.Proof.LibColumn
import Idealize.ShloMosaic.Lib.StableHlo.Run
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal

set_option maxRecDepth 16384

noncomputable section

/-! ## A stack of tables gathered by one column of index words

The operand is a stack of `B` tables of `N` rows and `C` columns, the indices an `M × 1` column of words, one word per
result row and the same word for every table. The table axis and the column axis go straight across (they are the
offset axes, at full extent); the row axis is collapsed and is the one a word starts on, read SIGNED and clamped into
`[0, N − 1]`. Nothing depends on the sizes: every step is about the three axes. -/

namespace Cert.LibGather3

open Idealize.ShloMosaic Idealize.ShloMosaic.ValueIdx

variable {α : Type} {B N C M w : Nat}

/-- The gather at `(b, e, j)`, whatever the word: table `b`, column `j`, of the row at row `e`'s word read signed and
    clamped. -/
theorem gather_apply_clamp (d : GatherDims ⟨3, ![B, N, C]⟩ ⟨2, ![M, 1]⟩ ⟨3, ![B, M, C]⟩)
    (hoff : d.offsetDims = [0, 2]) (hcoll : d.collapsedSliceDims = [1]) (hob : d.operandBatchingDims = [])
    (hsim : d.startIndexMap = [1]) (hivd : d.indexVectorDim = 1)
    (x : (⟨3, ![B, N, C]⟩ : Shape).Idx → α) (idx : IVec ⟨2, ![M, 1]⟩ w) (b : Fin B) (e : Fin M) (j : Fin C) (hN : 0 < N) :
    Host.gather d x idx (ix3 b e j)
      = x (ix3 b ⟨min (idx (ix2 e (0 : Fin 1))).toInt.toNat (N - 1), by omega⟩ j) := by
  have hsl : d.sliceSizes 1 = 1 := d.slice_collapsed 1 (by rw [hcoll]; exact List.mem_singleton.mpr rfl)
  unfold Host.gather
  refine congrArg x ?_
  cases d with
  | mk od cd ob sb sm iv ss wf =>
    obtain rfl : od = [0, 2] := hoff
    obtain rfl : cd = [1] := hcoll
    obtain rfl : ob = [] := hob
    obtain rfl : sm = [1] := hsim
    obtain rfl : iv = 1 := hivd
    replace hsl : ss 1 = 1 := hsl
    funext a
    match a with
    | ⟨0, _⟩ =>
      apply Fin.ext
      show GatherDims.start _ (ix3 b e j) idx 0 + GatherDims.batchCoord _ (ix3 b e j) 0 + GatherDims.offCoord _ (ix3 b e j) 0
        = b.val
      rw [GatherDims.batchCoord_eq_zero _ _ _ List.not_mem_nil]
      simp only [Nat.add_zero]
      unfold GatherDims.start
      rw [dif_neg (by decide : (0 : Fin 3) ∉ [1]), Nat.zero_add]
      unfold GatherDims.offCoord
      refine (dif_pos (by decide : (0 : Fin 3) ∈ (List.finRange 3).filter (· ∉ [1] ++ []))).trans ?_
      rfl
    | ⟨1, _⟩ =>
      apply Fin.ext
      show GatherDims.start _ (ix3 b e j) idx 1 + GatherDims.batchCoord _ (ix3 b e j) 1 + GatherDims.offCoord _ (ix3 b e j) 1
        = min (idx (ix2 e (0 : Fin 1))).toInt.toNat (N - 1)
      rw [GatherDims.batchCoord_eq_zero _ _ _ List.not_mem_nil,
        GatherDims.offCoord_eq_zero _ _ _ (by decide : (1 : Fin 3) ∉ (List.finRange 3).filter (· ∉ [1] ++ []))]
      simp only [Nat.add_zero]
      unfold GatherDims.start
      rw [dif_pos (List.mem_singleton.mpr rfl)]
      show min (idx _).toInt.toNat (N - ss 1) = _
      rw [hsl]
      refine congrArg (fun k => min (idx k).toInt.toNat (N - 1)) ?_
      funext c
      match c with
      | ⟨0, _⟩ => exact Fin.ext rfl
      | ⟨1, _⟩ => exact Fin.ext rfl
    | ⟨2, _⟩ =>
      apply Fin.ext
      show GatherDims.start _ (ix3 b e j) idx 2 + GatherDims.batchCoord _ (ix3 b e j) 2 + GatherDims.offCoord _ (ix3 b e j) 2
        = j.val
      rw [GatherDims.batchCoord_eq_zero _ _ _ List.not_mem_nil]
      simp only [Nat.add_zero]
      unfold GatherDims.start
      rw [dif_neg (by decide : (2 : Fin 3) ∉ [1]), Nat.zero_add]
      unfold GatherDims.offCoord
      refine (dif_pos (by decide : (2 : Fin 3) ∈ (List.finRange 3).filter (· ∉ [1] ++ []))).trans ?_
      rfl

end Cert.LibGather3

/-! ## The host operations -/

namespace Cert.KernelIdeal.HostMid

open Cert.KernelIdeal Cert.KernelIdeal.Gen Idealize.ShloMosaic Idealize.ShloMosaic.TcCoe Idealize.ShloMosaic.ValueIdx
open Idealize.SL.Sem Idealize.ShloMosaic.StableHlo
open scoped BigOperators

-- the TensorCore's buffer contents when the stretch of host operations starts: any
variable (W : Valuation τ sig (Elt Ideal))

/-- The edges' end-point words, as the stretch finds them. -/
abbrev eW : IVec S300000x2 32 := W (Proc.devRef .tc main_arg1)

/-! ### Before the call: the composed terms -/

/-- A vector of index words with the mesh's extent added to the negative ones. -/
abbrev wrapVec (c : IVec S300000 32) : IVec S300000 32 :=
  select (cmpi .slt c (broadcastInDim S300000 ![] bcast_S_S300000 (constantI S_ 32 0#32)))
    (addi c (broadcastInDim S300000 ![] bcast_S_S300000 (constantI S_ 32 100000#32))) c

/-- The rows of the moved vertices `x` that the words `c` name, mesh by mesh, laid out 128 entries to a row and
    zero-padded to 114688 rows. -/
abbrev midOf (x : FVec Ideal S16x100000x3 .f32) (c : IVec S300000 32) : FVec Ideal S114688x128 .f32 :=
  pad S114688x128 ![0, 0] ![2188, 0] ![0, 0]
    (shapeCast S112500x128
      (shapeCast S4800000x3
        (Host.gather gather_S16x100000x3_S300000x1_S16x300000x3_02_1_n_n_1_1_1613 x
          (broadcastInDim S300000x1 ![0] bcast_S300000_S300000x1_0 (wrapVec c)))
        shapeCasts_S16x300000x3_S4800000x3)
      shapeCasts_S4800000x3_S112500x128)
    (sitofp (F := Ideal) .f32 (constantI S_ 32 0#32)) pads_S112500x128_S114688x128_021880_000 h_S_

/-- The edges' first end-point words as a vector: column 0 of the edge array. -/
abbrev col0 : IVec S300000 32 :=
  shapeCast S300000 (extractStridedSlice S300000x1 ![0, 0] (eW W) slices_S300000x2_S300000x1_0_0) shapeCasts_S300000x1_S300000

/-- The edges' second end-point words as a vector: column 1 of the edge array. -/
abbrev col1 : IVec S300000 32 :=
  shapeCast S300000 (extractStridedSlice S300000x1 ![0, 1] (eW W) slices_S300000x2_S300000x1_0_1) shapeCasts_S300000x1_S300000

set_option maxHeartbeats 1000000 in
/-- The first padded array is the layout of the rows the first end-point words name. -/
theorem v100_term :
    (StableHlo.after (hostOps4 (F := Ideal)) W (Proc.devRef .tc main_call0_v100) : FVec Ideal S114688x128 .f32)
      = midOf (StableHlo.after (hostOps4 (F := Ideal)) W (Proc.devRef .tc main_call0_v77) : FVec Ideal S16x100000x3 .f32) (col0 W) := by
  unfold hostOps4; after_results; rfl

set_option maxHeartbeats 1000000 in
/-- The second padded array is the layout of the rows the second end-point words name. -/
theorem v101_term :
    (StableHlo.after (hostOps4 (F := Ideal)) W (Proc.devRef .tc main_call0_v101) : FVec Ideal S114688x128 .f32)
      = midOf (StableHlo.after (hostOps4 (F := Ideal)) W (Proc.devRef .tc main_call0_v77) : FVec Ideal S16x100000x3 .f32) (col1 W) := by
  unfold hostOps4; after_results; rfl

/-! ### Before the call: read at an index -/

/-- Entry `e` of the first end-point words is the edge array's entry `(e, 0)`. -/
theorem col0_apply (e : Fin 300000) : col0 W (ix1 e) = eW W (ix2 e (0 : Fin 2)) := by
  refine (shapeCast_apply _ shapeCasts_S300000x1_S300000 (ix1 e) (ix2 e (0 : Fin 1)) ?_).trans ?_
  · rewrite [Shape.rowMajor_val_two, Shape.rowMajor_val_one]
    show e.val * 1 + 0 = e.val
    omega
  refine extractStridedSlice_apply ![0, 0] _ slices_S300000x2_S300000x1_0_0 (ix2 e (0 : Fin 1)) (ix2 e (0 : Fin 2)) ?_
  intro a
  match a with
  | ⟨0, _⟩ =>
    show e.val = 0 + e.val
    omega
  | ⟨1, _⟩ => rfl

/-- Entry `e` of the second end-point words is the edge array's entry `(e, 1)`. -/
theorem col1_apply (e : Fin 300000) : col1 W (ix1 e) = eW W (ix2 e (1 : Fin 2)) := by
  refine (shapeCast_apply _ shapeCasts_S300000x1_S300000 (ix1 e) (ix2 e (0 : Fin 1)) ?_).trans ?_
  · rewrite [Shape.rowMajor_val_two, Shape.rowMajor_val_one]
    show e.val * 1 + 0 = e.val
    omega
  refine extractStridedSlice_apply ![0, 1] _ slices_S300000x2_S300000x1_0_1 (ix2 e (0 : Fin 1)) (ix2 e (1 : Fin 2)) ?_
  intro a
  match a with
  | ⟨0, _⟩ =>
    show e.val = 0 + e.val
    omega
  | ⟨1, _⟩ => rfl

open Cert.Spec in
/-- The padded 128-lane layout of the gathered end points, read at entry `(b, e, j)`'s position. -/
theorem midOf_apply (x : FVec Ideal S16x100000x3 .f32) (c : IVec S300000 32) (b : Fin 16) (e : Fin Cert.Spec.EE) (j : Fin 3) :
    midOf x c (ix2 (midR b e j) (midL b e j)) = x (ix3 b (rowV (wrapV (c (ix1 e)))) j) := by
  have hb : b.val < 16 := b.isLt
  have he : e.val < 300000 := e.isLt
  have hj : j.val < 3 := j.isLt
  -- the position is inside the first 112500 rows: the padding is not read
  refine (pad_apply_of_inside ![0, 0] ![2188, 0] ![0, 0] _ _ pads_S112500x128_S114688x128_021880_000 h_S_ _
    (ix2 (⟨((b.val * 300000 + e.val) * 3 + j.val) / 128, by omega⟩ : Fin 112500) (midL b e j)) ?_).trans ?_
  · intro a
    match a with
    | ⟨0, _⟩ =>
      show ((b.val * 300000 + e.val) * 3 + j.val) / 128 = 0 + ((b.val * 300000 + e.val) * 3 + j.val) / 128 * (0 + 1)
      omega
    | ⟨1, _⟩ =>
      show ((b.val * 300000 + e.val) * 3 + j.val) % 128 = 0 + ((b.val * 300000 + e.val) * 3 + j.val) % 128 * (0 + 1)
      omega
  -- row-major position 128 r + l = 3 (300000 b + e) + j
  refine (shapeCast_apply _ shapeCasts_S4800000x3_S112500x128 _
    (ix2 (⟨b.val * 300000 + e.val, by omega⟩ : Fin 4800000) j) ?_).trans ?_
  · rewrite [Shape.rowMajor_val_two, Shape.rowMajor_val_two]
    show (b.val * 300000 + e.val) * 3 + j.val
      = ((b.val * 300000 + e.val) * 3 + j.val) / 128 * 128 + ((b.val * 300000 + e.val) * 3 + j.val) % 128
    omega
  refine (shapeCast_apply _ shapeCasts_S16x300000x3_S4800000x3 _ (ix3 b e j) ?_).trans ?_
  · rewrite [Shape.rowMajor_val_three, Shape.rowMajor_val_two]
    show (b.val * 300000 + e.val) * 3 + j.val = (b.val * 300000 + e.val) * 3 + j.val
    rfl
  -- the gather reads mesh b, column j, of the vertex the wrapped word names
  refine (Cert.LibGather3.gather_apply_clamp gather_S16x100000x3_S300000x1_S16x300000x3_02_1_n_n_1_1_1613 rfl rfl rfl rfl rfl
    x _ b e j (by omega)).trans ?_
  refine congrArg x (congrArg (fun r => ix3 b r j) (Fin.ext ?_))
  show min ((broadcastInDim S300000x1 ![0] bcast_S300000_S300000x1_0 (wrapVec c)) (ix2 e (0 : Fin 1))).toInt.toNat (100000 - 1)
    = min (wrapV (c (ix1 e))).toInt.toNat 99999
  rw [broadcastInDim_apply ![0] bcast_S300000_S300000x1_0 (wrapVec c) (ix2 e (0 : Fin 1)) (ix1 e)
    (fun a => match a with | ⟨0, _⟩ => rfl)]
  rfl

open Cert.Spec in
/-- The first end points in the padded 128-lane layout. -/
theorem a100 (b : Fin 16) (e : Fin Cert.Spec.EE) (j : Fin 3) :
    (StableHlo.after (hostOps4 (F := Ideal)) W (Proc.devRef .tc main_call0_v100) : FVec Ideal S114688x128 .f32) (ix2 (midR b e j) (midL b e j))
      = (StableHlo.after (hostOps4 (F := Ideal)) W (Proc.devRef .tc main_call0_v77) : FVec Ideal S16x100000x3 .f32)
          (ix3 b (rowV (wrapV (eW W (ix2 e (0 : Fin 2))))) j) := by
  rw [v100_term, midOf_apply, col0_apply]

open Cert.Spec in
/-- The second end points in the padded 128-lane layout. -/
theorem b101 (b : Fin 16) (e : Fin Cert.Spec.EE) (j : Fin 3) :
    (StableHlo.after (hostOps4 (F := Ideal)) W (Proc.devRef .tc main_call0_v101) : FVec Ideal S114688x128 .f32) (ix2 (midR b e j) (midL b e j))
      = (StableHlo.after (hostOps4 (F := Ideal)) W (Proc.devRef .tc main_call0_v77) : FVec Ideal S16x100000x3 .f32)
          (ix3 b (rowV (wrapV (eW W (ix2 e (1 : Fin 2))))) j) := by
  rw [v101_term, midOf_apply, col1_apply]

/-! ### After the call -/

open Cert.Spec in
/-- The first result's first 100000 rows per mesh are the moved vertices. -/
theorem out_lo (b : Fin 16) (v : Fin Cert.Spec.VV) (j : Fin 3) :
    (StableHlo.after (hostOps5 (F := Ideal)) W (Proc.devRef .tc main_v0_0) : FVec Ideal S16x400000x3 .f32) (ix3 b (lo v) j)
      = (W (Proc.devRef .tc main_call0_v77) : FVec Ideal S16x100000x3 .f32) (ix3 b v j) := by
  -- the result is the moved vertices joined, along the middle axis, with the read-back output
  unfold hostOps5; after_results
  simp only [TRef.ofBuf, TRef.toBuf, cast_eq]
  -- row v of the joined axis is below the first piece's extent 100000: the first piece, same coordinates
  refine concatenate_pair_apply_left (s₁ := S16x100000x3) (s₂ := S16x300000x3) 1 _ _ _ (ix3 b (lo v) j) rfl (ix3 b v j) ?_
  intro c
  match c with
  | ⟨0, _⟩ => rfl
  | ⟨1, _⟩ => rfl
  | ⟨2, _⟩ => rfl

open Cert.Spec in
/-- The first result's last 300000 rows per mesh are the fifth pallas_call's output read back. -/
theorem out_hi (b : Fin 16) (e : Fin Cert.Spec.EE) (j : Fin 3) :
    (StableHlo.after (hostOps5 (F := Ideal)) W (Proc.devRef .tc main_v0_0) : FVec Ideal S16x400000x3 .f32) (ix3 b (hi e) j)
      = (W (Proc.devRef .tc main_call0_v102) : FVec Ideal S114688x128 .f32) (ix2 (midR b e j) (midL b e j)) := by
  have hb : b.val < 16 := b.isLt
  have he : e.val < 300000 := e.isLt
  have hj : j.val < 3 := j.isLt
  -- the result is the moved vertices joined, along the middle axis, with the read-back output
  unfold hostOps5; after_results
  simp only [TRef.ofBuf, TRef.toBuf, cast_eq]
  -- row 100000 + e of the joined axis is past the first piece's extent: the second piece at row e
  refine (concatenate_pair_apply_right (s₁ := S16x100000x3) (s₂ := S16x300000x3) 1 _ _ _ (ix3 b (hi e) j) rfl rfl (ix3 b e j) ?_ ?_).trans ?_
  · intro c hc
    match c with
    | ⟨0, _⟩ => rfl
    | ⟨1, _⟩ => exact absurd rfl hc
    | ⟨2, _⟩ => rfl
  · show e.val + 100000 = 100000 + e.val
    omega
  -- the three reshapes keep the row-major position 3 (300000 b + e) + j = 128 r + l
  refine (shapeCast_apply _ shapeCasts_S4800000x3_S16x300000x3 (ix3 b e j)
    (ix2 (⟨b.val * 300000 + e.val, by omega⟩ : Fin 4800000) j) ?_).trans ?_
  · rewrite [Shape.rowMajor_val_two, Shape.rowMajor_val_three]
    show (b.val * 300000 + e.val) * 3 + j.val = (b.val * 300000 + e.val) * 3 + j.val
    rfl
  refine (shapeCast_apply _ shapeCasts_S14400000_S4800000x3 _
    (ix1 (⟨(b.val * 300000 + e.val) * 3 + j.val, by omega⟩ : Fin 14400000)) ?_).trans ?_
  · rewrite [Shape.rowMajor_val_one, Shape.rowMajor_val_two]
    show (b.val * 300000 + e.val) * 3 + j.val = (b.val * 300000 + e.val) * 3 + j.val
    rfl
  refine (shapeCast_apply _ shapeCasts_S112500x128_S14400000 _
    (ix2 (⟨((b.val * 300000 + e.val) * 3 + j.val) / 128, by omega⟩ : Fin 112500) (midL b e j)) ?_).trans ?_
  · rewrite [Shape.rowMajor_val_two, Shape.rowMajor_val_one]
    show ((b.val * 300000 + e.val) * 3 + j.val) / 128 * 128 + ((b.val * 300000 + e.val) * 3 + j.val) % 128
      = (b.val * 300000 + e.val) * 3 + j.val
    omega
  -- the slice starts at row 0
  refine extractStridedSlice_apply ![0, 0] _ slices_S114688x128_S112500x128_0_0 _ (ix2 (midR b e j) (midL b e j)) ?_
  intro a
  match a with
  | ⟨0, _⟩ =>
    show ((b.val * 300000 + e.val) * 3 + j.val) / 128 = 0 + ((b.val * 300000 + e.val) * 3 + j.val) / 128
    omega
  | ⟨1, _⟩ =>
    show ((b.val * 300000 + e.val) * 3 + j.val) % 128 = 0 + ((b.val * 300000 + e.val) * 3 + j.val) % 128
    omega

/-- The second result: the faces broadcast over the meshes. -/
theorem out_faces :
    (StableHlo.after (hostOps5 (F := Ideal)) W (Proc.devRef .tc main_v0_1) : IVec S16x800000x3 32)
      = broadcastInDim S16x800000x3 ![0, 1, 2] bcast_S1x800000x3_S16x800000x3_0_1_2
          (broadcastInDim S1x800000x3 ![1, 2] bcast_S800000x3_S1x800000x3_1_2
            (W (Proc.devRef .tc main_arg2) : IVec S800000x3 32)) := by
  unfold hostOps5; after_results; rfl

end Cert.KernelIdeal.HostMid

end
-- ==== Proof.Topo.lean ====
/-
  The kernel's first stretch of host operations computes the packed edge words, the normalisation factor and the node
  coordinates by the very operations the reference uses: the same term of the argument arrays, operation for operation.
  So the kernel's buffers are read in the reference's own stage functions (the copy of its read module), and nothing of
  how the words are built from the edge array is opened on either side.
-/
import proofs.«411275_j68839735821120_3_alg».proof.Proof.Gen.KernelIdeal.Launch
import proofs.«411275_j68839735821120_3_alg».proof.Proof.RefRead
import proofs.«411275_j68839735821120_3_alg».proof.Proof.LibColumn
import Idealize.ShloMosaic.Lib.StableHlo.Run
import Idealize.ShloMosaic.Lib.ValueIdx

set_option maxRecDepth 16384

noncomputable section

namespace Cert.KernelIdeal.Topo

open Cert.KernelIdeal Cert.KernelIdeal.Gen Idealize.ShloMosaic Idealize.ShloMosaic.TcCoe Idealize.ShloMosaic.ValueIdx
open Idealize.SL.Sem Idealize.ShloMosaic.StableHlo

variable {F : FTy → Type} [FloatOps F]
-- the TensorCore's buffer contents at launch: any
variable (W : Valuation τ sig (Elt F))

/-- The packed source words (with the self loops) are the reference's. -/
theorem srcWords :
    (StableHlo.after (hostOps0 (F := F)) W (Proc.devRef .tc main_call0_v14) : IVec S6400000 32)
      = Cert.ReferenceIdeal.ReadP.val_main_v16 (F := F) (W (Proc.devRef .tc main_arg1) : IVec S300000x2 32) := by
  unfold hostOps0
  after_results
  simp only [TRef.ofBuf, TRef.toBuf, cast_eq]
  rfl

/-- The packed destination words (with the self loops) are the reference's. -/
theorem dstWords :
    (StableHlo.after (hostOps0 (F := F)) W (Proc.devRef .tc main_call0_v15) : IVec S6400000 32)
      = Cert.ReferenceIdeal.ReadP.val_main_v17 (F := F) (W (Proc.devRef .tc main_arg1) : IVec S300000x2 32) := by
  unfold hostOps0
  after_results
  simp only [TRef.ofBuf, TRef.toBuf, cast_eq]
  rfl

set_option maxHeartbeats 4000000 in
/-- The normalisation factor is the reference's. -/
theorem factor :
    (StableHlo.after (hostOps0 (F := F)) W (Proc.devRef .tc main_call0_v23) : FVec F S1600000 .f32)
      = Cert.ReferenceIdeal.ReadP.val_main_v25 (F := F) (W (Proc.devRef .tc main_arg1) : IVec S300000x2 32) := by
  unfold hostOps0
  after_results
  simp only [TRef.ofBuf, TRef.toBuf, cast_eq]
  rfl

/-- The node coordinates as a 1600000 × 3 table are the reference's. -/
theorem coords :
    (StableHlo.after (hostOps0 (F := F)) W (Proc.devRef .tc main_call0_v25) : FVec F S1600000x3 .f32)
      = Cert.ReferenceIdeal.ReadP.val_main_v13 (F := F) (W (Proc.devRef .tc main_arg0) : FVec F S16x100000x3 .f32) := by
  unfold hostOps0
  after_results
  simp only [TRef.ofBuf, TRef.toBuf, cast_eq]
  rfl

set_option maxHeartbeats 4000000 in
/-- The normalisation factor as a column: entry (n, 0) is the factor of node n. -/
theorem factorColumn (n : Fin 1600000) :
    (StableHlo.after (hostOps0 (F := F)) W (Proc.devRef .tc main_call0_v24) : FVec F S1600000x1 .f32) (ix2 n (0 : Fin 1))
      = Cert.ReferenceIdeal.ReadP.val_main_v25 (F := F) (W (Proc.devRef .tc main_arg1) : IVec S300000x2 32) (ix1 n) := by
  have h : (StableHlo.after (hostOps0 (F := F)) W (Proc.devRef .tc main_call0_v24) : FVec F S1600000x1 .f32)
      = shapeCast S1600000x1 (Cert.ReferenceIdeal.ReadP.val_main_v25 (F := F) (W (Proc.devRef .tc main_arg1) : IVec S300000x2 32)) shapeCasts_S1600000_S1600000x1 := by
    unfold hostOps0
    after_results
    simp only [TRef.ofBuf, TRef.toBuf, cast_eq]
    rfl
  rw [h]
  exact Cert.LibColumn.shapeCast_a_a1_apply _ _ n 0

end Cert.KernelIdeal.Topo

end
-- ==== Proof.LibIdealReal.lean ====
/-
  The float operations at the ideal values — a float is an extended real — on arguments that are coerced reals:
  each gives the coerced real operation. The arithmetic of coerced reals, the absolute value, minimum and
  maximum; the exponential and the logarithm; the quotient by a nonzero real; the extended reals that six
  32-bit patterns denote; the conversions of a one-bit word and of a signed word; the comparison of two
  coerced reals; a finite sum of coerced reals; and the maximum of finitely many coerced reals, folded from
  the bottom element.
-/
import Idealize.ShloMosaic.PureOps.Ideal
import Idealize.ShloMosaic.PureOps.Ideal.Laws
import Mathlib.Data.EReal.Basic
import Mathlib.Data.EReal.Operations
import Mathlib.Data.EReal.Inv
import Mathlib.Analysis.SpecialFunctions.Log.Basic
import Mathlib.Algebra.BigOperators.Group.Finset.Basic
import Mathlib.Data.Finset.Lattice.Fold

noncomputable section

namespace Cert.LibIdealReal

open Idealize.ShloMosaic
open scoped BigOperators

variable {φ : FTy}

/-! ## Arithmetic of coerced reals -/

/-- The product of two coerced reals is the coerced product. -/
theorem mul_coe (a b : ℝ) : (a : EReal) * (b : EReal) = ((a * b : ℝ) : EReal) := (EReal.coe_mul a b).symm

/-- The sum of two coerced reals is the coerced sum. -/
theorem add_coe (a b : ℝ) : (a : EReal) + (b : EReal) = ((a + b : ℝ) : EReal) := (EReal.coe_add a b).symm

/-- The difference of two coerced reals is the coerced difference. -/
theorem sub_coe (a b : ℝ) : (a : EReal) - (b : EReal) = ((a - b : ℝ) : EReal) := (EReal.coe_sub a b).symm

/-- The negation of a coerced real is the coerced negation. -/
theorem neg_coe (a : ℝ) : -(a : EReal) = ((-a : ℝ) : EReal) := (EReal.coe_neg a).symm

/-- The maximum of two coerced reals is the coerced maximum. -/
theorem max_coe (a b : ℝ) : max (a : EReal) (b : EReal) = ((max a b : ℝ) : EReal) :=
  (EReal.coe_strictMono.monotone.map_max (a := a) (b := b)).symm

/-- The minimum of two coerced reals is the coerced minimum. -/
theorem min_coe (a b : ℝ) : min (a : EReal) (b : EReal) = ((min a b : ℝ) : EReal) :=
  (EReal.coe_strictMono.monotone.map_min (a := a) (b := b)).symm

/-- The larger of a coerced real and its negation is the coerced absolute value. -/
theorem abs_coe (a : ℝ) : max (a : EReal) (-(a : EReal)) = ((|a| : ℝ) : EReal) := by
  rw [neg_coe, max_coe, abs_eq_max_neg]

/-- The coerced real zero is the extended real zero. -/
theorem zero_coe : (0 : EReal) = ((0 : ℝ) : EReal) := EReal.coe_zero.symm

/-- The coerced real one is the extended real one. -/
theorem one_coe : (1 : EReal) = ((1 : ℝ) : EReal) := EReal.coe_one.symm

/-! ## Exponential, logarithm, quotient -/

/-- The exponential of a coerced real is the coerced real exponential. -/
theorem exp_coe (a : ℝ) : Ideal.exp (a : EReal) = ((Real.exp a : ℝ) : EReal) := rfl

/-- The logarithm of a coerced positive real is the coerced real logarithm. -/
theorem log_coe {a : ℝ} (h : 0 < a) : Ideal.log (a : EReal) = ((Real.log a : ℝ) : EReal) := by
  rw [Ideal.log_coe, if_neg (not_le.mpr h)]

/-- The logarithm of a coerced real that is not positive is the bottom element. -/
theorem log_coe_nonpos {a : ℝ} (h : a ≤ 0) : Ideal.log (a : EReal) = ⊥ := by
  rw [Ideal.log_coe, if_pos h]

/-- The quotient of a coerced real by a coerced nonzero real is the coerced quotient. -/
theorem div_coe (a : ℝ) {b : ℝ} (h : b ≠ 0) : Ideal.div (a : EReal) (b : EReal) = ((a / b : ℝ) : EReal) := by
  rw [Ideal.div_coe h, mul_coe, mul_one_div]

/-! ## Six patterns -/

/-- The all-zero pattern denotes zero. -/
theorem ofBits_zero : Ideal.ofBits .f32 0x00000000#32 = 0 := Ideal.ofBits_zero_f32

/-- The all-zero pattern denotes the coerced real zero. -/
theorem ofBits_zero_coe : Ideal.ofBits .f32 0x00000000#32 = ((0 : ℝ) : EReal) := by
  rw [ofBits_zero, zero_coe]

/-- The pattern of one denotes the coerced real one. -/
theorem ofBits_one_coe : Ideal.ofBits .f32 0x3F800000#32 = ((1 : ℝ) : EReal) := by
  simp [Ideal.ofBits, Ideal.ieee, -EReal.coe_mul]; norm_num

/-- The pattern of one denotes one. -/
theorem ofBits_one : Ideal.ofBits .f32 0x3F800000#32 = 1 := by
  rw [ofBits_one_coe, one_coe]

/-- The pattern of one half denotes the coerced real one half. -/
theorem ofBits_half : Ideal.ofBits .f32 0x3F000000#32 = ((1 / 2 : ℝ) : EReal) := by
  simp [Ideal.ofBits, Ideal.ieee, -EReal.coe_mul]; norm_num

/-- The pattern of 4096 denotes the coerced real 4096. -/
theorem ofBits_4096 : Ideal.ofBits .f32 0x45800000#32 = ((4096 : ℝ) : EReal) := by
  simp [Ideal.ofBits, Ideal.ieee, -EReal.coe_mul]; norm_num

/-- The pattern of 32 denotes the coerced real 32. -/
theorem ofBits_32 : Ideal.ofBits .f32 0x42000000#32 = ((32 : ℝ) : EReal) := by
  simp [Ideal.ofBits, Ideal.ieee, -EReal.coe_mul]; norm_num

/-- The pattern of minus infinity denotes the bottom element. -/
theorem ofBits_neg_inf : Ideal.ofBits .f32 0xFF800000#32 = ⊥ := by
  simp [Ideal.ofBits, Ideal.ieee]

/-! ## Conversions of words -/

/-- A one-bit word is zero or one. -/
theorem bit_cases (b : BitVec 1) : b = 0#1 ∨ b = 1#1 := by
  have h := b.isLt
  rcases (by omega : b.toNat = 0 ∨ b.toNat = 1) with h0 | h1
  · left; exact BitVec.eq_of_toNat_eq (by simpa using h0)
  · right; exact BitVec.eq_of_toNat_eq (by simpa using h1)

/-- The signed conversion of a word is the coerced real of its signed value. -/
theorem sitofp_def {w : Nat} (b : BitVec w) : FloatOps.sitofp (F := Ideal) φ b = (((b.toInt : ℤ) : ℝ) : EReal) := rfl

/-- The unsigned conversion of a word is the coerced real of its unsigned value. -/
theorem uitofp_def {w : Nat} (b : BitVec w) : FloatOps.uitofp (F := Ideal) φ b = (((b.toNat : ℕ) : ℝ) : EReal) := rfl

/-- The signed conversion of a word whose signed value is `n` is the coerced real `n`. -/
theorem sitofp_of_toInt {w : Nat} (b : BitVec w) (n : ℤ) (h : b.toInt = n) :
    FloatOps.sitofp (F := Ideal) φ b = ((n : ℝ) : EReal) := by
  rw [sitofp_def, h]

/-- The unsigned conversion of the one-bit word one is the coerced real one. -/
theorem uitofp_bit_one : FloatOps.uitofp (F := Ideal) φ (1#1) = ((1 : ℝ) : EReal) := by
  rw [uitofp_def]; norm_num

/-- The unsigned conversion of the one-bit word zero is the coerced real zero. -/
theorem uitofp_bit_zero : FloatOps.uitofp (F := Ideal) φ (0#1) = ((0 : ℝ) : EReal) := by
  rw [uitofp_def]; norm_num

/-- The unsigned conversion of a one-bit word is one or zero as the word is one or not. -/
theorem uitofp_bit (b : BitVec 1) :
    FloatOps.uitofp (F := Ideal) φ b = ((if b = 1#1 then (1 : ℝ) else 0 : ℝ) : EReal) := by
  rcases bit_cases b with rfl | rfl
  · rw [uitofp_bit_zero, if_neg (by decide)]
  · rw [uitofp_bit_one, if_pos rfl]

/-- The signed conversion of the one-bit word one, zero-extended to 32 bits, is the coerced real one. -/
theorem sitofp_extui_bit_one : FloatOps.sitofp (F := Ideal) φ ((1#1 : BitVec 1).setWidth 32) = ((1 : ℝ) : EReal) := by
  rw [sitofp_of_toInt _ 1 (by decide)]; norm_num

/-- The signed conversion of the one-bit word zero, zero-extended to 32 bits, is the coerced real zero. -/
theorem sitofp_extui_bit_zero : FloatOps.sitofp (F := Ideal) φ ((0#1 : BitVec 1).setWidth 32) = ((0 : ℝ) : EReal) := by
  rw [sitofp_of_toInt _ 0 (by decide)]; norm_num

/-- The signed conversion of a zero-extended one-bit word is one or zero as the word is one or not. -/
theorem sitofp_extui_bit (b : BitVec 1) :
    FloatOps.sitofp (F := Ideal) φ (b.setWidth 32) = ((if b = 1#1 then (1 : ℝ) else 0 : ℝ) : EReal) := by
  rcases bit_cases b with rfl | rfl
  · rw [sitofp_extui_bit_zero, if_neg (by decide)]
  · rw [sitofp_extui_bit_one, if_pos rfl]

/-! ## Comparison -/

/-- The strict comparison of two coerced reals is the one-bit word one exactly when the first is below the second. -/
theorem cmp_olt_coe (a b : ℝ) : Ideal.cmp .olt (a : EReal) (b : EReal) = if a < b then 1#1 else 0#1 := by
  by_cases h : a < b
  · simp [Ideal.cmp, h]
  · simp [Ideal.cmp, h]

/-- A choice by the strict comparison of two coerced reals is the choice by the comparison of the reals. -/
theorem select_cmp_olt_coe {α : Type} (a b : ℝ) (x y : α) :
    Scalar.select (Ideal.cmp .olt (a : EReal) (b : EReal)) x y = if a < b then x else y := by
  rw [cmp_olt_coe]
  by_cases h : a < b
  · rw [if_pos h, if_pos h]; exact if_pos rfl
  · rw [if_neg h, if_neg h]; exact if_neg (by decide)

/-! ## Finite sums -/

/-- A finite sum of coerced reals is the coerced sum. -/
theorem sum_coe {ι : Type*} (s : Finset ι) (f : ι → ℝ) :
    ∑ i ∈ s, ((f i : ℝ) : EReal) = ((∑ i ∈ s, f i : ℝ) : EReal) := by
  classical
  refine Finset.induction_on s (by simp) ?_
  intro i s hi ih
  rw [Finset.sum_insert hi, Finset.sum_insert hi, ih, EReal.coe_add]

/-- A sum over a finite type of coerced reals is the coerced sum. -/
theorem sum_univ_coe {ι : Type*} [Fintype ι] (f : ι → ℝ) :
    ∑ i, ((f i : ℝ) : EReal) = ((∑ i, f i : ℝ) : EReal) := sum_coe Finset.univ f

/-- A finite sum of extended reals, each a coerced real, is the coerced sum of the reals. -/
theorem sum_of_eq {ι : Type*} (s : Finset ι) (g : ι → EReal) (f : ι → ℝ) (hg : ∀ i ∈ s, g i = ((f i : ℝ) : EReal)) :
    ∑ i ∈ s, g i = ((∑ i ∈ s, f i : ℝ) : EReal) := by
  rw [Finset.sum_congr rfl hg, sum_coe]

/-! ## Finite maxima from the bottom element -/

/-- The maximum of finitely many coerced reals over a nonempty set, folded from the bottom element, is the
coerced maximum of the reals. -/
theorem fold_max_bot_coe {ι : Type*} (s : Finset ι) (H : s.Nonempty) (f : ι → ℝ) :
    s.fold max (⊥ : EReal) (fun i => ((f i : ℝ) : EReal)) = ((s.sup' H f : ℝ) : EReal) := by
  have h1 : s.fold max (⊥ : EReal) (fun i => ((f i : ℝ) : EReal)) = s.sup (fun i => ((f i : ℝ) : EReal)) := rfl
  rw [h1, ← Finset.sup'_eq_sup H]
  exact (Finset.comp_sup'_eq_sup'_comp H (fun r : ℝ => (r : EReal)) (fun x y => (max_coe x y).symm)).symm

/-- The same for extended reals each known to be a coerced real. -/
theorem fold_max_bot_of_eq {ι : Type*} (s : Finset ι) (H : s.Nonempty) (g : ι → EReal) (f : ι → ℝ)
    (hg : ∀ i, g i = ((f i : ℝ) : EReal)) :
    s.fold max (⊥ : EReal) g = ((s.sup' H f : ℝ) : EReal) := by
  have : g = fun i => ((f i : ℝ) : EReal) := funext hg
  rw [this, fold_max_bot_coe]

/-- The same with the float maximum as the folded operation. -/
theorem fold_maximumf_bot_of_eq {ι : Type*} (s : Finset ι) (H : s.Nonempty) (g : ι → EReal) (f : ι → ℝ)
    (hg : ∀ i, g i = ((f i : ℝ) : EReal)) :
    s.fold (FloatOps.maximumf (F := Ideal) (φ := φ)) (⊥ : EReal) g = ((s.sup' H f : ℝ) : EReal) :=
  fold_max_bot_of_eq s H g f hg

end Cert.LibIdealReal

end
-- ==== Proof.RefLayer.lean ====
/-
  The reference's normalisation factor and its three aggregations, read at an index.

  The reference recomputes the edge words, the count and the factor in every layer, by the same operations: the three
  copies are one function of the edge array. Each layer gathers the rows of its product the wrapped source words name,
  scales the row of edge e by the product of the factors at e's wrapped source and destination words (each a gather of
  the factor), and adds it into the row of a zero table that e's destination word names, read signed. At (n, j) that is the
  sum over the edges landing on n.
-/
import proofs.«411275_j68839735821120_3_alg».proof.Proof.RefRead
import proofs.«411275_j68839735821120_3_alg».proof.Proof.Spec
import proofs.«411275_j68839735821120_3_alg».proof.Proof.LibScatterGather2
import proofs.«411275_j68839735821120_3_alg».proof.Proof.LibCells
import proofs.«411275_j68839735821120_3_alg».proof.Proof.LibPlainDot
import proofs.«411275_j68839735821120_3_alg».proof.Proof.LibColumn
import proofs.«411275_j68839735821120_3_alg».proof.Proof.LibIdealReal
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

/-! ## A table of entries gathered by a column of words (general: nothing here depends on the sizes) -/

namespace Cert.LibGather1

open Idealize.ShloMosaic Idealize.ShloMosaic.ValueIdx

/-- The gather of single entries of a table of `N` entries by an `M × 1` column of index words: the result's entry `e`
    is the table's entry at the word of row `e`, the word read signed and clamped into `[0, N − 1]`. -/
theorem gather1_apply_clamp {α : Type} {N M w : Nat} (d : GatherDims ⟨1, ![N]⟩ ⟨2, ![M, 1]⟩ ⟨1, ![M]⟩)
    (hoff : d.offsetDims = []) (hcoll : d.collapsedSliceDims = [0]) (hob : d.operandBatchingDims = [])
    (hsim : d.startIndexMap = [0]) (hivd : d.indexVectorDim = 1)
    (x : (⟨1, ![N]⟩ : Shape).Idx → α) (idx : IVec ⟨2, ![M, 1]⟩ w) (e : Fin M) (hN : 0 < N) :
    Host.gather d x idx (ix1 e)
      = x (ix1 ⟨min (idx (ix2 e (0 : Fin 1))).toInt.toNat (N - 1), by omega⟩) := by
  -- the one operand axis is collapsed, so the slice taken along it is one entry
  have hsl : d.sliceSizes 0 = 1 := d.slice_collapsed 0 (by rw [hcoll]; exact List.mem_singleton.mpr rfl)
  unfold Host.gather
  refine congrArg x ?_
  cases d with
  | mk od cd ob sb sm iv ss wf =>
    obtain rfl : od = [] := hoff
    obtain rfl : cd = [0] := hcoll
    obtain rfl : ob = [] := hob
    obtain rfl : sm = [0] := hsim
    obtain rfl : iv = 1 := hivd
    replace hsl : ss 0 = 1 := hsl
    funext a
    match a with
    | ⟨0, _⟩ =>
      apply Fin.ext
      show GatherDims.start _ (ix1 e) idx 0 + GatherDims.batchCoord _ (ix1 e) 0 + GatherDims.offCoord _ (ix1 e) 0
        = min (idx (ix2 e (0 : Fin 1))).toInt.toNat (N - 1)
      rw [GatherDims.batchCoord_eq_zero _ _ _ List.not_mem_nil,
        GatherDims.offCoord_eq_zero _ _ _ (by decide : (0 : Fin 1) ∉ (List.finRange 1).filter (· ∉ [0] ++ []))]
      simp only [Nat.add_zero]
      unfold GatherDims.start
      rw [dif_pos (List.mem_singleton.mpr rfl)]
      show min (idx _).toInt.toNat (N - ss 0) = _
      rw [hsl]
      refine congrArg (fun k => min (idx k).toInt.toNat (N - 1)) ?_
      funext b
      match b with
      | ⟨0, _⟩ => exact Fin.ext rfl
      | ⟨1, _⟩ => exact Fin.ext rfl

/-- The same when the word of row `e` is known to be `wd`: the table's entry at `wd` read signed and clamped. -/
theorem gather1_apply_word {α : Type} {N M w : Nat} (d : GatherDims ⟨1, ![N]⟩ ⟨2, ![M, 1]⟩ ⟨1, ![M]⟩)
    (hoff : d.offsetDims = []) (hcoll : d.collapsedSliceDims = [0]) (hob : d.operandBatchingDims = [])
    (hsim : d.startIndexMap = [0]) (hivd : d.indexVectorDim = 1)
    (x : (⟨1, ![N]⟩ : Shape).Idx → α) (idx : IVec ⟨2, ![M, 1]⟩ w) (e : Fin M) (wd : BitVec w)
    (h : idx (ix2 e (0 : Fin 1)) = wd) (hN : 0 < N) :
    Host.gather d x idx (ix1 e) = x (ix1 ⟨min wd.toInt.toNat (N - 1), by omega⟩) := by
  subst h
  exact gather1_apply_clamp d hoff hcoll hob hsim hivd x idx e hN

end Cert.LibGather1

namespace Cert.ReferenceIdeal.RefLayer

open Cert.ReferenceIdeal Cert.ReferenceIdeal.Gen Cert.ReferenceIdeal.ReadP Idealize.ShloMosaic Idealize.ShloMosaic.TcCoe
open Idealize.ShloMosaic.ValueIdx Cert.Spec
open scoped BigOperators

-- the reference's argument arrays: any
variable (x0 : FVec Ideal S16x100000x3 .f32) (x1 : IVec S300000x2 32) (x3 : FVec Ideal S3x16 .f32) (x4 : FVec Ideal S16 .f32)
  (x5 : FVec Ideal S16x16 .f32) (x6 : FVec Ideal S16 .f32) (x7 : FVec Ideal S16x3 .f32) (x8 : FVec Ideal S3 .f32)

/-- The edges' source and destination words and the normalisation factor, as the reference computes them. -/
abbrev Sw : Fin MM → BitVec 32 := fun e => val_main_v16 (F := Ideal) x1 (ix1 e)
abbrev Dw : Fin MM → BitVec 32 := fun e => val_main_v17 (F := Ideal) x1 (ix1 e)
abbrev dv : Fin NN → EReal := fun n => val_main_v25 (F := Ideal) x1 (ix1 n)

/-- The column made of an array of words has, in row `e`, the array's word `e`. -/
theorem colIdx (e : Fin MM) : idx_main_v20 (ix2 e (0 : Fin 1)) = ix1 e := by
  funext a; match a with | ⟨0, _⟩ => rfl

/-- The count the reference scatters is the shared vocabulary's. -/
theorem v21_eq (n : Fin NN) : val_main_v21 (F := Ideal) x1 (ix1 n) = deg (Dw x1) n := by
  unfold val_main_v21
  rw [LibCells.scatterAdd1_apply _ rfl rfl rfl rfl]
  unfold deg hits
  rw [val_main_v19_apply, val_main_cst_0_apply]
  refine congrArg₂ (· + ·) rfl (Finset.sum_congr (Finset.filter_congr fun e _ => ?_) fun e _ => ?_)
  · rw [val_main_v20_apply, colIdx]
  · rw [val_main_v18_apply, val_main_cst_apply]; rfl

/-- The factor the reference computes is the shared vocabulary's, of the reference's destination words. -/
theorem dv_eq (n : Fin NN) : dv x1 n = dinvOf (Dw x1) n := by
  show val_main_v25 (F := Ideal) x1 (ix1 n) = _
  rw [val_main_v25_apply, val_main_v23_apply, val_main_v24_apply, v21_eq, val_main_v22_apply, val_main_cst_1_apply,
    val_main_call0_v1_apply, val_main_call0_v0_apply, val_main_cst_2_apply]
  rfl

/-- One aggregation, whatever the table and the number of columns: a zero table, a column of destination words, a column
    of wrapped source words, and a factor constant along each update row. Element `(n, j)` of the scatter of the
    gathered rows times the factor is the sum, over the edges landing on `n`, of column `j` of the source row times
    the edge's factor. -/
theorem agg_core {C : Nat} (sd : ScatterDims ⟨2, ![NN, C]⟩ ⟨2, ![MM, 1]⟩ ⟨2, ![MM, C]⟩)
    (huw : sd.updateWindowDims = [1]) (hiw : sd.insertedWindowDims = [0]) (hsd : sd.scatterDimsToOperandDims = [0])
    (hivd : sd.indexVectorDim = 1)
    (gd : GatherDims ⟨2, ![NN, C]⟩ ⟨2, ![MM, 1]⟩ ⟨2, ![MM, C]⟩)
    (hoff : gd.offsetDims = [1]) (hcoll : gd.collapsedSliceDims = [0]) (hob : gd.operandBatchingDims = [])
    (hsim : gd.startIndexMap = [0]) (hgivd : gd.indexVectorDim = 1)
    (Z T : FVec Ideal ⟨2, ![NN, C]⟩ .f32) (dcol scol : IVec ⟨2, ![MM, 1]⟩ 32) (fac : FVec Ideal ⟨2, ![MM, C]⟩ .f32)
    (S D : Fin MM → BitVec 32) (f : Fin MM → EReal)
    (hZ : ∀ i, Z i = Ideal.ofBits .f32 0x00000000#32)
    (hD : ∀ e, dcol (ix2 e (0 : Fin 1)) = D e) (hS : ∀ e, scol (ix2 e (0 : Fin 1)) = wrap (S e))
    (hf : ∀ e j, fac (ix2 e j) = f e) (n : Fin NN) (j : Fin C) :
    Host.scatterAdd (F := Ideal) sd Z dcol (mulf (Host.gather gd T scol) fac) (ix2 n j)
      = ∑ e ∈ hits D n, T (ix2 (row (wrap (S e))) j) * f e := by
  rw [LibScatterGather2.scatterAdd_apply sd huw hiw hsd hivd, hZ, LibIdealReal.ofBits_zero, zero_add]
  unfold hits
  refine Finset.sum_congr (Finset.filter_congr fun e _ => by rw [hD]) fun e _ => ?_
  show Host.gather gd T scol (ix2 e j) * fac (ix2 e j) = _
  rw [LibScatterGather2.gather_apply_clamp gd hoff hcoll hob hsim hgivd T scol e j (by decide), hf]
  refine congrArg (fun r => T (ix2 r j) * f e) (Fin.ext ?_)
  show min (scol (ix2 e (0 : Fin 1))).toInt.toNat (NN - 1) = min (wrap (S e)).toInt.toNat 1599999
  rw [hS]
  rfl

/-- An array of `MM` entries made a column has, in row `e`, the array's entry `e`. -/
theorem col_read {α : Type} (y : S6400000.Idx → α) (e : Fin MM) :
    broadcastInDim S6400000x1 ![0] bcast_S6400000_S6400000x1_0 y (ix2 e (0 : Fin 1)) = y (ix1 e) :=
  broadcastInDim_apply _ bcast_S6400000_S6400000x1_0 y _ (ix1 e) (fun a => match a with
    | ⟨0, _⟩ => by show e.val = if (6400000 : Nat) = 1 then 0 else e.val; rw [if_neg (by decide)])

/-- The wrapped source word of edge `e`, as the reference computes it for the factor's gather. -/
theorem v30_eq (e : Fin MM) : val_main_v30 (F := Ideal) x1 (ix1 e) = wrap (Sw x1 e) := by
  rw [val_main_v30_apply, val_main_v27_apply, val_main_v29_apply, val_main_v26_apply, val_main_v28_apply,
    val_main_c_3_apply, val_main_c_4_apply]
  rfl

/-- The wrapped destination word of edge `e`. -/
theorem v37_eq (e : Fin MM) : val_main_v37 (F := Ideal) x1 (ix1 e) = wrap (Dw x1 e) := by
  rw [val_main_v37_apply, val_main_v34_apply, val_main_v36_apply, val_main_v33_apply, val_main_v35_apply,
    val_main_c_5_apply, val_main_c_6_apply]
  rfl

/-- The wrapped source word of edge `e`, as the reference computes it for the rows' gather. -/
theorem v45_eq (e : Fin MM) : val_main_v45 (F := Ideal) x1 (ix1 e) = wrap (Sw x1 e) := by
  rw [val_main_v45_apply, val_main_v42_apply, val_main_v44_apply, val_main_v41_apply, val_main_v43_apply,
    val_main_c_7_apply, val_main_c_8_apply]
  rfl

/-- The factor of edge `e`: the product of the normalisation factors at its wrapped source and destination words. -/
theorem v40_eq (e : Fin MM) :
    val_main_v40 (F := Ideal) x1 (ix1 e) = dv x1 (row (wrap (Sw x1 e))) * dv x1 (row (wrap (Dw x1 e))) := by
  have h1 : val_main_v32 (F := Ideal) x1 (ix1 e) = dv x1 (row (wrap (Sw x1 e))) := by
    unfold val_main_v32
    exact LibGather1.gather1_apply_word _ rfl rfl rfl rfl rfl _ _ e _
      (by unfold val_main_v31; rw [col_read, v30_eq]) (by decide)
  have h2 : val_main_v39 (F := Ideal) x1 (ix1 e) = dv x1 (row (wrap (Dw x1 e))) := by
    unfold val_main_v39
    exact LibGather1.gather1_apply_word _ rfl rfl rfl rfl rfl _ _ e _
      (by unfold val_main_v38; rw [col_read, v37_eq]) (by decide)
  rw [val_main_v40_apply, h1, h2]
  rfl

/-- The destination words as the column the first layer's scatter reads. -/
theorem v52_col (e : Fin MM) : val_main_v52 (F := Ideal) x1 (ix2 e (0 : Fin 1)) = Dw x1 e := by
  unfold val_main_v52
  rw [col_read]

/-- The wrapped source words as the column the first layer's gather of rows reads. -/
theorem v46_col (e : Fin MM) : val_main_v46 (F := Ideal) x1 (ix2 e (0 : Fin 1)) = wrap (Sw x1 e) := by
  unfold val_main_v46
  rw [col_read, v45_eq]

/-- The factor spread along sixteen columns. -/
theorem v49_eq (e : Fin MM) (j : Fin 16) :
    val_main_v49 (F := Ideal) x1 (ix2 e j) = dv x1 (row (wrap (Sw x1 e))) * dv x1 (row (wrap (Dw x1 e))) := by
  rw [val_main_v49_apply]
  unfold val_main_v48
  have hi : idx_main_v49 (ix2 e j) = ix2 e (0 : Fin 1) := by
    funext a; match a with | ⟨0, _⟩ => rfl | ⟨1, _⟩ => rfl
  rw [hi, col_read, v40_eq]

/-- The zero table of sixteen columns. -/
theorem v51_eq (i : S1600000x16.Idx) : val_main_v51 (F := Ideal) i = Ideal.ofBits .f32 0x00000000#32 := by
  rw [val_main_v51_apply, val_main_cst_9_apply]; rfl

/-- The aggregation over sixteen columns of any table `T`, with the first layer's words and factor. -/
theorem layer16 (T : FVec Ideal S1600000x16 .f32) (n : Fin NN) (j : Fin 16) :
    Host.scatterAdd (F := Ideal) scatter_S1600000x16_S6400000x1_S6400000x16_1_0_0_1 (val_main_v51 (F := Ideal))
        (val_main_v52 (F := Ideal) x1)
        (mulf (Host.gather gather_S1600000x16_S6400000x1_S6400000x16_1_0_n_n_0_1_116 T (val_main_v46 (F := Ideal) x1))
          (val_main_v49 (F := Ideal) x1)) (ix2 n j)
      = ∑ e ∈ hits (Dw x1) n, T (ix2 (row (wrap (Sw x1 e))) j)
          * (dv x1 (row (wrap (Sw x1 e))) * dv x1 (row (wrap (Dw x1 e)))) :=
  agg_core _ rfl rfl rfl rfl _ rfl rfl rfl rfl rfl _ T _ _ _ (Sw x1) (Dw x1) _ v51_eq (v52_col x1) (v46_col x1)
    (v49_eq x1) n j

/-- First layer's aggregation at (n, j). -/
theorem layer1 (n : Fin NN) (j : Fin 16) :
    val_main_v53 (F := Ideal) x0 x1 x3 (ix2 n j)
      = ∑ e ∈ hits (Dw x1) n, val_main_v14 (F := Ideal) x0 x3 (ix2 (row (wrap (Sw x1 e))) j)
          * (dv x1 (row (wrap (Sw x1 e))) * dv x1 (row (wrap (Dw x1 e)))) := by
  unfold val_main_v53 val_main_v50 val_main_v47
  exact layer16 x1 _ n j

/-! ## The second and third copies are the first

The reference recomputes the words, the count and the factor by the same operations: unfolded, the copies are the same
terms, whatever the float operations. -/

section Copies

variable {F : FTy → Type} [FloatOps F] (y1 : (⟨S300000x2, .i32⟩ : BufTy).Contents (Elt F))

theorem v99_copy : val_main_v99 (F := F) = val_main_v51 := rfl
theorem v100_copy : val_main_v100 (F := F) y1 = val_main_v52 y1 := rfl
theorem v94_copy : val_main_v94 (F := F) y1 = val_main_v46 y1 := rfl
theorem v97_copy : val_main_v97 (F := F) y1 = val_main_v49 y1 := rfl
theorem v148_copy : val_main_v148 (F := F) y1 = val_main_v52 y1 := rfl
theorem v142_copy : val_main_v142 (F := F) y1 = val_main_v46 y1 := rfl
theorem v136_copy : val_main_v136 (F := F) y1 = val_main_v40 y1 := rfl

end Copies

/-- Second layer's aggregation at (n, j): the second copies of the words and the factor are the first. -/
theorem layer2 (n : Fin NN) (j : Fin 16) :
    val_main_v101 (F := Ideal) x0 x1 x3 x4 x5 (ix2 n j)
      = ∑ e ∈ hits (Dw x1) n, val_main_v62 (F := Ideal) x0 x1 x3 x4 x5 (ix2 (row (wrap (Sw x1 e))) j)
          * (dv x1 (row (wrap (Sw x1 e))) * dv x1 (row (wrap (Dw x1 e)))) := by
  unfold val_main_v101 val_main_v98 val_main_v95
  rw [v99_copy, v100_copy, v94_copy, v97_copy]
  exact layer16 x1 _ n j

/-- Third layer's aggregation at (n, j): the third copies of the words and the factor are the first. -/
theorem layer3 (n : Fin NN) (j : Fin 3) :
    val_main_v149 (F := Ideal) x0 x1 x3 x4 x5 x6 x7 (ix2 n j)
      = ∑ e ∈ hits (Dw x1) n, val_main_v110 (F := Ideal) x0 x1 x3 x4 x5 x6 x7 (ix2 (row (wrap (Sw x1 e))) j)
          * (dv x1 (row (wrap (Sw x1 e))) * dv x1 (row (wrap (Dw x1 e)))) := by
  unfold val_main_v149 val_main_v146 val_main_v143
  rw [v148_copy, v142_copy]
  refine agg_core _ rfl rfl rfl rfl _ rfl rfl rfl rfl rfl _ _ _ _ _ (Sw x1) (Dw x1) _ ?_ (v52_col x1) (v46_col x1) ?_ n j
  · intro i
    rw [val_main_v147_apply, val_main_cst_35_apply]; rfl
  · intro e j
    rw [val_main_v145_apply]
    unfold val_main_v144
    have hi : idx_main_v145 (ix2 e j) = ix2 e (0 : Fin 1) := by
      funext a; match a with | ⟨0, _⟩ => rfl | ⟨1, _⟩ => rfl
    rw [hi, col_read, v136_copy, v40_eq]

end Cert.ReferenceIdeal.RefLayer

end
-- ==== Proof.RefDense.lean ====
/-
  The reference's dense steps, read at an index: each layer's product with its weight matrix as a plain sum over
  the contracted axis, the bias and the activation between layers entry by entry, and the final sum with the node
  coordinates.
-/
import proofs.«411275_j68839735821120_3_alg».proof.Proof.RefRead
import proofs.«411275_j68839735821120_3_alg».proof.Proof.Spec
import proofs.«411275_j68839735821120_3_alg».proof.Proof.LibScatterGather2
import proofs.«411275_j68839735821120_3_alg».proof.Proof.LibCells
import proofs.«411275_j68839735821120_3_alg».proof.Proof.LibPlainDot
import proofs.«411275_j68839735821120_3_alg».proof.Proof.LibColumn
import proofs.«411275_j68839735821120_3_alg».proof.Proof.LibIdealReal
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefDense

open Cert.ReferenceIdeal Cert.ReferenceIdeal.Gen Cert.ReferenceIdeal.ReadP Idealize.ShloMosaic Idealize.ShloMosaic.TcCoe
open Idealize.ShloMosaic.ValueIdx Cert.Spec
open scoped BigOperators

-- the reference's argument arrays: any
variable (x0 : FVec Ideal S16x100000x3 .f32) (x1 : IVec S300000x2 32) (x3 : FVec Ideal S3x16 .f32) (x4 : FVec Ideal S16 .f32)
  (x5 : FVec Ideal S16x16 .f32) (x6 : FVec Ideal S16 .f32) (x7 : FVec Ideal S16x3 .f32) (x8 : FVec Ideal S3 .f32)

/-- The edges' source and destination words and the normalisation factor, as the reference computes them. -/
abbrev Sw : Fin MM → BitVec 32 := fun e => val_main_v16 (F := Ideal) x1 (ix1 e)
abbrev Dw : Fin MM → BitVec 32 := fun e => val_main_v17 (F := Ideal) x1 (ix1 e)
abbrev dv : Fin NN → EReal := fun n => val_main_v25 (F := Ideal) x1 (ix1 n)

/-- First product. -/
theorem lin1 (n : Fin NN) (j : Fin 16) :
    val_main_v14 (F := Ideal) x0 x3 (ix2 n j) = ∑ k : Fin 3, val_main_v13 (F := Ideal) x0 (ix2 n k) * x3 (ix2 k j) := by
  rw [val_main_v14_apply]
  refine Finset.sum_congr rfl fun k _ => ?_
  have hl : lidx_main_v14 (ix2 n j) k = ix2 n k := by
    funext a
    match a with
    | ⟨0, _⟩ => rfl
    | ⟨1, _⟩ => rfl
  have hr : ridx_main_v14 (ix2 n j) k = ix2 k j := by
    funext a
    match a with
    | ⟨0, _⟩ => rfl
    | ⟨1, _⟩ => rfl
  rw [hl, hr]

/-- The bias row spread over the nodes reads, at `(n, k)`, the bias at `k` (first layer). -/
theorem bias1 (n : Fin NN) (k : Fin 16) : val_main_v55 (F := Ideal) x4 (ix2 n k) = x4 (ix1 k) := by
  rw [val_main_v55_apply, val_main_v54_apply]
  congr 1
  funext a
  match a with
  | ⟨0, _⟩ => rfl

/-- Bias and activation after the first aggregation. -/
theorem act1 (n : Fin NN) (k : Fin 16) :
    val_main_v61 (F := Ideal) x0 x1 x3 x4 (ix2 n k) = leaky (val_main_v53 (F := Ideal) x0 x1 x3 (ix2 n k) + x4 (ix1 k)) := by
  rw [val_main_v61_apply, val_main_v58_apply, val_main_v60_apply, val_main_v56_apply, val_main_v57_apply,
    val_main_v59_apply, val_main_cst_10_apply, val_main_cst_11_apply, bias1]
  rfl

/-- Second product. -/
theorem lin2 (n : Fin NN) (j : Fin 16) :
    val_main_v62 (F := Ideal) x0 x1 x3 x4 x5 (ix2 n j) = ∑ k : Fin 16, val_main_v61 (F := Ideal) x0 x1 x3 x4 (ix2 n k) * x5 (ix2 k j) := by
  rw [val_main_v62_apply]
  refine Finset.sum_congr rfl fun k _ => ?_
  have hl : lidx_main_v62 (ix2 n j) k = ix2 n k := by
    funext a
    match a with
    | ⟨0, _⟩ => rfl
    | ⟨1, _⟩ => rfl
  have hr : ridx_main_v62 (ix2 n j) k = ix2 k j := by
    funext a
    match a with
    | ⟨0, _⟩ => rfl
    | ⟨1, _⟩ => rfl
  rw [hl, hr]

/-- The bias row spread over the nodes reads, at `(n, k)`, the bias at `k` (second layer). -/
theorem bias2 (n : Fin NN) (k : Fin 16) : val_main_v103 (F := Ideal) x6 (ix2 n k) = x6 (ix1 k) := by
  rw [val_main_v103_apply, val_main_v102_apply]
  congr 1
  funext a
  match a with
  | ⟨0, _⟩ => rfl

/-- Bias and activation after the second aggregation. -/
theorem act2 (n : Fin NN) (k : Fin 16) :
    val_main_v109 (F := Ideal) x0 x1 x3 x4 x5 x6 (ix2 n k) = leaky (val_main_v101 (F := Ideal) x0 x1 x3 x4 x5 (ix2 n k) + x6 (ix1 k)) := by
  rw [val_main_v109_apply, val_main_v106_apply, val_main_v108_apply, val_main_v104_apply, val_main_v105_apply,
    val_main_v107_apply, val_main_cst_23_apply, val_main_cst_24_apply, bias2]
  rfl

/-- Third product. -/
theorem lin3 (n : Fin NN) (j : Fin 3) :
    val_main_v110 (F := Ideal) x0 x1 x3 x4 x5 x6 x7 (ix2 n j) = ∑ k : Fin 16, val_main_v109 (F := Ideal) x0 x1 x3 x4 x5 x6 (ix2 n k) * x7 (ix2 k j) := by
  rw [val_main_v110_apply]
  refine Finset.sum_congr rfl fun k _ => ?_
  have hl : lidx_main_v110 (ix2 n j) k = ix2 n k := by
    funext a
    match a with
    | ⟨0, _⟩ => rfl
    | ⟨1, _⟩ => rfl
  have hr : ridx_main_v110 (ix2 n j) k = ix2 k j := by
    funext a
    match a with
    | ⟨0, _⟩ => rfl
    | ⟨1, _⟩ => rfl
  rw [hl, hr]

/-- The bias row spread over the nodes reads, at `(n, j)`, the bias at `j` (third layer). -/
theorem bias3 (n : Fin NN) (j : Fin 3) : val_main_v151 (F := Ideal) x8 (ix2 n j) = x8 (ix1 j) := by
  rw [val_main_v151_apply, val_main_v150_apply]
  congr 1
  funext a
  match a with
  | ⟨0, _⟩ => rfl

/-- The moved node: its coordinates plus the third aggregation plus the bias. -/
theorem moved (n : Fin NN) (j : Fin 3) :
    val_main_v153 (F := Ideal) x0 x1 x3 x4 x5 x6 x7 x8 (ix2 n j)
      = val_main_v13 (F := Ideal) x0 (ix2 n j) + (val_main_v149 (F := Ideal) x0 x1 x3 x4 x5 x6 x7 (ix2 n j) + x8 (ix1 j)) := by
  rw [val_main_v153_apply, val_main_v152_apply, bias3]
  rfl

end Cert.ReferenceIdeal.RefDense

end
-- ==== Proof.RefMid.lean ====
/-
  The reference's last steps, read at an index: the moved nodes as a 16 × 100000 × 3 array, the two end points of every
  edge gathered from it (the end-point word wrapped, read signed and clamped into the mesh), their sum from zero divided by
  two, and the result: the moved vertices with the midpoints below them along the middle axis.
-/
import proofs.«411275_j68839735821120_3_alg».proof.Proof.RefRead
import proofs.«411275_j68839735821120_3_alg».proof.Proof.Spec
import proofs.«411275_j68839735821120_3_alg».proof.Proof.LibScatterGather2
import proofs.«411275_j68839735821120_3_alg».proof.Proof.LibCells
import proofs.«411275_j68839735821120_3_alg».proof.Proof.LibPlainDot
import proofs.«411275_j68839735821120_3_alg».proof.Proof.LibColumn
import proofs.«411275_j68839735821120_3_alg».proof.Proof.LibIdealReal
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

/-! ## A gather of rows out of a batch of tables, read at an index

The operand is a batch of `B` tables of `N` rows and `C` columns, the indices an `M × K` grid of index words (with a
trailing axis of extent one holding the word), and the result has shape `B × M × K × C`: the batch axis and the column
axis go straight across, and the row read at `(b, e, k, j)` is the one the word at `(e, k)` names, the word read as a
SIGNED integer and clamped into `[0, N − 1]`. Nothing depends on the sizes: every step is about the axes. -/

namespace Cert.LibGather4

open Idealize.ShloMosaic Idealize.ShloMosaic.ValueIdx

variable {α : Type} {B N C M K w : Nat}

/-- The gather at `(b, e, k, j)`, whatever the word: entry `(b, ·, j)` of the row at the word of `(e, k)` read signed
    and clamped. On the batch axis and on the column axis no word is read, no axis is batching, and the offset is the
    result's coordinate; on the row axis the slice has one row, so the offset is zero and the start is the clamped word. -/
theorem gather_apply_clamp (d : GatherDims ⟨3, ![B, N, C]⟩ ⟨3, ![M, K, 1]⟩ ⟨4, ![B, M, K, C]⟩)
    (hoff : d.offsetDims = [0, 3]) (hcoll : d.collapsedSliceDims = [1]) (hob : d.operandBatchingDims = [])
    (hsim : d.startIndexMap = [1]) (hivd : d.indexVectorDim = 2)
    (x : (⟨3, ![B, N, C]⟩ : Shape).Idx → α) (idx : IVec ⟨3, ![M, K, 1]⟩ w)
    (b : Fin B) (e : Fin M) (k : Fin K) (j : Fin C) (hN : 0 < N) :
    Host.gather d x idx (ix4 b e k j)
      = x (ix3 b ⟨min (idx (ix3 e k (0 : Fin 1))).toInt.toNat (N - 1), by omega⟩ j) := by
  have hsl : d.sliceSizes 1 = 1 := d.slice_collapsed 1 (by rw [hcoll]; exact List.mem_singleton.mpr rfl)
  unfold Host.gather
  refine congrArg x ?_
  cases d with
  | mk od cd ob sb sm iv ss wf =>
    obtain rfl : od = [0, 3] := hoff
    obtain rfl : cd = [1] := hcoll
    obtain rfl : ob = [] := hob
    obtain rfl : sm = [1] := hsim
    obtain rfl : iv = 2 := hivd
    replace hsl : ss 1 = 1 := hsl
    funext a
    match a with
    | ⟨0, _⟩ =>
      -- the batch axis: start 0, offset the result's first coordinate
      apply Fin.ext
      show GatherDims.start _ (ix4 b e k j) idx 0 + GatherDims.batchCoord _ (ix4 b e k j) 0 + GatherDims.offCoord _ (ix4 b e k j) 0
        = b.val
      rw [GatherDims.batchCoord_eq_zero _ _ _ List.not_mem_nil]
      simp only [Nat.add_zero]
      unfold GatherDims.start
      rw [dif_neg (by decide : (0 : Fin 3) ∉ [1]), Nat.zero_add]
      unfold GatherDims.offCoord
      refine (dif_pos (by decide : (0 : Fin 3) ∈ (List.finRange 3).filter (· ∉ [1] ++ []))).trans ?_
      rfl
    | ⟨1, _⟩ =>
      -- the row axis: the clamped word of (e, k), offset 0
      apply Fin.ext
      show GatherDims.start _ (ix4 b e k j) idx 1 + GatherDims.batchCoord _ (ix4 b e k j) 1 + GatherDims.offCoord _ (ix4 b e k j) 1
        = min (idx (ix3 e k (0 : Fin 1))).toInt.toNat (N - 1)
      rw [GatherDims.batchCoord_eq_zero _ _ _ List.not_mem_nil,
        GatherDims.offCoord_eq_zero _ _ _ (by decide : (1 : Fin 3) ∉ (List.finRange 3).filter (· ∉ [1] ++ []))]
      simp only [Nat.add_zero]
      unfold GatherDims.start
      rw [dif_pos (List.mem_singleton.mpr rfl)]
      show min (idx _).toInt.toNat (N - ss 1) = _
      rw [hsl]
      refine congrArg (fun q => min (idx q).toInt.toNat (N - 1)) ?_
      funext c
      match c with
      | ⟨0, _⟩ => exact Fin.ext rfl
      | ⟨1, _⟩ => exact Fin.ext rfl
      | ⟨2, _⟩ => exact Fin.ext rfl
    | ⟨2, _⟩ =>
      -- the column axis: start 0, offset the result's last coordinate
      apply Fin.ext
      show GatherDims.start _ (ix4 b e k j) idx 2 + GatherDims.batchCoord _ (ix4 b e k j) 2 + GatherDims.offCoord _ (ix4 b e k j) 2
        = j.val
      rw [GatherDims.batchCoord_eq_zero _ _ _ List.not_mem_nil]
      simp only [Nat.add_zero]
      unfold GatherDims.start
      rw [dif_neg (by decide : (2 : Fin 3) ∉ [1]), Nat.zero_add]
      unfold GatherDims.offCoord
      refine (dif_pos (by decide : (2 : Fin 3) ∈ (List.finRange 3).filter (· ∉ [1] ++ []))).trans ?_
      rfl

end Cert.LibGather4

namespace Cert.ReferenceIdeal.RefMid

open Cert.ReferenceIdeal Cert.ReferenceIdeal.Gen Cert.ReferenceIdeal.ReadP Idealize.ShloMosaic Idealize.ShloMosaic.TcCoe
open Idealize.ShloMosaic.ValueIdx Cert.Spec
open scoped BigOperators

-- the reference's argument arrays: any
variable (x0 : FVec Ideal S16x100000x3 .f32) (x1 : IVec S300000x2 32) (x3 : FVec Ideal S3x16 .f32) (x4 : FVec Ideal S16 .f32)
  (x5 : FVec Ideal S16x16 .f32) (x6 : FVec Ideal S16 .f32) (x7 : FVec Ideal S16x3 .f32) (x8 : FVec Ideal S3 .f32)

/-- The edges' source and destination words and the normalisation factor, as the reference computes them. -/
abbrev Sw : Fin MM → BitVec 32 := fun e => val_main_v16 (F := Ideal) x1 (ix1 e)
abbrev Dw : Fin MM → BitVec 32 := fun e => val_main_v17 (F := Ideal) x1 (ix1 e)
abbrev dv : Fin NN → EReal := fun n => val_main_v25 (F := Ideal) x1 (ix1 n)

/-- The moved vertices, mesh by mesh. -/
theorem v154_at (b : Fin 16) (v : Fin VV) (j : Fin 3) :
    val_main_v154 (F := Ideal) x0 x1 x3 x4 x5 x6 x7 x8 (ix3 b v j) = val_main_v153 (F := Ideal) x0 x1 x3 x4 x5 x6 x7 x8 (ix2 (node b v) j) := by
  rw [val_main_v154_apply]
  refine congrArg _ ?_
  have hb : b.val < 16 := b.isLt
  have hv : v.val < 100000 := v.isLt
  have hj : j.val < 3 := j.isLt
  funext a
  match a with
  | ⟨0, _⟩ =>
    apply Fin.ext
    show ((b.val * 100000 + v.val) * 3 + j.val) / 3 = b.val * 100000 + v.val
    omega
  | ⟨1, _⟩ =>
    apply Fin.ext
    show ((b.val * 100000 + v.val) * 3 + j.val) % 3 = j.val
    omega

/-- The midpoint of edge e of mesh b. -/
theorem mid (b : Fin 16) (e : Fin EE) (j : Fin 3) :
    val_main_v164 (F := Ideal) x0 x1 x3 x4 x5 x6 x7 x8 (ix3 b e j)
      = Ideal.div (Ideal.ofBits .f32 0x00000000#32
          + (val_main_v154 (F := Ideal) x0 x1 x3 x4 x5 x6 x7 x8 (ix3 b (rowV (wrapV (x1 (ix2 e (0 : Fin 2))))) j)
            + val_main_v154 (F := Ideal) x0 x1 x3 x4 x5 x6 x7 x8 (ix3 b (rowV (wrapV (x1 (ix2 e (1 : Fin 2))))) j)))
          (Ideal.ofBits .f32 0x40000000#32) := by
  -- the end point k of edge e, as the gather reads it
  have hword : ∀ k : Fin 2, val_main_v160 (F := Ideal) x1 (ix3 e k (0 : Fin 1)) = wrapV (x1 (ix2 e k)) := by
    intro k
    rw [val_main_v160_apply, val_main_v159_apply, val_main_v156_apply, val_main_v158_apply, val_main_v155_apply,
      val_main_v157_apply, val_main_c_36_apply, val_main_c_37_apply]
    have hi : idx_main_v160 (ix3 e k (0 : Fin 1)) = ix2 e k := by
      funext a
      match a with
      | ⟨0, _⟩ => exact Fin.ext rfl
      | ⟨1, _⟩ => exact Fin.ext rfl
    rw [hi]
    rfl
  have h161 : ∀ k : Fin 2, val_main_v161 (F := Ideal) x0 x1 x3 x4 x5 x6 x7 x8 (idx_main_v162 (ix3 b e j) k)
      = val_main_v154 (F := Ideal) x0 x1 x3 x4 x5 x6 x7 x8 (ix3 b (rowV (wrapV (x1 (ix2 e k)))) j) := by
    intro k
    have hi : idx_main_v162 (ix3 b e j) k = ix4 b e k j := by
      funext a
      match a with
      | ⟨0, _⟩ => exact Fin.ext rfl
      | ⟨1, _⟩ => exact Fin.ext rfl
      | ⟨2, _⟩ => exact Fin.ext rfl
      | ⟨3, _⟩ => exact Fin.ext rfl
    rw [hi]
    unfold val_main_v161
    rw [Cert.LibGather4.gather_apply_clamp _ rfl rfl rfl rfl rfl _ _ b e k j (by decide)]
    refine congrArg _ (congrArg (fun r => ix3 b r j) (Fin.ext ?_))
    show min (val_main_v160 (F := Ideal) x1 (ix3 e k (0 : Fin 1))).toInt.toNat (100000 - 1)
      = min (wrapV (x1 (ix2 e k))).toInt.toNat 99999
    rw [hword k]
  rw [val_main_v164_apply, val_main_v162_apply, val_main_v163_apply, val_main_cst_39_apply, val_main_cst_38_apply,
    Fin.sum_univ_two, h161 0, h161 1]
  rfl

/-- The result's first 100000 rows per mesh. -/
theorem res_lo (b : Fin 16) (v : Fin VV) (j : Fin 3) :
    val_main_v165 (F := Ideal) x0 x1 x3 x4 x5 x6 x7 x8 (ix3 b (lo v) j) = val_main_v154 (F := Ideal) x0 x1 x3 x4 x5 x6 x7 x8 (ix3 b v j) := by
  unfold val_main_v165
  refine concatenate_pair_apply_left (s₁ := S16x100000x3) (s₂ := S16x300000x3) 1 _ _ _ (ix3 b (lo v) j) rfl (ix3 b v j) ?_
  intro c
  match c with
  | ⟨0, _⟩ => rfl
  | ⟨1, _⟩ => rfl
  | ⟨2, _⟩ => rfl

/-- The result's last 300000 rows per mesh. -/
theorem res_hi (b : Fin 16) (e : Fin EE) (j : Fin 3) :
    val_main_v165 (F := Ideal) x0 x1 x3 x4 x5 x6 x7 x8 (ix3 b (hi e) j) = val_main_v164 (F := Ideal) x0 x1 x3 x4 x5 x6 x7 x8 (ix3 b e j) := by
  unfold val_main_v165
  refine concatenate_pair_apply_right (s₁ := S16x100000x3) (s₂ := S16x300000x3) 1 _ _ _ (ix3 b (hi e) j) rfl rfl (ix3 b e j) ?_ ?_
  · intro c hc
    match c with
    | ⟨0, _⟩ => rfl
    | ⟨1, _⟩ => exact absurd rfl hc
    | ⟨2, _⟩ => rfl
  · show e.val + 100000 = 100000 + e.val
    omega

end Cert.ReferenceIdeal.RefMid

end
-- ==== Proof.Algebra.lean ====
/-
  The laws that join the two programs, over the shared vocabulary (Spec.lean).

  • A destination word that lands on node `n` (read signed it is `n`) also names row `n` in a gather: it is not
    negative, so wrapping leaves it alone, and it is below the table's extent, so clamping does too.
  • The normalisation factor is a nonnegative real: the count is a natural number, and the inverse square root of a
    positive real is a positive real.
  • One layer: scaling every source row by its factor before the aggregation and the aggregated row by its factor after
    it is the aggregation of the rows scaled edge by edge by the product of the two factors. On the extended reals a
    sum may be multiplied through by a NONNEGATIVE REAL term by term, whatever the summands are.
  • Halving: the quotient by the literal two is the product with the literal one half, on every extended real.
-/
import proofs.«411275_j68839735821120_3_alg».proof.Proof.Spec
import proofs.«411275_j68839735821120_3_alg».proof.Proof.LibIdealReal
import Mathlib.Data.EReal.Basic
import Mathlib.Data.EReal.Operations

noncomputable section

namespace Cert.Spec

open Idealize.ShloMosaic Idealize.ShloMosaic.ValueIdx
open scoped BigOperators

/-- A word whose signed value is not negative is left alone by wrapping. -/
theorem wrap_of_nonneg (w : BitVec 32) (h : 0 ≤ w.toInt) : wrap w = w := by
  have hslt : w.slt 0#32 = false := by
    rw [BitVec.slt]
    have : (0#32 : BitVec 32).toInt = 0 := by decide
    rw [this]
    exact decide_eq_false (not_lt.mpr h)
  unfold wrap Scalar.select IntOp.cmpi
  simp only [hslt]
  exact if_neg (by decide)

/-- A word that read signed is node `n` names row `n` in a gather. -/
theorem row_wrap_of_hit (w : BitVec 32) (n : Fin NN) (h : w.toInt = (n.val : ℤ)) : row (wrap w) = n := by
  have hn : n.val < 1600000 := n.isLt
  rw [wrap_of_nonneg w (by rw [h]; exact Int.natCast_nonneg _)]
  apply Fin.ext
  show min w.toInt.toNat 1599999 = n.val
  rw [h, Int.toNat_natCast]
  omega

/-- The count of the edges landing on `n` is the coerced real of their number. -/
theorem deg_eq_card (D : Fin MM → BitVec 32) (n : Fin NN) : deg D n = ((((hits D n).card : ℕ) : ℝ) : EReal) := by
  unfold deg
  rw [Cert.LibIdealReal.ofBits_zero, Cert.LibIdealReal.ofBits_one_coe, zero_add, Cert.LibIdealReal.sum_coe,
    Finset.sum_const, nsmul_eq_mul, mul_one]

/-- The strict comparison "greater" of two coerced reals is the one-bit word one exactly when the second is below the
    first. -/
theorem cmp_ogt_coe (a b : ℝ) : Ideal.cmp .ogt (a : EReal) (b : EReal) = if b < a then 1#1 else 0#1 := by
  by_cases h : b < a
  · simp [Ideal.cmp, h]
  · simp [Ideal.cmp, h]

/-- The normalisation factor is a nonnegative real. -/
theorem dinvOf_real (D : Fin MM → BitVec 32) (n : Fin NN) : ∃ r : ℝ, 0 ≤ r ∧ dinvOf D n = (r : EReal) := by
  unfold dinvOf
  rw [deg_eq_card, Cert.LibIdealReal.ofBits_zero_coe, Ideal.cmpf_def, cmp_ogt_coe, Ideal.hostUnary_rsqrt_def,
    Ideal.rsqrt_coe]
  by_cases hc : (0 : ℝ) < (((hits D n).card : ℕ) : ℝ)
  · refine ⟨(Real.sqrt (((hits D n).card : ℕ) : ℝ))⁻¹, by positivity, ?_⟩
    rw [if_pos hc, if_neg (not_lt.mpr hc.le), if_neg hc.ne']
    exact if_pos rfl
  · refine ⟨0, le_refl _, ?_⟩
    rw [if_neg hc]
    exact if_neg (by decide)

/-- A finite sum of extended reals is multiplied through by a nonnegative real term by term. -/
theorem sum_mul_coe_of_nonneg {ι : Type*} (s : Finset ι) (a : ι → EReal) {r : ℝ} (hr : 0 ≤ r) :
    (∑ e ∈ s, a e) * (r : EReal) = ∑ e ∈ s, a e * (r : EReal) := by
  classical
  refine Finset.induction_on s (by simp) ?_
  intro i s hi ih
  rw [Finset.sum_insert hi, Finset.sum_insert hi,
    EReal.right_distrib_of_nonneg_of_ne_top (EReal.coe_nonneg.mpr hr) (EReal.coe_ne_top r), ih]

/-- One layer's law: source-scale, aggregate, destination-scale is the aggregation of the edge-scaled rows. -/
theorem agg_scale {C : Nat} (S D : Fin MM → BitVec 32) (lin : Fin NN → Fin C → EReal) (dv : Fin NN → EReal)
    (hdv : ∀ n, ∃ r : ℝ, 0 ≤ r ∧ dv n = (r : EReal)) (n : Fin NN) (j : Fin C) :
    agg S D (fun n j => lin n j * dv n) n j * dv n
      = ∑ e ∈ hits D n, lin (row (wrap (S e))) j * (dv (row (wrap (S e))) * dv (row (wrap (D e)))) := by
  obtain ⟨r, hr0, hr⟩ := hdv n
  unfold agg
  rw [hr, sum_mul_coe_of_nonneg _ _ hr0]
  refine Finset.sum_congr rfl ?_
  intro e he
  have hhit : (D e).toInt = (n.val : ℤ) := (Finset.mem_filter.mp he).2
  rw [row_wrap_of_hit (D e) n hhit, hr, mul_assoc]

/-- The pattern of two denotes the coerced real two. -/
theorem ofBits_two : Ideal.ofBits .f32 0x40000000#32 = ((2 : ℝ) : EReal) := by
  simp [Ideal.ofBits, Ideal.ieee, -EReal.coe_mul]; norm_num

/-- The quotient by the literal `2.0` is the product with the literal `0.5`. -/
theorem half_mul (x : EReal) :
    Ideal.div x (Ideal.ofBits .f32 0x40000000#32) = x * Ideal.ofBits .f32 0x3F000000#32 := by
  rw [ofBits_two, Cert.LibIdealReal.ofBits_half, Ideal.div_coe (by norm_num)]

end Cert.Spec

end
-- ==== Proof.Chain.lean ====
/-
  The idealized kernel's run, read boundary by boundary, is the reference's result.

  @main is six stretches of host operations with five pallas_calls between them. Walking forward from the launch: the
  first stretch computes the packed edge words, the normalisation factor d and the node table x by the reference's own
  operations. The first call leaves (x · W₁)[n, ·] · d[n]. Each of the next three stretches carries a table along the edges:
  row n of the result is the sum, over the edges landing on n, of the rows their source words name. Scaling that sum by
  d[n] is the reference's aggregation, whose edge weights are d[source] · d[destination]: a sum may be multiplied through
  by a nonnegative real, and an edge that lands on n has destination n. The second and third calls add the bias, apply
  the activation, multiply by the next weights and scale by d again; the fourth adds the node coordinates, the scaled
  third aggregation and the bias in the 384-lane layout, which read back is the reference's moved vertices; the fifth
  halves the sum of every edge's two gathered end points in the 128-lane layout, which is the reference's sum from zero
  divided by two. The last stretch joins the two and broadcasts the faces.
-/
import proofs.«411275_j68839735821120_3_alg».proof.Proof.KernelRun
import proofs.«411275_j68839735821120_3_alg».proof.Proof.ChainKeep
import proofs.«411275_j68839735821120_3_alg».proof.Proof.Region0
import proofs.«411275_j68839735821120_3_alg».proof.Proof.Region1
import proofs.«411275_j68839735821120_3_alg».proof.Proof.Region2
import proofs.«411275_j68839735821120_3_alg».proof.Proof.Region3
import proofs.«411275_j68839735821120_3_alg».proof.Proof.Region4
import proofs.«411275_j68839735821120_3_alg».proof.Proof.HostAgg
import proofs.«411275_j68839735821120_3_alg».proof.Proof.HostFlat
import proofs.«411275_j68839735821120_3_alg».proof.Proof.HostMid
import proofs.«411275_j68839735821120_3_alg».proof.Proof.Topo
import proofs.«411275_j68839735821120_3_alg».proof.Proof.RefLayer
import proofs.«411275_j68839735821120_3_alg».proof.Proof.RefDense
import proofs.«411275_j68839735821120_3_alg».proof.Proof.RefMid
import proofs.«411275_j68839735821120_3_alg».proof.Proof.Algebra

set_option maxRecDepth 16384

noncomputable section

namespace Cert.KernelIdeal.Chain

open Cert.KernelIdeal Cert.KernelIdeal.Gen Idealize.ShloMosaic Idealize.ShloMosaic.TcCoe Idealize.ShloMosaic.ValueIdx
open Idealize.SL.Sem Idealize.ShloMosaic.StableHlo Cert.Spec Cert.ReferenceIdeal.ReadP
open scoped BigOperators

-- the launch memory and generator registers: any
variable (m : (ℓ : Loc nD τ sig) → Buf (Elt Ideal) ℓ) (ρ : Dev nD → PrngReg)

/-! ## The argument arrays -/

abbrev a0 (c : Dev nD) : FVec Ideal S16x100000x3 .f32 := m ((c : Thread nD τ).loc main_arg0)
abbrev a1 (c : Dev nD) : IVec S300000x2 32 := m ((c : Thread nD τ).loc main_arg1)
abbrev a2 (c : Dev nD) : IVec S800000x3 32 := m ((c : Thread nD τ).loc main_arg2)
abbrev a3 (c : Dev nD) : FVec Ideal S3x16 .f32 := m ((c : Thread nD τ).loc main_arg3)
abbrev a4 (c : Dev nD) : FVec Ideal S16 .f32 := m ((c : Thread nD τ).loc main_arg4)
abbrev a5 (c : Dev nD) : FVec Ideal S16x16 .f32 := m ((c : Thread nD τ).loc main_arg5)
abbrev a6 (c : Dev nD) : FVec Ideal S16 .f32 := m ((c : Thread nD τ).loc main_arg6)
abbrev a7 (c : Dev nD) : FVec Ideal S16x3 .f32 := m ((c : Thread nD τ).loc main_arg7)
abbrev a8 (c : Dev nD) : FVec Ideal S3 .f32 := m ((c : Thread nD τ).loc main_arg8)

/-- A float buffer's contents as an array of its literal shape (so that sums and products of its entries are the
    extended reals'). -/
abbrev fv (S : Shape) (x : FVec Ideal S .f32) : FVec Ideal S .f32 := x

/-! ## The first boundary: the reference's own words, factor and node table -/

/-- The reference's edge words and factor, at the kernel's edge array. -/
abbrev SwK (c : Dev nD) : Fin MM → BitVec 32 := Cert.ReferenceIdeal.RefLayer.Sw (a1 m c)
abbrev DwK (c : Dev nD) : Fin MM → BitVec 32 := Cert.ReferenceIdeal.RefLayer.Dw (a1 m c)
abbrev dvK (c : Dev nD) : Fin NN → EReal := Cert.ReferenceIdeal.RefLayer.dv (a1 m c)

theorem w1_src (c : Dev nD) : (W1 m ρ c (Proc.devRef .tc main_call0_v14) : IVec S6400000 32) = val_main_v16 (F := Ideal) (a1 m c) :=
  Topo.srcWords (W0 m ρ c)
theorem w1_dst (c : Dev nD) : (W1 m ρ c (Proc.devRef .tc main_call0_v15) : IVec S6400000 32) = val_main_v17 (F := Ideal) (a1 m c) :=
  Topo.dstWords (W0 m ρ c)
theorem w1_fac (c : Dev nD) : (W1 m ρ c (Proc.devRef .tc main_call0_v23) : FVec Ideal S1600000 .f32) = val_main_v25 (F := Ideal) (a1 m c) :=
  Topo.factor (W0 m ρ c)
theorem w1_x (c : Dev nD) : (W1 m ρ c (Proc.devRef .tc main_call0_v25) : FVec Ideal S1600000x3 .f32) = val_main_v13 (F := Ideal) (a0 m c) :=
  Topo.coords (W0 m ρ c)
theorem w1_col (c : Dev nD) (n : Fin NN) :
    (W1 m ρ c (Proc.devRef .tc main_call0_v24) : FVec Ideal S1600000x1 .f32) (ix2 n (0 : Fin 1)) = dvK m c n :=
  Topo.factorColumn (W0 m ρ c) n

/-- The factor is a nonnegative real. -/
theorem dvK_real (c : Dev nD) (n : Fin NN) : ∃ r : ℝ, 0 ≤ r ∧ dvK m c n = (r : EReal) := by
  rw [show dvK m c n = dinvOf (DwK m c) n from Cert.ReferenceIdeal.RefLayer.dv_eq (a1 m c) n]
  exact dinvOf_real _ n

/-! ## The words, the factor column and the node table at the later boundaries -/

theorem src_at2 (c : Dev nD) : (fun e => HostAgg.sW (W2 m ρ c) (ix1 e)) = SwK m c :=
  funext fun e => congrFun (show (W2 m ρ c (Proc.devRef .tc main_call0_v14) : IVec S6400000 32) = val_main_v16 (F := Ideal) (a1 m c) from
    (u2_main_call0_v14 m ρ c).trans (w1_src m ρ c)) (ix1 e)
theorem dst_at2 (c : Dev nD) : (fun e => HostAgg.dW (W2 m ρ c) (ix1 e)) = DwK m c :=
  funext fun e => congrFun (show (W2 m ρ c (Proc.devRef .tc main_call0_v15) : IVec S6400000 32) = val_main_v17 (F := Ideal) (a1 m c) from
    (u2_main_call0_v15 m ρ c).trans (w1_dst m ρ c)) (ix1 e)

theorem src_at4 (c : Dev nD) : (fun e => HostAgg.sW (W4 m ρ c) (ix1 e)) = SwK m c :=
  funext fun e => congrFun (show (W4 m ρ c (Proc.devRef .tc main_call0_v14) : IVec S6400000 32) = val_main_v16 (F := Ideal) (a1 m c) from
    (u4_main_call0_v14 m ρ c).trans (w1_src m ρ c)) (ix1 e)
theorem dst_at4 (c : Dev nD) : (fun e => HostAgg.dW (W4 m ρ c) (ix1 e)) = DwK m c :=
  funext fun e => congrFun (show (W4 m ρ c (Proc.devRef .tc main_call0_v15) : IVec S6400000 32) = val_main_v17 (F := Ideal) (a1 m c) from
    (u4_main_call0_v15 m ρ c).trans (w1_dst m ρ c)) (ix1 e)

theorem src_at6 (c : Dev nD) : (fun e => HostAgg.sW (W6 m ρ c) (ix1 e)) = SwK m c :=
  funext fun e => congrFun (show (W6 m ρ c (Proc.devRef .tc main_call0_v14) : IVec S6400000 32) = val_main_v16 (F := Ideal) (a1 m c) from
    (u6_main_call0_v14 m ρ c).trans (w1_src m ρ c)) (ix1 e)
theorem dst_at6 (c : Dev nD) : (fun e => HostAgg.dW (W6 m ρ c) (ix1 e)) = DwK m c :=
  funext fun e => congrFun (show (W6 m ρ c (Proc.devRef .tc main_call0_v15) : IVec S6400000 32) = val_main_v17 (F := Ideal) (a1 m c) from
    (u6_main_call0_v15 m ρ c).trans (w1_dst m ρ c)) (ix1 e)
theorem col_at3 (c : Dev nD) (n : Fin NN) :
    (W3 m ρ c (Proc.devRef .tc main_call0_v24) : FVec Ideal S1600000x1 .f32) (ix2 n (0 : Fin 1)) = dvK m c n :=
  (congrFun (show (W3 m ρ c (Proc.devRef .tc main_call0_v24) : FVec Ideal S1600000x1 .f32) = W1 m ρ c (Proc.devRef .tc main_call0_v24) from
    u3_main_call0_v24 m ρ c) (ix2 n (0 : Fin 1))).trans (w1_col m ρ c n)

theorem col_at5 (c : Dev nD) (n : Fin NN) :
    (W5 m ρ c (Proc.devRef .tc main_call0_v24) : FVec Ideal S1600000x1 .f32) (ix2 n (0 : Fin 1)) = dvK m c n :=
  (congrFun (show (W5 m ρ c (Proc.devRef .tc main_call0_v24) : FVec Ideal S1600000x1 .f32) = W1 m ρ c (Proc.devRef .tc main_call0_v24) from
    u5_main_call0_v24 m ρ c) (ix2 n (0 : Fin 1))).trans (w1_col m ρ c n)

/-! ## Layer one -/

/-- After the first call: the first product, row-scaled by the factor. -/
theorem hs1 (c : Dev nD) (n : Fin NN) (j : Fin 16) :
    (W2 m ρ c (Proc.devRef .tc main_call0_v26) : FVec Ideal S1600000x16 .f32) (ix2 n j)
      = val_main_v14 (F := Ideal) (a0 m c) (a3 m c) (ix2 n j) * dvK m c n := by
  have h : (W2 m ρ c (Proc.devRef .tc main_call0_v26) : FVec Ideal S1600000x16 .f32) = _ :=
    (W2_arr m ρ c 3).trans (Region0.arr (V1 m ρ) c)
  rw [h, Cert.ReferenceIdeal.RefDense.lin1]
  show (∑ k : Fin 3, Region0.xA (V1 m ρ) c (ix2 n k) * Region0.wA (V1 m ρ) c (ix2 k j))
      * Region0.dA (V1 m ρ) c (ix2 n (0 : Fin 1)) = _
  rw [show Region0.xA (V1 m ρ) c = val_main_v13 (F := Ideal) (a0 m c) from w1_x m ρ c,
    show Region0.wA (V1 m ρ) c = a3 m c from u1_main_arg3 m ρ c,
    show Region0.dA (V1 m ρ) c (ix2 n (0 : Fin 1)) = dvK m c n from w1_col m ρ c n]

/-- The aggregation of stretch 1, scaled by the factor, is the reference's. -/
theorem l1 (c : Dev nD) (n : Fin NN) (j : Fin 16) :
    fv S1600000x16 (StableHlo.after (hostOps1 (F := Ideal)) (W2 m ρ c) (Proc.devRef .tc main_call0_v36)) (ix2 n j) * dvK m c n
      = val_main_v53 (F := Ideal) (a0 m c) (a1 m c) (a3 m c) (ix2 n j) := by
  rw [Cert.ReferenceIdeal.RefLayer.layer1]
  refine (congrArg (fun x : EReal => x * dvK m c n) (HostAgg.agg1 (W2 m ρ c) n j)).trans ?_
  rw [src_at2, dst_at2,
    show (fun (n : Fin NN) (j : Fin 16) => (W2 m ρ c (Proc.devRef .tc main_call0_v26) : FVec Ideal S1600000x16 .f32) (ix2 n j))
      = fun n j => val_main_v14 (F := Ideal) (a0 m c) (a3 m c) (ix2 n j) * dvK m c n from
      funext fun n => funext fun j => hs1 m ρ c n j]
  exact agg_scale (SwK m c) (DwK m c) (fun n j => val_main_v14 (F := Ideal) (a0 m c) (a3 m c) (ix2 n j)) (dvK m c)
    (dvK_real m c) n j

/-! ## Layer two -/

/-- The bias row the second call reads. -/
theorem bias_second (c : Dev nD) (k : Fin 16) :
    (StableHlo.after (hostOps1 (F := Ideal)) (W2 m ρ c) (Proc.devRef .tc main_call0_v37) : FVec Ideal S1x16 .f32) (ix2 (0 : Fin 1) k) = a4 m c (ix1 k) :=
  (HostAgg.bias1 (W2 m ρ c) k).trans
    (congrFun (show (W2 m ρ c (Proc.devRef .tc main_arg4) : FVec Ideal S16 .f32) = a4 m c from u2_main_arg4 m ρ c) (ix1 k))

/-- After the second call: the next product, row-scaled by the factor. -/
theorem hs_second (c : Dev nD) (n : Fin NN) (j : Fin 16) :
    (W4 m ρ c (Proc.devRef .tc main_call0_v38) : FVec Ideal S1600000x16 .f32) (ix2 n j)
      = val_main_v62 (F := Ideal) (a0 m c) (a1 m c) (a3 m c) (a4 m c) (a5 m c) (ix2 n j) * dvK m c n := by
  have h : (W4 m ρ c (Proc.devRef .tc main_call0_v38) : FVec Ideal S1600000x16 .f32) = _ :=
    (W4_arr m ρ c 4).trans (Region1.arr (V3 m ρ) c)
  rw [h, Cert.ReferenceIdeal.RefDense.lin2]
  show (∑ k : Fin 16, leaky (Region1.hA (V3 m ρ) c (ix2 n k) * Region1.dA (V3 m ρ) c (ix2 n (0 : Fin 1))
        + Region1.bA (V3 m ρ) c (ix2 (0 : Fin 1) k)) * Region1.wA (V3 m ρ) c (ix2 k j))
      * Region1.dA (V3 m ρ) c (ix2 n (0 : Fin 1)) = _
  rw [show Region1.dA (V3 m ρ) c (ix2 n (0 : Fin 1)) = dvK m c n from col_at3 m ρ c n,
    show Region1.wA (V3 m ρ) c = a5 m c from u3_main_arg5 m ρ c]
  refine congrArg (fun x : EReal => x * dvK m c n) (Finset.sum_congr rfl fun k _ => ?_)
  rw [show Region1.bA (V3 m ρ) c (ix2 (0 : Fin 1) k) = a4 m c (ix1 k) from bias_second m ρ c k,
    show Region1.hA (V3 m ρ) c (ix2 n k) * dvK m c n = _ from l1 m ρ c n k, Cert.ReferenceIdeal.RefDense.act1]

/-- The aggregation of stretch 2, scaled by the factor, is the reference's. -/
theorem l2 (c : Dev nD) (n : Fin NN) (j : Fin 16) :
    fv S1600000x16 (StableHlo.after (hostOps2 (F := Ideal)) (W4 m ρ c) (Proc.devRef .tc main_call0_v48)) (ix2 n j) * dvK m c n
      = val_main_v101 (F := Ideal) (a0 m c) (a1 m c) (a3 m c) (a4 m c) (a5 m c) (ix2 n j) := by
  rw [Cert.ReferenceIdeal.RefLayer.layer2]
  refine (congrArg (fun x : EReal => x * dvK m c n) (HostAgg.agg2 (W4 m ρ c) n j)).trans ?_
  rw [src_at4, dst_at4,
    show (fun (n : Fin NN) (j : Fin 16) => (W4 m ρ c (Proc.devRef .tc main_call0_v38) : FVec Ideal S1600000x16 .f32) (ix2 n j))
      = fun n j => val_main_v62 (F := Ideal) (a0 m c) (a1 m c) (a3 m c) (a4 m c) (a5 m c) (ix2 n j) * dvK m c n from
      funext fun n => funext fun j => hs_second m ρ c n j]
  exact agg_scale (SwK m c) (DwK m c) (fun n j => val_main_v62 (F := Ideal) (a0 m c) (a1 m c) (a3 m c) (a4 m c) (a5 m c) (ix2 n j)) (dvK m c)
    (dvK_real m c) n j

/-! ## Layer three -/

/-- The bias row the third call reads. -/
theorem bias_third (c : Dev nD) (k : Fin 16) :
    (StableHlo.after (hostOps2 (F := Ideal)) (W4 m ρ c) (Proc.devRef .tc main_call0_v49) : FVec Ideal S1x16 .f32) (ix2 (0 : Fin 1) k) = a6 m c (ix1 k) :=
  (HostAgg.bias2 (W4 m ρ c) k).trans
    (congrFun (show (W4 m ρ c (Proc.devRef .tc main_arg6) : FVec Ideal S16 .f32) = a6 m c from u4_main_arg6 m ρ c) (ix1 k))

/-- After the third call: the next product, row-scaled by the factor. -/
theorem hs_third (c : Dev nD) (n : Fin NN) (j : Fin 3) :
    (W6 m ρ c (Proc.devRef .tc main_call0_v50) : FVec Ideal S1600000x3 .f32) (ix2 n j)
      = val_main_v110 (F := Ideal) (a0 m c) (a1 m c) (a3 m c) (a4 m c) (a5 m c) (a6 m c) (a7 m c) (ix2 n j) * dvK m c n := by
  have h : (W6 m ρ c (Proc.devRef .tc main_call0_v50) : FVec Ideal S1600000x3 .f32) = _ :=
    (W6_arr m ρ c 4).trans (Region2.arr (V5 m ρ) c)
  rw [h, Cert.ReferenceIdeal.RefDense.lin3]
  show (∑ k : Fin 16, leaky (Region2.hA (V5 m ρ) c (ix2 n k) * Region2.dA (V5 m ρ) c (ix2 n (0 : Fin 1))
        + Region2.bA (V5 m ρ) c (ix2 (0 : Fin 1) k)) * Region2.wA (V5 m ρ) c (ix2 k j))
      * Region2.dA (V5 m ρ) c (ix2 n (0 : Fin 1)) = _
  rw [show Region2.dA (V5 m ρ) c (ix2 n (0 : Fin 1)) = dvK m c n from col_at5 m ρ c n,
    show Region2.wA (V5 m ρ) c = a7 m c from u5_main_arg7 m ρ c]
  refine congrArg (fun x : EReal => x * dvK m c n) (Finset.sum_congr rfl fun k _ => ?_)
  rw [show Region2.bA (V5 m ρ) c (ix2 (0 : Fin 1) k) = a6 m c (ix1 k) from bias_third m ρ c k,
    show Region2.hA (V5 m ρ) c (ix2 n k) * dvK m c n = _ from l2 m ρ c n k, Cert.ReferenceIdeal.RefDense.act2]

/-- The aggregation of stretch 3, scaled by the factor, is the reference's. -/
theorem l3 (c : Dev nD) (n : Fin NN) (j : Fin 3) :
    fv S1600000x3 (StableHlo.after (hostOps3 (F := Ideal)) (W6 m ρ c) (Proc.devRef .tc main_call0_v60)) (ix2 n j) * dvK m c n
      = val_main_v149 (F := Ideal) (a0 m c) (a1 m c) (a3 m c) (a4 m c) (a5 m c) (a6 m c) (a7 m c) (ix2 n j) := by
  rw [Cert.ReferenceIdeal.RefLayer.layer3]
  refine (congrArg (fun x : EReal => x * dvK m c n) (HostAgg.agg3 (W6 m ρ c) n j)).trans ?_
  rw [src_at6, dst_at6,
    show (fun (n : Fin NN) (j : Fin 3) => (W6 m ρ c (Proc.devRef .tc main_call0_v50) : FVec Ideal S1600000x3 .f32) (ix2 n j))
      = fun n j => val_main_v110 (F := Ideal) (a0 m c) (a1 m c) (a3 m c) (a4 m c) (a5 m c) (a6 m c) (a7 m c) (ix2 n j) * dvK m c n from
      funext fun n => funext fun j => hs_third m ρ c n j]
  exact agg_scale (SwK m c) (DwK m c) (fun n j => val_main_v110 (F := Ideal) (a0 m c) (a1 m c) (a3 m c) (a4 m c) (a5 m c) (a6 m c) (a7 m c) (ix2 n j)) (dvK m c)
    (dvK_real m c) n j

/-! ## The moved vertices -/

/-- After the fourth call, at the place of entry (n, j) in the 384-lane layout: the reference's moved node. -/
theorem moved_flat (c : Dev nD) (n : Fin NN) (j : Fin 3) :
    (W8 m ρ c (Proc.devRef .tc main_call0_v73) : FVec Ideal S13000x384 .f32) (ix2 (flatR n j) (flatL n j))
      = val_main_v153 (F := Ideal) (a0 m c) (a1 m c) (a3 m c) (a4 m c) (a5 m c) (a6 m c) (a7 m c) (a8 m c) (ix2 n j) := by
  have h : (W8 m ρ c (Proc.devRef .tc main_call0_v73) : FVec Ideal S13000x384 .f32) = _ :=
    (W8_arr m ρ c 4).trans (Region3.arr (V7 m ρ) c)
  rw [h, Cert.ReferenceIdeal.RefDense.moved]
  show Region3.xA (V7 m ρ) c (ix2 (flatR n j) (flatL n j))
      + Region3.dA (V7 m ρ) c (ix2 (flatR n j) (flatL n j)) * Region3.hA (V7 m ρ) c (ix2 (flatR n j) (flatL n j))
      + Region3.bA (V7 m ρ) c (ix2 (0 : Fin 1) (flatL n j)) = _
  have e1 : Region3.xA (V7 m ρ) c (ix2 (flatR n j) (flatL n j)) = val_main_v13 (F := Ideal) (a0 m c) (ix2 n j) :=
    (HostFlat.x70 (W6 m ρ c) n j).trans
      (congrFun (show (W6 m ρ c (Proc.devRef .tc main_call0_v25) : FVec Ideal S1600000x3 .f32) = val_main_v13 (F := Ideal) (a0 m c) from
        (u6_main_call0_v25 m ρ c).trans (w1_x m ρ c)) (ix2 n j))
  have e2 : Region3.dA (V7 m ρ) c (ix2 (flatR n j) (flatL n j)) = dvK m c n :=
    (HostFlat.d72 (W6 m ρ c) n j).trans
      (congrFun (show (W6 m ρ c (Proc.devRef .tc main_call0_v23) : FVec Ideal S1600000 .f32) = val_main_v25 (F := Ideal) (a1 m c) from
        (u6_main_call0_v23 m ρ c).trans (w1_fac m ρ c)) (ix1 n))
  have e3 : Region3.bA (V7 m ρ) c (ix2 (0 : Fin 1) (flatL n j)) = a8 m c (ix1 j) :=
    (HostFlat.b69 (W6 m ρ c) n j).trans
      (congrFun (show (W6 m ρ c (Proc.devRef .tc main_arg8) : FVec Ideal S3 .f32) = a8 m c from u6_main_arg8 m ρ c) (ix1 j))
  have e4 : Region3.hA (V7 m ρ) c (ix2 (flatR n j) (flatL n j)) = fv S1600000x3 (StableHlo.after (hostOps3 (F := Ideal)) (W6 m ρ c) (Proc.devRef .tc main_call0_v60)) (ix2 n j) :=
    HostFlat.h71 (W6 m ρ c) n j
  rw [e1, e2, e3, e4, mul_comm (dvK m c n), l3, add_assoc]

/-- Read back as a 1600000 × 3 table. -/
theorem moved_tab (c : Dev nD) (n : Fin NN) (j : Fin 3) :
    (StableHlo.after (hostOps4 (F := Ideal)) (W8 m ρ c) (Proc.devRef .tc main_call0_v76) : FVec Ideal S1600000x3 .f32) (ix2 n j)
      = val_main_v153 (F := Ideal) (a0 m c) (a1 m c) (a3 m c) (a4 m c) (a5 m c) (a6 m c) (a7 m c) (a8 m c) (ix2 n j) :=
  (HostFlat.v76 (W8 m ρ c) n j).trans (moved_flat m ρ c n j)

/-- Read back as the 16 × 100000 × 3 array: the reference's moved vertices. -/
theorem moved_arr (c : Dev nD) :
    (StableHlo.after (hostOps4 (F := Ideal)) (W8 m ρ c) (Proc.devRef .tc main_call0_v77) : FVec Ideal S16x100000x3 .f32) = val_main_v154 (F := Ideal) (a0 m c) (a1 m c) (a3 m c) (a4 m c) (a5 m c) (a6 m c) (a7 m c) (a8 m c) := by
  funext i
  obtain ⟨b, v, j, rfl⟩ : ∃ (b : Fin 16) (v : Fin VV) (j : Fin 3), i = ix3 b v j := ⟨i 0, i 1, i 2, eq_ix3 i⟩
  rw [HostFlat.v77 (W8 m ρ c) b v j, moved_tab, Cert.ReferenceIdeal.RefMid.v154_at]

/-! ## The midpoints -/

/-- After the fifth call, at the place of entry (b, e, j) in the 128-lane layout: the reference's midpoint. -/
theorem mid_flat (c : Dev nD) (b : Fin 16) (e : Fin EE) (j : Fin 3) :
    (W10 m ρ c (Proc.devRef .tc main_call0_v102) : FVec Ideal S114688x128 .f32) (ix2 (midR b e j) (midL b e j))
      = val_main_v164 (F := Ideal) (a0 m c) (a1 m c) (a3 m c) (a4 m c) (a5 m c) (a6 m c) (a7 m c) (a8 m c) (ix3 b e j) := by
  have h : (W10 m ρ c (Proc.devRef .tc main_call0_v102) : FVec Ideal S114688x128 .f32) = _ :=
    (W10_arr m ρ c 2).trans (Region4.arr (V9 m ρ) c)
  rw [h, Cert.ReferenceIdeal.RefMid.mid]
  show (Region4.aA (V9 m ρ) c (ix2 (midR b e j) (midL b e j)) + Region4.bA (V9 m ρ) c (ix2 (midR b e j) (midL b e j)))
      * Ideal.ofBits .f32 0x3F000000#32 = _
  have hw : HostMid.eW (W8 m ρ c) = a1 m c := u8_main_arg1 m ρ c
  have ea : Region4.aA (V9 m ρ) c (ix2 (midR b e j) (midL b e j))
      = val_main_v154 (F := Ideal) (a0 m c) (a1 m c) (a3 m c) (a4 m c) (a5 m c) (a6 m c) (a7 m c) (a8 m c) (ix3 b (rowV (wrapV (a1 m c (ix2 e (0 : Fin 2))))) j) := by
    refine (HostMid.a100 (W8 m ρ c) b e j).trans ?_
    rw [hw]
    exact congrFun (moved_arr m ρ c) _
  have eb : Region4.bA (V9 m ρ) c (ix2 (midR b e j) (midL b e j))
      = val_main_v154 (F := Ideal) (a0 m c) (a1 m c) (a3 m c) (a4 m c) (a5 m c) (a6 m c) (a7 m c) (a8 m c) (ix3 b (rowV (wrapV (a1 m c (ix2 e (1 : Fin 2))))) j) := by
    refine (HostMid.b101 (W8 m ρ c) b e j).trans ?_
    rw [hw]
    exact congrFun (moved_arr m ρ c) _
  rw [ea, eb, half_mul, Ideal.ofBits_zero_f32, zero_add]

/-! ## The results -/

/-- The first result is the reference's: the moved vertices with the midpoints below them. -/
theorem result0 (c : Dev nD) :
    (W11 m ρ c (Proc.devRef .tc main_v0_0) : FVec Ideal S16x400000x3 .f32) = val_main_v165 (F := Ideal) (a0 m c) (a1 m c) (a3 m c) (a4 m c) (a5 m c) (a6 m c) (a7 m c) (a8 m c) := by
  funext i
  obtain ⟨b, r, j, rfl⟩ : ∃ (b : Fin 16) (r : Fin 400000) (j : Fin 3), i = ix3 b r j := ⟨i 0, i 1, i 2, eq_ix3 i⟩
  have hr4 : r.val < 400000 := r.isLt
  by_cases hr : r.val < 100000
  · obtain ⟨v, rfl⟩ : ∃ v : Fin VV, r = lo v := ⟨⟨r.val, hr⟩, Fin.ext rfl⟩
    rw [Cert.ReferenceIdeal.RefMid.res_lo]
    show (StableHlo.after (hostOps5 (F := Ideal)) (W10 m ρ c) (Proc.devRef .tc main_v0_0) : FVec Ideal S16x400000x3 .f32) (ix3 b (lo v) j) = _
    rw [HostMid.out_lo (W10 m ρ c) b v j]
    exact congrFun (show (W10 m ρ c (Proc.devRef .tc main_call0_v77) : FVec Ideal S16x100000x3 .f32) = val_main_v154 (F := Ideal) (a0 m c) (a1 m c) (a3 m c) (a4 m c) (a5 m c) (a6 m c) (a7 m c) (a8 m c) from
      (s10_main_call0_v77 m ρ c).trans (moved_arr m ρ c)) (ix3 b v j)
  · obtain ⟨e, rfl⟩ : ∃ e : Fin EE, r = hi e :=
      ⟨⟨r.val - 100000, by show r.val - 100000 < 300000; omega⟩, Fin.ext (by show r.val = 100000 + (r.val - 100000); omega)⟩
    rw [Cert.ReferenceIdeal.RefMid.res_hi]
    show (StableHlo.after (hostOps5 (F := Ideal)) (W10 m ρ c) (Proc.devRef .tc main_v0_0) : FVec Ideal S16x400000x3 .f32) (ix3 b (hi e) j) = _
    rw [HostMid.out_hi (W10 m ρ c) b e j, mid_flat]

/-- The second result is the reference's: the faces broadcast over the meshes. -/
theorem result1 (c : Dev nD) :
    (W11 m ρ c (Proc.devRef .tc main_v0_1) : IVec S16x800000x3 32) = val_main_v167 (F := Ideal) (a2 m c) := by
  refine (HostMid.out_faces (W10 m ρ c)).trans ?_
  rw [show (W10 m ρ c (Proc.devRef .tc main_arg2) : IVec S800000x3 32) = a2 m c from u10_main_arg2 m ρ c]
  rfl

/-! ## The run -/

/-- Every weakly fair execution of the idealized kernel ends with the reference's two results, as functions of the
    kernel's own argument arrays, and the arguments as launched. -/
theorem run : θ_run defs (onTc (τ := τ) (main (F := Ideal))) ⟨m, fun _ => 0, ρ⟩ (fun r => ∀ c : Dev nD,
      r.2.mem ((c.tc : Thread nD τ).loc main_v0_0) = val_main_v165 (F := Ideal) (a0 m c) (a1 m c) (a3 m c) (a4 m c) (a5 m c) (a6 m c) (a7 m c) (a8 m c)
      ∧ r.2.mem ((c.tc : Thread nD τ).loc main_v0_1) = val_main_v167 (F := Ideal) (a2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (result0 m ρ c), (h c).2.1.trans (result1 m ρ c), (h c).2.2⟩)
    (GenRun.run_values m ρ)

end Cert.KernelIdeal.Chain

end
-- ==== Proof.lean ====
/-
  A three-layer graph convolution over a packed batch of 16 meshes moves every vertex and then puts a new vertex at the
  midpoint of every edge. The kernel and the reference are the same function of the argument arrays over the extended
  reals, index by index:

  • both build the packed edge words (with a self loop per node), count the edges landing on every node and take the
    factor d = count^(-1/2) (zero where the count is zero) by the same operations;
  • in every layer the reference weights the message along edge e by d[source e] · d[destination e] and sums the
    messages landing on node n; the kernel scales row s of the layer's product by d[s] before the edges carry it and the
    summed row n by d[n] after. An edge landing on n has destination n, and d[n] is a nonnegative real, by which a sum of
    extended reals may be multiplied through term by term: the two agree, with no finiteness of the messages needed;
  • bias, activation and the next product are entry by entry the same; the last layer's x + (aggregate + b) is the
    kernel's (x + d · aggregate) + b by associativity; and the midpoint (0 + p + q) / 2 is the kernel's (p + q) · ½.

  The kernel's five pallas_calls tile their arrays exactly, so each leaves one closed-form array (Region0 … Region4);
  the host stretches between them are read at an index (HostAgg, HostFlat, HostMid, Topo), the reference one operation
  at a time (RefLayer, RefDense, RefMid over the copy of its read module); Chain walks the kernel's run from the launch
  to its results and meets the reference's stages. The three frames are the generated ones; the reference's is its run
  with the results dropped. Nothing was rewritten by the idealization, so there is nothing to preserve.
-/
import proofs.«411275_j68839735821120_3_alg».proof.Defs
import proofs.«411275_j68839735821120_3_alg».proof.Proof.Gen.Kernel
import proofs.«411275_j68839735821120_3_alg».proof.Proof.Gen.Kernel.Skeleton
import proofs.«411275_j68839735821120_3_alg».proof.Proof.Gen.Kernel.Launch
import proofs.«411275_j68839735821120_3_alg».proof.Proof.Gen.Kernel.Points
import proofs.«411275_j68839735821120_3_alg».proof.Proof.Gen.Kernel.Frame
import proofs.«411275_j68839735821120_3_alg».proof.Proof.Gen.KernelIdeal
import proofs.«411275_j68839735821120_3_alg».proof.Proof.Gen.KernelIdeal.Skeleton
import proofs.«411275_j68839735821120_3_alg».proof.Proof.Gen.KernelIdeal.Launch
import proofs.«411275_j68839735821120_3_alg».proof.Proof.Gen.KernelIdeal.Points
import proofs.«411275_j68839735821120_3_alg».proof.Proof.Gen.KernelIdeal.Frame
import proofs.«411275_j68839735821120_3_alg».proof.Proof.Gen.ReferenceIdeal
import proofs.«411275_j68839735821120_3_alg».proof.Proof.Gen.Pre_finite_inputs
import proofs.«411275_j68839735821120_3_alg».proof.Proof.RefRun
import proofs.«411275_j68839735821120_3_alg».proof.Proof.Chain
import Idealize.ShloMosaic.Adequacy
import Idealize.ShloMosaic.Init

noncomputable section

namespace Cert.Proof

open Idealize.ShloMosaic Idealize.SL.Sem

/-- The word-level kernel runs and keeps its arguments: the generated frame. -/
theorem frame_k : Cert.frame_Kernel := fun m ρ _ => Cert.Kernel.Gen.frame m ρ

/-- The idealized kernel runs and keeps its arguments: the generated frame. -/
theorem frame_ki : Cert.frame_KernelIdeal := fun m ρ _ => Cert.KernelIdeal.Gen.frame m ρ

/-- The idealized reference runs and keeps its arguments: its run, the two results dropped. -/
theorem frame_ri : Cert.frame_ReferenceIdeal := fun m ρ _ =>
  (θ_run Cert.ReferenceIdeal.defs _ _).mono (fun _ h c => (h c).2.2)
    (Cert.ReferenceIdeal.ValueP.run (F := Ideal) m ρ)

/-- The idealization rewrote no operation. -/
theorem preserves : Cert.preserves_Kernel_KernelIdeal := trivial

/-- Both programs end with the reference's stage functions of the kernel's argument arrays: the kernel by the walk
    along its run, the reference by its own run, its arguments being the kernel's. -/
theorem algebraic : Cert.algebraic_KernelIdeal_ReferenceIdeal := by
  intro m ρ m' ρ' _ hagree
  refine ⟨fun c => Cert.ReferenceIdeal.ReadP.val_main_v165 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    fun c => Cert.ReferenceIdeal.ReadP.val_main_v167 (F := Ideal) (m ((c.tc : Thread Cert.KernelIdeal.nD Cert.KernelIdeal.τ).loc Cert.KernelIdeal.main_arg2)),
    Cert.KernelIdeal.Chain.run m ρ, ?_⟩
  refine (θ_run Cert.ReferenceIdeal.defs _ _).mono (fun _ h c => ⟨?_, ?_, (h c).2.2⟩)
    (Cert.ReferenceIdeal.ValueP.run (F := Ideal) m' ρ')
  · obtain ⟨h0, h1, h2, h3, h4, h5, h6, h7, h8⟩ := hagree c
    rw [(h c).1, h0, h1, h3, h4, h5, h6, h7, h8]
  · obtain ⟨h0, h1, h2, h3, h4, h5, h6, h7, h8⟩ := hagree c
    rw [(h c).2.1, h2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
